-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S640x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S10000 : Shape := ⟨1, ![10000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_
  bcast_S_S10000 : S_.BroadcastsInDim S10000 (![] : Fin 0 → Fin S10000.rank)
  reducesTo_S10000_S_d0 : S10000.ReducesTo [0] S_

variable [Facts]

def fn_part2 {F : FTy → Type} [FloatOps F] (main_arg1 : IVec S2x320000 32) (main_arg2 : IVec S10000 32) (main_v33 : IVec S_ 1) : IVec S_ 1 :=
  let main_c_12 : IVec S_ 32 := constantI S_ 32 0#32
  let main_v34 : IVec S2x320000 32 := broadcastInDim S2x320000 ![] bcast_S_S2x320000 main_c_12
  let main_v35 : IVec S2x320000 1 := cmpi .sge main_arg1 main_v34
  let main_c_13 : IVec S_ 32 := constantI S_ 32 10000#32
  let main_v36 : IVec S2x320000 32 := broadcastInDim S2x320000 ![] bcast_S_S2x320000 main_c_13
  let main_v37 : IVec S2x320000 1 := cmpi .slt main_arg1 main_v36
  let main_v38 : IVec S2x320000 1 := andi main_v35 main_v37
  let main_c_14 : IVec S_ 1 := constantI S_ 1 1#1
  let main_v39 : IVec S_ 1 := (fun x v => Host.reduce IntOp.andi x v reducesTo_S2x320000_S_d0_1 h_S_) main_v38 main_c_14
  let main_v40 : IVec S_ 1 := andi main_v33 main_v39
  let main_c_15 : IVec S_ 32 := constantI S_ 32 0#32
  let main_v41 : IVec S10000 32 := broadcastInDim S10000 ![] bcast_S_S10000 main_c_15
  let main_v42 : IVec S10000 1 := cmpi .sge main_arg2 main_v41
  let main_c_16 : IVec S_ 32 := constantI S_ 32 512#32
  let main_v43 : IVec S10000 32 := broadcastInDim S10000 ![] bcast_S_S10000 main_c_16
  let main_v44 : IVec S10000 1 := cmpi .slt main_arg2 main_v43
  let main_v45 : IVec S10000 1 := andi main_v42 main_v44
  let main_c_17 : IVec S_ 1 := constantI S_ 1 1#1
  let main_v46 : IVec S_ 1 := (fun x v => Host.reduce IntOp.andi x v reducesTo_S10000_S_d0 h_S_) main_v45 main_c_17
  let main_v47 : IVec S_ 1 := andi main_v40 main_v46
  main_v47

def fn_part1 {F : FTy → Type} [FloatOps F] (main_arg1 : IVec S2x320000 32) (main_arg2 : IVec S10000 32) (main_arg6 : FVec F S128 .f32) (main_arg7 : FVec F S128x1 .f32) (main_arg8 : FVec F S1 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg2 main_v33

def fn {F : FTy → Type} [FloatOps F] (main_arg0 : FVec F S10000x128 .f32) (main_arg1 : IVec S2x320000 32) (main_arg2 : IVec S10000 32) (main_arg3 : FVec F S256x512 .f32) (main_arg4 : FVec F S512 .f32) (main_arg5 : FVec F S512x128 .f32) (main_arg6 : FVec F S128 .f32) (main_arg7 : FVec F S128x1 .f32) (main_arg8 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S256x512 .f32 := Host.absf main_arg3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg5
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg1 main_arg2 main_arg6 main_arg7 main_arg8 main_v13 main_v16
-- ==== Kernel.lean ====
abbrev S10000x128 : Shape := ⟨2, ![10000, 128]⟩
abbrev S2x320000 : Shape := ⟨2, ![2, 320000]⟩
abbrev S10000 : Shape := ⟨1, ![10000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x1 : Shape := ⟨2, ![1, 1]⟩
abbrev S320000x128 : Shape := ⟨2, ![320000, 128]⟩
abbrev S320000x256 : Shape := ⟨2, ![320000, 256]⟩
abbrev S1x512 : Shape := ⟨2, ![1, 512]⟩
abbrev S1x128 : Shape := ⟨2, ![1, 128]⟩
abbrev S2x512x256 : Shape := ⟨3, ![2, 512, 256]⟩
abbrev S2x512x512 : Shape := ⟨3, ![2, 512, 512]⟩
abbrev S2x512x128 : Shape := ⟨3, ![2, 512, 128]⟩
abbrev S640x256 : Shape := ⟨2, ![640, 256]⟩
abbrev S640x1 : Shape := ⟨2, ![640, 1]⟩
abbrev S1x512x256 : Shape := ⟨3, ![1, 512, 256]⟩
abbrev S1x512x512 : Shape := ⟨3, ![1, 512, 512]⟩
abbrev S1x512x128 : Shape := ⟨3, ![1, 512, 128]⟩
abbrev S512x256 : Shape := ⟨2, ![512, 256]⟩
abbrev S512x512 : Shape := ⟨2, ![512, 512]⟩
abbrev S640 : Shape := ⟨1, ![640]⟩
abbrev S640x512 : Shape := ⟨2, ![640, 512]⟩
abbrev S640x128 : Shape := ⟨2, ![640, 128]⟩
abbrev S512x1 : Shape := ⟨2, ![512, 1]⟩

abbrev nBuf : Space → Nat
  | .hbm => 114
  | .vmem => 40
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S256x512, .f32⟩
  | .hbm, ⟨4, _⟩ => ⟨S512, .f32⟩
  | .hbm, ⟨5, _⟩ => ⟨S512x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S1, .i32⟩
  | .hbm, ⟨22, _⟩ => ⟨S_, .i32⟩
  | .hbm, ⟨23, _⟩ => ⟨S320000x1, .i32⟩
  | .hbm, ⟨24, _⟩ => ⟨S320000x1, .i1⟩
  | .hbm, ⟨25, _⟩ => ⟨S1x1, .i32⟩
  | .hbm, ⟨26, _⟩ => ⟨S320000x1, .i32⟩
  | .hbm, ⟨27, _⟩ => ⟨S320000x1, .i1⟩
  | .hbm, ⟨28, _⟩ => ⟨S320000x1, .i1⟩
  | .hbm, ⟨29, _⟩ => ⟨S_, .i1⟩
  | .hbm, ⟨30, _⟩ => ⟨S320000, .i1⟩
  | .hbm, ⟨31, _⟩ => ⟨S320000, .i32⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S1, .i32⟩
  | .hbm, ⟨44, _⟩ => ⟨S_, .i32⟩
  | .hbm, ⟨45, _⟩ => ⟨S320000x1, .i32⟩
  | .hbm, ⟨46, _⟩ => ⟨S320000x1, .i1⟩
  | .hbm, ⟨47, _⟩ => ⟨S1x1, .i32⟩
  | .hbm, ⟨48, _⟩ => ⟨S320000x1, .i32⟩
  | .hbm, ⟨49, _⟩ => ⟨S320000x1, .i1⟩
  | .hbm, ⟨50, _⟩ => ⟨S320000x1, .i1⟩
  | .hbm, ⟨51, _⟩ => ⟨S_, .i1⟩
  | .hbm, ⟨52, _⟩ => ⟨S320000, .i1⟩
  | .hbm, ⟨53, _⟩ => ⟨S320000x128, .f32⟩
  | .hbm, ⟨54, _⟩ => ⟨S320000x128, .i1⟩
  | .hbm, ⟨55, _⟩ => ⟨S_, .f32⟩
  | .hbm, ⟨56, _⟩ => ⟨S320000x128, .f32⟩
  | .hbm, ⟨57, _⟩ => ⟨S320000x128, .f32⟩
  | .hbm, ⟨58, _⟩ => ⟨S_, .i32⟩
  | .hbm, ⟨59, _⟩ => ⟨S320000, .i32⟩
  | .hbm, ⟨60, _⟩ => ⟨S320000, .i1⟩
  | .hbm, ⟨61, _⟩ => ⟨S_, .i32⟩
  | .hbm, ⟨62, _⟩ => ⟨S320000, .i32⟩
  | .hbm, ⟨63, _⟩ => ⟨S320000, .i32⟩
  | .hbm, ⟨64, _⟩ => ⟨S320000, .i32⟩
  | .hbm, ⟨65, _⟩ => ⟨S320000x1, .i32⟩
  | .hbm, ⟨66, _⟩ => ⟨S1, .i32⟩
  | .hbm, ⟨67, _⟩ => ⟨S_, .i32⟩
  | .hbm, ⟨68, _⟩ => ⟨S320000x1, .i32⟩
  | .hbm, ⟨69, _⟩ => ⟨S320000x1, .i1⟩
  | .hbm, ⟨70, _⟩ => ⟨S1x1, .i32⟩
  | .hbm, ⟨71, _⟩ => ⟨S320000x1, .i32⟩
  | .hbm, ⟨72, _⟩ => ⟨S320000x1, .i1⟩
  | .hbm, ⟨73, _⟩ => ⟨S320000x1, .i1⟩
  | .hbm, ⟨74, _⟩ => ⟨S_, .i1⟩
  | .hbm, ⟨75, _⟩ => ⟨S320000, .i1⟩
  | .hbm, ⟨76, _⟩ => ⟨S320000x128, .f32⟩
  | .hbm, ⟨77, _⟩ => ⟨S320000x128, .i1⟩
  | .hbm, ⟨78, _⟩ => ⟨S_, .f32⟩
  | .hbm, ⟨79, _⟩ => ⟨S320000x128, .f32⟩
  | .hbm, ⟨80, _⟩ => ⟨S320000x128, .f32⟩
  | .hbm, ⟨81, _⟩ => ⟨S320000x256, .f32⟩
  | .hbm, ⟨82, _⟩ => ⟨S320000x256, .bf16⟩
  | .hbm, ⟨83, _⟩ => ⟨S320000x1, .i32⟩
  | .hbm, ⟨84, _⟩ => ⟨S256x512, .bf16⟩
  | .hbm, ⟨85, _⟩ => ⟨S512x128, .bf16⟩
  | .hbm, ⟨86, _⟩ => ⟨S128x1, .bf16⟩
  | .hbm, ⟨87, _⟩ => ⟨S1x512, .f32⟩
  | .hbm, ⟨88, _⟩ => ⟨S1x128, .f32⟩
  | .hbm, ⟨89, _⟩ => ⟨S1x1, .f32⟩
  | .hbm, ⟨90, _⟩ => ⟨S2x512x256, .f32⟩
  | .hbm, ⟨91, _⟩ => ⟨S2x512x512, .f32⟩
  | .hbm, ⟨92, _⟩ => ⟨S2x512x128, .f32⟩
  | .hbm, ⟨93, _⟩ => ⟨S_, .f32⟩
  | .hbm, ⟨94, _⟩ => ⟨S512x256, .f32⟩
  | .hbm, ⟨95, _⟩ => ⟨S_, .f32⟩
  | .hbm, ⟨96, _⟩ => ⟨S512x512, .f32⟩
  | .hbm, ⟨97, _⟩ => ⟨S_, .f32⟩
  | .hbm, ⟨98, _⟩ => ⟨S512x128, .f32⟩
  | .hbm, ⟨99, _⟩ => ⟨S512x512, .f32⟩
  | .hbm, ⟨100, _⟩ => ⟨S512x1, .f32⟩
  | .hbm, ⟨101, _⟩ => ⟨S1x512, .f32⟩
  | .hbm, ⟨102, _⟩ => ⟨S512x512, .f32⟩
  | .hbm, ⟨103, _⟩ => ⟨S512x512, .f32⟩
  | .hbm, ⟨104, _⟩ => ⟨S512x512, .f32⟩
  | .hbm, ⟨105, _⟩ => ⟨S512x512, .f32⟩
  | .hbm, ⟨106, _⟩ => ⟨S320000x128, .bf16⟩
  | .hbm, ⟨107, _⟩ => ⟨S2x512x128, .f32⟩
  | .hbm, ⟨108, _⟩ => ⟨S2x512x128, .f32⟩
  | .hbm, ⟨109, _⟩ => ⟨S_, .f32⟩
  | .hbm, ⟨110, _⟩ => ⟨S512x128, .f32⟩
  | .hbm, ⟨111, _⟩ => ⟨S_, .f32⟩
  | .hbm, ⟨112, _⟩ => ⟨S512x128, .f32⟩
  | .hbm, ⟨113, _⟩ => ⟨S320000x1, .f32⟩
  | .local _ .vmem, ⟨0, _⟩ => ⟨S640x256, .bf16⟩
  | .local _ .vmem, ⟨1, _⟩ => ⟨S640x256, .bf16⟩
  | .local _ .vmem, ⟨2, _⟩ => ⟨S256x512, .bf16⟩
  | .local _ .vmem, ⟨3, _⟩ => ⟨S1x512, .f32⟩
  | .local _ .vmem, ⟨4, _⟩ => ⟨S640x1, .i32⟩
  | .local _ .vmem, ⟨5, _⟩ => ⟨S640x1, .i32⟩
  | .local _ .vmem, ⟨6, _⟩ => ⟨S1x512x256, .f32⟩
  | .local _ .vmem, ⟨7, _⟩ => ⟨S1x512x256, .f32⟩
  | .local _ .vmem, ⟨8, _⟩ => ⟨S1x512x512, .f32⟩
  | .local _ .vmem, ⟨9, _⟩ => ⟨S1x512x512, .f32⟩
  | .local _ .vmem, ⟨10, _⟩ => ⟨S1x512x128, .f32⟩
  | .local _ .vmem, ⟨11, _⟩ => ⟨S1x512x128, .f32⟩
  | .local _ .vmem, ⟨12, _⟩ => ⟨S640x256, .bf16⟩
  | .local _ .vmem, ⟨13, _⟩ => ⟨S640x256, .bf16⟩
  | .local _ .vmem, ⟨14, _⟩ => ⟨S256x512, .bf16⟩
  | .local _ .vmem, ⟨15, _⟩ => ⟨S1x512, .f32⟩
  | .local _ .vmem, ⟨16, _⟩ => ⟨S512x128, .bf16⟩
  | .local _ .vmem, ⟨17, _⟩ => ⟨S1x128, .f32⟩
  | .local _ .vmem, ⟨18, _⟩ => ⟨S640x1, .i32⟩
  | .local _ .vmem, ⟨19, _⟩ => ⟨S640x1, .i32⟩
  | .local _ .vmem, ⟨20, _⟩ => ⟨S512x512, .f32⟩
  | .local _ .vmem, ⟨21, _⟩ => ⟨S512x512, .f32⟩
  | .local _ .vmem, ⟨22, _⟩ => ⟨S512x128, .f32⟩
  | .local _ .vmem, ⟨23, _⟩ => ⟨S640x128, .bf16⟩
  | .local _ .vmem, ⟨24, _⟩ => ⟨S640x128, .bf16⟩
  | .local _ .vmem, ⟨25, _⟩ => ⟨S1x512x128, .f32⟩
  | .local _ .vmem, ⟨26, _⟩ => ⟨S1x512x128, .f32⟩
  | .local _ .vmem, ⟨27, _⟩ => ⟨S1x512x128, .f32⟩
  | .local _ .vmem, ⟨28, _⟩ => ⟨S1x512x128, .f32⟩
  | .local _ .vmem, ⟨29, _⟩ => ⟨S640x128, .bf16⟩
  | .local _ .vmem, ⟨30, _⟩ => ⟨S640x128, .bf16⟩
  | .local _ .vmem, ⟨31, _⟩ => ⟨S640x1, .i32⟩
  | .local _ .vmem, ⟨32, _⟩ => ⟨S640x1, .i32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S128x1, .bf16⟩
  | .local _ .vmem, ⟨37, _⟩ => ⟨S1x1, .f32⟩
  | .local _ .vmem, ⟨38, _⟩ => ⟨S640x1, .f32⟩
  | .local _ .vmem, ⟨39, _⟩ => ⟨S640x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_c_4 : Ref sig .tc := ⟨.hbm, 32, rfl⟩
abbrev main_call0_v14 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v6 : Ref sig .tc := ⟨.hbm, 80, rfl⟩
abbrev main_v7 : Ref sig .tc := ⟨.hbm, 81, rfl⟩
abbrev main_v8 : Ref sig .tc := ⟨.hbm, 82, rfl⟩
abbrev main_v9 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_v16_0 : Ref sig .tc := ⟨.hbm, 90, rfl⟩
abbrev main_v16_1 : Ref sig .tc := ⟨.hbm, 91, rfl⟩
abbrev main_v16_2 : Ref sig .tc := ⟨.hbm, 92, rfl⟩
abbrev main_cst : Ref sig .tc := ⟨.hbm, 93, rfl⟩
abbrev main_v17 : Ref sig .tc := ⟨.hbm, 94, rfl⟩
abbrev main_cst_0 : Ref sig .tc := ⟨.hbm, 95, rfl⟩
abbrev main_v18 : Ref sig .tc := ⟨.hbm, 96, rfl⟩
abbrev main_cst_1 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27_0 : Ref sig .tc := ⟨.hbm, 106, rfl⟩
abbrev main_v27_1 : Ref sig .tc := ⟨.hbm, 107, rfl⟩
abbrev main_v27_2 : Ref sig .tc := ⟨.hbm, 108, rfl⟩
abbrev main_cst_2 : Ref sig .tc := ⟨.hbm, 109, rfl⟩
abbrev main_v28 : Ref sig .tc := ⟨.hbm, 110, rfl⟩
abbrev main_cst_3 : Ref sig .tc := ⟨.hbm, 111, rfl⟩
abbrev main_v29 : Ref sig .tc := ⟨.hbm, 112, rfl⟩
abbrev main_v30 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_stg11_0 : Ref sig .tc := ⟨.vmem, 27, rfl⟩
abbrev cc1_stg11_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨2, ![2, 250], ![false, false]⟩

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S640x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 250], ![false, false]⟩

def cc1_transform_0 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S640x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S640x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S640x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1x512x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev grid2 : Pipeline.Grid := ⟨1, ![500], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S640x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S640x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S640x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  concatenates_S320000x128_S320000x128_S320000x256_d1 : Shape.Concatenates [S320000x128, S320000x128] S320000x256 1
  bitsLt_bf16_f32 : FTy.bits .bf16 < FTy.bits .f32
  shapeCasts_S320000_S320000x1 : S320000.ShapeCasts S320000x1
  shapeCasts_S512_S1x512 : S512.ShapeCasts S1x512
  shapeCasts_S128_S1x128 : S128.ShapeCasts S1x128
  shapeCasts_S1_S1x1 : S1.ShapeCasts S1x1
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  inb_S640x1_S640x1_0_0 : ∀ a, (![0, 0] : Fin 2 → Nat) a + S640x1.size a ≤ S640x1.size a
  h_S640x1 : 0 < S640x1.numel
  shapeCasts_S640x1_S640x1 : S640x1.ShapeCasts S640x1
  shapeCasts_S640x1_S640 : S640x1.ShapeCasts S640
  inb_S640x256_S640x256_0_0 : ∀ a, (![0, 0] : Fin 2 → Nat) a + S640x256.size a ≤ S640x256.size a
  h_S640x256 : 0 < S640x256.numel
  shapeCasts_S640x256_S640x256 : S640x256.ShapeCasts S640x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S640x512 : S1x512.Broadcasts S640x512
  iota_S1x512_d1_w32 : S1x512.Iotas .tc 32 [1]
  shapeCasts_S640_S640x1 : S640.ShapeCasts S640x1
  broadcasts_S640x1_S640x512 : S640x1.Broadcasts S640x512
  natLt_1_32 : 1 < 32
  reducesTo_S2x512x256_S512x256_d0 : S2x512x256.ReducesTo [0] S512x256
  reducesTo_S2x512x512_S512x512_d0 : S2x512x512.ReducesTo [0] S512x512
  reducesTo_S2x512x128_S512x128_d0 : S2x512x128.ReducesTo [0] S512x128
  slices_S512x128_S512x1_0_0 : S512x128.Slices ![0, 0] S512x1
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  concatenates_S640x128_S640x128_S640x128_S640x128_S640x512_d1 : Shape.Concatenates [S640x128, S640x128, S640x128, S640x128] S640x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S640x128 : S1x128.Broadcasts S640x128
  inb_S640x128_S640x128_0_0 : ∀ a, (![0, 0] : Fin 2 → Nat) a + S640x128.size a ≤ S640x128.size a
  h_S640x128 : 0 < S640x128.numel
  packedbf16_S640x128_S640x128_0_0 : (Rect.unit (s := S640x128) ![0, 0] S640x128.size inb_S640x128_S640x128_0_0).PackedRows (EltTy.packing .bf16)
  shapeCasts_S640x128_S640x128 : S640x128.ShapeCasts S640x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S640x1 : S1x1.Broadcasts S640x1
  gather_S10000_S320000x1_S320000_n_0_n_n_0_1_1_wf : GatherDims.WF S10000 S320000x1 S320000 [] [0] [] [0] [] 1 ![1]
  gather_S10000x128_S320000x1_S320000x128_1_0_n_n_0_1_1128_wf : GatherDims.WF S10000x128 S320000x1 S320000x128 [1] [0] [] [0] [] 1 ![1, 128]
  dot_S640x256_S256x512_S640x512_1_0_0_1_n_n_wf : DotDims.WF S640x256 S256x512 S640x512 [1] [0] [0] [1] [] []
  dot_S640x512_S640x256_S512x256_0_0_1_1_n_n_wf : DotDims.WF S640x512 S640x256 S512x256 [0] [0] [1] [1] [] []
  dot_S640x512_S640x512_S512x512_0_0_1_1_n_n_wf : DotDims.WF S640x512 S640x512 S512x512 [0] [0] [1] [1] [] []
  dot_S640x512_S640x128_S512x128_0_0_1_1_n_n_wf : DotDims.WF S640x512 S640x128 S512x128 [0] [0] [1] [1] [] []
  dot_S512x256_S256x512_S512x512_1_0_0_1_n_n_wf : DotDims.WF S512x256 S256x512 S512x512 [1] [0] [0] [1] [] []
  dot_S640x512_S512x128_S640x128_1_0_0_1_n_n_wf : DotDims.WF S640x512 S512x128 S640x128 [1] [0] [0] [1] [] []
  dot_S640x512_S512x512_S640x512_1_0_0_1_n_n_wf : DotDims.WF S640x512 S512x512 S640x512 [1] [0] [0] [1] [] []
  dot_S640x128_S128x1_S640x1_1_0_0_1_n_n_wf : DotDims.WF S640x128 S128x1 S640x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x256.size a ≤ S320000x256.size a
  hwx0_0 : ∀ i : grid0.Coords, EltTy.bits .bf16 = 32 ∨ (Rect.block (s := S320000x256) S640x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x1.size a ≤ S320000x1.size a
  hwx0_3 : ∀ i : grid0.Coords, EltTy.bits .i32 = 32 ∨ (Rect.block (s := S320000x1) S640x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S2x512x256.size a
  hwx0_4 : ∀ i : grid0.Coords, EltTy.bits .f32 = 32 ∨ (Rect.block (s := S2x512x256) S1x512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S2x512x512.size a
  hwx0_5 : ∀ i : grid0.Coords, EltTy.bits .f32 = 32 ∨ (Rect.block (s := S2x512x512) S1x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x128.size a ≤ S2x512x128.size a
  hwx0_6 : ∀ i : grid0.Coords, EltTy.bits .f32 = 32 ∨ (Rect.block (s := S2x512x128) S1x512x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x256.size a ≤ S320000x256.size a
  hwx1_0 : ∀ i : grid1.Coords, EltTy.bits .bf16 = 32 ∨ (Rect.block (s := S320000x256) S640x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .bf16 = 32 ∨ (Rect.block (s := S256x512) S256x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .bf16 = 32 ∨ (Rect.block (s := S512x128) S512x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S640x1.size a ≤ S320000x1.size a
  hwx1_5 : ∀ i : grid1.Coords, EltTy.bits .i32 = 32 ∨ (Rect.block (s := S320000x1) S640x1.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .f32 = 32 ∨ (Rect.block (s := S512x512) S512x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .f32 = 32 ∨ (Rect.block (s := S512x512) S512x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S512x128.size a
  hwx1_8 : ∀ i : grid1.Coords, EltTy.bits .f32 = 32 ∨ (Rect.block (s := S512x128) S512x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S640x128.size a ≤ S320000x128.size a
  hwx1_9 : ∀ i : grid1.Coords, EltTy.bits .bf16 = 32 ∨ (Rect.block (s := S320000x128) S640x128.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x512x128.size a ≤ S2x512x128.size a
  hwx1_10 : ∀ i : grid1.Coords, EltTy.bits .f32 = 32 ∨ (Rect.block (s := S2x512x128) S1x512x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x512x128.size a ≤ S2x512x128.size a
  hwx1_11 : ∀ i : grid1.Coords, EltTy.bits .f32 = 32 ∨ (Rect.block (s := S2x512x128) S1x512x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S640x128.size a ≤ S320000x128.size a
  hwx2_0 : ∀ i : grid2.Coords, EltTy.bits .bf16 = 32 ∨ (Rect.block (s := S320000x128) S640x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S640x1.size a ≤ S320000x1.size a
  hwx2_1 : ∀ i : grid2.Coords, EltTy.bits .i32 = 32 ∨ (Rect.block (s := S320000x1) S640x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S512x128.size a
  hwx2_2 : ∀ i : grid2.Coords, EltTy.bits .f32 = 32 ∨ (Rect.block (s := S512x128) S512x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .f32 = 32 ∨ (Rect.block (s := S512x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S512x128.size a
  hwx2_4 : ∀ i : grid2.Coords, EltTy.bits .f32 = 32 ∨ (Rect.block (s := S512x128) S512x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .bf16 = 32 ∨ (Rect.block (s := S128x1) S128x1.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S640x1.size a ≤ S320000x1.size a
  hwx2_7 : ∀ i : grid2.Coords, EltTy.bits .f32 = 32 ∨ (Rect.block (s := S320000x1) S640x1.size (cc2_transform_7 i) (hinb2_7 i)).WholeWords (EltTy.packing .f32)

variable [Facts₀]

def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S640x256_S256x512_S640x512_1_0_0_1_n_n : DotDims S640x256 S256x512 S640x512 where
  lhsContracting := [1]
  rhsContracting := [0]
  lhsNonContracting := [0]
  rhsNonContracting := [1]
  lhsBatch := []
  rhsBatch := []
  wf := dot_S640x256_S256x512_S640x512_1_0_0_1_n_n_wf
def dot_S640x512_S640x256_S512x256_0_0_1_1_n_n : DotDims S640x512 S640x256 S512x256 where
  lhsContracting := [0]
  rhsContracting := [0]
  lhsNonContracting := [1]
  rhsNonContracting := [1]
  lhsBatch := []
  rhsBatch := []
  wf := dot_S640x512_S640x256_S512x256_0_0_1_1_n_n_wf
def dot_S640x512_S640x512_S512x512_0_0_1_1_n_n : DotDims S640x512 S640x512 S512x512 where
  lhsContracting := [0]
  rhsContracting := [0]
  lhsNonContracting := [1]
  rhsNonContracting := [1]
  lhsBatch := []
  rhsBatch := []
  wf := dot_S640x512_S640x512_S512x512_0_0_1_1_n_n_wf
def dot_S640x512_S640x128_S512x128_0_0_1_1_n_n : DotDims S640x512 S640x128 S512x128 where
  lhsContracting := [0]
  rhsContracting := [0]
  lhsNonContracting := [1]
  rhsNonContracting := [1]
  lhsBatch := []
  rhsBatch := []
  wf := dot_S640x512_S640x128_S512x128_0_0_1_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S640x512_S512x128_S640x128_1_0_0_1_n_n : DotDims S640x512 S512x128 S640x128 where
  lhsContracting := [1]
  rhsContracting := [0]
  lhsNonContracting := [0]
  rhsNonContracting := [1]
  lhsBatch := []
  rhsBatch := []
  wf := dot_S640x512_S512x128_S640x128_1_0_0_1_n_n_wf
def dot_S640x512_S512x512_S640x512_1_0_0_1_n_n : DotDims S640x512 S512x512 S640x512 where
  lhsContracting := [1]
  rhsContracting := [0]
  lhsNonContracting := [0]
  rhsNonContracting := [1]
  lhsBatch := []
  rhsBatch := []
  wf := dot_S640x512_S512x512_S640x512_1_0_0_1_n_n_wf
def dot_S640x128_S128x1_S640x1_1_0_0_1_n_n : DotDims S640x128 S128x1 S640x1 where
  lhsContracting := [1]
  rhsContracting := [0]
  lhsNonContracting := [0]
  rhsNonContracting := [1]
  lhsBatch := []
  rhsBatch := []
  wf := dot_S640x128_S128x1_S640x1_1_0_0_1_n_n_wf

abbrev win0_0 : Pipeline.Window sig grid0 :=
  Pipeline.Window.ofSpec (Memref.whole main_v8) S640x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S640x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1x512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_2) S1x512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S640x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S640x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S512x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27_0) S640x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v27_1) S1x512x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v27_2) S1x512x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v27_0) S640x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S640x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S512x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S512x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S512x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v30) S640x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000 : Shape := ⟨1, ![10000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S320000x256 : Shape := ⟨2, ![320000, 256]⟩
abbrev S320000x512 : Shape := ⟨2, ![320000, 512]⟩
abbrev S1x512 : Shape := ⟨2, ![1, 512]⟩
abbrev S512x1 : Shape := ⟨2, ![512, 1]⟩
abbrev S512x512 : Shape := ⟨2, ![512, 512]⟩
abbrev S1x128 : Shape := ⟨2, ![1, 128]⟩
abbrev S1x1 : Shape := ⟨2, ![1, 1]⟩

abbrev nBuf : Space → Nat
  | .hbm => 167
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S256x512, .f32⟩
  | 4 => ⟨S512, .f32⟩
  | 5 => ⟨S512x128, .f32⟩
  | 6 => ⟨S128, .f32⟩
  | 7 => ⟨S128x1, .f32⟩
  | 8 => ⟨S1, .f32⟩
  | 9 => ⟨S1x320000, .i32⟩
  | 10 => ⟨S320000, .i32⟩
  | 11 => ⟨S1x320000, .i32⟩
  | 12 => ⟨S320000, .i32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S320000x128, .f32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x128, .f32⟩
  | 31 => ⟨S320000x256, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000, .i32⟩
  | 41 => ⟨S320000x512, .f32⟩
  | 42 => ⟨S1x512, .f32⟩
  | 43 => ⟨S320000x512, .f32⟩
  | 44 => ⟨S320000x512, .f32⟩
  | 45 => ⟨S_, .f32⟩
  | 46 => ⟨S320000x1, .f32⟩
  | 47 => ⟨S_, .f32⟩
  | 48 => ⟨S512x1, .f32⟩
  | 49 => ⟨S320000x1, .i32⟩
  | 50 => ⟨S512x1, .f32⟩
  | 51 => ⟨S_, .f32⟩
  | 52 => ⟨S_, .f32⟩
  | 53 => ⟨S512x1, .f32⟩
  | 54 => ⟨S512x1, .f32⟩
  | 55 => ⟨S_, .f32⟩
  | 56 => ⟨S512x512, .f32⟩
  | 57 => ⟨S320000x1, .i32⟩
  | 58 => ⟨S512x512, .f32⟩
  | 59 => ⟨S512x512, .f32⟩
  | 60 => ⟨S512x512, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x512, .f32⟩
  | 70 => ⟨S320000x512, .f32⟩
  | 71 => ⟨S_, .f32⟩
  | 72 => ⟨S512x1, .f32⟩
  | 73 => ⟨S512x1, .f32⟩
  | 74 => ⟨S_, .f32⟩
  | 75 => ⟨S_, .f32⟩
  | 76 => ⟨S512x1, .f32⟩
  | 77 => ⟨S512x1, .f32⟩
  | 78 => ⟨S320000x512, .f32⟩
  | 79 => ⟨S_, .f32⟩
  | 80 => ⟨S512x512, .f32⟩
  | 81 => ⟨S320000x1, .i32⟩
  | 82 => ⟨S512x512, .f32⟩
  | 83 => ⟨S512x512, .f32⟩
  | 84 => ⟨S512x512, .f32⟩
  | 85 => ⟨S_, .f32⟩
  | 86 => ⟨S512x512, .f32⟩
  | 87 => ⟨S512x512, .f32⟩
  | 88 => ⟨S512x512, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S320000x512, .f32⟩
  | 98 => ⟨S320000x512, .f32⟩
  | 99 => ⟨S_, .f32⟩
  | 100 => ⟨S320000x512, .f32⟩
  | 101 => ⟨S320000x512, .f32⟩
  | 102 => ⟨S320000x128, .f32⟩
  | 103 => ⟨S1x128, .f32⟩
  | 104 => ⟨S320000x128, .f32⟩
  | 105 => ⟨S320000x128, .f32⟩
  | 106 => ⟨S_, .f32⟩
  | 107 => ⟨S320000x1, .f32⟩
  | 108 => ⟨S_, .f32⟩
  | 109 => ⟨S512x1, .f32⟩
  | 110 => ⟨S320000x1, .i32⟩
  | 111 => ⟨S512x1, .f32⟩
  | 112 => ⟨S_, .f32⟩
  | 113 => ⟨S_, .f32⟩
  | 114 => ⟨S512x1, .f32⟩
  | 115 => ⟨S512x1, .f32⟩
  | 116 => ⟨S_, .f32⟩
  | 117 => ⟨S512x128, .f32⟩
  | 118 => ⟨S320000x1, .i32⟩
  | 119 => ⟨S512x128, .f32⟩
  | 120 => ⟨S512x128, .f32⟩
  | 121 => ⟨S512x128, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S10000x128, .f32⟩

abbrev hbmTy0_1 (i : Nat) : BufTy := match i % 128 with
  | 0 => ⟨S320000, .i32⟩
  | 1 => ⟨S320000x1, .i32⟩
  | 2 => ⟨S320000x128, .f32⟩
  | 3 => ⟨S320000x128, .f32⟩
  | 4 => ⟨S_, .f32⟩
  | 5 => ⟨S512x1, .f32⟩
  | 6 => ⟨S512x1, .f32⟩
  | 7 => ⟨S_, .f32⟩
  | 8 => ⟨S_, .f32⟩
  | 9 => ⟨S512x1, .f32⟩
  | 10 => ⟨S512x1, .f32⟩
  | 11 => ⟨S320000x128, .f32⟩
  | 12 => ⟨S_, .f32⟩
  | 13 => ⟨S512x128, .f32⟩
  | 14 => ⟨S320000x1, .i32⟩
  | 15 => ⟨S512x128, .f32⟩
  | 16 => ⟨S512x128, .f32⟩
  | 17 => ⟨S512x128, .f32⟩
  | 18 => ⟨S_, .f32⟩
  | 19 => ⟨S512x128, .f32⟩
  | 20 => ⟨S512x128, .f32⟩
  | 21 => ⟨S512x128, .f32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x128, .f32⟩
  | 31 => ⟨S320000x128, .f32⟩
  | 32 => ⟨S_, .f32⟩
  | 33 => ⟨S320000x128, .f32⟩
  | 34 => ⟨S320000x128, .f32⟩
  | 35 => ⟨S320000x1, .f32⟩
  | 36 => ⟨S1x1, .f32⟩
  | 37 => ⟨S320000x1, .f32⟩
  | 38 => ⟨S320000x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_call0_v0 : Ref sig .tc := ⟨.hbm, 52, rfl⟩
abbrev main_call0_v1 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_c_15 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call2_cst : Ref sig .tc := ⟨.hbm, 99, rfl⟩
abbrev main_call2_v0 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_16 : Ref sig .tc := ⟨.hbm, 106, rfl⟩
abbrev main_v73 : Ref sig .tc := ⟨.hbm, 107, rfl⟩
abbrev main_cst_17 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_18 : Ref sig .tc := ⟨.hbm, 112, rfl⟩
abbrev main_call3_v0 : Ref sig .tc := ⟨.hbm, 113, rfl⟩
abbrev main_call3_v1 : Ref sig .tc := ⟨.hbm, 114, rfl⟩
abbrev main_v77 : Ref sig .tc := ⟨.hbm, 115, rfl⟩
abbrev main_cst_19 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_20 : Ref sig .tc := ⟨.hbm, 122, rfl⟩
abbrev main_v83 : Ref sig .tc := ⟨.hbm, 123, rfl⟩
abbrev main_v84 : Ref sig .tc := ⟨.hbm, 124, rfl⟩
abbrev main_c_21 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_22 : Ref sig .tc := ⟨.hbm, 132, rfl⟩
abbrev main_v91 : Ref sig .tc := ⟨.hbm, 133, rfl⟩
abbrev main_v92 : Ref sig .tc := ⟨.hbm, 134, rfl⟩
abbrev main_cst_23 : Ref sig .tc := ⟨.hbm, 135, rfl⟩
abbrev main_call4_v0 : Ref sig .tc := ⟨.hbm, 136, rfl⟩
abbrev main_call4_v1 : Ref sig .tc := ⟨.hbm, 137, rfl⟩
abbrev main_v93 : Ref sig .tc := ⟨.hbm, 138, rfl⟩
abbrev main_v94 : Ref sig .tc := ⟨.hbm, 139, rfl⟩
abbrev main_cst_24 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_25 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_26 : Ref sig .tc := ⟨.hbm, 150, rfl⟩
abbrev main_v103 : Ref sig .tc := ⟨.hbm, 151, rfl⟩
abbrev main_v104 : Ref sig .tc := ⟨.hbm, 152, rfl⟩
abbrev main_c_27 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_call5_cst : Ref sig .tc := ⟨.hbm, 160, rfl⟩
abbrev main_call5_v0 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x256_d1 : Shape.Concatenates [S320000x128, S320000x128] S320000x256 1
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x1 : S_.BroadcastsInDim S320000x1 (![] : Fin 0 → Fin S320000x1.rank)
  bcast_S_S512x1 : S_.BroadcastsInDim S512x1 (![] : Fin 0 → Fin S512x1.rank)
  bcast_S_S512x512 : S_.BroadcastsInDim S512x512 (![] : Fin 0 → Fin S512x512.rank)
  bcast_S512x1_S512x512_0_1 : S512x1.BroadcastsInDim S512x512 (![0, 1] : Fin 2 → Fin S512x512.rank)
  bcast_S_S320000x512 : S_.BroadcastsInDim S320000x512 (![] : Fin 0 → Fin S320000x512.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S512x128 : S_.BroadcastsInDim S512x128 (![] : Fin 0 → Fin S512x128.rank)
  bcast_S512x1_S512x128_0_1 : S512x1.BroadcastsInDim S512x128 (![0, 1] : Fin 2 → Fin S512x128.rank)
  bcast_S_S320000x128 : S_.BroadcastsInDim S320000x128 (![] : Fin 0 → Fin S320000x128.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  gather_S10000x128_S320000x1_S320000x128_1_0_n_n_0_1_1128_wf : GatherDims.WF S10000x128 S320000x1 S320000x128 [1] [0] [] [0] [] 1 ![1, 128]
  gather_S10000_S320000x1_S320000_n_0_n_n_0_1_1_wf : GatherDims.WF S10000 S320000x1 S320000 [] [0] [] [0] [] 1 ![1]
  dot_S320000x256_S256x512_S320000x512_1_0_0_1_n_n_wf : DotDims.WF S320000x256 S256x512 S320000x512 [1] [0] [0] [1] [] []
  scatter_S512x1_S320000x1_S320000x1_1_0_0_1_wf : ScatterDims.WF S512x1 S320000x1 S320000x1 [1] [0] [0] 1
  scatter_S512x512_S320000x1_S320000x512_1_0_0_1_wf : ScatterDims.WF S512x512 S320000x1 S320000x512 [1] [0] [0] 1
  gather_S512x512_S320000x1_S320000x512_1_0_n_n_0_1_1512_wf : GatherDims.WF S512x512 S320000x1 S320000x512 [1] [0] [] [0] [] 1 ![1, 512]
  dot_S320000x512_S512x128_S320000x128_1_0_0_1_n_n_wf : DotDims.WF S320000x512 S512x128 S320000x128 [1] [0] [0] [1] [] []
  scatter_S512x128_S320000x1_S320000x128_1_0_0_1_wf : ScatterDims.WF S512x128 S320000x1 S320000x128 [1] [0] [0] 1
  gather_S512x128_S320000x1_S320000x128_1_0_n_n_0_1_1128_wf : GatherDims.WF S512x128 S320000x1 S320000x128 [1] [0] [] [0] [] 1 ![1, 128]
  dot_S320000x128_S128x1_S320000x1_1_0_0_1_n_n_wf : DotDims.WF S320000x128 S128x1 S320000x1 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S320000x256_S256x512_S320000x512_1_0_0_1_n_n : DotDims S320000x256 S256x512 S320000x512 where
  lhsContracting := [1]
  rhsContracting := [0]
  lhsNonContracting := [0]
  rhsNonContracting := [1]
  lhsBatch := []
  rhsBatch := []
  wf := dot_S320000x256_S256x512_S320000x512_1_0_0_1_n_n_wf
def scatter_S512x1_S320000x1_S320000x1_1_0_0_1 : ScatterDims S512x1 S320000x1 S320000x1 where
  updateWindowDims := [1]
  insertedWindowDims := [0]
  scatterDimsToOperandDims := [0]
  indexVectorDim := 1
  wf := scatter_S512x1_S320000x1_S320000x1_1_0_0_1_wf
def scatter_S512x512_S320000x1_S320000x512_1_0_0_1 : ScatterDims S512x512 S320000x1 S320000x512 where
  updateWindowDims := [1]
  insertedWindowDims := [0]
  scatterDimsToOperandDims := [0]
  indexVectorDim := 1
  wf := scatter_S512x512_S320000x1_S320000x512_1_0_0_1_wf
def gather_S512x512_S320000x1_S320000x512_1_0_n_n_0_1_1512 : GatherDims S512x512 S320000x1 S320000x512 where
  offsetDims := [1]
  collapsedSliceDims := [0]
  operandBatchingDims := []
  startIndicesBatchingDims := []
  startIndexMap := [0]
  indexVectorDim := 1
  sliceSizes := ![1, 512]
  wf := gather_S512x512_S320000x1_S320000x512_1_0_n_n_0_1_1512_wf
def dot_S320000x512_S512x128_S320000x128_1_0_0_1_n_n : DotDims S320000x512 S512x128 S320000x128 where
  lhsContracting := [1]
  rhsContracting := [0]
  lhsNonContracting := [0]
  rhsNonContracting := [1]
  lhsBatch := []
  rhsBatch := []
  wf := dot_S320000x512_S512x128_S320000x128_1_0_0_1_n_n_wf
def scatter_S512x128_S320000x1_S320000x128_1_0_0_1 : ScatterDims S512x128 S320000x1 S320000x128 where
  updateWindowDims := [1]
  insertedWindowDims := [0]
  scatterDimsToOperandDims := [0]
  indexVectorDim := 1
  wf := scatter_S512x128_S320000x1_S320000x128_1_0_0_1_wf
def gather_S512x128_S320000x1_S320000x128_1_0_n_n_0_1_1128 : GatherDims S512x128 S320000x1 S320000x128 where
  offsetDims := [1]
  collapsedSliceDims := [0]
  operandBatchingDims := []
  startIndicesBatchingDims := []
  startIndexMap := [0]
  indexVectorDim := 1
  sliceSizes := ![1, 128]
  wf := gather_S512x128_S320000x1_S320000x128_1_0_n_n_0_1_1128_wf
def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf

class Facts : Prop extends Facts₀ where

variable [Facts]
-- ==== Proof.Spec.lean ====
/-
  The mathematics both programs compute, written once over plain indices.

  An edge `e` carries a feature row `x e` (256 numbers) and a segment word; graph `g` owns the edges whose word is `g`.
  One layer is: a linear map, then per graph and per channel the mean and the unbiased variance over the graph's edges,
  then (value − mean) · rsqrt(variance + ε), then max(·, 0).  The kernel gets the per-graph sums by multiplying with the
  0/1 indicator "edge e belongs to graph g" (`oh`), tile by tile and core by core, and gets the variance from the sum of
  squares minus n·mean²; the reference sums the squared deviations directly.  Everything here is an extended real.
-/
import Idealize.ShloMosaic.PureOps.Ideal
import Idealize.ShloMosaic.Lib.ValueIdx

noncomputable section

open scoped BigOperators

namespace Cert.Spec

open Idealize.ShloMosaic Idealize.ShloMosaic.ValueIdx

abbrev SEx256 : Shape := ⟨2, ![320000, 256]⟩
abbrev SEx512 : Shape := ⟨2, ![320000, 512]⟩
abbrev SEx128 : Shape := ⟨2, ![320000, 128]⟩
abbrev SEx1 : Shape := ⟨2, ![320000, 1]⟩
abbrev SE : Shape := ⟨1, ![320000]⟩
abbrev S256x512 : Shape := ⟨2, ![256, 512]⟩
abbrev S512x128 : Shape := ⟨2, ![512, 128]⟩
abbrev S512x512 : Shape := ⟨2, ![512, 512]⟩
abbrev S512x256 : Shape := ⟨2, ![512, 256]⟩
abbrev S128x1 : Shape := ⟨2, ![128, 1]⟩
abbrev S1x512 : Shape := ⟨2, ![1, 512]⟩
abbrev S1x128 : Shape := ⟨2, ![1, 128]⟩
abbrev S1x1 : Shape := ⟨2, ![1, 1]⟩
abbrev S2x512x256 : Shape := ⟨3, ![2, 512, 256]⟩
abbrev S2x512x512 : Shape := ⟨3, ![2, 512, 512]⟩
abbrev S2x512x128 : Shape := ⟨3, ![2, 512, 128]⟩

/-- The f32 word of 1e-5 that both programs add to a variance. -/
def eps : EReal := Ideal.ofBits .f32 0x3727C5AC#32

/-- The indicator "this segment word is graph `g`": 1 or 0. -/
def oh (wd : BitVec 32) (g : Fin 512) : EReal := if wd = BitVec.ofNat 32 g.val then 1 else 0

/-- The edge at row `r` of tile `i` of core `c`: 250 tiles of 640 rows per core. -/
def edge (c : Fin 2) (i : Fin 250) (r : Fin 640) : Fin 320000 :=
  ⟨(c.val * 250 + i.val) * 640 + r.val, by have := c.isLt; have := i.isLt; have := r.isLt; omega⟩

/-- Lane `k` of 512 read in a 128-lane table repeated four times. -/
def lane (k : Fin 512) : Fin 128 := ⟨k.val % 128, Nat.mod_lt _ (by decide)⟩

section
variable (x : SEx256.Idx → EReal) (seg : SEx1.Idx → BitVec 32)
  (w1 : S256x512.Idx → EReal) (b1 : S1x512.Idx → EReal)
  (w2 : S512x128.Idx → EReal) (b2 : S1x128.Idx → EReal)
  (w3 : S128x1.Idx → EReal) (b3 : S1x1.Idx → EReal)

/-- The segment word of edge `e`. -/
def segw (e : Fin 320000) : BitVec 32 := seg (ix2 e 0)

/-- A per-graph table read at edge `e`'s graph, as the indicator-weighted sum over all graphs. -/
def gat (T : Fin 512 → EReal) (e : Fin 320000) : EReal := ∑ g : Fin 512, oh (segw seg e) g * T g

/-- One core's share of a per-graph sum: over its 250 tiles and their 640 rows, the indicator times the value. -/
def coreSum (v : Fin 320000 → EReal) (c : Fin 2) (g : Fin 512) : EReal :=
  ∑ i : Fin 250, ∑ r : Fin 640, oh (segw seg (edge c i r)) g * v (edge c i r)

/-- The first linear layer. -/
def h1 (e : Fin 320000) (k : Fin 512) : EReal := (∑ j : Fin 256, x (ix2 e j) * w1 (ix2 j k)) + b1 (ix2 0 k)

/-! ### The first call: per core, the per-graph sums of the features, of the squared first layer, and the counts -/

def r0_sumx : S2x512x256.Idx → EReal := fun q => coreSum seg (fun e => x (ix2 e (q 2))) (q 0) (q 1)
def r0_sq1 : S2x512x512.Idx → EReal := fun q => coreSum seg (fun e => h1 x w1 b1 e (q 2) * h1 x w1 b1 e (q 2)) (q 0) (q 1)
def r0_cnt : S2x512x128.Idx → EReal := fun q => coreSum seg (fun _ => 1) (q 0) (q 1)

/-! ### The second call, given the three per-graph tables `s1` (sums), `q1` (sums of squares), `ct` (counts, 128 equal lanes) -/

section
variable (s1 q1 : S512x512.Idx → EReal) (ct : S512x128.Idx → EReal)

def n1 (e : Fin 320000) (k : Fin 512) : EReal := max 1 (gat seg (fun g => ct (ix2 g (lane k))) e)
def nu1 (e : Fin 320000) (k : Fin 512) : EReal := max 1 (n1 seg ct e k - 1)
def mean1 (e : Fin 320000) (k : Fin 512) : EReal := Ideal.div (gat seg (fun g => s1 (ix2 g k)) e) (n1 seg ct e k)
def var1 (e : Fin 320000) (k : Fin 512) : EReal :=
  max (Ideal.div (gat seg (fun g => q1 (ix2 g k)) e - n1 seg ct e k * mean1 seg s1 ct e k * mean1 seg s1 ct e k) (nu1 seg ct e k)) 0
def y1 (e : Fin 320000) (k : Fin 512) : EReal :=
  max ((h1 x w1 b1 e k - mean1 seg s1 ct e k) * Ideal.rsqrt (var1 seg s1 q1 ct e k + eps)) 0
def h2 (e : Fin 320000) (d : Fin 128) : EReal :=
  (∑ k : Fin 512, y1 x seg w1 b1 s1 q1 ct e k * w2 (ix2 k d)) + b2 (ix2 0 d)

def r1_h2 : SEx128.Idx → EReal := fun q => h2 x seg w1 b1 w2 b2 s1 q1 ct (q 0) (q 1)
def r1_sum2 : S2x512x128.Idx → EReal := fun q => coreSum seg (fun e => h2 x seg w1 b1 w2 b2 s1 q1 ct e (q 2)) (q 0) (q 1)
def r1_sq2 : S2x512x128.Idx → EReal :=
  fun q => coreSum seg (fun e => h2 x seg w1 b1 w2 b2 s1 q1 ct e (q 2) * h2 x seg w1 b1 w2 b2 s1 q1 ct e (q 2)) (q 0) (q 1)
end

/-! ### The third call, given the cached second layer `hc` and its per-graph tables -/

section
variable (hc : SEx128.Idx → EReal) (s2 q2 ct : S512x128.Idx → EReal)

def nh (e : Fin 320000) (d : Fin 128) : EReal := max 1 (gat seg (fun g => ct (ix2 g d)) e)
def nuh (e : Fin 320000) (d : Fin 128) : EReal := max 1 (nh seg ct e d - 1)
def mean2 (e : Fin 320000) (d : Fin 128) : EReal := Ideal.div (gat seg (fun g => s2 (ix2 g d)) e) (nh seg ct e d)
def var2 (e : Fin 320000) (d : Fin 128) : EReal :=
  max (Ideal.div (gat seg (fun g => q2 (ix2 g d)) e - nh seg ct e d * mean2 seg s2 ct e d * mean2 seg s2 ct e d) (nuh seg ct e d)) 0
def y2 (e : Fin 320000) (d : Fin 128) : EReal :=
  max ((hc (ix2 e d) - mean2 seg s2 ct e d) * Ideal.rsqrt (var2 seg s2 q2 ct e d + eps)) 0
def r2_out : SEx1.Idx → EReal := fun q => (∑ d : Fin 128, y2 seg hc s2 q2 ct (q 0) d * w3 (ix2 d 0)) + b3 (ix2 0 0)
end

/-! ### Between the calls: the two cores' shares added, and the first layer's sums from the features' sums -/

/-- The two cores' shares of a table added onto zero. -/
def comb {n : Nat} (O : (⟨3, ![2, 512, n]⟩ : Shape).Idx → EReal) : (⟨2, ![512, n]⟩ : Shape).Idx → EReal :=
  fun q => 0 + ∑ c : Fin 2, O (ix3 c (q 0) (q 1))

/-- Per graph, the sum of the first layer over its edges, from the summed features and the count (the layer is linear):
    `sx · W1 + count · b1`, `w1f` and `b1f` the weights as the host holds them. -/
def s1tab (sx : S512x256.Idx → EReal) (ct : S512x128.Idx → EReal) (w1f : S256x512.Idx → EReal) (b1f : (⟨1, ![512]⟩ : Shape).Idx → EReal) :
    S512x512.Idx → EReal :=
  fun q => (∑ j : Fin 256, sx (ix2 (q 0) j) * w1f (ix2 j (q 1))) + ct (ix2 (q 0) 0) * b1f (ix1 (q 1))

/-- THE KERNEL'S RESULT from the feature rows `x`, the segment words `seg` and the weights: three calls, the shares combined between them.
    `w1f`, `b1f` are the first layer's weights as the host glue reads them (the same numbers as `w1`, `b1`). -/
def kernelOut (w1f : S256x512.Idx → EReal) (b1f : (⟨1, ![512]⟩ : Shape).Idx → EReal) : SEx1.Idx → EReal :=
  let ct := comb (r0_cnt seg)
  let s1 := s1tab (comb (r0_sumx x seg)) ct w1f b1f
  let q1 := comb (r0_sq1 x seg w1 b1)
  let hc := r1_h2 x seg w1 b1 w2 b2 s1 q1 ct
  let s2 := comb (r1_sum2 x seg w1 b1 w2 b2 s1 q1 ct)
  let q2 := comb (r1_sq2 x seg w1 b1 w2 b2 s1 q1 ct)
  r2_out seg w3 b3 hc s2 q2 ct

end

/-! ### The reference: segment sums by index, deviations summed directly -/

section
variable (x : SEx256.Idx → EReal) (sg : Fin 320000 → Fin 512)
  (w1 : S256x512.Idx → EReal) (b1 : (⟨1, ![512]⟩ : Shape).Idx → EReal)
  (w2 : S512x128.Idx → EReal) (b2 : (⟨1, ![128]⟩ : Shape).Idx → EReal)
  (w3 : S128x1.Idx → EReal) (b3 : (⟨1, ![1]⟩ : Shape).Idx → EReal)

/-- The sum of `v` over the edges of graph `g`, onto zero. -/
def segSum (v : Fin 320000 → EReal) (g : Fin 512) : EReal := 0 + ∑ e : Fin 320000, if sg e = g then v e else 0

def rh1 (e : Fin 320000) (k : Fin 512) : EReal := (∑ j : Fin 256, x (ix2 e j) * w1 (ix2 j k)) + b1 (ix1 k)
def rcnt (g : Fin 512) : EReal := segSum sg (fun _ => 1) g
def rn (g : Fin 512) : EReal := max 1 (rcnt sg g)
def rnu (g : Fin 512) : EReal := max 1 (rcnt sg g - 1)

/-- One normalisation: per graph the mean, the deviations, their squares' sum over the unbiased count, and the scaled deviation cut at 0. -/
def rnorm (v : Fin 320000 → EReal) (e : Fin 320000) : EReal :=
  let mean : Fin 512 → EReal := fun g => Ideal.div (segSum sg v g) (rn sg g)
  let xc : Fin 320000 → EReal := fun e' => v e' - mean (sg e')
  let var : Fin 512 → EReal := fun g => Ideal.div (segSum sg (fun e' => xc e' * xc e') g) (rnu sg g)
  max (xc e * Ideal.rsqrt (var (sg e) + eps)) 0

def ry1 (e : Fin 320000) (k : Fin 512) : EReal := rnorm sg (fun e' => rh1 x w1 b1 e' k) e
def rh2 (e : Fin 320000) (d : Fin 128) : EReal := (∑ k : Fin 512, ry1 x sg w1 b1 e k * w2 (ix2 k d)) + b2 (ix1 d)
def ry2 (e : Fin 320000) (d : Fin 128) : EReal := rnorm sg (fun e' => rh2 x sg w1 b1 w2 b2 e' d) e
/-- THE REFERENCE'S RESULT. -/
def refOut : SEx1.Idx → EReal := fun q => (∑ d : Fin 128, ry2 x sg w1 b1 w2 b2 (q 0) d * w3 (ix2 d 0)) + b3 (ix1 0)
end

end Cert.Spec

end
-- ==== Proof.SpecRow.lean ====
/-
  The per-edge part of the mathematics as a function of ONE row: an edge's second-layer value and its final value depend on
  the other edges only through the per-graph tables, so they are functions of the edge's own feature row, its segment word,
  the weights and the tables.  A tile's row and the whole array's row are then the same function of the same data.
-/
import proofs.«408983_j37177236914744_3_alg».proof.Proof.Spec

noncomputable section

open scoped BigOperators

namespace Cert.Spec.Row

open Idealize.ShloMosaic Idealize.ShloMosaic.ValueIdx Cert.Spec

section
variable (xr : Fin 256 → EReal) (wd : BitVec 32)
  (w1 : S256x512.Idx → EReal) (b1 : S1x512.Idx → EReal)
  (w2 : S512x128.Idx → EReal) (b2 : S1x128.Idx → EReal)
  (w3 : S128x1.Idx → EReal) (b3 : S1x1.Idx → EReal)

/-- A per-graph table read at the word's graph through the indicator. -/
def gat (T : Fin 512 → EReal) : EReal := ∑ g : Fin 512, oh wd g * T g

/-- The first linear layer of one row. -/
def h1 (k : Fin 512) : EReal := (∑ j : Fin 256, xr j * w1 (ix2 j k)) + b1 (ix2 0 k)

section
variable (s1 q1 : S512x512.Idx → EReal) (ct : S512x128.Idx → EReal)
def n1 (k : Fin 512) : EReal := max 1 (gat wd (fun g => ct (ix2 g (lane k))))
def nu1 (k : Fin 512) : EReal := max 1 (n1 wd ct k - 1)
def mean1 (k : Fin 512) : EReal := Ideal.div (gat wd (fun g => s1 (ix2 g k))) (n1 wd ct k)
def var1 (k : Fin 512) : EReal :=
  max (Ideal.div (gat wd (fun g => q1 (ix2 g k)) - n1 wd ct k * mean1 wd s1 ct k * mean1 wd s1 ct k) (nu1 wd ct k)) 0
def y1 (k : Fin 512) : EReal :=
  max ((h1 xr w1 b1 k - mean1 wd s1 ct k) * Ideal.rsqrt (var1 wd s1 q1 ct k + eps)) 0
def h2 (d : Fin 128) : EReal := (∑ k : Fin 512, y1 xr wd w1 b1 s1 q1 ct k * w2 (ix2 k d)) + b2 (ix2 0 d)
end

section
variable (hr : Fin 128 → EReal) (s2 q2 ct : S512x128.Idx → EReal)
def nh (d : Fin 128) : EReal := max 1 (gat wd (fun g => ct (ix2 g d)))
def nuh (d : Fin 128) : EReal := max 1 (nh wd ct d - 1)
def mean2 (d : Fin 128) : EReal := Ideal.div (gat wd (fun g => s2 (ix2 g d))) (nh wd ct d)
def var2 (d : Fin 128) : EReal :=
  max (Ideal.div (gat wd (fun g => q2 (ix2 g d)) - nh wd ct d * mean2 wd s2 ct d * mean2 wd s2 ct d) (nuh wd ct d)) 0
def y2 (d : Fin 128) : EReal := max ((hr d - mean2 wd s2 ct d) * Ideal.rsqrt (var2 wd s2 q2 ct d + eps)) 0
def out : EReal := (∑ d : Fin 128, y2 wd hr s2 q2 ct d * w3 (ix2 d 0)) + b3 (ix2 0 0)
end
end

/-! ### The whole-array functions are the row functions at the edge's row and word -/

section
variable (x : SEx256.Idx → EReal) (seg : SEx1.Idx → BitVec 32)
  (w1 : S256x512.Idx → EReal) (b1 : S1x512.Idx → EReal)
  (w2 : S512x128.Idx → EReal) (b2 : S1x128.Idx → EReal)
  (w3 : S128x1.Idx → EReal) (b3 : S1x1.Idx → EReal)

theorem h1_eq (e : Fin 320000) (k : Fin 512) :
    Cert.Spec.h1 x w1 b1 e k = h1 (fun j => x (ix2 e j)) w1 b1 k := rfl

theorem h2_eq (s1 q1 : S512x512.Idx → EReal) (ct : S512x128.Idx → EReal) (e : Fin 320000) (d : Fin 128) :
    Cert.Spec.h2 x seg w1 b1 w2 b2 s1 q1 ct e d = h2 (fun j => x (ix2 e j)) (segw seg e) w1 b1 w2 b2 s1 q1 ct d := rfl

theorem out_eq (hc : SEx128.Idx → EReal) (s2 q2 ct : S512x128.Idx → EReal) (q : SEx1.Idx) :
    Cert.Spec.r2_out seg w3 b3 hc s2 q2 ct q = out (segw seg (q 0)) w3 b3 (fun d => hc (ix2 (q 0) d)) s2 q2 ct := rfl
end

end Cert.Spec.Row

end
-- ==== Proof.Reg0_Pieces.lean ====
/-
  The first call, one grid point: what the body's stores leave in each of the three accumulator buffers, as the body's
  arithmetic applied to the point's loaded blocks (and, after the first point of a core, to what the buffer held).  At a
  core's first point the buffers are zeroed first and the zeros are what the accumulation reads back.
-/
import proofs.«408983_j37177236914744_3_alg».proof.Proof.Gen.KernelIdeal.Frame
import proofs.«408983_j37177236914744_3_alg».proof.Proof.SpecRow
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Reg0

open Idealize.ShloMosaic Idealize.ShloMosaic.TcCoe Idealize.SL.Sem Idealize.ShloMosaic.ValueIdx
open Cert.KernelIdeal Cert.KernelIdeal.Gen
open Idealize.ShloMosaic.Pipeline (Dat)

/-! ## What one grid point leaves in the three accumulators, as the body's arithmetic over the point's loads -/
section Pieces
variable {F : FTy → Type} [FloatOps F]
variable (c : Dev nD) (i : grid0.Coords) (arg2 : Memref sig .tc .vmem S640x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S640x1 .i32) (harg5 : arg5.IsWhole) (arg6 : Memref sig .tc .vmem S1x512x256 .f32) (harg6 : arg6.IsWhole) (arg7 : Memref sig .tc .vmem S1x512x512 .f32) (harg7 : arg7.IsWhole) (arg8 : Memref sig .tc .vmem S1x512x128 .f32) (harg8 : arg8.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

theorem piece_B_4 (hc0 : ¬cond0_0 i) (x0 : Vec F S640x256 .bf16) (x1 : Vec F S256x512 .bf16) (x2 : Vec F S1x512 .f32) (x3 : Vec F S640x1 .i32) (xo4 : Vec F S1x512x256 .f32) (xo5 : Vec F S1x512x512 .f32) (xo6 : Vec F S1x512x128 .f32) :
    out0_B_4 c i arg2 harg2 arg3 harg3 arg4 harg4 arg5 harg5 arg6 harg6 arg7 harg7 arg8 harg8 hc0 x0 x1 x2 x3 xo4 xo5 xo6 = k0_pay11 x3 x0 xo4 := by
  unfold out0_B_4
  rw [View.read_writes_eq_canon _ _ _ (cover0_B_4 c i arg2 harg2 arg3 harg3 arg4 harg4 arg5 harg5 arg6 harg6 arg7 harg7 arg8 harg8 hc0 x0 x1 x2 x3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S640x256) hz2, View.ld_unit_zero (S := S256x512) hz2, View.ld_unit_zero (S := S1x512) hz2, View.ld_unit_zero (S := S640x1) hz2,
    View.ld_unit_zero (S := S1x512x256) hz3, View.ld_unit_zero (S := S1x512x512) hz3, View.ld_unit_zero (S := S1x512x128) hz3]

theorem piece_B_5 (hc0 : ¬cond0_0 i) (x0 : Vec F S640x256 .bf16) (x1 : Vec F S256x512 .bf16) (x2 : Vec F S1x512 .f32) (x3 : Vec F S640x1 .i32) (xo4 : Vec F S1x512x256 .f32) (xo5 : Vec F S1x512x512 .f32) (xo6 : Vec F S1x512x128 .f32) :
    out0_B_5 c i arg2 harg2 arg3 harg3 arg4 harg4 arg5 harg5 arg6 harg6 arg7 harg7 arg8 harg8 hc0 x0 x1 x2 x3 xo4 xo5 xo6 = k0_pay1 (k0_pay7 x0 x1 x2) (k0_pay8 x3) (k0_pay12 xo5) := by
  unfold out0_B_5
  rw [View.read_writes_eq_canon _ _ _ (cover0_B_5 c i arg2 harg2 arg3 harg3 arg4 harg4 arg5 harg5 arg6 harg6 arg7 harg7 arg8 harg8 hc0 x0 x1 x2 x3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S640x256) hz2, View.ld_unit_zero (S := S256x512) hz2, View.ld_unit_zero (S := S1x512) hz2, View.ld_unit_zero (S := S640x1) hz2,
    View.ld_unit_zero (S := S1x512x256) hz3, View.ld_unit_zero (S := S1x512x512) hz3, View.ld_unit_zero (S := S1x512x128) hz3]

theorem piece_B_6 (hc0 : ¬cond0_0 i) (x0 : Vec F S640x256 .bf16) (x1 : Vec F S256x512 .bf16) (x2 : Vec F S1x512 .f32) (x3 : Vec F S640x1 .i32) (xo4 : Vec F S1x512x256 .f32) (xo5 : Vec F S1x512x512 .f32) (xo6 : Vec F S1x512x128 .f32) :
    out0_B_6 c i arg2 harg2 arg3 harg3 arg4 harg4 arg5 harg5 arg6 harg6 arg7 harg7 arg8 harg8 hc0 x0 x1 x2 x3 xo4 xo5 xo6 = k0_pay2 (k0_pay9 x3) (k0_pay10 (F := F)) xo6 := by
  unfold out0_B_6
  rw [View.read_writes_eq_canon _ _ _ (cover0_B_6 c i arg2 harg2 arg3 harg3 arg4 harg4 arg5 harg5 arg6 harg6 arg7 harg7 arg8 harg8 hc0 x0 x1 x2 x3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread,
    View.ld_unit_zero (S := S640x256) hz2, View.ld_unit_zero (S := S256x512) hz2, View.ld_unit_zero (S := S1x512) hz2, View.ld_unit_zero (S := S640x1) hz2,
    View.ld_unit_zero (S := S1x512x256) hz3, View.ld_unit_zero (S := S1x512x512) hz3, View.ld_unit_zero (S := S1x512x128) hz3]

theorem piece_A_4 (hc0 : cond0_0 i) (x0 : Vec F S640x256 .bf16) (x1 : Vec F S256x512 .bf16) (x2 : Vec F S1x512 .f32) (x3 : Vec F S640x1 .i32) :
    out0_A_4 c i arg2 harg2 arg3 harg3 arg4 harg4 arg5 harg5 arg6 harg6 arg7 harg7 arg8 harg8 hc0 x0 x1 x2 x3 = k0_pay11 x3 x0 (k0_pay3 (F := F)) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x512x256) hz3]
  simp only [View.readAt_eq_ld, harg2.read_unread, harg3.read_unread, harg4.read_unread, harg5.read_unread, harg6.read_unread, harg7.read_unread, harg8.read_unread,
    View.ld_unit_zero (S := S640x256) hz2, View.ld_unit_zero (S := S256x512) hz2, View.ld_unit_zero (S := S1x512) hz2, View.ld_unit_zero (S := S640x1) hz2,
    View.ld_unit_zero (S := S1x512x256) hz3, View.ld_unit_zero (S := S1x512x512) hz3, View.ld_unit_zero (S := S1x512x128) hz3,
    View.readCov_unit_zero (S := S1x512x256) _ hz3, View.readCov_unit_zero (S := S1x512x512) _ hz3, View.readCov_unit_zero (S := S1x512x128) _ hz3]

theorem piece_A_5 (hc0 : cond0_0 i) (x0 : Vec F S640x256 .bf16) (x1 : Vec F S256x512 .bf16) (x2 : Vec F S1x512 .f32) (x3 : Vec F S640x1 .i32) :
    out0_A_5 c i arg2 harg2 arg3 harg3 arg4 harg4 arg5 harg5 arg6 harg6 arg7 harg7 arg8 harg8 hc0 x0 x1 x2 x3 = k0_pay1 (k0_pay7 x0 x1 x2) (k0_pay8 x3) (k0_pay12 (k0_pay4 (F := F))) := by
  unfold out0_A_5
  rw [View.read_writes_eq_canon _ _ _ (cover0_A_5 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x512x512) hz3]
  simp only [View.readAt_eq_ld, harg2.read_unread, harg3.read_unread, harg4.read_unread, harg5.read_unread, harg6.read_unread, harg7.read_unread, harg8.read_unread,
    View.ld_unit_zero (S := S640x256) hz2, View.ld_unit_zero (S := S256x512) hz2, View.ld_unit_zero (S := S1x512) hz2, View.ld_unit_zero (S := S640x1) hz2,
    View.ld_unit_zero (S := S1x512x256) hz3, View.ld_unit_zero (S := S1x512x512) hz3, View.ld_unit_zero (S := S1x512x128) hz3,
    View.readCov_unit_zero (S := S1x512x256) _ hz3, View.readCov_unit_zero (S := S1x512x512) _ hz3, View.readCov_unit_zero (S := S1x512x128) _ hz3]

theorem piece_A_6 (hc0 : cond0_0 i) (x0 : Vec F S640x256 .bf16) (x1 : Vec F S256x512 .bf16) (x2 : Vec F S1x512 .f32) (x3 : Vec F S640x1 .i32) :
    out0_A_6 c i arg2 harg2 arg3 harg3 arg4 harg4 arg5 harg5 arg6 harg6 arg7 harg7 arg8 harg8 hc0 x0 x1 x2 x3 = k0_pay2 (k0_pay9 x3) (k0_pay10 (F := F)) (k0_pay5 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x512x128) hz3]
  simp only [View.readAt_eq_ld, harg2.read_unread, harg3.read_unread, harg4.read_unread, harg5.read_unread, harg6.read_unread, harg7.read_unread, harg8.read_unread,
    View.ld_unit_zero (S := S640x256) hz2, View.ld_unit_zero (S := S256x512) hz2, View.ld_unit_zero (S := S1x512) hz2, View.ld_unit_zero (S := S640x1) hz2,
    View.ld_unit_zero (S := S1x512x256) hz3, View.ld_unit_zero (S := S1x512x512) hz3, View.ld_unit_zero (S := S1x512x128) hz3,
    View.readCov_unit_zero (S := S1x512x256) _ hz3, View.readCov_unit_zero (S := S1x512x512) _ hz3, View.readCov_unit_zero (S := S1x512x128) _ hz3]

end Pieces

end Cert.KernelIdeal.Reg0

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.Reg0_Pay.lean ====
/-
  The first call, one grid point: the body's arithmetic read at an index, on the extended reals.  The indicator block is
  1 where a row's segment word is the graph's number and 0 elsewhere; each accumulator's update adds, per graph, the
  indicator-weighted sum over the tile's 640 rows of the features, of the squared first layer, and of ones.
-/
import proofs.«408983_j37177236914744_3_alg».proof.Proof.Gen.KernelIdeal.Frame
import proofs.«408983_j37177236914744_3_alg».proof.Proof.SpecRow
import proofs.«408983_j37177236914744_3_alg».proof.Proof.LibPlainDot
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.Reg0

open Idealize.ShloMosaic Idealize.ShloMosaic.TcCoe Idealize.SL.Sem Idealize.ShloMosaic.ValueIdx
open Cert.KernelIdeal Cert.KernelIdeal.Gen
open Idealize.ShloMosaic.Pipeline (Dat)

section Dots

/-! The product `sx`: both operands contracted on their first axis. -/
theorem lhs_sx_0 (i : S512x256.Idx) (q : dot_S640x512_S640x256_S512x256_0_0_1_1_n_n.contr.Idx) :
    (dot_S640x512_S640x256_S512x256_0_0_1_1_n_n.lhsIdx i q 0).val = (q ⟨0, by decide⟩).val :=
  dot_S640x512_S640x256_S512x256_0_0_1_1_n_n.lhsIdx_val_of_single rfl i q
theorem lhs_sx_1 (i : S512x256.Idx) (q : dot_S640x512_S640x256_S512x256_0_0_1_1_n_n.contr.Idx) :
    (dot_S640x512_S640x256_S512x256_0_0_1_1_n_n.lhsIdx i q 1).val = (i 0).val := by
  unfold DotDims.lhsIdx
  rw [dif_neg (show ¬(1 : Fin S640x512.rank) ∈ dot_S640x512_S640x256_S512x256_0_0_1_1_n_n.lhsBatch by decide), dif_pos (show (1 : Fin S640x512.rank) ∈ dot_S640x512_S640x256_S512x256_0_0_1_1_n_n.lhsNonContracting by decide)]
  rfl
theorem rhs_sx_0 (i : S512x256.Idx) (q : dot_S640x512_S640x256_S512x256_0_0_1_1_n_n.contr.Idx) :
    (dot_S640x512_S640x256_S512x256_0_0_1_1_n_n.rhsIdx i q 0).val = (q ⟨0, by decide⟩).val :=
  dot_S640x512_S640x256_S512x256_0_0_1_1_n_n.rhsIdx_val_of_single rfl i q
theorem rhs_sx_1 (i : S512x256.Idx) (q : dot_S640x512_S640x256_S512x256_0_0_1_1_n_n.contr.Idx) :
    (dot_S640x512_S640x256_S512x256_0_0_1_1_n_n.rhsIdx i q 1).val = (i 1).val := by
  unfold DotDims.rhsIdx
  rw [dif_neg (show ¬(1 : Fin S640x256.rank) ∈ dot_S640x512_S640x256_S512x256_0_0_1_1_n_n.rhsBatch by decide), dif_pos (show (1 : Fin S640x256.rank) ∈ dot_S640x512_S640x256_S512x256_0_0_1_1_n_n.rhsNonContracting by decide)]
  rfl

/-- Onto a zero accumulator the product at `(g, j)` is the sum over the 640 rows of `l (r, g) · r (r, j)`. -/
theorem mm_sx_apply {φ₁ φ₂ : FTy} (prec : Option ContractPrecision) (l : FVec Ideal S640x512 φ₁) (r : FVec Ideal S640x256 φ₂)
    (g : Fin 512) (j : Fin 256) :
    FloatOps.matmul dot_S640x512_S640x256_S512x256_0_0_1_1_n_n prec l r (constant (F := Ideal) S512x256 .f32 0x00000000#32) (ix2 g j)
      = ∑ k : Fin 640, l (ix2 k g) * r (ix2 k j) := by
  rw [Ideal.matmul_constant_zero_apply, ← Equiv.sum_comp (contrEquiv1 dot_S640x512_S640x256_S512x256_0_0_1_1_n_n 640 rfl rfl).symm]
  refine Finset.sum_congr rfl fun k _ => ?_
  have hk := contrEquiv1_symm_val dot_S640x512_S640x256_S512x256_0_0_1_1_n_n 640 rfl rfl k
  have el : dot_S640x512_S640x256_S512x256_0_0_1_1_n_n.lhsIdx (ix2 g j) ((contrEquiv1 dot_S640x512_S640x256_S512x256_0_0_1_1_n_n 640 rfl rfl).symm k) = ix2 k g := funext fun a => Fin.ext (by
    match a with
    | ⟨0, _⟩ => exact (lhs_sx_0 _ _).trans hk
    | ⟨1, _⟩ => exact lhs_sx_1 _ _)
  have er : dot_S640x512_S640x256_S512x256_0_0_1_1_n_n.rhsIdx (ix2 g j) ((contrEquiv1 dot_S640x512_S640x256_S512x256_0_0_1_1_n_n 640 rfl rfl).symm k) = ix2 k j := funext fun a => Fin.ext (by
    match a with
    | ⟨0, _⟩ => exact (rhs_sx_0 _ _).trans hk
    | ⟨1, _⟩ => exact rhs_sx_1 _ _)
  rw [el, er]

/-! The product `sq`: both operands contracted on their first axis. -/
theorem lhs_sq_0 (i : S512x512.Idx) (q : dot_S640x512_S640x512_S512x512_0_0_1_1_n_n.contr.Idx) :
    (dot_S640x512_S640x512_S512x512_0_0_1_1_n_n.lhsIdx i q 0).val = (q ⟨0, by decide⟩).val :=
  dot_S640x512_S640x512_S512x512_0_0_1_1_n_n.lhsIdx_val_of_single rfl i q
theorem lhs_sq_1 (i : S512x512.Idx) (q : dot_S640x512_S640x512_S512x512_0_0_1_1_n_n.contr.Idx) :
    (dot_S640x512_S640x512_S512x512_0_0_1_1_n_n.lhsIdx i q 1).val = (i 0).val := by
  unfold DotDims.lhsIdx
  rw [dif_neg (show ¬(1 : Fin S640x512.rank) ∈ dot_S640x512_S640x512_S512x512_0_0_1_1_n_n.lhsBatch by decide), dif_pos (show (1 : Fin S640x512.rank) ∈ dot_S640x512_S640x512_S512x512_0_0_1_1_n_n.lhsNonContracting by decide)]
  rfl
theorem rhs_sq_0 (i : S512x512.Idx) (q : dot_S640x512_S640x512_S512x512_0_0_1_1_n_n.contr.Idx) :
    (dot_S640x512_S640x512_S512x512_0_0_1_1_n_n.rhsIdx i q 0).val = (q ⟨0, by decide⟩).val :=
  dot_S640x512_S640x512_S512x512_0_0_1_1_n_n.rhsIdx_val_of_single rfl i q
theorem rhs_sq_1 (i : S512x512.Idx) (q : dot_S640x512_S640x512_S512x512_0_0_1_1_n_n.contr.Idx) :
    (dot_S640x512_S640x512_S512x512_0_0_1_1_n_n.rhsIdx i q 1).val = (i 1).val := by
  unfold DotDims.rhsIdx
  rw [dif_neg (show ¬(1 : Fin S640x512.rank) ∈ dot_S640x512_S640x512_S512x512_0_0_1_1_n_n.rhsBatch by decide), dif_pos (show (1 : Fin S640x512.rank) ∈ dot_S640x512_S640x512_S512x512_0_0_1_1_n_n.rhsNonContracting by decide)]
  rfl

/-- Onto a zero accumulator the product at `(g, j)` is the sum over the 640 rows of `l (r, g) · r (r, j)`. -/
theorem mm_sq_apply {φ₁ φ₂ : FTy} (prec : Option ContractPrecision) (l : FVec Ideal S640x512 φ₁) (r : FVec Ideal S640x512 φ₂)
    (g : Fin 512) (j : Fin 512) :
    FloatOps.matmul dot_S640x512_S640x512_S512x512_0_0_1_1_n_n prec l r (constant (F := Ideal) S512x512 .f32 0x00000000#32) (ix2 g j)
      = ∑ k : Fin 640, l (ix2 k g) * r (ix2 k j) := by
  rw [Ideal.matmul_constant_zero_apply, ← Equiv.sum_comp (contrEquiv1 dot_S640x512_S640x512_S512x512_0_0_1_1_n_n 640 rfl rfl).symm]
  refine Finset.sum_congr rfl fun k _ => ?_
  have hk := contrEquiv1_symm_val dot_S640x512_S640x512_S512x512_0_0_1_1_n_n 640 rfl rfl k
  have el : dot_S640x512_S640x512_S512x512_0_0_1_1_n_n.lhsIdx (ix2 g j) ((contrEquiv1 dot_S640x512_S640x512_S512x512_0_0_1_1_n_n 640 rfl rfl).symm k) = ix2 k g := funext fun a => Fin.ext (by
    match a with
    | ⟨0, _⟩ => exact (lhs_sq_0 _ _).trans hk
    | ⟨1, _⟩ => exact lhs_sq_1 _ _)
  have er : dot_S640x512_S640x512_S512x512_0_0_1_1_n_n.rhsIdx (ix2 g j) ((contrEquiv1 dot_S640x512_S640x512_S512x512_0_0_1_1_n_n 640 rfl rfl).symm k) = ix2 k j := funext fun a => Fin.ext (by
    match a with
    | ⟨0, _⟩ => exact (rhs_sq_0 _ _).trans hk
    | ⟨1, _⟩ => exact rhs_sq_1 _ _)
  rw [el, er]

/-! The product `ct`: both operands contracted on their first axis. -/
theorem lhs_ct_0 (i : S512x128.Idx) (q : dot_S640x512_S640x128_S512x128_0_0_1_1_n_n.contr.Idx) :
    (dot_S640x512_S640x128_S512x128_0_0_1_1_n_n.lhsIdx i q 0).val = (q ⟨0, by decide⟩).val :=
  dot_S640x512_S640x128_S512x128_0_0_1_1_n_n.lhsIdx_val_of_single rfl i q
theorem lhs_ct_1 (i : S512x128.Idx) (q : dot_S640x512_S640x128_S512x128_0_0_1_1_n_n.contr.Idx) :
    (dot_S640x512_S640x128_S512x128_0_0_1_1_n_n.lhsIdx i q 1).val = (i 0).val := by
  unfold DotDims.lhsIdx
  rw [dif_neg (show ¬(1 : Fin S640x512.rank) ∈ dot_S640x512_S640x128_S512x128_0_0_1_1_n_n.lhsBatch by decide), dif_pos (show (1 : Fin S640x512.rank) ∈ dot_S640x512_S640x128_S512x128_0_0_1_1_n_n.lhsNonContracting by decide)]
  rfl
theorem rhs_ct_0 (i : S512x128.Idx) (q : dot_S640x512_S640x128_S512x128_0_0_1_1_n_n.contr.Idx) :
    (dot_S640x512_S640x128_S512x128_0_0_1_1_n_n.rhsIdx i q 0).val = (q ⟨0, by decide⟩).val :=
  dot_S640x512_S640x128_S512x128_0_0_1_1_n_n.rhsIdx_val_of_single rfl i q
theorem rhs_ct_1 (i : S512x128.Idx) (q : dot_S640x512_S640x128_S512x128_0_0_1_1_n_n.contr.Idx) :
    (dot_S640x512_S640x128_S512x128_0_0_1_1_n_n.rhsIdx i q 1).val = (i 1).val := by
  unfold DotDims.rhsIdx
  rw [dif_neg (show ¬(1 : Fin S640x128.rank) ∈ dot_S640x512_S640x128_S512x128_0_0_1_1_n_n.rhsBatch by decide), dif_pos (show (1 : Fin S640x128.rank) ∈ dot_S640x512_S640x128_S512x128_0_0_1_1_n_n.rhsNonContracting by decide)]
  rfl

/-- Onto a zero accumulator the product at `(g, j)` is the sum over the 640 rows of `l (r, g) · r (r, j)`. -/
theorem mm_ct_apply {φ₁ φ₂ : FTy} (prec : Option ContractPrecision) (l : FVec Ideal S640x512 φ₁) (r : FVec Ideal S640x128 φ₂)
    (g : Fin 512) (j : Fin 128) :
    FloatOps.matmul dot_S640x512_S640x128_S512x128_0_0_1_1_n_n prec l r (constant (F := Ideal) S512x128 .f32 0x00000000#32) (ix2 g j)
      = ∑ k : Fin 640, l (ix2 k g) * r (ix2 k j) := by
  rw [Ideal.matmul_constant_zero_apply, ← Equiv.sum_comp (contrEquiv1 dot_S640x512_S640x128_S512x128_0_0_1_1_n_n 640 rfl rfl).symm]
  refine Finset.sum_congr rfl fun k _ => ?_
  have hk := contrEquiv1_symm_val dot_S640x512_S640x128_S512x128_0_0_1_1_n_n 640 rfl rfl k
  have el : dot_S640x512_S640x128_S512x128_0_0_1_1_n_n.lhsIdx (ix2 g j) ((contrEquiv1 dot_S640x512_S640x128_S512x128_0_0_1_1_n_n 640 rfl rfl).symm k) = ix2 k g := funext fun a => Fin.ext (by
    match a with
    | ⟨0, _⟩ => exact (lhs_ct_0 _ _).trans hk
    | ⟨1, _⟩ => exact lhs_ct_1 _ _)
  have er : dot_S640x512_S640x128_S512x128_0_0_1_1_n_n.rhsIdx (ix2 g j) ((contrEquiv1 dot_S640x512_S640x128_S512x128_0_0_1_1_n_n 640 rfl rfl).symm k) = ix2 k j := funext fun a => Fin.ext (by
    match a with
    | ⟨0, _⟩ => exact (rhs_ct_0 _ _).trans hk
    | ⟨1, _⟩ => exact rhs_ct_1 _ _)
  rw [el, er]

end Dots

/-! ## The body's arithmetic at an index, on the extended reals -/
section Payloads

/-- The 0/1 word of an equality test, widened and converted, is the real 1 or 0. -/
theorem sitofp_eq_word (a b : BitVec 32) :
    FloatOps.sitofp (F := Ideal) .f32 ((IntOp.cmpi .eq a b).setWidth 32) = if a = b then (1 : EReal) else 0 := by
  show (((((IntOp.cmpi .eq a b).setWidth 32).toInt : ℝ)) : EReal) = _
  by_cases h : a = b
  · subst h
    simp [IntOp.cmpi]
  · have hb : (a == b) = false := beq_eq_false_iff_ne.mpr h
    rw [if_neg h]
    simp [IntOp.cmpi, hb]

/-- The one-hot block at `(r, g)`: whether row `r`'s segment word is graph `g`. -/
theorem onehot_apply (v3 : Vec Ideal S640x1 .i32) (r : Fin 640) (g : Fin 512) :
    k0_pay8 (F := Ideal) v3 (ix2 r g) = Cert.Spec.oh (v3 (ix2 r 0)) g := by
  unfold k0_pay8
  dsimp only
  have hA : (broadcastTo S640x512 (shapeCast S640x1 (shapeCast S640 (shapeCast S640x1 v3 shapeCasts_S640x1_S640x1) shapeCasts_S640x1_S640) shapeCasts_S640_S640x1) broadcasts_S640x1_S640x512 : IVec S640x512 32) (ix2 r g) = v3 (ix2 r 0) := by
    refine (broadcastTo_apply _ _ (ix2 r g) (ix2 r 0) ?_).trans ?_
    · intro a
      match a with
      | ⟨0, _⟩ => rfl
      | ⟨1, _⟩ => rfl
    · rw [shapeCast_shapeCast, shapeCast_self]
  have hB : (broadcastTo S640x512 (iota .tc S1x512 32 [1] iota_S1x512_d1_w32) broadcasts_S1x512_S640x512 : IVec S640x512 32) (ix2 r g) = BitVec.ofNat 32 g.val := by
    refine (broadcastTo_apply _ _ (ix2 r g) (ix2 0 g) ?_).trans ?_
    · intro a
      match a with
      | ⟨0, _⟩ => rfl
      | ⟨1, _⟩ => rfl
    · exact iota_single_apply .tc S1x512 32 1 _ (ix2 0 g)
  exact (congrArg₂ (fun a b => FloatOps.sitofp (F := Ideal) .f32 ((IntOp.cmpi .eq a b).setWidth 32)) hA hB).trans (sitofp_eq_word _ _)

/-- The same block narrowed to bf16: the narrowing is exact. -/
theorem onehot16_apply (v3 : Vec Ideal S640x1 .i32) (r : Fin 640) (g : Fin 512) :
    k0_pay9 (F := Ideal) v3 (ix2 r g) = Cert.Spec.oh (v3 (ix2 r 0)) g :=
  onehot_apply v3 r g

/-- The features' tile, cast to its own shape, is itself. -/
theorem pay6_eq (v6 : Vec Ideal S640x256 .bf16) : k0_pay6 (F := Ideal) v6 = v6 := by
  unfold k0_pay6
  exact shapeCast_self _ _

/-- The bf16 word 0x3F80 is one. -/
theorem ofBits_one_bf16 : Ideal.ofBits .bf16 0x3F80#16 = 1 := by
  have h : Ideal.ofBits .bf16 0x3F80#16 = ((1 : ℝ) : EReal) := by
    simp [Ideal.ofBits, Ideal.ieee, -EReal.coe_mul]; norm_num
  rw [h, EReal.coe_one]

/-- The block of ones. -/
theorem ones_apply (r : Fin 640) (d : Fin 128) : k0_pay10 (F := Ideal) (ix2 r d) = 1 := by
  unfold k0_pay10
  exact ofBits_one_bf16

/-- A `[1, 512, n]` block read as `[512, n]`. -/
theorem drop_apply {n : Nat} (v : (⟨3, ![1, 512, n]⟩ : Shape).Idx → EReal) (h : (⟨3, ![1, 512, n]⟩ : Shape).ShapeCasts ⟨2, ![512, n]⟩)
    (g : Fin 512) (j : Fin n) : shapeCast ⟨2, ![512, n]⟩ v h (ix2 g j) = v (ix3 0 g j) := by
  refine (shapeCast_dropUnit_apply ![512, n] v h (ix2 g j)).trans (congrArg v ?_)
  funext a
  match a with
  | ⟨0, _⟩ => rfl
  | ⟨1, _⟩ => rfl
  | ⟨2, _⟩ => rfl

/-- A `[512, n]` value stored as a `[1, 512, n]` block. -/
theorem add_apply {n : Nat} (v : (⟨2, ![512, n]⟩ : Shape).Idx → EReal) (h : (⟨2, ![512, n]⟩ : Shape).ShapeCasts ⟨3, ![1, 512, n]⟩)
    (z : Fin 1) (g : Fin 512) (j : Fin n) : shapeCast ⟨3, ![1, 512, n]⟩ v h (ix3 z g j) = v (ix2 g j) := by
  refine (shapeCast_addUnit_apply ![512, n] v h (ix3 z g j)).trans (congrArg v ?_)
  funext a
  match a with
  | ⟨0, _⟩ => rfl
  | ⟨1, _⟩ => rfl

/-- The features' accumulator after one point: what it held plus, per graph and feature, the tile's indicator-weighted sum. -/
theorem pay11_apply (v3 : Vec Ideal S640x1 .i32) (v6 : Vec Ideal S640x256 .bf16) (v25 : Vec Ideal S1x512x256 .f32)
    (z : Fin 1) (g : Fin 512) (j : Fin 256) :
    k0_pay11 (F := Ideal) v3 v6 v25 (ix3 z g j)
      = v25 (ix3 0 g j) + ∑ r : Fin 640, Cert.Spec.oh (v3 (ix2 r 0)) g * v6 (ix2 r j) := by
  unfold k0_pay11
  refine (add_apply _ _ z g j).trans ?_
  refine (addf_apply _ _ (ix2 g j)).trans ?_
  refine congrArg₂ (· + ·) (drop_apply v25 _ g j) ?_
  refine (mm_sx_apply none _ _ g j).trans ?_
  refine Finset.sum_congr rfl fun r _ => ?_
  rw [onehot16_apply, pay6_eq]

/-- The counts' accumulator after one point: what it held plus, per graph, the number of the tile's rows of that graph. -/
theorem pay2_apply (v3 : Vec Ideal S640x1 .i32) (v39 : Vec Ideal S1x512x128 .f32)
    (z : Fin 1) (g : Fin 512) (d : Fin 128) :
    k0_pay2 (F := Ideal) (k0_pay9 v3) (k0_pay10 (F := Ideal)) v39 (ix3 z g d)
      = v39 (ix3 0 g d) + ∑ r : Fin 640, Cert.Spec.oh (v3 (ix2 r 0)) g * 1 := by
  unfold k0_pay2
  refine (add_apply _ _ z g d).trans ?_
  refine (addf_apply _ _ (ix2 g d)).trans ?_
  refine congrArg₂ (· + ·) (drop_apply v39 _ g d) ?_
  refine (mm_ct_apply none _ _ g d).trans ?_
  refine Finset.sum_congr rfl fun r _ => ?_
  rw [onehot16_apply, ones_apply]

/-- The squared first layer of the tile's row `r` at channel `k`. -/
theorem pay7_apply (v6 : Vec Ideal S640x256 .bf16) (v8 : Vec Ideal S256x512 .bf16) (v11 : Vec Ideal S1x512 .f32)
    (r : Fin 640) (k : Fin 512) :
    k0_pay7 (F := Ideal) v6 v8 v11 (ix2 r k)
      = Cert.Spec.Row.h1 (fun j => v6 (ix2 r j)) v8 v11 k * Cert.Spec.Row.h1 (fun j => v6 (ix2 r j)) v8 v11 k := by
  have h14 : ∀ (A : FVec Ideal S640x512 .f32), (mulf A A) (ix2 r k) = A (ix2 r k) * A (ix2 r k) := fun A => rfl
  unfold k0_pay7
  refine (h14 _).trans ?_
  have e : (addf (matmul dot_S640x256_S256x512_S640x512_1_0_0_1_n_n none (k0_pay6 (F := Ideal) v6) (shapeCast S256x512 v8 shapeCasts_S256x512_S256x512 : FVec Ideal S256x512 .bf16) (constant (F := Ideal) S640x512 .f32 0x00000000#32))
      (broadcastTo S640x512 (shapeCast S1x512 v11 shapeCasts_S1x512_S1x512 : FVec Ideal S1x512 .f32) broadcasts_S1x512_S640x512) : FVec Ideal S640x512 .f32) (ix2 r k)
      = Cert.Spec.Row.h1 (fun j => v6 (ix2 r j)) v8 v11 k := by
    refine (addf_apply _ _ (ix2 r k)).trans ?_
    unfold Cert.Spec.Row.h1
    refine congrArg₂ (· + ·) ?_ ?_
    · rw [pay6_eq, shapeCast_self]
      exact Idealize.ShloMosaic.PlainDot.matmul_zero_apply (M := 640) (K := 256) (N := 512) none v6 v8 r k
    · refine (broadcastTo_apply _ _ (ix2 r k) (ix2 0 k) ?_).trans ?_
      · intro a
        match a with
        | ⟨0, _⟩ => rfl
        | ⟨1, _⟩ => rfl
      · rw [shapeCast_self]
  rw [e]

/-- The squares' accumulator after one point: what it held plus, per graph and channel, the tile's indicator-weighted sum of the squared first layer. -/
theorem pay1_apply (v3 : Vec Ideal S640x1 .i32) (v6 : Vec Ideal S640x256 .bf16) (v8 : Vec Ideal S256x512 .bf16) (v11 : Vec Ideal S1x512 .f32)
    (v32 : Vec Ideal S1x512x512 .f32) (z : Fin 1) (g : Fin 512) (k : Fin 512) :
    k0_pay1 (F := Ideal) (k0_pay7 v6 v8 v11) (k0_pay8 v3) (k0_pay12 v32) (ix3 z g k)
      = v32 (ix3 0 g k) + ∑ r : Fin 640, Cert.Spec.oh (v3 (ix2 r 0)) g
          * (Cert.Spec.Row.h1 (fun j => v6 (ix2 r j)) v8 v11 k * Cert.Spec.Row.h1 (fun j => v6 (ix2 r j)) v8 v11 k) := by
  unfold k0_pay1
  refine (add_apply _ _ z g k).trans ?_
  refine (addf_apply _ _ (ix2 g k)).trans ?_
  refine congrArg₂ (· + ·) ?_ ?_
  · unfold k0_pay12
    exact drop_apply v32 _ g k
  · refine (mm_sq_apply (some .fp32) _ _ g k).trans ?_
    refine Finset.sum_congr rfl fun r _ => ?_
    rw [onehot_apply, pay7_apply]

/-- The zero blocks the reset stores. -/
theorem pay3_apply (q : S1x512x256.Idx) : k0_pay3 (F := Ideal) q = 0 := Ideal.ofBits_zero_f32
theorem pay4_apply (q : S1x512x512.Idx) : k0_pay4 (F := Ideal) q = 0 := Ideal.ofBits_zero_f32
theorem pay5_apply (q : S1x512x128.Idx) : k0_pay5 (F := Ideal) q = 0 := Ideal.ofBits_zero_f32

end Payloads

end Cert.KernelIdeal.Reg0

end
-- ==== Proof.Reg0.lean ====
/-
  The first call: what its three output arrays hold after the run, for any contents of its input arrays.

  Each accumulator block belongs to one core and is written back after that core's last grid point.  After a core's
  point number i the block holds the contributions of the core's points 0 … i added in order onto zero (the first point
  zeroes the block first); a point's contribution is, per graph, the indicator-weighted sum over its tile's 640 rows.
  A tile's rows are rows 640·t … 640·t + 639 of the arrays, so a core's 250 contributions are its share of the
  per-graph sum, and every entry of a table lies in the block of its core's last point.
-/
import proofs.«408983_j37177236914744_3_alg».proof.Proof.Gen.KernelIdeal.Frame
import proofs.«408983_j37177236914744_3_alg».proof.Proof.SpecRow
import proofs.«408983_j37177236914744_3_alg».proof.Proof.Reg0_Pieces
import proofs.«408983_j37177236914744_3_alg».proof.Proof.Reg0_Pay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-! ## The point's blocks and the arrays, at their literal types -/

abbrev xblk (c : Dev nD) (t : Fin cfg0.N) : Vec Ideal S640x256 .bf16 := iblk0 V c 0 t
abbrev wblk (c : Dev nD) (t : Fin cfg0.N) : Vec Ideal S256x512 .bf16 := iblk0 V c 1 t
abbrev bblk (c : Dev nD) (t : Fin cfg0.N) : Vec Ideal S1x512 .f32 := iblk0 V c 2 t
abbrev sblk (c : Dev nD) (t : Fin cfg0.N) : Vec Ideal S640x1 .i32 := iblk0 V c 3 t

abbrev xarr (c : Dev nD) : Cert.Spec.SEx256.Idx → EReal := V c main_v8
abbrev sarr (c : Dev nD) : Cert.Spec.SEx1.Idx → BitVec 32 := V c main_v9
abbrev warr (c : Dev nD) : Cert.Spec.S256x512.Idx → EReal := V c main_v10
abbrev barr (c : Dev nD) : Cert.Spec.S1x512.Idx → EReal := V c main_v13

/-- The windows' block indices at point `t`: the two row-tiled inputs at tile `t`, the weights whole, each accumulator at its core's block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val / 250 ∧ win0_4.index t (1 : Fin 3) = 0 ∧ win0_4.index t (2 : Fin 3) = 0
    ∧ win0_5.index t (0 : Fin 3) = t.val / 250 ∧ win0_5.index t (1 : Fin 3) = 0 ∧ win0_5.index t (2 : Fin 3) = 0
    ∧ win0_6.index t (0 : Fin 3) = t.val / 250 ∧ win0_6.index t (1 : Fin 3) = 0 ∧ win0_6.index t (2 : Fin 3) = 0 :=
  (by decide +kernel : ∀ t : Fin grid0.N, _)

/-- The features' block at point `t` is rows `640·t + r` of the array. -/
theorem xblk_apply (c : Dev nD) (t : Fin cfg0.N) (r : Fin 640) (j : Fin 256) (e : Fin 320000) (he : e.val = 640 * t.val + r.val) :
    xblk V c t (ix2 r j) = xarr V c (ix2 e j) := by
  obtain ⟨e0, e1, -⟩ := idx_facts t
  show V c main_v8 (((cfg0.win 0).blk t).view.emb (ix2 r j)) = V c main_v8 (ix2 e j)
  refine congrArg (V c main_v8) (funext fun a => Fin.ext ?_)
  match a with
  | ⟨0, _⟩ => show win0_0.index t (0 : Fin 2) * 640 + 1 * r.val = e.val; omega
  | ⟨1, _⟩ => show win0_0.index t (1 : Fin 2) * 256 + 1 * j.val = j.val; omega

/-- The segment words' block at point `t` is rows `640·t + r` of the array. -/
theorem sblk_apply (c : Dev nD) (t : Fin cfg0.N) (r : Fin 640) (e : Fin 320000) (he : e.val = 640 * t.val + r.val) :
    sblk V c t (ix2 r 0) = sarr V c (ix2 e 0) := by
  obtain ⟨-, -, -, -, -, -, e6, e7, -⟩ := idx_facts t
  show V c main_v9 (((cfg0.win 3).blk t).view.emb (ix2 r 0)) = V c main_v9 (ix2 e 0)
  refine congrArg (V c main_v9) (funext fun a => Fin.ext ?_)
  match a with
  | ⟨0, _⟩ => show win0_3.index t (0 : Fin 2) * 640 + 1 * r.val = e.val; omega
  | ⟨1, _⟩ => show win0_3.index t (1 : Fin 2) * 1 + 1 * 0 = 0; omega

/-- The weights' block is the whole array at every point. -/
theorem wblk_eq (c : Dev nD) (t : Fin cfg0.N) : wblk V c t = warr V c := by
  obtain ⟨-, -, e2, e3, -⟩ := idx_facts t
  funext y
  show V c main_v10 (((cfg0.win 1).blk t).view.emb y) = V c main_v10 y
  refine congrArg (V c main_v10) (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- The bias' block is the whole array at every point. -/
theorem bblk_eq (c : Dev nD) (t : Fin cfg0.N) : bblk V c t = barr V c := by
  obtain ⟨-, -, -, -, e4, e5, -⟩ := idx_facts t
  funext y
  show V c main_v13 (((cfg0.win 2).blk t).view.emb y) = V c main_v13 y
  refine congrArg (V c main_v13) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-! ## The three accumulators after each point -/

theorem step4_A (c : Dev nD) (t : Fin cfg0.N) (h0 : t.val % 250 = 0) :
    (outsAt0 V c t.val t.isLt).1 = k0_pay11 (sblk V c t) (xblk V c t) (k0_pay3 (F := Ideal)) := by
  rw [outsAt0_A V c t h0]
  dsimp only
  exact piece_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (wblk V c t) (bblk V c t) (sblk V c t)

theorem step4_B (c : Dev nD) (t : Fin cfg0.N) (h0 : ¬t.val % 250 = 0) :
    (outsAt0 V c t.val t.isLt).1 = k0_pay11 (sblk V c t) (xblk V c t) (outsAt0 V c (t.val - 1) (Nat.lt_of_le_of_lt (Nat.sub_le _ _) t.isLt)).1 := by
  rw [outsAt0_B V c t h0]
  dsimp only
  exact piece_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (wblk V c t) (bblk V c t) (sblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2

/-- Point `n`'s contribution to the features' sums (zero past the grid). -/
def add4 (c : Dev nD) (n : Nat) (g : Fin 512) (j : Fin 256) : EReal :=
  if h : n < cfg0.N then ∑ r : Fin 640, Cert.Spec.oh (sblk V c ⟨n, h⟩ (ix2 r 0)) g * xblk V c ⟨n, h⟩ (ix2 r j) else 0

/-- After point `t` the features' accumulator holds the contributions of its core's points up to `t`. -/
theorem fold4 (c : Dev nD) (t : Fin cfg0.N) (q : S1x512x256.Idx) :
    (outsAt0 V c t.val t.isLt).1 q = 0 + ∑ s ∈ Finset.range (t.val % 250 + 1), add4 V c (250 * (t.val / 250) + s) (q 1) (q 2) := by
  have hN : cfg0.N = 500 := N_0
  have h' : 250 * (t.val / 250) + t.val % 250 < cfg0.N := by have := t.isLt; omega
  have h0 : ∀ (n : Nat) (h : n < cfg0.N), n % 250 = 0 → (outsAt0 V c n h).1 = k0_pay11 (sblk V c ⟨n, h⟩) (xblk V c ⟨n, h⟩) (k0_pay3 (F := Ideal)) :=
    fun n h hm => step4_A V c ⟨n, h⟩ hm
  have hs : ∀ (n : Nat) (h : n + 1 < cfg0.N), ¬(n + 1) % 250 = 0 → (outsAt0 V c (n + 1) h).1 = k0_pay11 (sblk V c ⟨n + 1, h⟩) (xblk V c ⟨n + 1, h⟩) (outsAt0 V c n (Nat.lt_of_succ_lt h)).1 :=
    fun n h hm => step4_B V c ⟨n + 1, h⟩ hm
  have key := Pipeline.eq_accAt_of_mod (N := cfg0.N) (α := Vec Ideal S1x512x256 .f32) (fun n h => (outsAt0 V c n h).1) 250
      (fun n h => k0_pay11 (sblk V c ⟨n, h⟩) (xblk V c ⟨n, h⟩) (k0_pay3 (F := Ideal)))
      (fun n h acc => k0_pay11 (sblk V c ⟨n, h⟩) (xblk V c ⟨n, h⟩) acc)
      h0 hs (by decide) t.val t.isLt h'
  refine (congrFun key q).trans ?_
  refine Pipeline.accAt_add_apply (N := cfg0.N) (ι := S1x512x256.Idx) (β := EReal)
      (fun n h => k0_pay11 (sblk V c ⟨n, h⟩) (xblk V c ⟨n, h⟩) (k0_pay3 (F := Ideal)))
      (fun n h acc => k0_pay11 (sblk V c ⟨n, h⟩) (xblk V c ⟨n, h⟩) acc)
      (fun _ => 0) (fun n q => add4 V c n (q 1) (q 2)) (250 * (t.val / 250)) 249 ?_ ?_ (t.val % 250) (by omega) h' q
  · intro h i
    obtain ⟨z, g, j, rfl⟩ : ∃ (z : Fin 1) (g : Fin 512) (j : Fin 256), i = ix3 z g j := ⟨i 0, i 1, i 2, eq_ix3 i⟩
    refine (pay11_apply (sblk V c ⟨250 * (t.val / 250), h⟩) (xblk V c ⟨250 * (t.val / 250), h⟩) (k0_pay3 (F := Ideal)) z g j).trans ?_
    rw [pay3_apply]
    show _ = 0 + add4 V c (250 * (t.val / 250)) g j
    unfold add4
    rw [dif_pos h]
  · intro n h acc i _ _
    obtain ⟨z, g, j, rfl⟩ : ∃ (z : Fin 1) (g : Fin 512) (j : Fin 256), i = ix3 z g j := ⟨i 0, i 1, i 2, eq_ix3 i⟩
    obtain rfl : z = 0 := Subsingleton.elim _ _
    refine (pay11_apply (sblk V c ⟨n, h⟩) (xblk V c ⟨n, h⟩) acc 0 g j).trans ?_
    show _ = acc (ix3 0 g j) + add4 V c n g j
    unfold add4
    rw [dif_pos h]

/-- A point's contribution to the features' sums, in terms of the arrays. -/
theorem add4_eq (c : Dev nD) (c' : Fin 2) (i' : Fin 250) (g : Fin 512) (j : Fin 256) :
    add4 V c (250 * c'.val + i'.val) g j
      = ∑ r : Fin 640, Cert.Spec.oh (Cert.Spec.segw (sarr V c) (Cert.Spec.edge c' i' r)) g * xarr V c (ix2 (Cert.Spec.edge c' i' r) j) := by
  have hN : cfg0.N = 500 := N_0
  have h : 250 * c'.val + i'.val < cfg0.N := by have := c'.isLt; have := i'.isLt; omega
  unfold add4
  rw [dif_pos h]
  refine Finset.sum_congr rfl fun r _ => ?_
  have he : (Cert.Spec.edge c' i' r).val = 640 * (250 * c'.val + i'.val) + r.val := by
    show (c'.val * 250 + i'.val) * 640 + r.val = _
    omega
  exact congrArg₂ (fun a b => Cert.Spec.oh a g * b)
    (sblk_apply V c ⟨250 * c'.val + i'.val, h⟩ r (Cert.Spec.edge c' i' r) he)
    (xblk_apply V c ⟨250 * c'.val + i'.val, h⟩ r j (Cert.Spec.edge c' i' r) he)

/-- A core's 250 contributions add up to its share of the per-graph sum. -/
theorem total4 (c : Dev nD) (c' : Fin 2) (g : Fin 512) (j : Fin 256) :
    0 + ∑ s ∈ Finset.range 250, add4 V c (250 * c'.val + s) g j
      = Cert.Spec.coreSum (sarr V c) (fun e => xarr V c (ix2 e j)) c' g := by
  rw [zero_add, Finset.sum_range]
  unfold Cert.Spec.coreSum
  exact Finset.sum_congr rfl fun i' _ => add4_eq V c c' i' g j

/-- The block a core's last point writes back, entry by entry. -/
theorem blk4_apply (c : Dev nD) (t : Fin cfg0.N) (hf : t.val % 250 = 249) (c' : Fin 2) (hc' : c'.val = t.val / 250) (y : S1x512x256.Idx) :
    (outsAt0 V c t.val t.isLt).1 y = Cert.Spec.r0_sumx (xarr V c) (sarr V c) (ix3 c' (y 1) (y 2)) := by
  refine (fold4 V c t y).trans ?_
  rw [hf, ← hc']
  exact total4 V c c' (y 1) (y 2)

/-- What a flushing point writes back is its block of the per-core table. -/
theorem flushed4_eq (c : Dev nD) (t : Fin cfg0.N) (hf : (cfg0.win 4).flush t = true) :
    (dat0 V c).flushed 4 t = ((cfg0.win 4).blk t).view.read (Elt Ideal) (Cert.Spec.r0_sumx (V c main_v8) (V c main_v9)) := by
  have hN : cfg0.N = 500 := N_0
  have h249 : t.val % 250 = 249 := (flush0_4 t).mp hf
  obtain ⟨-, -, -, -, -, -, -, -, e8, e9, e10, -⟩ := idx_facts t
  show (cfg0.win 4).cut (grid0.coords t) ((dat0 V c).after 4 t) = _
  rw [after0_4]
  funext y
  have hy0 : (y 0).val < 1 := (y 0).isLt
  have hc' : t.val / 250 < 2 := by have := t.isLt; omega
  refine (blk4_apply V c t h249 ⟨t.val / 250, hc'⟩ rfl y).trans ?_
  show Cert.Spec.r0_sumx (V c main_v8) (V c main_v9) _ = Cert.Spec.r0_sumx (V c main_v8) (V c main_v9) (((cfg0.win 4).blk t).view.emb y)
  refine congrArg _ (funext fun a => Fin.ext ?_)
  match a with
  | ⟨0, _⟩ => show t.val / 250 = win0_4.index t (0 : Fin 3) * 1 + 1 * (y 0).val; omega
  | ⟨1, _⟩ => show (y 1).val = win0_4.index t (1 : Fin 3) * 512 + 1 * (y 1).val; omega
  | ⟨2, _⟩ => show (y 2).val = win0_4.index t (2 : Fin 3) * 256 + 1 * (y 2).val; omega

/-- Every entry of the per-core table lies in the block of its core's last point. -/
theorem cover4 (i : S2x512x256.Idx) :
    ∃ t : Fin cfg0.N, (cfg0.win 4).flush t = true ∧ i ∈ ((cfg0.win 4).blk t).view.set := by
  have hN : cfg0.N = 500 := N_0
  have h0 : (i 0).val < 2 := (i 0).isLt
  have h1 : (i 1).val < 512 := (i 1).isLt
  have h2 : (i 2).val < 256 := (i 2).isLt
  have ht : 250 * (i 0).val + 249 < cfg0.N := by omega
  obtain ⟨-, -, -, -, -, -, -, -, e8, e9, e10, -⟩ := idx_facts ⟨250 * (i 0).val + 249, ht⟩
  have e8' : win0_4.index ⟨250 * (i 0).val + 249, ht⟩ (0 : Fin 3) = (250 * (i 0).val + 249) / 250 := e8
  refine ⟨⟨250 * (i 0).val + 249, ht⟩, (flush0_4 _).mpr (by show (250 * (i 0).val + 249) % 250 = 249; omega), ?_⟩
  show i ∈ ((View.whole main_v16_0).slice (win0_4.rect ⟨250 * (i 0).val + 249, ht⟩)).set
  rw [View.set_slice_whole, Rect.mem_set_unit]
  intro a
  match a with
  | ⟨0, _⟩ =>
    show win0_4.index ⟨250 * (i 0).val + 249, ht⟩ (0 : Fin 3) * 1 ≤ (i 0).val ∧ (i 0).val < win0_4.index ⟨250 * (i 0).val + 249, ht⟩ (0 : Fin 3) * 1 + 1
    omega
  | ⟨1, _⟩ =>
    show win0_4.index ⟨250 * (i 0).val + 249, ht⟩ (1 : Fin 3) * 512 ≤ (i 1).val ∧ (i 1).val < win0_4.index ⟨250 * (i 0).val + 249, ht⟩ (1 : Fin 3) * 512 + 512
    omega
  | ⟨2, _⟩ =>
    show win0_4.index ⟨250 * (i 0).val + 249, ht⟩ (2 : Fin 3) * 256 ≤ (i 2).val ∧ (i 2).val < win0_4.index ⟨250 * (i 0).val + 249, ht⟩ (2 : Fin 3) * 256 + 256
    omega

theorem step5_A (c : Dev nD) (t : Fin cfg0.N) (h0 : t.val % 250 = 0) :
    (outsAt0 V c t.val t.isLt).2.1 = k0_pay1 (k0_pay7 (xblk V c t) (wblk V c t) (bblk V c t)) (k0_pay8 (sblk V c t)) (k0_pay12 (k0_pay4 (F := Ideal))) := by
  rw [outsAt0_A V c t h0]
  dsimp only
  exact piece_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (wblk V c t) (bblk V c t) (sblk V c t)

theorem step5_B (c : Dev nD) (t : Fin cfg0.N) (h0 : ¬t.val % 250 = 0) :
    (outsAt0 V c t.val t.isLt).2.1 = k0_pay1 (k0_pay7 (xblk V c t) (wblk V c t) (bblk V c t)) (k0_pay8 (sblk V c t)) (k0_pay12 (outsAt0 V c (t.val - 1) (Nat.lt_of_le_of_lt (Nat.sub_le _ _) t.isLt)).2.1) := by
  rw [outsAt0_B V c t h0]
  dsimp only
  exact piece_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (wblk V c t) (bblk V c t) (sblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2

/-- Point `n`'s contribution to the sums of the squared first layer (zero past the grid). -/
def add5 (c : Dev nD) (n : Nat) (g : Fin 512) (k : Fin 512) : EReal :=
  if h : n < cfg0.N then ∑ r : Fin 640, Cert.Spec.oh (sblk V c ⟨n, h⟩ (ix2 r 0)) g * (Cert.Spec.Row.h1 (fun j => xblk V c ⟨n, h⟩ (ix2 r j)) (wblk V c ⟨n, h⟩) (bblk V c ⟨n, h⟩) k * Cert.Spec.Row.h1 (fun j => xblk V c ⟨n, h⟩ (ix2 r j)) (wblk V c ⟨n, h⟩) (bblk V c ⟨n, h⟩) k) else 0

/-- After point `t` the squares' accumulator holds the contributions of its core's points up to `t`. -/
theorem fold5 (c : Dev nD) (t : Fin cfg0.N) (q : S1x512x512.Idx) :
    (outsAt0 V c t.val t.isLt).2.1 q = 0 + ∑ s ∈ Finset.range (t.val % 250 + 1), add5 V c (250 * (t.val / 250) + s) (q 1) (q 2) := by
  have hN : cfg0.N = 500 := N_0
  have h' : 250 * (t.val / 250) + t.val % 250 < cfg0.N := by have := t.isLt; omega
  have h0 : ∀ (n : Nat) (h : n < cfg0.N), n % 250 = 0 → (outsAt0 V c n h).2.1 = k0_pay1 (k0_pay7 (xblk V c ⟨n, h⟩) (wblk V c ⟨n, h⟩) (bblk V c ⟨n, h⟩)) (k0_pay8 (sblk V c ⟨n, h⟩)) (k0_pay12 (k0_pay4 (F := Ideal))) :=
    fun n h hm => step5_A V c ⟨n, h⟩ hm
  have hs : ∀ (n : Nat) (h : n + 1 < cfg0.N), ¬(n + 1) % 250 = 0 → (outsAt0 V c (n + 1) h).2.1 = k0_pay1 (k0_pay7 (xblk V c ⟨n + 1, h⟩) (wblk V c ⟨n + 1, h⟩) (bblk V c ⟨n + 1, h⟩)) (k0_pay8 (sblk V c ⟨n + 1, h⟩)) (k0_pay12 (outsAt0 V c n (Nat.lt_of_succ_lt h)).2.1) :=
    fun n h hm => step5_B V c ⟨n + 1, h⟩ hm
  have key := Pipeline.eq_accAt_of_mod (N := cfg0.N) (α := Vec Ideal S1x512x512 .f32) (fun n h => (outsAt0 V c n h).2.1) 250
      (fun n h => k0_pay1 (k0_pay7 (xblk V c ⟨n, h⟩) (wblk V c ⟨n, h⟩) (bblk V c ⟨n, h⟩)) (k0_pay8 (sblk V c ⟨n, h⟩)) (k0_pay12 (k0_pay4 (F := Ideal))))
      (fun n h acc => k0_pay1 (k0_pay7 (xblk V c ⟨n, h⟩) (wblk V c ⟨n, h⟩) (bblk V c ⟨n, h⟩)) (k0_pay8 (sblk V c ⟨n, h⟩)) (k0_pay12 acc))
      h0 hs (by decide) t.val t.isLt h'
  refine (congrFun key q).trans ?_
  refine Pipeline.accAt_add_apply (N := cfg0.N) (ι := S1x512x512.Idx) (β := EReal)
      (fun n h => k0_pay1 (k0_pay7 (xblk V c ⟨n, h⟩) (wblk V c ⟨n, h⟩) (bblk V c ⟨n, h⟩)) (k0_pay8 (sblk V c ⟨n, h⟩)) (k0_pay12 (k0_pay4 (F := Ideal))))
      (fun n h acc => k0_pay1 (k0_pay7 (xblk V c ⟨n, h⟩) (wblk V c ⟨n, h⟩) (bblk V c ⟨n, h⟩)) (k0_pay8 (sblk V c ⟨n, h⟩)) (k0_pay12 acc))
      (fun _ => 0) (fun n q => add5 V c n (q 1) (q 2)) (250 * (t.val / 250)) 249 ?_ ?_ (t.val % 250) (by omega) h' q
  · intro h i
    obtain ⟨z, g, k, rfl⟩ : ∃ (z : Fin 1) (g : Fin 512) (k : Fin 512), i = ix3 z g k := ⟨i 0, i 1, i 2, eq_ix3 i⟩
    refine (pay1_apply (sblk V c ⟨250 * (t.val / 250), h⟩) (xblk V c ⟨250 * (t.val / 250), h⟩) (wblk V c ⟨250 * (t.val / 250), h⟩) (bblk V c ⟨250 * (t.val / 250), h⟩) (k0_pay4 (F := Ideal)) z g k).trans ?_
    rw [pay4_apply]
    show _ = 0 + add5 V c (250 * (t.val / 250)) g k
    unfold add5
    rw [dif_pos h]
  · intro n h acc i _ _
    obtain ⟨z, g, k, rfl⟩ : ∃ (z : Fin 1) (g : Fin 512) (k : Fin 512), i = ix3 z g k := ⟨i 0, i 1, i 2, eq_ix3 i⟩
    obtain rfl : z = 0 := Subsingleton.elim _ _
    refine (pay1_apply (sblk V c ⟨n, h⟩) (xblk V c ⟨n, h⟩) (wblk V c ⟨n, h⟩) (bblk V c ⟨n, h⟩) acc 0 g k).trans ?_
    show _ = acc (ix3 0 g k) + add5 V c n g k
    unfold add5
    rw [dif_pos h]

/-- A point's contribution to the squares' sums, in terms of the arrays. -/
theorem add5_eq (c : Dev nD) (c' : Fin 2) (i' : Fin 250) (g : Fin 512) (k : Fin 512) :
    add5 V c (250 * c'.val + i'.val) g k
      = ∑ r : Fin 640, Cert.Spec.oh (Cert.Spec.segw (sarr V c) (Cert.Spec.edge c' i' r)) g
          * (Cert.Spec.h1 (xarr V c) (warr V c) (barr V c) (Cert.Spec.edge c' i' r) k * Cert.Spec.h1 (xarr V c) (warr V c) (barr V c) (Cert.Spec.edge c' i' r) k) := by
  have hN : cfg0.N = 500 := N_0
  have h : 250 * c'.val + i'.val < cfg0.N := by have := c'.isLt; have := i'.isLt; omega
  unfold add5
  rw [dif_pos h]
  refine Finset.sum_congr rfl fun r _ => ?_
  have he : (Cert.Spec.edge c' i' r).val = 640 * (250 * c'.val + i'.val) + r.val := by
    show (c'.val * 250 + i'.val) * 640 + r.val = _
    omega
  have hx : (fun j => xblk V c ⟨250 * c'.val + i'.val, h⟩ (ix2 r j)) = fun j => xarr V c (ix2 (Cert.Spec.edge c' i' r) j) :=
    funext fun j => xblk_apply V c ⟨250 * c'.val + i'.val, h⟩ r j (Cert.Spec.edge c' i' r) he
  have hh : Cert.Spec.Row.h1 (fun j => xblk V c ⟨250 * c'.val + i'.val, h⟩ (ix2 r j)) (wblk V c ⟨250 * c'.val + i'.val, h⟩) (bblk V c ⟨250 * c'.val + i'.val, h⟩) k = Cert.Spec.h1 (xarr V c) (warr V c) (barr V c) (Cert.Spec.edge c' i' r) k := by
    rw [hx, wblk_eq V c ⟨250 * c'.val + i'.val, h⟩, bblk_eq V c ⟨250 * c'.val + i'.val, h⟩]
    rfl
  rw [hh]
  exact congrArg (fun a => Cert.Spec.oh a g * _) (sblk_apply V c ⟨250 * c'.val + i'.val, h⟩ r (Cert.Spec.edge c' i' r) he)

/-- A core's 250 contributions add up to its share of the per-graph sum of squares. -/
theorem total5 (c : Dev nD) (c' : Fin 2) (g : Fin 512) (k : Fin 512) :
    0 + ∑ s ∈ Finset.range 250, add5 V c (250 * c'.val + s) g k
      = Cert.Spec.coreSum (sarr V c) (fun e => Cert.Spec.h1 (xarr V c) (warr V c) (barr V c) e k * Cert.Spec.h1 (xarr V c) (warr V c) (barr V c) e k) c' g := by
  rw [zero_add, Finset.sum_range]
  unfold Cert.Spec.coreSum
  exact Finset.sum_congr rfl fun i' _ => add5_eq V c c' i' g k

/-- The block a core's last point writes back, entry by entry. -/
theorem blk5_apply (c : Dev nD) (t : Fin cfg0.N) (hf : t.val % 250 = 249) (c' : Fin 2) (hc' : c'.val = t.val / 250) (y : S1x512x512.Idx) :
    (outsAt0 V c t.val t.isLt).2.1 y = Cert.Spec.r0_sq1 (xarr V c) (sarr V c) (warr V c) (barr V c) (ix3 c' (y 1) (y 2)) := by
  refine (fold5 V c t y).trans ?_
  rw [hf, ← hc']
  exact total5 V c c' (y 1) (y 2)

/-- What a flushing point writes back is its block of the per-core table. -/
theorem flushed5_eq (c : Dev nD) (t : Fin cfg0.N) (hf : (cfg0.win 5).flush t = true) :
    (dat0 V c).flushed 5 t = ((cfg0.win 5).blk t).view.read (Elt Ideal) (Cert.Spec.r0_sq1 (V c main_v8) (V c main_v9) (V c main_v10) (V c main_v13)) := by
  have hN : cfg0.N = 500 := N_0
  have h249 : t.val % 250 = 249 := (flush0_5 t).mp hf
  obtain ⟨-, -, -, -, -, -, -, -, -, -, -, e8, e9, e10, -⟩ := idx_facts t
  show (cfg0.win 5).cut (grid0.coords t) ((dat0 V c).after 5 t) = _
  rw [after0_5]
  funext y
  have hy0 : (y 0).val < 1 := (y 0).isLt
  have hc' : t.val / 250 < 2 := by have := t.isLt; omega
  refine (blk5_apply V c t h249 ⟨t.val / 250, hc'⟩ rfl y).trans ?_
  show Cert.Spec.r0_sq1 (V c main_v8) (V c main_v9) (V c main_v10) (V c main_v13) _ = Cert.Spec.r0_sq1 (V c main_v8) (V c main_v9) (V c main_v10) (V c main_v13) (((cfg0.win 5).blk t).view.emb y)
  refine congrArg _ (funext fun a => Fin.ext ?_)
  match a with
  | ⟨0, _⟩ => show t.val / 250 = win0_5.index t (0 : Fin 3) * 1 + 1 * (y 0).val; omega
  | ⟨1, _⟩ => show (y 1).val = win0_5.index t (1 : Fin 3) * 512 + 1 * (y 1).val; omega
  | ⟨2, _⟩ => show (y 2).val = win0_5.index t (2 : Fin 3) * 512 + 1 * (y 2).val; omega

/-- Every entry of the per-core table lies in the block of its core's last point. -/
theorem cover5 (i : S2x512x512.Idx) :
    ∃ t : Fin cfg0.N, (cfg0.win 5).flush t = true ∧ i ∈ ((cfg0.win 5).blk t).view.set := by
  have hN : cfg0.N = 500 := N_0
  have h0 : (i 0).val < 2 := (i 0).isLt
  have h1 : (i 1).val < 512 := (i 1).isLt
  have h2 : (i 2).val < 512 := (i 2).isLt
  have ht : 250 * (i 0).val + 249 < cfg0.N := by omega
  obtain ⟨-, -, -, -, -, -, -, -, -, -, -, e8, e9, e10, -⟩ := idx_facts ⟨250 * (i 0).val + 249, ht⟩
  have e8' : win0_5.index ⟨250 * (i 0).val + 249, ht⟩ (0 : Fin 3) = (250 * (i 0).val + 249) / 250 := e8
  refine ⟨⟨250 * (i 0).val + 249, ht⟩, (flush0_5 _).mpr (by show (250 * (i 0).val + 249) % 250 = 249; omega), ?_⟩
  show i ∈ ((View.whole main_v16_1).slice (win0_5.rect ⟨250 * (i 0).val + 249, ht⟩)).set
  rw [View.set_slice_whole, Rect.mem_set_unit]
  intro a
  match a with
  | ⟨0, _⟩ =>
    show win0_5.index ⟨250 * (i 0).val + 249, ht⟩ (0 : Fin 3) * 1 ≤ (i 0).val ∧ (i 0).val < win0_5.index ⟨250 * (i 0).val + 249, ht⟩ (0 : Fin 3) * 1 + 1
    omega
  | ⟨1, _⟩ =>
    show win0_5.index ⟨250 * (i 0).val + 249, ht⟩ (1 : Fin 3) * 512 ≤ (i 1).val ∧ (i 1).val < win0_5.index ⟨250 * (i 0).val + 249, ht⟩ (1 : Fin 3) * 512 + 512
    omega
  | ⟨2, _⟩ =>
    show win0_5.index ⟨250 * (i 0).val + 249, ht⟩ (2 : Fin 3) * 512 ≤ (i 2).val ∧ (i 2).val < win0_5.index ⟨250 * (i 0).val + 249, ht⟩ (2 : Fin 3) * 512 + 512
    omega

theorem step6_A (c : Dev nD) (t : Fin cfg0.N) (h0 : t.val % 250 = 0) :
    (outsAt0 V c t.val t.isLt).2.2 = k0_pay2 (k0_pay9 (sblk V c t)) (k0_pay10 (F := Ideal)) (k0_pay5 (F := Ideal)) := by
  rw [outsAt0_A V c t h0]
  dsimp only
  exact piece_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (wblk V c t) (bblk V c t) (sblk V c t)

theorem step6_B (c : Dev nD) (t : Fin cfg0.N) (h0 : ¬t.val % 250 = 0) :
    (outsAt0 V c t.val t.isLt).2.2 = k0_pay2 (k0_pay9 (sblk V c t)) (k0_pay10 (F := Ideal)) (outsAt0 V c (t.val - 1) (Nat.lt_of_le_of_lt (Nat.sub_le _ _) t.isLt)).2.2 := by
  rw [outsAt0_B V c t h0]
  dsimp only
  exact piece_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (wblk V c t) (bblk V c t) (sblk V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2

/-- Point `n`'s contribution to the counts (zero past the grid). -/
def add6 (c : Dev nD) (n : Nat) (g : Fin 512) : EReal :=
  if h : n < cfg0.N then ∑ r : Fin 640, Cert.Spec.oh (sblk V c ⟨n, h⟩ (ix2 r 0)) g * 1 else 0

/-- After point `t` the counts' accumulator holds the contributions of its core's points up to `t`. -/
theorem fold6 (c : Dev nD) (t : Fin cfg0.N) (q : S1x512x128.Idx) :
    (outsAt0 V c t.val t.isLt).2.2 q = 0 + ∑ s ∈ Finset.range (t.val % 250 + 1), add6 V c (250 * (t.val / 250) + s) (q 1) := by
  have hN : cfg0.N = 500 := N_0
  have h' : 250 * (t.val / 250) + t.val % 250 < cfg0.N := by have := t.isLt; omega
  have h0 : ∀ (n : Nat) (h : n < cfg0.N), n % 250 = 0 → (outsAt0 V c n h).2.2 = k0_pay2 (k0_pay9 (sblk V c ⟨n, h⟩)) (k0_pay10 (F := Ideal)) (k0_pay5 (F := Ideal)) :=
    fun n h hm => step6_A V c ⟨n, h⟩ hm
  have hs : ∀ (n : Nat) (h : n + 1 < cfg0.N), ¬(n + 1) % 250 = 0 → (outsAt0 V c (n + 1) h).2.2 = k0_pay2 (k0_pay9 (sblk V c ⟨n + 1, h⟩)) (k0_pay10 (F := Ideal)) (outsAt0 V c n (Nat.lt_of_succ_lt h)).2.2 :=
    fun n h hm => step6_B V c ⟨n + 1, h⟩ hm
  have key := Pipeline.eq_accAt_of_mod (N := cfg0.N) (α := Vec Ideal S1x512x128 .f32) (fun n h => (outsAt0 V c n h).2.2) 250
      (fun n h => k0_pay2 (k0_pay9 (sblk V c ⟨n, h⟩)) (k0_pay10 (F := Ideal)) (k0_pay5 (F := Ideal)))
      (fun n h acc => k0_pay2 (k0_pay9 (sblk V c ⟨n, h⟩)) (k0_pay10 (F := Ideal)) acc)
      h0 hs (by decide) t.val t.isLt h'
  refine (congrFun key q).trans ?_
  refine Pipeline.accAt_add_apply (N := cfg0.N) (ι := S1x512x128.Idx) (β := EReal)
      (fun n h => k0_pay2 (k0_pay9 (sblk V c ⟨n, h⟩)) (k0_pay10 (F := Ideal)) (k0_pay5 (F := Ideal)))
      (fun n h acc => k0_pay2 (k0_pay9 (sblk V c ⟨n, h⟩)) (k0_pay10 (F := Ideal)) acc)
      (fun _ => 0) (fun n q => add6 V c n (q 1)) (250 * (t.val / 250)) 249 ?_ ?_ (t.val % 250) (by omega) h' q
  · intro h i
    obtain ⟨z, g, d, rfl⟩ : ∃ (z : Fin 1) (g : Fin 512) (d : Fin 128), i = ix3 z g d := ⟨i 0, i 1, i 2, eq_ix3 i⟩
    refine (pay2_apply (sblk V c ⟨250 * (t.val / 250), h⟩) (k0_pay5 (F := Ideal)) z g d).trans ?_
    rw [pay5_apply]
    show _ = 0 + add6 V c (250 * (t.val / 250)) g
    unfold add6
    rw [dif_pos h]
  · intro n h acc i _ _
    obtain ⟨z, g, d, rfl⟩ : ∃ (z : Fin 1) (g : Fin 512) (d : Fin 128), i = ix3 z g d := ⟨i 0, i 1, i 2, eq_ix3 i⟩
    obtain rfl : z = 0 := Subsingleton.elim _ _
    refine (pay2_apply (sblk V c ⟨n, h⟩) acc 0 g d).trans ?_
    show _ = acc (ix3 0 g d) + add6 V c n g
    unfold add6
    rw [dif_pos h]

/-- A point's contribution to the counts, in terms of the segment words' array. -/
theorem add6_eq (c : Dev nD) (c' : Fin 2) (i' : Fin 250) (g : Fin 512) :
    add6 V c (250 * c'.val + i'.val) g
      = ∑ r : Fin 640, Cert.Spec.oh (Cert.Spec.segw (sarr V c) (Cert.Spec.edge c' i' r)) g * 1 := by
  have hN : cfg0.N = 500 := N_0
  have h : 250 * c'.val + i'.val < cfg0.N := by have := c'.isLt; have := i'.isLt; omega
  unfold add6
  rw [dif_pos h]
  refine Finset.sum_congr rfl fun r _ => ?_
  have he : (Cert.Spec.edge c' i' r).val = 640 * (250 * c'.val + i'.val) + r.val := by
    show (c'.val * 250 + i'.val) * 640 + r.val = _
    omega
  exact congrArg (fun a => Cert.Spec.oh a g * 1) (sblk_apply V c ⟨250 * c'.val + i'.val, h⟩ r (Cert.Spec.edge c' i' r) he)

/-- A core's 250 contributions add up to its share of the per-graph count. -/
theorem total6 (c : Dev nD) (c' : Fin 2) (g : Fin 512) (d : Fin 128) :
    0 + ∑ s ∈ Finset.range 250, add6 V c (250 * c'.val + s) g
      = Cert.Spec.coreSum (sarr V c) (fun _ => 1) c' g := by
  rw [zero_add, Finset.sum_range]
  unfold Cert.Spec.coreSum
  exact Finset.sum_congr rfl fun i' _ => add6_eq V c c' i' g

/-- The block a core's last point writes back, entry by entry. -/
theorem blk6_apply (c : Dev nD) (t : Fin cfg0.N) (hf : t.val % 250 = 249) (c' : Fin 2) (hc' : c'.val = t.val / 250) (y : S1x512x128.Idx) :
    (outsAt0 V c t.val t.isLt).2.2 y = Cert.Spec.r0_cnt (sarr V c) (ix3 c' (y 1) (y 2)) := by
  refine (fold6 V c t y).trans ?_
  rw [hf, ← hc']
  exact total6 V c c' (y 1) (y 2)

/-- What a flushing point writes back is its block of the per-core table. -/
theorem flushed6_eq (c : Dev nD) (t : Fin cfg0.N) (hf : (cfg0.win 6).flush t = true) :
    (dat0 V c).flushed 6 t = ((cfg0.win 6).blk t).view.read (Elt Ideal) (Cert.Spec.r0_cnt (V c main_v9)) := by
  have hN : cfg0.N = 500 := N_0
  have h249 : t.val % 250 = 249 := (flush0_6 t).mp hf
  obtain ⟨-, -, -, -, -, -, -, -, -, -, -, -, -, -, e8, e9, e10⟩ := idx_facts t
  show (cfg0.win 6).cut (grid0.coords t) ((dat0 V c).after 6 t) = _
  rw [after0_6]
  funext y
  have hy0 : (y 0).val < 1 := (y 0).isLt
  have hc' : t.val / 250 < 2 := by have := t.isLt; omega
  refine (blk6_apply V c t h249 ⟨t.val / 250, hc'⟩ rfl y).trans ?_
  show Cert.Spec.r0_cnt (V c main_v9) _ = Cert.Spec.r0_cnt (V c main_v9) (((cfg0.win 6).blk t).view.emb y)
  refine congrArg _ (funext fun a => Fin.ext ?_)
  match a with
  | ⟨0, _⟩ => show t.val / 250 = win0_6.index t (0 : Fin 3) * 1 + 1 * (y 0).val; omega
  | ⟨1, _⟩ => show (y 1).val = win0_6.index t (1 : Fin 3) * 512 + 1 * (y 1).val; omega
  | ⟨2, _⟩ => show (y 2).val = win0_6.index t (2 : Fin 3) * 128 + 1 * (y 2).val; omega

/-- Every entry of the per-core table lies in the block of its core's last point. -/
theorem cover6 (i : S2x512x128.Idx) :
    ∃ t : Fin cfg0.N, (cfg0.win 6).flush t = true ∧ i ∈ ((cfg0.win 6).blk t).view.set := by
  have hN : cfg0.N = 500 := N_0
  have h0 : (i 0).val < 2 := (i 0).isLt
  have h1 : (i 1).val < 512 := (i 1).isLt
  have h2 : (i 2).val < 128 := (i 2).isLt
  have ht : 250 * (i 0).val + 249 < cfg0.N := by omega
  obtain ⟨-, -, -, -, -, -, -, -, -, -, -, -, -, -, e8, e9, e10⟩ := idx_facts ⟨250 * (i 0).val + 249, ht⟩
  have e8' : win0_6.index ⟨250 * (i 0).val + 249, ht⟩ (0 : Fin 3) = (250 * (i 0).val + 249) / 250 := e8
  refine ⟨⟨250 * (i 0).val + 249, ht⟩, (flush0_6 _).mpr (by show (250 * (i 0).val + 249) % 250 = 249; omega), ?_⟩
  show i ∈ ((View.whole main_v16_2).slice (win0_6.rect ⟨250 * (i 0).val + 249, ht⟩)).set
  rw [View.set_slice_whole, Rect.mem_set_unit]
  intro a
  match a with
  | ⟨0, _⟩ =>
    show win0_6.index ⟨250 * (i 0).val + 249, ht⟩ (0 : Fin 3) * 1 ≤ (i 0).val ∧ (i 0).val < win0_6.index ⟨250 * (i 0).val + 249, ht⟩ (0 : Fin 3) * 1 + 1
    omega
  | ⟨1, _⟩ =>
    show win0_6.index ⟨250 * (i 0).val + 249, ht⟩ (1 : Fin 3) * 512 ≤ (i 1).val ∧ (i 1).val < win0_6.index ⟨250 * (i 0).val + 249, ht⟩ (1 : Fin 3) * 512 + 512
    omega
  | ⟨2, _⟩ =>
    show win0_6.index ⟨250 * (i 0).val + 249, ht⟩ (2 : Fin 3) * 128 ≤ (i 2).val ∧ (i 2).val < win0_6.index ⟨250 * (i 0).val + 249, ht⟩ (2 : Fin 3) * 128 + 128
    omega

/-! ## The three output arrays after the run -/

/-- Per core and graph, the features summed over the core's edges of that graph. -/
theorem out4 (c : Dev nD) :
    (dat0 (F := Ideal) V c).arrAt 4 cfg0.N = Cert.Spec.r0_sumx (V c main_v8) (V c main_v9) :=
  (dat0 V c).arrAt_eq_of_cover 4 (Cert.Spec.r0_sumx (V c main_v8) (V c main_v9)) (flushed4_eq V c) (fun i => cover4 i)

/-- Per core and graph, the squared first layer summed over the core's edges of that graph. -/
theorem out5 (c : Dev nD) :
    (dat0 (F := Ideal) V c).arrAt 5 cfg0.N = Cert.Spec.r0_sq1 (V c main_v8) (V c main_v9) (V c main_v10) (V c main_v13) :=
  (dat0 V c).arrAt_eq_of_cover 5 (Cert.Spec.r0_sq1 (V c main_v8) (V c main_v9) (V c main_v10) (V c main_v13)) (flushed5_eq V c) (fun i => cover5 i)

/-- Per core and graph, the number of the core's edges of that graph, in every lane. -/
theorem out6 (c : Dev nD) :
    (dat0 (F := Ideal) V c).arrAt 6 cfg0.N = Cert.Spec.r0_cnt (V c main_v9) :=
  (dat0 V c).arrAt_eq_of_cover 6 (Cert.Spec.r0_cnt (V c main_v9)) (flushed6_eq V c) (fun i => cover6 i)

end Cert.KernelIdeal.Reg0

end
-- ==== Proof.Reg1Body.lean ====
/-
  The second call's body at one grid point, read at an index: from the point's loaded blocks — the tile's 640 feature rows
  `x0` and segment words `x5`, the weights `x1 x2 x3 x4`, the three per-graph tables `x6 x7 x8` — the stored second-layer
  value of row r is the row function of that row's features and word, and each accumulator gains, per graph g, the sum
  over the tile's rows of the indicator times the value (or its square).
-/
import proofs.«408983_j37177236914744_3_alg».proof.Proof.Gen.KernelIdeal.Frame
import proofs.«408983_j37177236914744_3_alg».proof.Proof.SpecRow
import proofs.«408983_j37177236914744_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg1Body

open Idealize.ShloMosaic Idealize.ShloMosaic.TcCoe Idealize.SL.Sem Idealize.ShloMosaic.ValueIdx
open Cert.KernelIdeal Cert.KernelIdeal.Gen
open Idealize.ShloMosaic.Pipeline (Dat)

/-! ### Literal words -/

/-- The f32 word 0x3F800000 is one. -/
theorem one_f32 : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- The comparison word of two words, widened and read as a number, is the indicator of their equality. -/
theorem ind_word (a b : BitVec 32) :
    (((BitVec.setWidth 32 (IntOp.cmpi .eq a b)).toInt : ℝ) : EReal) = if a = b then 1 else 0 := by
  unfold IntOp.cmpi
  by_cases h : a = b
  · have e : (a == b) = true := by simpa using h
    rw [if_pos h]; dsimp only; rw [e]
    have : (BitVec.setWidth 32 (BitVec.ofBool true)).toInt = 1 := by decide
    rw [this]; norm_num
  · have e : (a == b) = false := by simpa using h
    rw [if_neg h]; dsimp only; rw [e]
    have : (BitVec.setWidth 32 (BitVec.ofBool false)).toInt = 0 := by decide
    rw [this]; norm_num

/-! ### Layout operations of the body read at an index -/

/-- A column broadcast across lanes reads the row's one entry. -/
theorem bcast_col {α : Type} (v : (⟨2, ![640, 1]⟩ : Shape).Idx → α) (h : (⟨2, ![640, 1]⟩ : Shape).Broadcasts ⟨2, ![640, 512]⟩)
    (r : Fin 640) (g : Fin 512) : broadcastTo ⟨2, ![640, 512]⟩ v h (ix2 r g) = v (ix2 r (0 : Fin 1)) := by
  refine broadcastTo_apply v h (ix2 r g) (ix2 r (0 : Fin 1)) fun ax => ?_
  match ax with
  | ⟨0, _⟩ => rfl
  | ⟨1, _⟩ => rfl

/-- A column cast to a vector and back is the column. -/
theorem col_roundtrip {α : Type} (v : S640x1.Idx → α) (r : Fin 640) :
    shapeCast S640x1 (shapeCast S640 v shapeCasts_S640x1_S640) shapeCasts_S640_S640x1 (ix2 r (0 : Fin 1)) = v (ix2 r 0) := by
  rw [shapeCast_shapeCast]

/-- Four copies of a 128-lane array side by side read, at lane k, the copy's lane k mod 128. -/
theorem concat4_apply {α : Type} (v : S640x128.Idx → α)
    (h : Shape.Concatenates [S640x128, S640x128, S640x128, S640x128] S640x512 1) (r : Fin 640) (k : Fin 512) :
    concatenate S640x512 1 [⟨S640x128, v⟩, ⟨S640x128, v⟩, ⟨S640x128, v⟩, ⟨S640x128, v⟩] h (ix2 r k)
      = v (ix2 r (Cert.Spec.lane k)) := by
  refine concatenate_replicate_apply (t := S640x512) (s₁ := S640x128) 1 4 v h rfl (ix2 r k) (ix2 r (Cert.Spec.lane k)) rfl
    (fun b hb => ?_)
  match b with
  | ⟨0, _⟩ => rfl
  | ⟨1, _⟩ => exact absurd rfl hb

/-! ### The indicator -/

/-- The indicator column: the 0/1 value of the comparison of the row's word with the lane number. -/
theorem onehot_apply (x5 : Vec Ideal S640x1 .i32) (r : Fin 640) (g : Fin 512) :
    k1_pay5 (F := Ideal) x5 (ix2 r g) = Cert.Spec.oh (x5 (ix2 r 0)) g := by
  unfold k1_pay5
  dsimp only
  rw [sitofp_apply, extui_apply, shapeCast_self]
  unfold cmpi
  rw [bcast_col, col_roundtrip, broadcastTo_1b_ab_apply, iota_single_apply]
  exact ind_word _ _

/-! ### The products of the body read at an entry -/

theorem mmA_apply {φ₁ φ₂ : FTy} (prec : Option ContractPrecision) (l : FVec Ideal S640x256 φ₁) (w : FVec Ideal S256x512 φ₂)
    (r : Fin 640) (k : Fin 512) :
    matmul dot_S640x256_S256x512_S640x512_1_0_0_1_n_n prec l w (constant (F := Ideal) S640x512 .f32 0x00000000#32) (ix2 r k)
      = ∑ j : Fin 256, l (ix2 r j) * w (ix2 j k) :=
  PlainDot.matmul_zero_apply prec l w r k

theorem mmB_apply {φ₁ φ₂ : FTy} (prec : Option ContractPrecision) (l : FVec Ideal S640x512 φ₁) (w : FVec Ideal S512x128 φ₂)
    (r : Fin 640) (d : Fin 128) :
    matmul dot_S640x512_S512x128_S640x128_1_0_0_1_n_n prec l w (constant (F := Ideal) S640x128 .f32 0x00000000#32) (ix2 r d)
      = ∑ k : Fin 512, l (ix2 r k) * w (ix2 k d) :=
  PlainDot.matmul_zero_apply prec l w r d

theorem mmC_apply {φ₁ φ₂ : FTy} (prec : Option ContractPrecision) (l : FVec Ideal S640x512 φ₁) (w : FVec Ideal S512x512 φ₂)
    (r : Fin 640) (k : Fin 512) :
    matmul dot_S640x512_S512x512_S640x512_1_0_0_1_n_n prec l w (constant (F := Ideal) S640x512 .f32 0x00000000#32) (ix2 r k)
      = ∑ g : Fin 512, l (ix2 r g) * w (ix2 g k) :=
  PlainDot.matmul_zero_apply prec l w r k

/-- The left operand of the row-contracted product at result (g, d), contraction position q: row the contracted coordinate, -/
theorem tl_lhs_0 (i : S512x128.Idx) (q : dot_S640x512_S640x128_S512x128_0_0_1_1_n_n.contr.Idx) :
    (dot_S640x512_S640x128_S512x128_0_0_1_1_n_n.lhsIdx i q 0).val = (q ⟨0, Nat.one_pos⟩).val :=
  dot_S640x512_S640x128_S512x128_0_0_1_1_n_n.lhsIdx_val_of_single rfl i q

/-- column the result's row. -/
theorem tl_lhs_1 (i : S512x128.Idx) (q : dot_S640x512_S640x128_S512x128_0_0_1_1_n_n.contr.Idx) :
    (dot_S640x512_S640x128_S512x128_0_0_1_1_n_n.lhsIdx i q 1).val = (i 0).val := by
  unfold DotDims.lhsIdx
  rw [dif_neg (show ¬(1 : Fin S640x512.rank) ∈ dot_S640x512_S640x128_S512x128_0_0_1_1_n_n.lhsBatch by decide),
    dif_pos (show (1 : Fin S640x512.rank) ∈ dot_S640x512_S640x128_S512x128_0_0_1_1_n_n.lhsNonContracting by decide)]
  rfl

/-- The right operand: row the contracted coordinate, -/
theorem tl_rhs_0 (i : S512x128.Idx) (q : dot_S640x512_S640x128_S512x128_0_0_1_1_n_n.contr.Idx) :
    (dot_S640x512_S640x128_S512x128_0_0_1_1_n_n.rhsIdx i q 0).val = (q ⟨0, Nat.one_pos⟩).val :=
  dot_S640x512_S640x128_S512x128_0_0_1_1_n_n.rhsIdx_val_of_single rfl i q

/-- column the result's column. -/
theorem tl_rhs_1 (i : S512x128.Idx) (q : dot_S640x512_S640x128_S512x128_0_0_1_1_n_n.contr.Idx) :
    (dot_S640x512_S640x128_S512x128_0_0_1_1_n_n.rhsIdx i q 1).val = (i 1).val := by
  unfold DotDims.rhsIdx
  rw [dif_neg (show ¬(1 : Fin S640x128.rank) ∈ dot_S640x512_S640x128_S512x128_0_0_1_1_n_n.rhsBatch by decide),
    dif_pos (show (1 : Fin S640x128.rank) ∈ dot_S640x512_S640x128_S512x128_0_0_1_1_n_n.rhsNonContracting by decide)]
  rfl

/-- The contraction sum of the row-contracted product at entry (g, d), re-indexed by the tile row. -/
theorem sum_tl {α : Type} [AddCommMonoid α] (f : S640x512.Idx → S640x128.Idx → α) (g : Fin 512) (d : Fin 128) :
    ∑ q : dot_S640x512_S640x128_S512x128_0_0_1_1_n_n.contr.Idx,
        f (dot_S640x512_S640x128_S512x128_0_0_1_1_n_n.lhsIdx (ix2 g d) q) (dot_S640x512_S640x128_S512x128_0_0_1_1_n_n.rhsIdx (ix2 g d) q)
      = ∑ r : Fin 640, f (ix2 r g) (ix2 r d) := by
  rw [← Equiv.sum_comp (contrEquiv1 dot_S640x512_S640x128_S512x128_0_0_1_1_n_n 640 rfl rfl).symm]
  refine Finset.sum_congr rfl fun r _ => ?_
  have hk := contrEquiv1_symm_val dot_S640x512_S640x128_S512x128_0_0_1_1_n_n 640 rfl rfl r
  have el : dot_S640x512_S640x128_S512x128_0_0_1_1_n_n.lhsIdx (ix2 g d)
      ((contrEquiv1 dot_S640x512_S640x128_S512x128_0_0_1_1_n_n 640 rfl rfl).symm r) = ix2 r g :=
    funext fun a => Fin.ext (by
      match a with
      | ⟨0, _⟩ => exact (tl_lhs_0 _ _).trans hk
      | ⟨1, _⟩ => exact tl_lhs_1 _ _)
  have er : dot_S640x512_S640x128_S512x128_0_0_1_1_n_n.rhsIdx (ix2 g d)
      ((contrEquiv1 dot_S640x512_S640x128_S512x128_0_0_1_1_n_n 640 rfl rfl).symm r) = ix2 r d :=
    funext fun a => Fin.ext (by
      match a with
      | ⟨0, _⟩ => exact (tl_rhs_0 _ _).trans hk
      | ⟨1, _⟩ => exact tl_rhs_1 _ _)
  rw [el, er]

/-- The row-contracted product onto a zero accumulator, at entry (g, d): the sum over the tile's rows. -/
theorem mmT_apply {φ₁ φ₂ : FTy} (prec : Option ContractPrecision) (l : FVec Ideal S640x512 φ₁) (v : FVec Ideal S640x128 φ₂)
    (g : Fin 512) (d : Fin 128) :
    matmul dot_S640x512_S640x128_S512x128_0_0_1_1_n_n prec l v (constant (F := Ideal) S512x128 .f32 0x00000000#32) (ix2 g d)
      = ∑ r : Fin 640, l (ix2 r g) * v (ix2 r d) := by
  refine (Ideal.matmul_constant_zero_apply dot_S640x512_S640x128_S512x128_0_0_1_1_n_n prec l v (ix2 g d)).trans ?_
  exact sum_tl (fun a b => l a * v b) g d

variable (x0 : Vec Ideal S640x256 .bf16) (x1 : Vec Ideal S256x512 .bf16) (x2 : Vec Ideal S1x512 .f32)
  (x3 : Vec Ideal S512x128 .bf16) (x4 : Vec Ideal S1x128 .f32) (x5 : Vec Ideal S640x1 .i32)
  (x6 : Vec Ideal S512x512 .f32) (x7 : Vec Ideal S512x512 .f32) (x8 : Vec Ideal S512x128 .f32)

/-! ### The body's values of one tile row -/

/-- The first layer of tile row r. -/
theorem pay4_apply (r : Fin 640) (k : Fin 512) :
    k1_pay4 (F := Ideal) x0 x1 x2 (ix2 r k) = Cert.Spec.Row.h1 (fun j => x0 (ix2 r j)) x1 x2 k := by
  unfold k1_pay4
  rw [addf_apply, mmA_apply, broadcastTo_1b_ab_apply]
  simp only [shapeCast_self]
  rfl

/-- The count of the row's graph, at least one. -/
theorem pay6_apply (r : Fin 640) (k : Fin 512) :
    k1_pay6 (F := Ideal) x5 x8 (ix2 r k) = Cert.Spec.Row.n1 (x5 (ix2 r 0)) x8 k := by
  unfold k1_pay6
  rw [maximumf_apply, broadcast_apply, concat4_apply, mmB_apply, shapeCast_self]
  show max (Ideal.ofBits .f32 0x3F800000#32) _ = _
  rw [one_f32]
  unfold Cert.Spec.Row.n1 Cert.Spec.Row.gat
  refine congrArg (max 1) (Finset.sum_congr rfl fun g _ => ?_)
  rw [onehot_apply]

/-- The unbiased count of the row's graph, at least one. -/
theorem pay7_apply (r : Fin 640) (k : Fin 512) :
    k1_pay7 (F := Ideal) x5 x8 (ix2 r k) = Cert.Spec.Row.nu1 (x5 (ix2 r 0)) x8 k := by
  unfold k1_pay7
  rw [maximumf_apply, subf_apply, broadcast_apply, pay6_apply]
  show max (Ideal.ofBits .f32 0x3F800000#32) (_ - Ideal.ofBits .f32 0x3F800000#32) = _
  rw [one_f32]
  rfl

/-- The mean of the row's graph. -/
theorem pay8_apply (r : Fin 640) (k : Fin 512) :
    k1_pay8 (F := Ideal) x5 x8 x6 (ix2 r k) = Cert.Spec.Row.mean1 (x5 (ix2 r 0)) x6 x8 k := by
  unfold k1_pay8
  rw [divf_apply, mmC_apply, pay6_apply, shapeCast_self]
  unfold Cert.Spec.Row.mean1 Cert.Spec.Row.gat
  refine congrArg (fun s => Ideal.div s _) (Finset.sum_congr rfl fun g _ => ?_)
  rw [onehot_apply]

/-- The second layer over any five arrays standing for the first layer, the indicator, the two counts and the mean. -/
theorem pay9_apply (v14 v21 v27 v31 v35 : FVec Ideal S640x512 .f32) (r : Fin 640) (d : Fin 128) :
    k1_pay9 (F := Ideal) v14 v21 v27 v31 v35 x7 x3 x4 (ix2 r d)
      = (∑ k : Fin 512,
          max ((v14 (ix2 r k) - v35 (ix2 r k))
            * Ideal.rsqrt (max (Ideal.div ((∑ g : Fin 512, v21 (ix2 r g) * x7 (ix2 g k))
                - v27 (ix2 r k) * v35 (ix2 r k) * v35 (ix2 r k)) (v31 (ix2 r k))) 0 + Cert.Spec.eps)) 0
            * x3 (ix2 k d)) + x4 (ix2 0 d) := by
  unfold k1_pay9
  rw [addf_apply, mmB_apply, broadcastTo_1b_ab_apply]
  simp only [shapeCast_self]
  refine congrArg (· + x4 (ix2 0 d)) (Finset.sum_congr rfl fun k _ => ?_)
  have hm := mmC_apply (φ₁ := .f32) (φ₂ := .f32) (some .fp32) v21 x7 r k
  show max ((v14 (ix2 r k) - v35 (ix2 r k))
      * Ideal.rsqrt (max (Ideal.div (matmul dot_S640x512_S512x512_S640x512_1_0_0_1_n_n (some .fp32) v21 x7
            (constant (F := Ideal) S640x512 .f32 0x00000000#32) (ix2 r k)
          - v27 (ix2 r k) * v35 (ix2 r k) * v35 (ix2 r k)) (v31 (ix2 r k))) (Ideal.ofBits .f32 0x00000000#32)
        + Ideal.ofBits .f32 0x3727C5AC#32)) (Ideal.ofBits .f32 0x00000000#32) * x3 (ix2 k d) = _
  rw [hm, Ideal.ofBits_zero_f32]
  rfl

/-- The tile's second-layer value of row r is the row function. -/
theorem pay9_row (r : Fin 640) (d : Fin 128) :
    k1_pay9 (F := Ideal) (k1_pay4 x0 x1 x2) (k1_pay5 x5) (k1_pay6 x5 x8) (k1_pay7 x5 x8) (k1_pay8 x5 x8 x6) x7 x3 x4 (ix2 r d)
      = Cert.Spec.Row.h2 (fun j => x0 (ix2 r j)) (x5 (ix2 r 0)) x1 x2 x3 x4 x6 x7 x8 d := by
  rw [pay9_apply]
  unfold Cert.Spec.Row.h2 Cert.Spec.Row.y1 Cert.Spec.Row.var1 Cert.Spec.Row.gat
  refine congrArg (· + x4 (ix2 0 d)) (Finset.sum_congr rfl fun k _ => ?_)
  rw [pay4_apply, pay6_apply, pay7_apply, pay8_apply]
  simp only [onehot_apply]

/-- The tile's second-layer values before the store's change of format: the body's payload over the point's loads. -/
abbrev H2 : FVec Ideal S640x128 .f32 :=
  k1_pay9 (F := Ideal) (k1_pay4 x0 x1 x2) (k1_pay5 x5) (k1_pay6 x5 x8) (k1_pay7 x5 x8) (k1_pay8 x5 x8 x6) x7 x3 x4

/-- The row function of tile row `r`. -/
abbrev rowH2 (r : Fin 640) (d : Fin 128) : EReal :=
  Cert.Spec.Row.h2 (fun j => x0 (ix2 r j)) (x5 (ix2 r 0)) x1 x2 x3 x4 x6 x7 x8 d

theorem H2_apply (r : Fin 640) (d : Fin 128) : H2 x0 x1 x2 x3 x4 x5 x6 x7 x8 (ix2 r d) = rowH2 x0 x1 x2 x3 x4 x5 x6 x7 x8 r d :=
  pay9_row x0 x1 x2 x3 x4 x5 x6 x7 x8 r d

/-- What the body stores into the second-layer cache's block. -/
theorem pay10_apply (r : Fin 640) (d : Fin 128) :
    k1_pay10 (F := Ideal) (k1_pay4 x0 x1 x2) (k1_pay5 x5) (k1_pay6 x5 x8) (k1_pay7 x5 x8) (k1_pay8 x5 x8 x6) x7 x3 x4 (ix2 r d)
      = rowH2 x0 x1 x2 x3 x4 x5 x6 x7 x8 r d := by
  unfold k1_pay10
  rw [truncf_apply]
  exact pay9_row x0 x1 x2 x3 x4 x5 x6 x7 x8 r d

/-- The sums accumulator after the point: what it held plus, per graph, the indicator-weighted sum of the tile's values. -/
theorem pay12_apply (old : Vec Ideal S1x512x128 .f32) (g : Fin 512) (d : Fin 128) :
    k1_pay12 (F := Ideal) (k1_pay4 x0 x1 x2) (k1_pay5 x5) (k1_pay6 x5 x8) (k1_pay7 x5 x8) (k1_pay8 x5 x8 x6) x7 x3 x4 old (ix3 0 g d)
      = old (ix3 0 g d) + ∑ r : Fin 640, Cert.Spec.oh (x5 (ix2 r 0)) g * rowH2 x0 x1 x2 x3 x4 x5 x6 x7 x8 r d := by
  unfold k1_pay12
  rw [shapeCast_ab_1ab_apply, addf_apply, shapeCast_1ab_ab_apply, mmT_apply]
  refine congrArg (old (ix3 0 g d) + ·) (Finset.sum_congr rfl fun r _ => ?_)
  rw [truncf_apply, onehot_apply, pay10_apply]

/-- The sums-of-squares accumulator after the point. -/
theorem pay1_apply (old : Vec Ideal S1x512x128 .f32) (g : Fin 512) (d : Fin 128) :
    k1_pay1 (F := Ideal) (k1_pay5 x5) (k1_pay11 (k1_pay4 x0 x1 x2) (k1_pay5 x5) (k1_pay6 x5 x8) (k1_pay7 x5 x8) (k1_pay8 x5 x8 x6) x7 x3 x4) old (ix3 0 g d)
      = old (ix3 0 g d) + ∑ r : Fin 640, Cert.Spec.oh (x5 (ix2 r 0)) g
          * (rowH2 x0 x1 x2 x3 x4 x5 x6 x7 x8 r d * rowH2 x0 x1 x2 x3 x4 x5 x6 x7 x8 r d) := by
  unfold k1_pay1
  rw [shapeCast_ab_1ab_apply, addf_apply, shapeCast_1ab_ab_apply, mmT_apply]
  refine congrArg (old (ix3 0 g d) + ·) (Finset.sum_congr rfl fun r _ => ?_)
  unfold k1_pay11
  rw [onehot_apply, mulf_apply, pay9_row]

/-- The two resets at a core's first point store zeros. -/
theorem pay2_apply (j : S1x512x128.Idx) : k1_pay2 (F := Ideal) j = 0 := by
  unfold k1_pay2 shapeCast
  exact Ideal.ofBits_zero_f32
theorem pay3_apply (j : S1x512x128.Idx) : k1_pay3 (F := Ideal) j = 0 := by
  unfold k1_pay3 shapeCast
  exact Ideal.ofBits_zero_f32

end Cert.KernelIdeal.Reg1Body

end
-- ==== Proof.Reg1.lean ====
/-
  The second call: what its three output arrays hold after the run, for any contents of its input arrays.

  The body's stores at one grid point are read back as the body's payloads over the point's loaded blocks; the blocks are
  rows of the arrays the call finds (a tile of 640 rows for the features and the segment words, the whole array for the
  weights and the three tables); the cache's tile is written back at every point, and the two accumulators restart at a
  core's first point, add one tile's share at each point, and are written back at the core's last point.
-/
import proofs.«408983_j37177236914744_3_alg».proof.Proof.Gen.KernelIdeal.Frame
import proofs.«408983_j37177236914744_3_alg».proof.Proof.SpecRow
import proofs.«408983_j37177236914744_3_alg».proof.Proof.Reg1Body
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg1

open Idealize.ShloMosaic Idealize.ShloMosaic.TcCoe Idealize.SL.Sem Idealize.ShloMosaic.ValueIdx
open Cert.KernelIdeal Cert.KernelIdeal.Gen
open Idealize.ShloMosaic.Pipeline (Dat)

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point that is not a core's first, the cache's staging buffer ends holding the body's stored tile. -/
theorem pieceB9 (c : Dev nD) (i : grid1.Coords) (arg2 : Memref sig .tc .vmem S640x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x128 .bf16) (harg5 : arg5.IsWhole) (arg6 : Memref sig .tc .vmem S1x128 .f32) (harg6 : arg6.IsWhole) (arg7 : Memref sig .tc .vmem S640x1 .i32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S640x128 .bf16) (harg11 : arg11.IsWhole) (arg12 : Memref sig .tc .vmem S1x512x128 .f32) (harg12 : arg12.IsWhole) (arg13 : Memref sig .tc .vmem S1x512x128 .f32) (harg13 : arg13.IsWhole) (hc0 : ¬cond1_0 i)
    (x0 : Vec F S640x256 .bf16) (x1 : Vec F S256x512 .bf16) (x2 : Vec F S1x512 .f32) (x3 : Vec F S512x128 .bf16) (x4 : Vec F S1x128 .f32) (x5 : Vec F S640x1 .i32) (x6 : Vec F S512x512 .f32) (x7 : Vec F S512x512 .f32) (x8 : Vec F S512x128 .f32) (xo10 xo11 : Vec F S1x512x128 .f32) :
    out1_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11
      = k1_pay10 (k1_pay4 x0 x1 x2) (k1_pay5 x5) (k1_pay6 x5 x8) (k1_pay7 x5 x8) (k1_pay8 x5 x8 x6) x7 x3 x4 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S640x256) hz2, View.ld_unit_zero (S := S256x512) hz2, View.ld_unit_zero (S := S1x512) hz2, View.ld_unit_zero (S := S512x128) hz2, View.ld_unit_zero (S := S1x128) hz2, View.ld_unit_zero (S := S640x1) hz2, View.ld_unit_zero (S := S512x512) hz2, View.ld_unit_zero (S := S640x128) hz2, View.ld_unit_zero (S := S1x512x128) hz3]

/-- and the sums accumulator what it held with the tile's share added; -/
theorem pieceB10 (c : Dev nD) (i : grid1.Coords) (arg2 : Memref sig .tc .vmem S640x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x128 .bf16) (harg5 : arg5.IsWhole) (arg6 : Memref sig .tc .vmem S1x128 .f32) (harg6 : arg6.IsWhole) (arg7 : Memref sig .tc .vmem S640x1 .i32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S640x128 .bf16) (harg11 : arg11.IsWhole) (arg12 : Memref sig .tc .vmem S1x512x128 .f32) (harg12 : arg12.IsWhole) (arg13 : Memref sig .tc .vmem S1x512x128 .f32) (harg13 : arg13.IsWhole) (hc0 : ¬cond1_0 i)
    (x0 : Vec F S640x256 .bf16) (x1 : Vec F S256x512 .bf16) (x2 : Vec F S1x512 .f32) (x3 : Vec F S512x128 .bf16) (x4 : Vec F S1x128 .f32) (x5 : Vec F S640x1 .i32) (x6 : Vec F S512x512 .f32) (x7 : Vec F S512x512 .f32) (x8 : Vec F S512x128 .f32) (xo10 xo11 : Vec F S1x512x128 .f32) :
    out1_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11
      = k1_pay12 (k1_pay4 x0 x1 x2) (k1_pay5 x5) (k1_pay6 x5 x8) (k1_pay7 x5 x8) (k1_pay8 x5 x8 x6) x7 x3 x4 xo10 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S640x256) hz2, View.ld_unit_zero (S := S256x512) hz2, View.ld_unit_zero (S := S1x512) hz2, View.ld_unit_zero (S := S512x128) hz2, View.ld_unit_zero (S := S1x128) hz2, View.ld_unit_zero (S := S640x1) hz2, View.ld_unit_zero (S := S512x512) hz2, View.ld_unit_zero (S := S640x128) hz2, View.ld_unit_zero (S := S1x512x128) hz3]

/-- likewise the squares accumulator. -/
theorem pieceB11 (c : Dev nD) (i : grid1.Coords) (arg2 : Memref sig .tc .vmem S640x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x128 .bf16) (harg5 : arg5.IsWhole) (arg6 : Memref sig .tc .vmem S1x128 .f32) (harg6 : arg6.IsWhole) (arg7 : Memref sig .tc .vmem S640x1 .i32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S640x128 .bf16) (harg11 : arg11.IsWhole) (arg12 : Memref sig .tc .vmem S1x512x128 .f32) (harg12 : arg12.IsWhole) (arg13 : Memref sig .tc .vmem S1x512x128 .f32) (harg13 : arg13.IsWhole) (hc0 : ¬cond1_0 i)
    (x0 : Vec F S640x256 .bf16) (x1 : Vec F S256x512 .bf16) (x2 : Vec F S1x512 .f32) (x3 : Vec F S512x128 .bf16) (x4 : Vec F S1x128 .f32) (x5 : Vec F S640x1 .i32) (x6 : Vec F S512x512 .f32) (x7 : Vec F S512x512 .f32) (x8 : Vec F S512x128 .f32) (xo10 xo11 : Vec F S1x512x128 .f32) :
    out1_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11
      = k1_pay1 (k1_pay5 x5) (k1_pay11 (k1_pay4 x0 x1 x2) (k1_pay5 x5) (k1_pay6 x5 x8) (k1_pay7 x5 x8) (k1_pay8 x5 x8 x6) x7 x3 x4) xo11 := by
  unfold out1_B_11
  rw [View.read_writes_eq_canon _ _ _ (cover1_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo10 xo11)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S640x256) hz2, View.ld_unit_zero (S := S256x512) hz2, View.ld_unit_zero (S := S1x512) hz2, View.ld_unit_zero (S := S512x128) hz2, View.ld_unit_zero (S := S1x128) hz2, View.ld_unit_zero (S := S640x1) hz2, View.ld_unit_zero (S := S512x512) hz2, View.ld_unit_zero (S := S640x128) hz2, View.ld_unit_zero (S := S1x512x128) hz3]

/-- At a core's first point the cache's staging buffer ends holding the stored tile, -/
theorem pieceA9 (c : Dev nD) (i : grid1.Coords) (arg2 : Memref sig .tc .vmem S640x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x128 .bf16) (harg5 : arg5.IsWhole) (arg6 : Memref sig .tc .vmem S1x128 .f32) (harg6 : arg6.IsWhole) (arg7 : Memref sig .tc .vmem S640x1 .i32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S640x128 .bf16) (harg11 : arg11.IsWhole) (arg12 : Memref sig .tc .vmem S1x512x128 .f32) (harg12 : arg12.IsWhole) (arg13 : Memref sig .tc .vmem S1x512x128 .f32) (harg13 : arg13.IsWhole) (hc0 : cond1_0 i)
    (x0 : Vec F S640x256 .bf16) (x1 : Vec F S256x512 .bf16) (x2 : Vec F S1x512 .f32) (x3 : Vec F S512x128 .bf16) (x4 : Vec F S1x128 .f32) (x5 : Vec F S640x1 .i32) (x6 : Vec F S512x512 .f32) (x7 : Vec F S512x512 .f32) (x8 : Vec F S512x128 .f32) :
    out1_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = k1_pay10 (k1_pay4 x0 x1 x2) (k1_pay5 x5) (k1_pay6 x5 x8) (k1_pay7 x5 x8) (k1_pay8 x5 x8 x6) x7 x3 x4 := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun1_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S640x256) hz2, View.ld_unit_zero (S := S256x512) hz2, View.ld_unit_zero (S := S1x512) hz2, View.ld_unit_zero (S := S512x128) hz2, View.ld_unit_zero (S := S1x128) hz2, View.ld_unit_zero (S := S640x1) hz2, View.ld_unit_zero (S := S512x512) hz2, View.ld_unit_zero (S := S640x128) hz2, View.ld_unit_zero (S := S1x512x128) hz3]

/-- the sums accumulator the tile's share added onto the reset value, -/
theorem pieceA10 (c : Dev nD) (i : grid1.Coords) (arg2 : Memref sig .tc .vmem S640x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x128 .bf16) (harg5 : arg5.IsWhole) (arg6 : Memref sig .tc .vmem S1x128 .f32) (harg6 : arg6.IsWhole) (arg7 : Memref sig .tc .vmem S640x1 .i32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S640x128 .bf16) (harg11 : arg11.IsWhole) (arg12 : Memref sig .tc .vmem S1x512x128 .f32) (harg12 : arg12.IsWhole) (arg13 : Memref sig .tc .vmem S1x512x128 .f32) (harg13 : arg13.IsWhole) (hc0 : cond1_0 i)
    (x0 : Vec F S640x256 .bf16) (x1 : Vec F S256x512 .bf16) (x2 : Vec F S1x512 .f32) (x3 : Vec F S512x128 .bf16) (x4 : Vec F S1x128 .f32) (x5 : Vec F S640x1 .i32) (x6 : Vec F S512x512 .f32) (x7 : Vec F S512x512 .f32) (x8 : Vec F S512x128 .f32) :
    out1_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = k1_pay12 (k1_pay4 x0 x1 x2) (k1_pay5 x5) (k1_pay6 x5 x8) (k1_pay7 x5 x8) (k1_pay8 x5 x8 x6) x7 x3 x4 (k1_pay2 (F := F)) := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun1_A
  dsimp only
  sl_unfold_words
  rw [View.canon_cons_unit_zero (S := S1x512x128) hz3, View.readCov_unit_zero (S := S1x512x128) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S640x256) hz2, View.ld_unit_zero (S := S256x512) hz2, View.ld_unit_zero (S := S1x512) hz2, View.ld_unit_zero (S := S512x128) hz2, View.ld_unit_zero (S := S1x128) hz2, View.ld_unit_zero (S := S640x1) hz2, View.ld_unit_zero (S := S512x512) hz2, View.ld_unit_zero (S := S640x128) hz2, View.ld_unit_zero (S := S1x512x128) hz3]

/-- and the squares accumulator likewise. -/
theorem pieceA11 (c : Dev nD) (i : grid1.Coords) (arg2 : Memref sig .tc .vmem S640x256 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x128 .bf16) (harg5 : arg5.IsWhole) (arg6 : Memref sig .tc .vmem S1x128 .f32) (harg6 : arg6.IsWhole) (arg7 : Memref sig .tc .vmem S640x1 .i32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S640x128 .bf16) (harg11 : arg11.IsWhole) (arg12 : Memref sig .tc .vmem S1x512x128 .f32) (harg12 : arg12.IsWhole) (arg13 : Memref sig .tc .vmem S1x512x128 .f32) (harg13 : arg13.IsWhole) (hc0 : cond1_0 i)
    (x0 : Vec F S640x256 .bf16) (x1 : Vec F S256x512 .bf16) (x2 : Vec F S1x512 .f32) (x3 : Vec F S512x128 .bf16) (x4 : Vec F S1x128 .f32) (x5 : Vec F S640x1 .i32) (x6 : Vec F S512x512 .f32) (x7 : Vec F S512x512 .f32) (x8 : Vec F S512x128 .f32) :
    out1_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = k1_pay1 (k1_pay5 x5) (k1_pay11 (k1_pay4 x0 x1 x2) (k1_pay5 x5) (k1_pay6 x5 x8) (k1_pay7 x5 x8) (k1_pay8 x5 x8 x6) x7 x3 x4) (k1_pay3 (F := F)) := by
  unfold out1_A_11
  rw [View.read_writes_eq_canon _ _ _ (cover1_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun1_A
  dsimp only
  sl_unfold_words
  rw [View.canon_cons_unit_zero (S := S1x512x128) hz3, View.readCov_unit_zero (S := S1x512x128) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S640x256) hz2, View.ld_unit_zero (S := S256x512) hz2, View.ld_unit_zero (S := S1x512) hz2, View.ld_unit_zero (S := S512x128) hz2, View.ld_unit_zero (S := S1x128) hz2, View.ld_unit_zero (S := S640x1) hz2, View.ld_unit_zero (S := S512x512) hz2, View.ld_unit_zero (S := S640x128) hz2, View.ld_unit_zero (S := S1x512x128) hz3]

end Pieces

/-! ### The windows' blocks, read at an index -/

section Blocks
variable {F : FTy → Type} [FloatOps F]
variable (V : (c : Dev nD) → (b : Ref sig .tc) → Buf (Elt F) ((c : Thread nD τ).loc b))

/-- The printed index maps, decided over the grid: the row-tiled windows sit at the point's tile, the accumulators at
    its core, the whole-array windows at the origin. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_9.index t (0 : Fin 2) = t.val ∧ win1_9.index t (1 : Fin 2) = 0
    ∧ win1_10.index t (0 : Fin 3) = t.val / 250 ∧ win1_10.index t (1 : Fin 3) = 0 ∧ win1_10.index t (2 : Fin 3) = 0
    ∧ win1_11.index t (0 : Fin 3) = t.val / 250 ∧ win1_11.index t (1 : Fin 3) = 0 ∧ win1_11.index t (2 : Fin 3) = 0 :=
  (by decide +kernel : ∀ t : Fin grid1.N, _)

theorem idx_facts_whole : ∀ t : Fin cfg1.N,
    win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Row r of tile k in the 320000-row arrays (the 500 tiles of 640 rows cover them). -/
def rowN (k : ℕ) (r : Fin 640) : Fin 320000 := ⟨(640 * k + r.val) % 320000, Nat.mod_lt _ (by decide)⟩

theorem blk0_apply (c : Dev nD) (t : Fin cfg1.N) (r : Fin 640) (j : Fin 256) :
    (iblk1 V c 0 t : Vec F S640x256 .bf16) (ix2 r j) = (V c main_v8 : Vec F S320000x256 .bf16) (ix2 (rowN t.val r) j) := by
  unfold iblk1
  rw [View.read_apply]
  show V c main_v8 _ = V c main_v8 _
  congr 1
  funext a
  apply Fin.ext
  obtain ⟨e0, e1, -⟩ := idx_facts t
  have hN : cfg1.N = 500 := N_1
  have ht := t.isLt
  have hr := r.isLt
  match a with
  | ⟨0, _⟩ => show win1_0.index t (0 : Fin 2) * 640 + 1 * r.val = (640 * t.val + r.val) % 320000; rw [e0]; omega
  | ⟨1, _⟩ => show win1_0.index t (1 : Fin 2) * 256 + 1 * j.val = j.val; rw [e1]; omega

theorem blk5_apply (c : Dev nD) (t : Fin cfg1.N) (r : Fin 640) :
    (iblk1 V c 5 t : Vec F S640x1 .i32) (ix2 r 0) = (V c main_v9 : Vec F S320000x1 .i32) (ix2 (rowN t.val r) 0) := by
  unfold iblk1
  rw [View.read_apply]
  show V c main_v9 _ = V c main_v9 _
  congr 1
  funext a
  apply Fin.ext
  obtain ⟨-, -, e0, e1, -⟩ := idx_facts t
  have hN : cfg1.N = 500 := N_1
  have ht := t.isLt
  have hr := r.isLt
  match a with
  | ⟨0, _⟩ => show win1_5.index t (0 : Fin 2) * 640 + 1 * r.val = (640 * t.val + r.val) % 320000; rw [e0]; omega
  | ⟨1, _⟩ => show win1_5.index t (1 : Fin 2) * 1 + 1 * 0 = 0; rw [e1]

theorem blk1_eq (c : Dev nD) (t : Fin cfg1.N) : (iblk1 V c 1 t : Vec F S256x512 .bf16) = V c main_v10 := by
  funext y
  unfold iblk1
  rw [View.read_apply]
  show V c main_v10 _ = V c main_v10 y
  congr 1
  funext a
  apply Fin.ext
  obtain ⟨e0, e1, -, -, -, -, -, -, -, -, -, -, -, -⟩ := idx_facts_whole t
  match a with
  | ⟨0, _⟩ => show win1_1.index t (0 : Fin 2) * 256 + 1 * (y 0).val = (y 0).val; rw [e0]; omega
  | ⟨1, _⟩ => show win1_1.index t (1 : Fin 2) * 512 + 1 * (y 1).val = (y 1).val; rw [e1]; omega

theorem blk2_eq (c : Dev nD) (t : Fin cfg1.N) : (iblk1 V c 2 t : Vec F S1x512 .f32) = V c main_v13 := by
  funext y
  unfold iblk1
  rw [View.read_apply]
  show V c main_v13 _ = V c main_v13 y
  congr 1
  funext a
  apply Fin.ext
  obtain ⟨-, -, e0, e1, -, -, -, -, -, -, -, -, -, -⟩ := idx_facts_whole t
  match a with
  | ⟨0, _⟩ => show win1_2.index t (0 : Fin 2) * 1 + 1 * (y 0).val = (y 0).val; rw [e0]; omega
  | ⟨1, _⟩ => show win1_2.index t (1 : Fin 2) * 512 + 1 * (y 1).val = (y 1).val; rw [e1]; omega

theorem blk3_eq (c : Dev nD) (t : Fin cfg1.N) : (iblk1 V c 3 t : Vec F S512x128 .bf16) = V c main_v11 := by
  funext y
  unfold iblk1
  rw [View.read_apply]
  show V c main_v11 _ = V c main_v11 y
  congr 1
  funext a
  apply Fin.ext
  obtain ⟨-, -, -, -, e0, e1, -, -, -, -, -, -, -, -⟩ := idx_facts_whole t
  match a with
  | ⟨0, _⟩ => show win1_3.index t (0 : Fin 2) * 512 + 1 * (y 0).val = (y 0).val; rw [e0]; omega
  | ⟨1, _⟩ => show win1_3.index t (1 : Fin 2) * 128 + 1 * (y 1).val = (y 1).val; rw [e1]; omega

theorem blk4_eq (c : Dev nD) (t : Fin cfg1.N) : (iblk1 V c 4 t : Vec F S1x128 .f32) = V c main_v14 := by
  funext y
  unfold iblk1
  rw [View.read_apply]
  show V c main_v14 _ = V c main_v14 y
  congr 1
  funext a
  apply Fin.ext
  obtain ⟨-, -, -, -, -, -, e0, e1, -, -, -, -, -, -⟩ := idx_facts_whole t
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem blk6_eq (c : Dev nD) (t : Fin cfg1.N) : (iblk1 V c 6 t : Vec F S512x512 .f32) = V c main_v26 := by
  funext y
  unfold iblk1
  rw [View.read_apply]
  show V c main_v26 _ = V c main_v26 y
  congr 1
  funext a
  apply Fin.ext
  obtain ⟨-, -, -, -, -, -, -, -, e0, e1, -, -, -, -⟩ := idx_facts_whole t
  match a with
  | ⟨0, _⟩ => show win1_6.index t (0 : Fin 2) * 512 + 1 * (y 0).val = (y 0).val; rw [e0]; omega
  | ⟨1, _⟩ => show win1_6.index t (1 : Fin 2) * 512 + 1 * (y 1).val = (y 1).val; rw [e1]; omega

theorem blk7_eq (c : Dev nD) (t : Fin cfg1.N) : (iblk1 V c 7 t : Vec F S512x512 .f32) = V c main_v18 := by
  funext y
  unfold iblk1
  rw [View.read_apply]
  show V c main_v18 _ = V c main_v18 y
  congr 1
  funext a
  apply Fin.ext
  obtain ⟨-, -, -, -, -, -, -, -, -, -, e0, e1, -, -⟩ := idx_facts_whole t
  match a with
  | ⟨0, _⟩ => show win1_7.index t (0 : Fin 2) * 512 + 1 * (y 0).val = (y 0).val; rw [e0]; omega
  | ⟨1, _⟩ => show win1_7.index t (1 : Fin 2) * 512 + 1 * (y 1).val = (y 1).val; rw [e1]; omega

theorem blk8_eq (c : Dev nD) (t : Fin cfg1.N) : (iblk1 V c 8 t : Vec F S512x128 .f32) = V c main_v19 := by
  funext y
  unfold iblk1
  rw [View.read_apply]
  show V c main_v19 _ = V c main_v19 y
  congr 1
  funext a
  apply Fin.ext
  obtain ⟨-, -, -, -, -, -, -, -, -, -, -, -, e0, e1⟩ := idx_facts_whole t
  match a with
  | ⟨0, _⟩ => show win1_8.index t (0 : Fin 2) * 512 + 1 * (y 0).val = (y 0).val; rw [e0]; omega
  | ⟨1, _⟩ => show win1_8.index t (1 : Fin 2) * 128 + 1 * (y 1).val = (y 1).val; rw [e1]; omega

end Blocks

/-! ### Sums over a core's tiles -/

section Sums

/-- One tile's share of a per-graph sum: over its 640 rows, the indicator times the value. -/
def tileSum (seg : Cert.Spec.SEx1.Idx → BitVec 32) (v : Fin 320000 → EReal) (k : ℕ) (g : Fin 512) : EReal :=
  ∑ r : Fin 640, Cert.Spec.oh (Cert.Spec.segw seg (rowN k r)) g * v (rowN k r)

theorem edge_eq (cc : Fin 2) (i : Fin 250) (r : Fin 640) : Cert.Spec.edge cc i r = rowN (250 * cc.val + i.val) r := by
  apply Fin.ext
  have := cc.isLt
  have := i.isLt
  have := r.isLt
  show (cc.val * 250 + i.val) * 640 + r.val = (640 * (250 * cc.val + i.val) + r.val) % 320000
  omega

/-- A core's share is the sum of its 250 tiles' shares. -/
theorem coreSum_eq (seg : Cert.Spec.SEx1.Idx → BitVec 32) (v : Fin 320000 → EReal) (cc : Fin 2) (g : Fin 512) :
    Cert.Spec.coreSum seg v cc g = ∑ s ∈ Finset.range 250, tileSum seg v (250 * cc.val + s) g := by
  rw [Finset.sum_range]
  unfold Cert.Spec.coreSum tileSum
  refine Finset.sum_congr rfl fun i _ => Finset.sum_congr rfl fun r _ => ?_
  rw [edge_eq]

/-- A quantity that restarts from the point's own term at every multiple of 250 and otherwise adds the point's term
    to what the point before had is, at every point, the sum of the terms of its run of points so far. -/
theorem acc_closed {N : ℕ} (f : (n : ℕ) → n < N → EReal) (T : ℕ → EReal)
    (hA : ∀ (n : ℕ) (h : n < N), n % 250 = 0 → f n h = T n)
    (hB : ∀ (n : ℕ) (h : n + 1 < N), ¬ (n + 1) % 250 = 0 → f (n + 1) h = f n (Nat.lt_of_succ_lt h) + T (n + 1)) :
    ∀ (n : ℕ) (h : n < N), f n h = ∑ s ∈ Finset.range (n % 250 + 1), T (n - n % 250 + s)
  | 0, h => by rw [hA 0 h rfl]; simp
  | n + 1, h => by
    by_cases h0 : (n + 1) % 250 = 0
    · rw [hA _ h h0, h0]; simp
    · rw [hB n h h0, acc_closed f T hA hB n (Nat.lt_of_succ_lt h)]
      have e1 : (n + 1) % 250 = n % 250 + 1 := by omega
      have e2 : n + 1 - (n % 250 + 1) = n - n % 250 := by omega
      rw [e1, e2, Finset.sum_range_succ _ (n % 250 + 1)]
      congr 2
      omega

end Sums

/-! ### The call's arrays, and what each point leaves -/

section Value
variable (V : (c : Dev nD) → (b : Ref sig .tc) → Buf (Elt Ideal) ((c : Thread nD τ).loc b))

abbrev aX (c : Dev nD) : Cert.Spec.SEx256.Idx → EReal := V c main_v8
abbrev aSeg (c : Dev nD) : Cert.Spec.SEx1.Idx → BitVec 32 := V c main_v9
abbrev aW1 (c : Dev nD) : Cert.Spec.S256x512.Idx → EReal := V c main_v10
abbrev aB1 (c : Dev nD) : Cert.Spec.S1x512.Idx → EReal := V c main_v13
abbrev aW2 (c : Dev nD) : Cert.Spec.S512x128.Idx → EReal := V c main_v11
abbrev aB2 (c : Dev nD) : Cert.Spec.S1x128.Idx → EReal := V c main_v14
abbrev aS1 (c : Dev nD) : Cert.Spec.S512x512.Idx → EReal := V c main_v26
abbrev aQ1 (c : Dev nD) : Cert.Spec.S512x512.Idx → EReal := V c main_v18
abbrev aCt (c : Dev nD) : Cert.Spec.S512x128.Idx → EReal := V c main_v19

/-- The second layer of edge e, channel d, from the arrays the call finds. -/
abbrev H (c : Dev nD) (e : Fin 320000) (d : Fin 128) : EReal :=
  Cert.Spec.h2 (aX V c) (aSeg V c) (aW1 V c) (aB1 V c) (aW2 V c) (aB2 V c) (aS1 V c) (aQ1 V c) (aCt V c) e d

/-- The row function depends on its nine arguments only. -/
theorem rowh2_congr {xr xr' : Fin 256 → EReal} {wd wd' : BitVec 32}
    {w1 w1' : Cert.Spec.S256x512.Idx → EReal} {b1 b1' : Cert.Spec.S1x512.Idx → EReal}
    {w2 w2' : Cert.Spec.S512x128.Idx → EReal} {b2 b2' : Cert.Spec.S1x128.Idx → EReal}
    {s1 s1' q1 q1' : Cert.Spec.S512x512.Idx → EReal} {ct ct' : Cert.Spec.S512x128.Idx → EReal} (d : Fin 128)
    (h0 : xr = xr') (h5 : wd = wd') (h1 : w1 = w1') (h2 : b1 = b1') (h3 : w2 = w2') (h4 : b2 = b2')
    (h6 : s1 = s1') (h7 : q1 = q1') (h8 : ct = ct') :
    Cert.Spec.Row.h2 xr wd w1 b1 w2 b2 s1 q1 ct d = Cert.Spec.Row.h2 xr' wd' w1' b1' w2' b2' s1' q1' ct' d := by
  subst h0 h5 h1 h2 h3 h4 h6 h7 h8; rfl

/-- The row function of row r of tile t, over the point's blocks, is the second layer of that edge. -/
theorem row_eq (c : Dev nD) (t : Fin cfg1.N) (r : Fin 640) (d : Fin 128) :
    Reg1Body.rowH2 (iblk1 V c 0 t) (iblk1 V c 1 t) (iblk1 V c 2 t) (iblk1 V c 3 t) (iblk1 V c 4 t) (iblk1 V c 5 t) (iblk1 V c 6 t) (iblk1 V c 7 t) (iblk1 V c 8 t) r d = H V c (rowN t.val r) d :=
  (rowh2_congr d (funext fun j => blk0_apply V c t r j) (blk5_apply V c t r) (blk1_eq V c t) (blk2_eq V c t)
      (blk3_eq V c t) (blk4_eq V c t) (blk6_eq V c t) (blk7_eq V c t) (blk8_eq V c t)).trans
    (Cert.Spec.Row.h2_eq (aX V c) (aSeg V c) (aW1 V c) (aB1 V c) (aW2 V c) (aB2 V c) (aS1 V c) (aQ1 V c) (aCt V c)
      (rowN t.val r) d).symm

/-- One tile's indicator-weighted sum over the point's blocks is that tile's share. -/
theorem tile_eq (v : EReal → EReal) (c : Dev nD) (t : Fin cfg1.N) (g : Fin 512) (d : Fin 128) :
    ∑ r : Fin 640, Cert.Spec.oh ((iblk1 V c 5 t : Vec Ideal S640x1 .i32) (ix2 r 0)) g
        * v (Reg1Body.rowH2 (iblk1 V c 0 t) (iblk1 V c 1 t) (iblk1 V c 2 t) (iblk1 V c 3 t) (iblk1 V c 4 t) (iblk1 V c 5 t) (iblk1 V c 6 t) (iblk1 V c 7 t) (iblk1 V c 8 t) r d)
      = tileSum (aSeg V c) (fun e => v (H V c e d)) t.val g := by
  unfold tileSum
  refine Finset.sum_congr rfl fun r _ => ?_
  exact congrArg₂ (fun a b => a * b) (congrArg (fun w => Cert.Spec.oh w g) (blk5_apply V c t r))
    (congrArg v (row_eq V c t r d))

/-- After every point the cache's staging buffer holds the body's stored tile over the point's blocks. -/
theorem cache_eq (c : Dev nD) (t : Fin cfg1.N) :
    (outsAt1 V c t.val t.isLt).1 = k1_pay10 (F := Ideal) (k1_pay4 (iblk1 V c 0 t) (iblk1 V c 1 t) (iblk1 V c 2 t)) (k1_pay5 (iblk1 V c 5 t)) (k1_pay6 (iblk1 V c 5 t) (iblk1 V c 8 t)) (k1_pay7 (iblk1 V c 5 t) (iblk1 V c 8 t)) (k1_pay8 (iblk1 V c 5 t) (iblk1 V c 8 t) (iblk1 V c 6 t)) (iblk1 V c 7 t) (iblk1 V c 3 t) (iblk1 V c 4 t) := by
  by_cases h0 : t.val % 250 = 0
  · rw [outsAt1_A V c t h0]; dsimp only
    exact pieceA9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
  · rw [outsAt1_B V c t h0]; dsimp only
    exact pieceB9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2

/-- At a core's first point the sums accumulator holds that tile's share; -/
theorem sum_A (c : Dev nD) (t : Fin cfg1.N) (h0 : t.val % 250 = 0) (g : Fin 512) (d : Fin 128) :
    (outsAt1 V c t.val t.isLt).2.1 (ix3 0 g d) = tileSum (aSeg V c) (fun e => H V c e d) t.val g := by
  rw [outsAt1_A V c t h0]; dsimp only
  refine (congrFun (pieceA10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)) (ix3 0 g d)).trans ?_
  refine (Reg1Body.pay12_apply (iblk1 V c 0 t) (iblk1 V c 1 t) (iblk1 V c 2 t) (iblk1 V c 3 t) (iblk1 V c 4 t) (iblk1 V c 5 t) (iblk1 V c 6 t) (iblk1 V c 7 t) (iblk1 V c 8 t) (k1_pay2 (F := Ideal)) g d).trans ?_
  rw [Reg1Body.pay2_apply, zero_add]
  exact tile_eq V (fun x => x) c t g d

/-- at every other point, what the point before left plus the tile's share. -/
theorem sum_B (c : Dev nD) (t : Fin cfg1.N) (h0 : ¬t.val % 250 = 0) (g : Fin 512) (d : Fin 128) :
    (outsAt1 V c t.val t.isLt).2.1 (ix3 0 g d)
      = (outsAt1 V c (t.val - 1) (Nat.lt_of_le_of_lt (Nat.sub_le _ _) t.isLt)).2.1 (ix3 0 g d) + tileSum (aSeg V c) (fun e => H V c e d) t.val g := by
  rw [outsAt1_B V c t h0]; dsimp only
  refine (congrFun (pieceB10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2) (ix3 0 g d)).trans ?_
  refine (Reg1Body.pay12_apply (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 g d).trans ?_
  exact congrArg (fun z => (outsAt1 V c (t.val - 1) (Nat.lt_of_le_of_lt (Nat.sub_le _ _) t.isLt)).2.1 (ix3 0 g d) + z) (tile_eq V (fun x => x) c t g d)

/-- The same two steps for the squares accumulator. -/
theorem sq_A (c : Dev nD) (t : Fin cfg1.N) (h0 : t.val % 250 = 0) (g : Fin 512) (d : Fin 128) :
    (outsAt1 V c t.val t.isLt).2.2 (ix3 0 g d) = tileSum (aSeg V c) (fun e => H V c e d * H V c e d) t.val g := by
  rw [outsAt1_A V c t h0]; dsimp only
  refine (congrFun (pieceA11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)) (ix3 0 g d)).trans ?_
  refine (Reg1Body.pay1_apply (iblk1 V c 0 t) (iblk1 V c 1 t) (iblk1 V c 2 t) (iblk1 V c 3 t) (iblk1 V c 4 t) (iblk1 V c 5 t) (iblk1 V c 6 t) (iblk1 V c 7 t) (iblk1 V c 8 t) (k1_pay3 (F := Ideal)) g d).trans ?_
  rw [Reg1Body.pay3_apply, zero_add]
  exact tile_eq V (fun x => x * x) c t g d

theorem sq_B (c : Dev nD) (t : Fin cfg1.N) (h0 : ¬t.val % 250 = 0) (g : Fin 512) (d : Fin 128) :
    (outsAt1 V c t.val t.isLt).2.2 (ix3 0 g d)
      = (outsAt1 V c (t.val - 1) (Nat.lt_of_le_of_lt (Nat.sub_le _ _) t.isLt)).2.2 (ix3 0 g d) + tileSum (aSeg V c) (fun e => H V c e d * H V c e d) t.val g := by
  rw [outsAt1_B V c t h0]; dsimp only
  refine (congrFun (pieceB11 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.1 (outsAt1 V c (t.val - 1) (Nat.lt_of_le_of_lt (Nat.sub_le _ _) t.isLt)).2.2) (ix3 0 g d)).trans ?_
  refine (Reg1Body.pay1_apply (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2.2 g d).trans ?_
  exact congrArg (fun z => (outsAt1 V c (t.val - 1) (Nat.lt_of_le_of_lt (Nat.sub_le _ _) t.isLt)).2.2 (ix3 0 g d) + z) (tile_eq V (fun x => x * x) c t g d)

/-- So after point n the accumulators hold the shares of the tiles of n's core up to n. -/
theorem sum_closed (c : Dev nD) (g : Fin 512) (d : Fin 128) (n : ℕ) (h : n < cfg1.N) :
    (outsAt1 V c n h).2.1 (ix3 0 g d)
      = ∑ s ∈ Finset.range (n % 250 + 1), tileSum (aSeg V c) (fun e => H V c e d) (n - n % 250 + s) g :=
  acc_closed (fun n h => (outsAt1 V c n h).2.1 (ix3 0 g d)) (fun k => tileSum (aSeg V c) (fun e => H V c e d) k g)
    (fun n h h0 => sum_A V c ⟨n, h⟩ h0 g d) (fun n h h0 => sum_B V c ⟨n + 1, h⟩ h0 g d) n h

theorem sq_closed (c : Dev nD) (g : Fin 512) (d : Fin 128) (n : ℕ) (h : n < cfg1.N) :
    (outsAt1 V c n h).2.2 (ix3 0 g d)
      = ∑ s ∈ Finset.range (n % 250 + 1), tileSum (aSeg V c) (fun e => H V c e d * H V c e d) (n - n % 250 + s) g :=
  acc_closed (fun n h => (outsAt1 V c n h).2.2 (ix3 0 g d)) (fun k => tileSum (aSeg V c) (fun e => H V c e d * H V c e d) k g)
    (fun n h h0 => sq_A V c ⟨n, h⟩ h0 g d) (fun n h h0 => sq_B V c ⟨n + 1, h⟩ h0 g d) n h

end Value

/-! ### What the flushing points write back, the covers, and the arrays after the run -/

section Final
variable (V : (c : Dev nD) → (b : Ref sig .tc) → Buf (Elt Ideal) ((c : Thread nD τ).loc b))

/-- Where a row of the cache's block at point t sits in the array. -/
theorem emb9 (t : Fin cfg1.N) (r : Fin 640) (d : Fin 128) :
    (((cfg1.win 9).blk t).view.emb (ix2 r d) : S320000x128.Idx) = ix2 (rowN t.val r) d := by
  funext a
  apply Fin.ext
  obtain ⟨-, -, -, -, e0, e1, -⟩ := idx_facts t
  have hN : cfg1.N = 500 := N_1
  have ht := t.isLt
  have hr := r.isLt
  match a with
  | ⟨0, _⟩ => show win1_9.index t (0 : Fin 2) * 640 + 1 * r.val = (640 * t.val + r.val) % 320000; rw [e0]; omega
  | ⟨1, _⟩ => show win1_9.index t (1 : Fin 2) * 128 + 1 * d.val = d.val; rw [e1]; omega

/-- The core of point t. -/
def coreOf (t : Fin cfg1.N) : Fin 2 :=
  ⟨t.val / 250, by have := t.isLt; have hN : cfg1.N = 500 := N_1; omega⟩

theorem emb10 (t : Fin cfg1.N) (g : Fin 512) (d : Fin 128) :
    (((cfg1.win 10).blk t).view.emb (ix3 (0 : Fin 1) g d) : S2x512x128.Idx) = ix3 (coreOf t) g d := by
  funext a
  apply Fin.ext
  obtain ⟨-, -, -, -, -, -, e0, e1, e2, -⟩ := idx_facts t
  match a with
  | ⟨0, _⟩ => show win1_10.index t (0 : Fin 3) * 1 + 1 * 0 = t.val / 250; rw [e0]; omega
  | ⟨1, _⟩ => show win1_10.index t (1 : Fin 3) * 512 + 1 * g.val = g.val; rw [e1]; omega
  | ⟨2, _⟩ => show win1_10.index t (2 : Fin 3) * 128 + 1 * d.val = d.val; rw [e2]; omega

theorem emb11 (t : Fin cfg1.N) (g : Fin 512) (d : Fin 128) :
    (((cfg1.win 11).blk t).view.emb (ix3 (0 : Fin 1) g d) : S2x512x128.Idx) = ix3 (coreOf t) g d := by
  funext a
  apply Fin.ext
  obtain ⟨-, -, -, -, -, -, -, -, -, e0, e1, e2⟩ := idx_facts t
  match a with
  | ⟨0, _⟩ => show win1_11.index t (0 : Fin 3) * 1 + 1 * 0 = t.val / 250; rw [e0]; omega
  | ⟨1, _⟩ => show win1_11.index t (1 : Fin 3) * 512 + 1 * g.val = g.val; rw [e1]; omega
  | ⟨2, _⟩ => show win1_11.index t (2 : Fin 3) * 128 + 1 * d.val = d.val; rw [e2]; omega

abbrev G9 (c : Dev nD) : S320000x128.Idx → EReal :=
  Cert.Spec.r1_h2 (aX V c) (aSeg V c) (aW1 V c) (aB1 V c) (aW2 V c) (aB2 V c) (aS1 V c) (aQ1 V c) (aCt V c)
abbrev G10 (c : Dev nD) : S2x512x128.Idx → EReal :=
  Cert.Spec.r1_sum2 (aX V c) (aSeg V c) (aW1 V c) (aB1 V c) (aW2 V c) (aB2 V c) (aS1 V c) (aQ1 V c) (aCt V c)
abbrev G11 (c : Dev nD) : S2x512x128.Idx → EReal :=
  Cert.Spec.r1_sq2 (aX V c) (aSeg V c) (aW1 V c) (aB1 V c) (aW2 V c) (aB2 V c) (aS1 V c) (aQ1 V c) (aCt V c)

/-- Every point writes back its tile of the second layer. -/
theorem flushed9_eq (c : Dev nD) (t : Fin cfg1.N) :
    (dat1 V c).flushed 9 t = ((cfg1.win 9).blk t).view.read (Elt Ideal) (G9 V c) := by
  show (cfg1.win 9).cut (grid1.coords t) ((dat1 V c).after 9 t) = _
  rw [after1_9, cache_eq V c t]
  refine funext fun (y : S640x128.Idx) => ?_
  obtain ⟨r, d, rfl⟩ : ∃ (r : Fin 640) (d : Fin 128), y = ix2 r d := ⟨y 0, y 1, eq_ix2 y⟩
  rw [View.read_apply]
  show (k1_pay10 (F := Ideal) (k1_pay4 (iblk1 V c 0 t) (iblk1 V c 1 t) (iblk1 V c 2 t)) (k1_pay5 (iblk1 V c 5 t)) (k1_pay6 (iblk1 V c 5 t) (iblk1 V c 8 t)) (k1_pay7 (iblk1 V c 5 t) (iblk1 V c 8 t)) (k1_pay8 (iblk1 V c 5 t) (iblk1 V c 8 t) (iblk1 V c 6 t)) (iblk1 V c 7 t) (iblk1 V c 3 t) (iblk1 V c 4 t)) (ix2 r d) = G9 V c (((cfg1.win 9).blk t).view.emb (ix2 r d))
  rw [emb9 t r d]
  refine (Reg1Body.pay10_apply (iblk1 V c 0 t) (iblk1 V c 1 t) (iblk1 V c 2 t) (iblk1 V c 3 t) (iblk1 V c 4 t) (iblk1 V c 5 t) (iblk1 V c 6 t) (iblk1 V c 7 t) (iblk1 V c 8 t) r d).trans ?_
  exact row_eq V c t r d

/-- A core's last point writes back the core's share of the sums. -/
theorem flushed10_eq (c : Dev nD) (t : Fin cfg1.N) (hf : (cfg1.win 10).flush t = true) :
    (dat1 V c).flushed 10 t = ((cfg1.win 10).blk t).view.read (Elt Ideal) (G10 V c) := by
  have h249 : t.val % 250 = 249 := (flush1_10 t).mp hf
  show (cfg1.win 10).cut (grid1.coords t) ((dat1 V c).after 10 t) = _
  rw [after1_10]
  refine funext fun (y : S1x512x128.Idx) => ?_
  obtain ⟨z, g, d, rfl⟩ : ∃ (z : Fin 1) (g : Fin 512) (d : Fin 128), y = ix3 z g d := ⟨y 0, y 1, y 2, eq_ix3 y⟩
  obtain rfl : z = 0 := Subsingleton.elim _ _
  rw [View.read_apply]
  show (outsAt1 V c t.val t.isLt).2.1 (ix3 0 g d) = G10 V c (((cfg1.win 10).blk t).view.emb (ix3 (0 : Fin 1) g d))
  rw [emb10 t g d, sum_closed V c g d t.val t.isLt, h249]
  show _ = Cert.Spec.coreSum (aSeg V c) (fun e => H V c e d) (coreOf t) g
  rw [coreSum_eq]
  refine Finset.sum_congr rfl fun s _ => ?_
  congr 1
  show t.val - 249 + s = 250 * (t.val / 250) + s
  omega

theorem flushed11_eq (c : Dev nD) (t : Fin cfg1.N) (hf : (cfg1.win 11).flush t = true) :
    (dat1 V c).flushed 11 t = ((cfg1.win 11).blk t).view.read (Elt Ideal) (G11 V c) := by
  have h249 : t.val % 250 = 249 := (flush1_11 t).mp hf
  show (cfg1.win 11).cut (grid1.coords t) ((dat1 V c).after 11 t) = _
  rw [after1_11]
  refine funext fun (y : S1x512x128.Idx) => ?_
  obtain ⟨z, g, d, rfl⟩ : ∃ (z : Fin 1) (g : Fin 512) (d : Fin 128), y = ix3 z g d := ⟨y 0, y 1, y 2, eq_ix3 y⟩
  obtain rfl : z = 0 := Subsingleton.elim _ _
  rw [View.read_apply]
  show (outsAt1 V c t.val t.isLt).2.2 (ix3 0 g d) = G11 V c (((cfg1.win 11).blk t).view.emb (ix3 (0 : Fin 1) g d))
  rw [emb11 t g d, sq_closed V c g d t.val t.isLt, h249]
  show _ = Cert.Spec.coreSum (aSeg V c) (fun e => H V c e d * H V c e d) (coreOf t) g
  rw [coreSum_eq]
  refine Finset.sum_congr rfl fun s _ => ?_
  congr 1
  show t.val - 249 + s = 250 * (t.val / 250) + s
  omega

/-- An index of the cache is in point t's block iff each coordinate is in the block's range on its axis. -/
theorem mem_blk9 (t : Fin cfg1.N) (i : S320000x128.Idx) :
    i ∈ ((cfg1.win 9).blk t).view.set ↔ ∀ a : Fin 2, win1_9.index t a * S640x128.size a ≤ (i a).val ∧ (i a).val < win1_9.index t a * S640x128.size a + S640x128.size a := by
  show i ∈ ((View.whole main_v27_0).slice (win1_9.rect t)).set ↔ _
  rw [View.set_slice_whole, Rect.mem_set_unit]
  exact Iff.rfl

theorem mem_blk10 (t : Fin cfg1.N) (i : S2x512x128.Idx) :
    i ∈ ((cfg1.win 10).blk t).view.set ↔ ∀ a : Fin 3, win1_10.index t a * S1x512x128.size a ≤ (i a).val ∧ (i a).val < win1_10.index t a * S1x512x128.size a + S1x512x128.size a := by
  show i ∈ ((View.whole main_v27_1).slice (win1_10.rect t)).set ↔ _
  rw [View.set_slice_whole, Rect.mem_set_unit]
  exact Iff.rfl

theorem mem_blk11 (t : Fin cfg1.N) (i : S2x512x128.Idx) :
    i ∈ ((cfg1.win 11).blk t).view.set ↔ ∀ a : Fin 3, win1_11.index t a * S1x512x128.size a ≤ (i a).val ∧ (i a).val < win1_11.index t a * S1x512x128.size a + S1x512x128.size a := by
  show i ∈ ((View.whole main_v27_2).slice (win1_11.rect t)).set ↔ _
  rw [View.set_slice_whole, Rect.mem_set_unit]
  exact Iff.rfl

/-- Row e of the cache lies in the block of point e / 640. -/
theorem cover9 (i : S320000x128.Idx) :
    ∃ t : Fin cfg1.N, (cfg1.win 9).flush t = true ∧ i ∈ ((cfg1.win 9).blk t).view.set := by
  have hN : cfg1.N = 500 := N_1
  have hi0 : (i 0).val < 320000 := (i 0).isLt
  have hi1 : (i 1).val < 128 := (i 1).isLt
  refine ⟨⟨(i 0).val / 640, by omega⟩, flush1_9 _, ?_⟩
  rw [mem_blk9]
  obtain ⟨-, -, -, -, e0, e1, -⟩ := idx_facts ⟨(i 0).val / 640, by omega⟩
  intro a
  match a with
  | ⟨0, _⟩ => show win1_9.index _ (0 : Fin 2) * 640 ≤ (i 0).val ∧ (i 0).val < win1_9.index _ (0 : Fin 2) * 640 + 640; rw [e0]; show (i 0).val / 640 * 640 ≤ (i 0).val ∧ (i 0).val < (i 0).val / 640 * 640 + 640; omega
  | ⟨1, _⟩ => show win1_9.index _ (1 : Fin 2) * 128 ≤ (i 1).val ∧ (i 1).val < win1_9.index _ (1 : Fin 2) * 128 + 128; rw [e1]; omega

/-- Core q's block of an accumulator is written back at that core's last point. -/
theorem cover10 (i : S2x512x128.Idx) :
    ∃ t : Fin cfg1.N, (cfg1.win 10).flush t = true ∧ i ∈ ((cfg1.win 10).blk t).view.set := by
  have hN : cfg1.N = 500 := N_1
  have hi0 : (i 0).val < 2 := (i 0).isLt
  have hi1 : (i 1).val < 512 := (i 1).isLt
  have hi2 : (i 2).val < 128 := (i 2).isLt
  refine ⟨⟨250 * (i 0).val + 249, by omega⟩, (flush1_10 _).mpr (by show (250 * (i 0).val + 249) % 250 = 249; omega), ?_⟩
  rw [mem_blk10]
  obtain ⟨-, -, -, -, -, -, e0, e1, e2, -⟩ := idx_facts ⟨250 * (i 0).val + 249, by omega⟩
  intro a
  match a with
  | ⟨0, _⟩ => show win1_10.index _ (0 : Fin 3) * 1 ≤ (i 0).val ∧ (i 0).val < win1_10.index _ (0 : Fin 3) * 1 + 1; rw [e0]; show (250 * (i 0).val + 249) / 250 * 1 ≤ (i 0).val ∧ (i 0).val < (250 * (i 0).val + 249) / 250 * 1 + 1; omega
  | ⟨1, _⟩ => show win1_10.index _ (1 : Fin 3) * 512 ≤ (i 1).val ∧ (i 1).val < win1_10.index _ (1 : Fin 3) * 512 + 512; rw [e1]; omega
  | ⟨2, _⟩ => show win1_10.index _ (2 : Fin 3) * 128 ≤ (i 2).val ∧ (i 2).val < win1_10.index _ (2 : Fin 3) * 128 + 128; rw [e2]; omega

theorem cover11 (i : S2x512x128.Idx) :
    ∃ t : Fin cfg1.N, (cfg1.win 11).flush t = true ∧ i ∈ ((cfg1.win 11).blk t).view.set := by
  have hN : cfg1.N = 500 := N_1
  have hi0 : (i 0).val < 2 := (i 0).isLt
  have hi1 : (i 1).val < 512 := (i 1).isLt
  have hi2 : (i 2).val < 128 := (i 2).isLt
  refine ⟨⟨250 * (i 0).val + 249, by omega⟩, (flush1_11 _).mpr (by show (250 * (i 0).val + 249) % 250 = 249; omega), ?_⟩
  rw [mem_blk11]
  obtain ⟨-, -, -, -, -, -, -, -, -, e0, e1, e2⟩ := idx_facts ⟨250 * (i 0).val + 249, by omega⟩
  intro a
  match a with
  | ⟨0, _⟩ => show win1_11.index _ (0 : Fin 3) * 1 ≤ (i 0).val ∧ (i 0).val < win1_11.index _ (0 : Fin 3) * 1 + 1; rw [e0]; show (250 * (i 0).val + 249) / 250 * 1 ≤ (i 0).val ∧ (i 0).val < (250 * (i 0).val + 249) / 250 * 1 + 1; omega
  | ⟨1, _⟩ => show win1_11.index _ (1 : Fin 3) * 512 ≤ (i 1).val ∧ (i 1).val < win1_11.index _ (1 : Fin 3) * 512 + 512; rw [e1]; omega
  | ⟨2, _⟩ => show win1_11.index _ (2 : Fin 3) * 128 ≤ (i 2).val ∧ (i 2).val < win1_11.index _ (2 : Fin 3) * 128 + 128; rw [e2]; omega

end Final

variable (V : (c : Dev nD) → (b : Ref sig .tc) → Buf (Elt Ideal) ((c : Thread nD τ).loc b))

/-- The second-layer cache: row e holds the row function of edge e. -/
theorem out9 (c : Dev nD) :
    (dat1 (F := Ideal) V c).arrAt 9 cfg1.N
      = Cert.Spec.r1_h2 (V c main_v8) (V c main_v9) (V c main_v10) (V c main_v13) (V c main_v11) (V c main_v14) (V c main_v26) (V c main_v18) (V c main_v19) :=
  (dat1 (F := Ideal) V c).arrAt_eq_of_cover 9 (G9 V c) (fun t _ => flushed9_eq V c t) cover9

/-- Per core and graph, the second layer summed over the core's edges of that graph. -/
theorem out10 (c : Dev nD) :
    (dat1 (F := Ideal) V c).arrAt 10 cfg1.N
      = Cert.Spec.r1_sum2 (V c main_v8) (V c main_v9) (V c main_v10) (V c main_v13) (V c main_v11) (V c main_v14) (V c main_v26) (V c main_v18) (V c main_v19) :=
  (dat1 (F := Ideal) V c).arrAt_eq_of_cover 10 (G10 V c) (flushed10_eq V c) cover10

/-- Per core and graph, the squared second layer summed over the core's edges of that graph. -/
theorem out11 (c : Dev nD) :
    (dat1 (F := Ideal) V c).arrAt 11 cfg1.N
      = Cert.Spec.r1_sq2 (V c main_v8) (V c main_v9) (V c main_v10) (V c main_v13) (V c main_v11) (V c main_v14) (V c main_v26) (V c main_v18) (V c main_v19) :=
  (dat1 (F := Ideal) V c).arrAt_eq_of_cover 11 (G11 V c) (flushed11_eq V c) cover11

end Cert.KernelIdeal.Reg1

end
-- ==== Proof.LibFinite.lean ====
/-
  Finiteness of extended-real arrays, program-free.

  At the ideal reading of floats (extended reals) an array is ALL REAL when each of its entries is the coercion
  of a real number. Sums distribute over products on the reals but not at the infinities, so an algebraic
  argument about a network of sums, products, quotients and maxima first shows that every intermediate array is
  all real. This file proves that the property is closed under each operation such a network is made of:
  entrywise sum, difference, negation, product, maximum and minimum; a change of float format (the identity on
  extended reals); every re-indexing (shape cast, broadcast, transpose, slice, gather); a constant whose bit
  pattern denotes a real; an accumulating scatter (an entry plus a finite sum of entries); a quotient by reals
  that are not zero; and a contraction (an entry plus a finite sum of products).
-/
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Mathlib.Data.EReal.Basic
import Mathlib.Data.EReal.Operations
import Mathlib.Data.EReal.Inv
import Mathlib.Algebra.BigOperators.Group.Finset.Basic

noncomputable section

open scoped BigOperators

namespace Cert.Lib

open Idealize.ShloMosaic

/-! ## Single extended reals that are real -/

/-- The sum of two reals is real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The difference of two reals is real. -/
theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The negation of a real is real. -/
theorem real_neg {x : EReal} (hx : ∃ r : ℝ, x = (r : EReal)) : ∃ r : ℝ, -x = (r : EReal) := by
  obtain ⟨a, rfl⟩ := hx
  exact ⟨-a, (EReal.coe_neg a).symm⟩

/-- The product of two reals is real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion of reals into the extended reals commutes with the maximum. -/
theorem coe_max (a b : ℝ) : ((max a b : ℝ) : EReal) = max (a : EReal) (b : EReal) :=
  EReal.coe_strictMono.monotone.map_max

/-- The coercion of reals into the extended reals commutes with the minimum. -/
theorem coe_min (a b : ℝ) : ((min a b : ℝ) : EReal) = min (a : EReal) (b : EReal) :=
  EReal.coe_strictMono.monotone.map_min

/-- The maximum of two reals is real. -/
theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (coe_max a b).symm⟩

/-- The minimum of two reals is real. -/
theorem real_min {x y : EReal} (hx : ∃ r : ℝ, x = (r : EReal)) (hy : ∃ r : ℝ, y = (r : EReal)) :
    ∃ r : ℝ, min x y = (r : EReal) := by
  obtain ⟨a, rfl⟩ := hx
  obtain ⟨b, rfl⟩ := hy
  exact ⟨min a b, (coe_min a b).symm⟩

/-- A finite sum of coerced reals is the coercion of the sum of the reals. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite sum of reals is real. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by simp⟩
  | insert a t ha ih =>
    obtain ⟨ra, hra⟩ := h a (Finset.mem_insert_self a t)
    obtain ⟨rt, hrt⟩ := ih (fun i hi => h i (Finset.mem_insert_of_mem hi))
    exact ⟨ra + rt, by rw [Finset.sum_insert ha, hra, hrt, EReal.coe_add]⟩

/-- The quotient of a real by a real that is not zero is the coercion of the real quotient. -/
theorem div_coe_coe (a : ℝ) {r : ℝ} (h : r ≠ 0) : Ideal.div (a : EReal) (r : EReal) = ((a / r : ℝ) : EReal) := by
  rw [Ideal.div_coe h, ← EReal.coe_mul, mul_one_div]

/-- The quotient of a real by a real that is not zero is real. -/
theorem real_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx
  obtain ⟨b, hb, rfl⟩ := hy
  exact ⟨a / b, div_coe_coe a hb⟩

/-! ## Bit patterns that denote reals -/

/-- The f32 pattern of zero denotes the real zero. -/
theorem ofBits_zero_f32_real : Ideal.ofBits .f32 0x00000000#32 = ((0 : ℝ) : EReal) := by
  rw [Ideal.ofBits_zero_f32, EReal.coe_zero]

/-- The f32 pattern 0x3F800000 denotes the real one. -/
theorem ofBits_one_f32_real : Ideal.ofBits .f32 0x3F800000#32 = ((1 : ℝ) : EReal) := by
  simp [Ideal.ofBits, Ideal.ieee, -EReal.coe_mul]; norm_num

/-- The f32 pattern 0x3F800000 denotes the extended real one. -/
theorem ofBits_one_f32 : Ideal.ofBits .f32 0x3F800000#32 = 1 := by
  rw [ofBits_one_f32_real, EReal.coe_one]

/-- The f32 pattern 0x3F000000 denotes the real one half. -/
theorem ofBits_half_f32_real : Ideal.ofBits .f32 0x3F000000#32 = (((1 : ℝ) / 2 : ℝ) : EReal) := by
  simp [Ideal.ofBits, Ideal.ieee, -EReal.coe_mul]; norm_num

/-! ## Arrays all of whose entries are real

An array of extended reals does not record a float format, so where a closure theorem below is applied with no
expected type to read it from, the format is given by name, as in `allReal_scatterAdd (φ := .f32) d idx hx hu`. -/

/-- Every entry is a real number. -/
def AllReal {s : Shape} (v : s.Idx → EReal) : Prop := ∀ i, ∃ r : ℝ, v i = (r : EReal)

variable {s t : Shape} {φ : FTy}

/-- An all-real array is the coercion of a real-valued array. -/
theorem AllReal.exists_real {v : s.Idx → EReal} (h : AllReal v) : ∃ f : s.Idx → ℝ, v = fun i => (f i : EReal) := by
  choose f hf using h
  exact ⟨f, funext hf⟩

/-- The coercion of a real-valued array is all real. -/
theorem allReal_coe (f : s.Idx → ℝ) : AllReal (fun i => (f i : EReal)) := fun i => ⟨f i, rfl⟩

/-- An array equal entry by entry to a real-valued one is all real. -/
theorem allReal_of_eq {v : s.Idx → EReal} (f : s.Idx → ℝ) (h : ∀ i, v i = (f i : EReal)) : AllReal v :=
  fun i => ⟨f i, h i⟩

/-! ### Entrywise arithmetic -/

/-- The entrywise sum of all-real arrays is all real. -/
theorem allReal_addf {x y : FVec Ideal s φ} (hx : AllReal x) (hy : AllReal y) : AllReal (addf x y) :=
  fun i => real_add (hx i) (hy i)

/-- The entrywise difference of all-real arrays is all real. -/
theorem allReal_subf {x y : FVec Ideal s φ} (hx : AllReal x) (hy : AllReal y) : AllReal (subf x y) :=
  fun i => real_sub (hx i) (hy i)

/-- The entrywise negation of an all-real array is all real. -/
theorem allReal_negf {x : FVec Ideal s φ} (hx : AllReal x) : AllReal (negf x) :=
  fun i => real_neg (hx i)

/-- The entrywise product of all-real arrays is all real. -/
theorem allReal_mulf {x y : FVec Ideal s φ} (hx : AllReal x) (hy : AllReal y) : AllReal (mulf x y) :=
  fun i => real_mul (hx i) (hy i)

/-- The entrywise maximum of all-real arrays is all real. -/
theorem allReal_maximumf {x y : FVec Ideal s φ} (hx : AllReal x) (hy : AllReal y) : AllReal (maximumf x y) :=
  fun i => real_max (hx i) (hy i)

/-- The entrywise minimum of all-real arrays is all real. -/
theorem allReal_minimumf {x y : FVec Ideal s φ} (hx : AllReal x) (hy : AllReal y) : AllReal (minimumf x y) :=
  fun i => real_min (hx i) (hy i)

/-! ### Changes of float format: the identity on extended reals -/

/-- Narrowing the format leaves an all-real array all real. -/
theorem allReal_truncf {ψ : FTy} {x : FVec Ideal s φ} (h : ψ.bits < φ.bits) (hx : AllReal x) :
    AllReal (truncf ψ x h : FVec Ideal s ψ) :=
  fun i => hx i

/-- Widening the format leaves an all-real array all real. -/
theorem allReal_extf {ψ : FTy} {x : FVec Ideal s φ} (h : φ.bits < ψ.bits) (hx : AllReal x) :
    AllReal (extf ψ x h : FVec Ideal s ψ) :=
  fun i => hx i

/-! ### Constants and broadcasts -/

/-- A constant array whose bit pattern denotes a real is all real. -/
theorem allReal_constant {b : BitVec φ.bits} (h : ∃ r : ℝ, Ideal.ofBits φ b = (r : EReal)) :
    AllReal (constant (F := Ideal) s φ b) :=
  fun _ => h

/-- The f32 zero constant is all real. -/
theorem allReal_constant_zero : AllReal (constant (F := Ideal) s .f32 0x00000000#32) :=
  allReal_constant ⟨0, ofBits_zero_f32_real⟩

/-- The f32 one constant is all real. -/
theorem allReal_constant_one : AllReal (constant (F := Ideal) s .f32 0x3F800000#32) :=
  allReal_constant ⟨1, ofBits_one_f32_real⟩

/-- The f32 one-half constant is all real. -/
theorem allReal_constant_half : AllReal (constant (F := Ideal) s .f32 0x3F000000#32) :=
  allReal_constant ⟨1 / 2, ofBits_half_f32_real⟩

/-- The broadcast of a real scalar is all real. -/
theorem allReal_broadcast {c : EReal} (h : ∃ r : ℝ, c = (r : EReal)) : AllReal (broadcast s c) :=
  fun _ => h

/-- The broadcast of the f32 zero scalar is all real. -/
theorem allReal_broadcast_zero : AllReal (broadcast s (Scalar.ofBits (F := Ideal) .f32 0x00000000#32)) :=
  allReal_broadcast ⟨0, ofBits_zero_f32_real⟩

/-- The broadcast of the f32 one scalar is all real. -/
theorem allReal_broadcast_one : AllReal (broadcast s (Scalar.ofBits (F := Ideal) .f32 0x3F800000#32)) :=
  allReal_broadcast ⟨1, ofBits_one_f32_real⟩

/-- The broadcast of the f32 one-half scalar is all real. -/
theorem allReal_broadcast_half : AllReal (broadcast s (Scalar.ofBits (F := Ideal) .f32 0x3F000000#32)) :=
  allReal_broadcast ⟨1 / 2, ofBits_half_f32_real⟩

/-! ### Re-indexings: each result entry is an entry of the operand -/

/-- A broadcast along trailing axes of an all-real array is all real. -/
theorem allReal_broadcastTo {x : s.Idx → EReal} (h : s.Broadcasts t) (hx : AllReal x) :
    AllReal (broadcastTo t x h) :=
  fun _ => hx _

/-- A broadcast in named dimensions of an all-real array is all real. -/
theorem allReal_broadcastInDim {x : s.Idx → EReal} {dims : Fin s.rank → Fin t.rank} (h : s.BroadcastsInDim t dims)
    (hx : AllReal x) : AllReal (broadcastInDim t dims h x) :=
  fun _ => hx _

/-- A shape cast of an all-real array is all real. -/
theorem allReal_shapeCast {x : s.Idx → EReal} (h : s.ShapeCasts t) (hx : AllReal x) : AllReal (shapeCast t x h) :=
  fun _ => hx _

/-- A slice of an all-real array is all real. -/
theorem allReal_extractStridedSlice {x : s.Idx → EReal} {off : Fin s.rank → Nat} (h : s.Slices off t)
    (hx : AllReal x) : AllReal (extractStridedSlice t off x h) :=
  fun _ => hx _

/-- A transpose of an all-real array is all real. -/
theorem allReal_transpose {x : s.Idx → EReal} {perm : List (Fin s.rank)} (h : s.Transposes perm t)
    (hx : AllReal x) : AllReal (transpose t perm x h) :=
  fun _ => hx _

/-- A gather from an all-real array is all real, whatever the indices: each result entry is an entry of the operand. -/
theorem allReal_gather {si : Shape} {w : Nat} (d : GatherDims s si t) {x : s.Idx → EReal} (idx : IVec si w)
    (hx : AllReal x) : AllReal (Host.gather d x idx) :=
  fun _ => hx _

/-! ### Accumulating scatter: an operand entry plus a finite sum of update entries -/

/-- An accumulating scatter of all-real updates into an all-real operand is all real, whatever the indices. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) :=
  fun i => real_add (hx i) (real_sum _ _ fun j _ => hu j)

/-! ### Sums along axes: an initial value plus a finite sum of entries -/

/-- A float sum along axes of an all-real array from a real initial value is all real. -/
theorem allReal_reduceAdd {axes : List (Fin s.rank)} {u : Shape} {x : FVec Ideal s φ} {init : u.Idx → Ideal φ}
    (h : s.ReducesTo axes t) (hu : 0 < u.numel) (hx : AllReal x) (hinit : ∀ i, ∃ r : ℝ, init i = (r : EReal)) :
    AllReal (Host.reduceAdd x init h hu) :=
  fun _ => real_add (hinit _) (real_sum _ _ fun i _ => hx i)

/-! ### Quotients -/

/-- The entrywise host quotient of an all-real array by reals that are not zero is all real. -/
theorem allReal_divf {x y : FVec Ideal s φ} (hx : AllReal x) (hy : ∀ i, ∃ r : ℝ, r ≠ 0 ∧ y i = (r : EReal)) :
    AllReal (Host.divf x y) :=
  fun i => real_div (hx i) (hy i)

/-- The entrywise host quotient of an all-real array by reals that are at least one is all real. -/
theorem allReal_divf_of_one_le {x y : FVec Ideal s φ} (hx : AllReal x)
    (hy : ∀ i, ∃ r : ℝ, 1 ≤ r ∧ y i = (r : EReal)) : AllReal (Host.divf x y) :=
  allReal_divf hx fun i => by
    obtain ⟨r, hr, h⟩ := hy i
    exact ⟨r, by linarith, h⟩

/-- The entrywise quotient of a kernel, likewise. -/
theorem allReal_divf_vec {x y : FVec Ideal s φ} (hx : AllReal x) (hy : ∀ i, ∃ r : ℝ, r ≠ 0 ∧ y i = (r : EReal)) :
    AllReal (divf x y) :=
  fun i => real_div (hx i) (hy i)

/-- The host quotient read at an entry where both operands are known reals. -/
theorem hostDivf_apply_coe {x y : FVec Ideal s φ} (i : s.Idx) {a r : ℝ} (hx : x i = (a : EReal))
    (hy : y i = (r : EReal)) (hr : r ≠ 0) : Host.divf x y i = ((a / r : ℝ) : EReal) := by
  show Ideal.div (x i) (y i) = _
  rw [hx, hy, div_coe_coe a hr]

/-! ### The maximum with the all-ones array: reals that are at least one -/

/-- The broadcast of the one constant has every entry one. -/
theorem ones_apply {s₀ : Shape} {dims : Fin s₀.rank → Fin t.rank} (h : s₀.BroadcastsInDim t dims) (j : t.Idx) :
    broadcastInDim t dims h (constant (F := Ideal) s₀ .f32 0x3F800000#32) j = 1 :=
  ofBits_one_f32

/-- The maximum of a real and one is a real that is at least one. -/
theorem real_max_one {x : EReal} (hx : ∃ r : ℝ, x = (r : EReal)) : ∃ r : ℝ, 1 ≤ r ∧ max x 1 = (r : EReal) := by
  obtain ⟨a, rfl⟩ := hx
  exact ⟨max a 1, le_max_right a 1, by rw [coe_max, EReal.coe_one]⟩

/-- The entrywise maximum of an all-real array with an array of ones has every entry a real that is at least one. -/
theorem maximumf_ones_ge_one {v ones : FVec Ideal s .f32} (hv : AllReal v) (hones : ∀ i, ones i = 1) :
    ∀ i, ∃ r : ℝ, 1 ≤ r ∧ maximumf v ones i = (r : EReal) := fun i => by
  show ∃ r : ℝ, 1 ≤ r ∧ max (v i) (ones i) = (r : EReal)
  rw [hones i]
  exact real_max_one (hv i)

/-- The same with the all-ones array written as the broadcast of the one constant. -/
theorem maximumf_bcast_one_ge_one {s₀ : Shape} {v : FVec Ideal t .f32} {dims : Fin s₀.rank → Fin t.rank}
    (h : s₀.BroadcastsInDim t dims) (hv : AllReal v) :
    ∀ i, ∃ r : ℝ, 1 ≤ r ∧
      maximumf v (broadcastInDim t dims h (constant (F := Ideal) s₀ .f32 0x3F800000#32)) i = (r : EReal) :=
  maximumf_ones_ge_one hv (ones_apply h)

/-- A re-indexing by a broadcast in named dimensions keeps "every entry a real that is at least one". -/
theorem one_le_broadcastInDim {x : s.Idx → EReal} {dims : Fin s.rank → Fin t.rank} (h : s.BroadcastsInDim t dims)
    (hx : ∀ i, ∃ r : ℝ, 1 ≤ r ∧ x i = (r : EReal)) :
    ∀ j, ∃ r : ℝ, 1 ≤ r ∧ broadcastInDim t dims h x j = (r : EReal) :=
  fun _ => hx _

/-! ### Contractions: an accumulator entry plus a finite sum of products -/

/-- A kernel's matrix product of all-real operands onto an all-real accumulator is all real. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) :=
  fun j => real_add (hacc j) (real_sum _ _ fun k _ => real_mul (hl _) (hr _))

/-- The host's general product of all-real operands is all real. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) :=
  fun j => real_add ⟨0, EReal.coe_zero.symm⟩ (real_sum _ _ fun k _ => real_mul (hl _) (hr _))

end Cert.Lib
-- ==== Proof.Reg2.lean ====
/-
  The third call: what its output array holds after the run, for any contents of its input arrays.

  The body's one store holds, at row r of a tile, the final row function of that row's segment word and cached
  second-layer values: the indicator of the word against the 512 graphs, three products of the indicator with the
  per-graph tables (counts, sums, sums of squares), the mean and the variance from them, the normalised row cut at
  zero, and its product with the last layer's weights plus the bias.  Tile t of the inputs is rows 640·t … 640·t + 639
  of the arrays, every point writes its tile back, and the tiles cover the result array.
-/
import proofs.«408983_j37177236914744_3_alg».proof.Proof.Gen.KernelIdeal.Frame
import proofs.«408983_j37177236914744_3_alg».proof.Proof.SpecRow
import proofs.«408983_j37177236914744_3_alg».proof.Proof.LibPlainDot
import proofs.«408983_j37177236914744_3_alg».proof.Proof.LibFinite
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg2

open Idealize.ShloMosaic Idealize.ShloMosaic.TcCoe Idealize.SL.Sem Idealize.ShloMosaic.ValueIdx
open Cert.KernelIdeal Cert.KernelIdeal.Gen
open Idealize.ShloMosaic.Pipeline (Dat)

/-! ## The stored value at a row -/

/-- The integer cast of the zero-extended equality bit is the indicator. -/
theorem bit_val (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  unfold IntOp.cmpi
  by_cases h : x = y
  · subst h
    rw [if_pos rfl]
    simp
  · rw [if_neg h]
    have : (x == y) = false := by simpa using h
    rw [this]
    simp

/-- The indicator array of a tile's segment words, at row r and graph g. -/
theorem onehot_apply (v0 : Vec Ideal S640x1 .i32) (r : Fin 640) (g : Fin 512) :
    (sitofp (F := Ideal) .f32
        (extui 32
          (cmpi .eq
            (broadcastTo S640x512 v0 broadcasts_S640x1_S640x512)
            (broadcastTo S640x512 (iota Kind.tc S1x512 32 [1] iota_S1x512_d1_w32) broadcasts_S1x512_S640x512))
          natLt_1_32) : FVec Ideal S640x512 .f32) (ix2 r g)
      = Cert.Spec.oh (v0 (ix2 r 0)) g := by
  rw [sitofp_apply, extui_apply]
  show FloatOps.sitofp (F := Ideal) .f32 ((IntOp.cmpi .eq (broadcastTo S640x512 v0 broadcasts_S640x1_S640x512 (ix2 r g))
      (broadcastTo S640x512 (iota Kind.tc S1x512 32 [1] iota_S1x512_d1_w32) broadcasts_S1x512_S640x512 (ix2 r g))).setWidth 32) = _
  rw [broadcastTo_apply v0 broadcasts_S640x1_S640x512 (ix2 r g) (ix2 r 0) (by
        intro a
        match a with
        | ⟨0, _⟩ => rfl
        | ⟨1, _⟩ => rfl),
    broadcastTo_apply (iota Kind.tc S1x512 32 [1] iota_S1x512_d1_w32) broadcasts_S1x512_S640x512 (ix2 r g) (ix2 0 g) (by
        intro a
        match a with
        | ⟨0, _⟩ => rfl
        | ⟨1, _⟩ => rfl),
    iota_single_apply, bit_val]
  rfl

/-- The table product: a [640,512] array times a [512,128] table onto zero, at (r, d). -/
theorem mm_tab (prec : Option ContractPrecision) (oh : FVec Ideal S640x512 .f32) (T : FVec Ideal S512x128 .f32) (r : Fin 640) (d : Fin 128) :
    FloatOps.matmul dot_S640x512_S512x128_S640x128_1_0_0_1_n_n prec oh T (constant (F := Ideal) S640x128 .f32 0x00000000#32) (ix2 r d)
      = ∑ g : Fin 512, oh (ix2 r g) * T (ix2 g d) :=
  PlainDot.matmul_zero_apply (M := 640) (K := 512) (N := 128) prec oh T r d

/-- The last product: a [640,128] array times the [128,1] weights onto zero, at (r, 0). -/
theorem mm_w3 (prec : Option ContractPrecision) (y : FVec Ideal S640x128 .bf16) (W : FVec Ideal S128x1 .bf16) (r : Fin 640) (d : Fin 1) :
    FloatOps.matmul dot_S640x128_S128x1_S640x1_1_0_0_1_n_n prec y W (constant (F := Ideal) S640x1 .f32 0x00000000#32) (ix2 r d)
      = ∑ k : Fin 128, y (ix2 r k) * W (ix2 k d) :=
  PlainDot.matmul_zero_apply (M := 640) (K := 128) (N := 1) prec y W r d

/-- The reciprocal square root of an array, entry by entry. -/
theorem rsqrt_apply' {s : Shape} {φ : FTy} (a : FVec Ideal s φ) (i : s.Idx) : rsqrt a i = Ideal.rsqrt (a i) := rfl

/-- The normalised row before the cut at zero: (cached value − mean) · rsqrt(variance + ε), at (r, d). -/
theorem pay2_apply (v0 : Vec Ideal S640x1 .i32) (v10 v19 v23 : Vec Ideal S512x128 .f32) (v32 : Vec Ideal S640x128 .bf16) (r : Fin 640) (d : Fin 128) :
    (k2_pay2 (F := Ideal) v0 v10 v19 v23 v32) (ix2 r d)
      = (v32 (ix2 r d) - Cert.Spec.Row.mean2 (v0 (ix2 r 0)) v19 v10 d)
          * Ideal.rsqrt (Cert.Spec.Row.var2 (v0 (ix2 r 0)) v19 v23 v10 d + Cert.Spec.eps) := by
  unfold k2_pay2
  dsimp only
  simp only [mulf_apply, subf_apply, addf_apply, divf_apply, maximumf_apply, broadcast_apply, extf_apply, shapeCast_self,
    shapeCast_shapeCast, rsqrt_apply', mm_tab, Ideal.ofBits_def, Cert.Lib.ofBits_one_f32, Ideal.ofBits_zero_f32]
  have e : ∀ g : Fin 512, (sitofp (F := Ideal) .f32
        (extui 32
          (cmpi .eq
            (broadcastTo S640x512 v0 broadcasts_S640x1_S640x512)
            (broadcastTo S640x512 (iota Kind.tc S1x512 32 [1] iota_S1x512_d1_w32) broadcasts_S1x512_S640x512))
          natLt_1_32) : FVec Ideal S640x512 .f32) (ix2 r g) = Cert.Spec.oh (v0 (ix2 r 0)) g := fun g => onehot_apply v0 r g
  simp only [e]
  unfold Cert.Spec.Row.var2 Cert.Spec.Row.nuh Cert.Spec.Row.mean2 Cert.Spec.Row.nh Cert.Spec.Row.gat Cert.Spec.eps
  rfl

/-- THE BODY'S STORED VALUE at row r: the final row function of the row's word, its cached values and the three tables. -/
theorem pay_apply (x0 : Vec Ideal S640x128 .bf16) (x1 : Vec Ideal S640x1 .i32) (x2 x3 x4 : Vec Ideal S512x128 .f32)
    (x5 : Vec Ideal S128x1 .bf16) (x6 : Vec Ideal S1x1 .f32) (r : Fin 640) :
    (k2_pay1 (F := Ideal) (k2_pay2 x1 x4 x2 x3 x0) (Scalar.ofBits .f32 0x00000000#32) x5 x6) (ix2 r 0)
      = Cert.Spec.Row.out (x1 (ix2 r 0)) x5 x6 (fun d => x0 (ix2 r d)) x2 x3 x4 := by
  unfold k2_pay1
  have e : ∀ k : Fin 128, (k2_pay2 (F := Ideal) x1 x4 x2 x3 x0) (ix2 r k)
      = (x0 (ix2 r k) - Cert.Spec.Row.mean2 (x1 (ix2 r 0)) x2 x4 k)
          * Ideal.rsqrt (Cert.Spec.Row.var2 (x1 (ix2 r 0)) x2 x3 x4 k + Cert.Spec.eps) := fun k => pay2_apply x1 x4 x2 x3 x0 r k
  simp only [addf_apply, shapeCast_self, mm_w3, truncf_apply, maximumf_apply, broadcast_apply, e, Ideal.ofBits_def, Ideal.ofBits_zero_f32]
  rw [broadcastTo_apply x6 broadcasts_S1x1_S640x1 (ix2 r 0) (ix2 0 0) (by
        intro a
        match a with
        | ⟨0, _⟩ => rfl
        | ⟨1, _⟩ => rfl)]
  rfl

/-! ## From tiles to the array -/

variable (V : (c : Dev nD) → (b : Ref sig .tc) → Buf (Elt Ideal) ((c : Thread nD τ).loc b))

theorem hz : (![0, 0] : Fin 2 → Nat) = fun _ => 0 := funext fun a => by fin_cases a <;> rfl

/-- A row of a tile as a row of the whole array: the stored value at block coordinate y is the result function at array index i,
    once the tile's cached rows and words are the arrays' rows 640·t + r and the other blocks are the whole tables. -/
theorem point_eq (A0 : S320000x128.Idx → EReal) (A1 : S320000x1.Idx → BitVec 32) (T2 T3 T4 : S512x128.Idx → EReal)
    (W : S128x1.Idx → EReal) (b : S1x1.Idx → EReal)
    (x0 : Vec Ideal S640x128 .bf16) (x1 : Vec Ideal S640x1 .i32) (x2 x3 x4 : Vec Ideal S512x128 .f32)
    (x5 : Vec Ideal S128x1 .bf16) (x6 : Vec Ideal S1x1 .f32)
    (tv : Nat) (y : S640x1.Idx) (i : S320000x1.Idx)
    (hi0 : (i 0).val = tv * 640 + (y 0).val)
    (h0 : ∀ (r : Fin 640) (d : Fin 128) (e : Fin 320000), e.val = tv * 640 + r.val → x0 (ix2 r d) = A0 (ix2 e d))
    (h1 : ∀ (r : Fin 640) (e : Fin 320000), e.val = tv * 640 + r.val → x1 (ix2 r 0) = A1 (ix2 e 0))
    (h2 : x2 = T2) (h3 : x3 = T3) (h4 : x4 = T4) (h5 : x5 = W) (h6 : x6 = b) :
    (k2_pay1 (F := Ideal) (k2_pay2 x1 x4 x2 x3 x0) (Scalar.ofBits .f32 0x00000000#32) x5 x6) y
      = Cert.Spec.r2_out A1 W b A0 T2 T3 T4 i := by
  subst h2 h3 h4 h5 h6
  obtain ⟨r, z, rfl⟩ : ∃ (r : Fin 640) (z : Fin 1), y = ix2 r z := ⟨y 0, y 1, eq_ix2 y⟩
  obtain rfl : z = 0 := Subsingleton.elim _ _
  obtain ⟨e, z', rfl⟩ : ∃ (e : Fin 320000) (z : Fin 1), i = ix2 e z := ⟨i 0, i 1, eq_ix2 i⟩
  obtain rfl : z' = 0 := Subsingleton.elim _ _
  have he : e.val = tv * 640 + r.val := hi0
  rw [pay_apply, Cert.Spec.Row.out_eq, h1 r e he]
  have hx : (fun d => x0 (ix2 r d)) = fun d => A0 (ix2 e d) := funext fun d => h0 r d e he
  rw [hx]
  rfl

/-- The printed index maps over the grid: windows 0, 1 and 7 are at block (t, 0), -/
theorem idx_moving : ∀ t : Fin cfg2.N,
    win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0 :=
  (by decide +kernel : ∀ t : Fin grid2.N, _)

/-- the others at block (0, 0). -/
theorem idx_fixed : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Block t of the cached second layer is its rows 640·t + r. -/
theorem blk0 (c : Dev nD) (t : Fin cfg2.N) (r : Fin 640) (d : Fin 128) (e : Fin 320000) (he : e.val = t.val * 640 + r.val) :
    (iblk2 (F := Ideal) V c 0 t : Vec Ideal S640x128 .bf16) (ix2 r d) = V c main_v27_0 (ix2 e d) := by
  obtain ⟨f00, f01, -⟩ := idx_moving t
  show V c main_v27_0 (((cfg2.win 0).blk t).view.emb (ix2 r d)) = V c main_v27_0 (ix2 e d)
  refine congrArg _ (funext fun a => Fin.ext ?_)
  match a with
  | ⟨0, _⟩ => show win2_0.index t (0 : Fin 2) * 640 + 1 * r.val = e.val; rw [f00, he]; omega
  | ⟨1, _⟩ => show win2_0.index t (1 : Fin 2) * 128 + 1 * d.val = d.val; rw [f01]; omega

/-- Block t of the segment words is its rows 640·t + r. -/
theorem blk1 (c : Dev nD) (t : Fin cfg2.N) (r : Fin 640) (e : Fin 320000) (he : e.val = t.val * 640 + r.val) :
    (iblk2 (F := Ideal) V c 1 t : Vec Ideal S640x1 .i32) (ix2 r 0) = V c main_v9 (ix2 e 0) := by
  obtain ⟨-, -, f10, f11, -⟩ := idx_moving t
  show V c main_v9 (((cfg2.win 1).blk t).view.emb (ix2 r 0)) = V c main_v9 (ix2 e 0)
  refine congrArg _ (funext fun a => Fin.ext ?_)
  match a with
  | ⟨0, _⟩ => show win2_1.index t (0 : Fin 2) * 640 + 1 * r.val = e.val; rw [f10, he]; omega
  | ⟨1, _⟩ => show win2_1.index t (1 : Fin 2) * 1 + 1 * 0 = 0; rw [f11]

/-- The sums table's one block is the whole table. -/
theorem blk2 (c : Dev nD) (t : Fin cfg2.N) :
    (iblk2 (F := Ideal) V c 2 t : Vec Ideal S512x128 .f32) = V c main_v28 := by
  obtain ⟨g0, g1, -⟩ := idx_fixed t
  funext y
  show V c main_v28 (((cfg2.win 2).blk t).view.emb y) = V c main_v28 y
  refine congrArg _ (funext fun a => Fin.ext ?_)
  match a with
  | ⟨0, _⟩ => show win2_2.index t (0 : Fin 2) * 512 + 1 * (y 0).val = (y 0).val; rw [g0]; omega
  | ⟨1, _⟩ => show win2_2.index t (1 : Fin 2) * 128 + 1 * (y 1).val = (y 1).val; rw [g1]; omega

/-- The squares table's one block is the whole table. -/
theorem blk3 (c : Dev nD) (t : Fin cfg2.N) :
    (iblk2 (F := Ideal) V c 3 t : Vec Ideal S512x128 .f32) = V c main_v29 := by
  obtain ⟨-, -, g0, g1, -⟩ := idx_fixed t
  funext y
  show V c main_v29 (((cfg2.win 3).blk t).view.emb y) = V c main_v29 y
  refine congrArg _ (funext fun a => Fin.ext ?_)
  match a with
  | ⟨0, _⟩ => show win2_3.index t (0 : Fin 2) * 512 + 1 * (y 0).val = (y 0).val; rw [g0]; omega
  | ⟨1, _⟩ => show win2_3.index t (1 : Fin 2) * 128 + 1 * (y 1).val = (y 1).val; rw [g1]; omega

/-- The counts table's one block is the whole table. -/
theorem blk4 (c : Dev nD) (t : Fin cfg2.N) :
    (iblk2 (F := Ideal) V c 4 t : Vec Ideal S512x128 .f32) = V c main_v19 := by
  obtain ⟨-, -, -, -, g0, g1, -⟩ := idx_fixed t
  funext y
  show V c main_v19 (((cfg2.win 4).blk t).view.emb y) = V c main_v19 y
  refine congrArg _ (funext fun a => Fin.ext ?_)
  match a with
  | ⟨0, _⟩ => show win2_4.index t (0 : Fin 2) * 512 + 1 * (y 0).val = (y 0).val; rw [g0]; omega
  | ⟨1, _⟩ => show win2_4.index t (1 : Fin 2) * 128 + 1 * (y 1).val = (y 1).val; rw [g1]; omega

/-- The last layer's weights' one block is the whole array. -/
theorem blk5 (c : Dev nD) (t : Fin cfg2.N) :
    (iblk2 (F := Ideal) V c 5 t : Vec Ideal S128x1 .bf16) = V c main_v12 := by
  obtain ⟨-, -, -, -, -, -, g0, g1, -⟩ := idx_fixed t
  funext y
  show V c main_v12 (((cfg2.win 5).blk t).view.emb y) = V c main_v12 y
  refine congrArg _ (funext fun a => Fin.ext ?_)
  match a with
  | ⟨0, _⟩ => show win2_5.index t (0 : Fin 2) * 128 + 1 * (y 0).val = (y 0).val; rw [g0]; omega
  | ⟨1, _⟩ => show win2_5.index t (1 : Fin 2) * 1 + 1 * (y 1).val = (y 1).val; rw [g1]; omega

/-- The last layer's bias's one block is the whole array. -/
theorem blk6 (c : Dev nD) (t : Fin cfg2.N) :
    (iblk2 (F := Ideal) V c 6 t : Vec Ideal S1x1 .f32) = V c main_v15 := by
  obtain ⟨-, -, -, -, -, -, -, -, g0, g1⟩ := idx_fixed t
  funext y
  show V c main_v15 (((cfg2.win 6).blk t).view.emb y) = V c main_v15 y
  refine congrArg _ (funext fun a => Fin.ext ?_)
  match a with
  | ⟨0, _⟩ => show win2_6.index t (0 : Fin 2) * 1 + 1 * (y 0).val = (y 0).val; rw [g0]; omega
  | ⟨1, _⟩ => show win2_6.index t (1 : Fin 2) * 1 + 1 * (y 1).val = (y 1).val; rw [g1]; omega

/-- WHAT POINT t WRITES BACK is block t of the result function of the arrays as the call finds them. -/
theorem flushed_eq (c : Dev nD) (t : Fin cfg2.N) :
    (dat2 (F := Ideal) V c).flushed 7 t = ((cfg2.win 7).blk t).view.read (Elt Ideal)
      (Cert.Spec.r2_out (V c main_v9) (V c main_v12) (V c main_v15) (V c main_v27_0) (V c main_v28) (V c main_v29) (V c main_v19)) := by
  show (cfg2.win 7).cut (grid2.coords t) ((dat2 (F := Ideal) V c).after 7 t) = _
  rw [after2_7]
  unfold out2_7
  rw [View.canon_unit_zero hz]
  simp only [View.ld_unit_zero (S := S640x128) hz, View.ld_unit_zero (S := S640x1) hz, View.ld_unit_zero (S := S512x128) hz,
    View.ld_unit_zero (S := S128x1) hz, View.ld_unit_zero (S := S1x1) hz]
  obtain ⟨-, -, -, -, f70, -⟩ := idx_moving t
  funext j
  show (k2_pay1 (F := Ideal) (k2_pay2 (iblk2 V c 1 t) (iblk2 V c 4 t) (iblk2 V c 2 t) (iblk2 V c 3 t) (iblk2 V c 0 t))
        (Scalar.ofBits .f32 0x00000000#32) (iblk2 V c 5 t) (iblk2 V c 6 t)) j
      = Cert.Spec.r2_out (V c main_v9) (V c main_v12) (V c main_v15) (V c main_v27_0) (V c main_v28) (V c main_v29) (V c main_v19)
          (((cfg2.win 7).blk t).view.emb j)
  refine point_eq (V c main_v27_0) (V c main_v9) (V c main_v28) (V c main_v29) (V c main_v19) (V c main_v12) (V c main_v15)
    (iblk2 V c 0 t) (iblk2 V c 1 t) (iblk2 V c 2 t) (iblk2 V c 3 t) (iblk2 V c 4 t) (iblk2 V c 5 t) (iblk2 V c 6 t)
    t.val j (((cfg2.win 7).blk t).view.emb j) ?_ (blk0 V c t) (blk1 V c t) (blk2 V c t) (blk3 V c t) (blk4 V c t) (blk5 V c t) (blk6 V c t)
  show win2_7.index t (0 : Fin 2) * 640 + 1 * (j 0).val = t.val * 640 + (j 0).val
  rw [f70]; omega

/-- An index of the result array is in point t's block iff its row is one of the 640 rows from 640·t. -/
theorem mem_blk (t : Fin cfg2.N) (i : S320000x1.Idx) :
    i ∈ ((cfg2.win 7).blk t).view.set ↔ ∀ a : Fin 2, win2_7.index t a * S640x1.size a ≤ (i a).val
      ∧ (i a).val < win2_7.index t a * S640x1.size a + S640x1.size a := by
  show i ∈ ((View.whole main_v30).slice (win2_7.rect t)).set ↔ _
  rw [View.set_slice_whole, Rect.mem_set_unit]
  exact Iff.rfl

/-- Row e of the result array lies in the block of point e / 640, and every point writes its block back. -/
theorem cover (i : S320000x1.Idx) : ∃ t : Fin cfg2.N, (cfg2.win 7).flush t = true ∧ i ∈ ((cfg2.win 7).blk t).view.set := by
  have hi0 : (i 0).val < 320000 := (i 0).isLt
  have hi1 : (i 1).val < 1 := (i 1).isLt
  have hN : cfg2.N = 500 := N_2
  obtain ⟨t, ht⟩ : ∃ t : Fin cfg2.N, t.val = (i 0).val / 640 := ⟨⟨(i 0).val / 640, by rw [hN]; omega⟩, rfl⟩
  obtain ⟨-, -, -, -, f70, f71⟩ := idx_moving t
  refine ⟨t, flush2_7 t, ?_⟩
  rw [mem_blk]
  intro a
  match a with
  | ⟨0, _⟩ =>
    show win2_7.index t (0 : Fin 2) * 640 ≤ (i 0).val ∧ (i 0).val < win2_7.index t (0 : Fin 2) * 640 + 640
    rw [f70, ht]; omega
  | ⟨1, _⟩ =>
    show win2_7.index t (1 : Fin 2) * 1 ≤ (i 1).val ∧ (i 1).val < win2_7.index t (1 : Fin 2) * 1 + 1
    rw [f71]; omega

/-- Row e of the result is the final row function of edge e's cached second-layer row and segment word. -/
theorem out7 (c : Dev nD) :
    (dat2 (F := Ideal) V c).arrAt 7 cfg2.N
      = Cert.Spec.r2_out (V c main_v9) (V c main_v12) (V c main_v15) (V c main_v27_0) (V c main_v28) (V c main_v29) (V c main_v19) :=
  (dat2 (F := Ideal) V c).arrAt_eq_of_cover 7 _ (fun t _ => flushed_eq V c t) cover

end Cert.KernelIdeal.Reg2

end
-- ==== Proof.Chain.lean ====
/-
  The kernel's result buffer after the run, read back through the three calls and the host operations between them,
  as the composed function of what the first call finds in its input arrays.
-/
import proofs.«408983_j37177236914744_3_alg».proof.Proof.Gen.KernelIdeal.Frame
import proofs.«408983_j37177236914744_3_alg».proof.Proof.SpecRow
import proofs.«408983_j37177236914744_3_alg».proof.Proof.Reg0
import proofs.«408983_j37177236914744_3_alg».proof.Proof.Reg1
import proofs.«408983_j37177236914744_3_alg».proof.Proof.Reg2
import proofs.«408983_j37177236914744_3_alg».proof.Proof.LibPlainDot
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Chain

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-! ### The host's operations between the calls, read at an index -/

/-- Over a result index, the source index with coordinate `k` on the first axis. -/
theorem lift0 {n : Nat} (h : (⟨3, ![2, 512, n]⟩ : Shape).Reduces [0] ⟨2, ![512, n]⟩) (q : (⟨2, ![512, n]⟩ : Shape).Idx) (k : Fin 2) :
    h.lift q k = ix3 k (q 0) (q 1) := by
  funext a
  apply Fin.ext
  match a with
  | ⟨0, _⟩ => rfl
  | ⟨1, _⟩ => rfl
  | ⟨2, _⟩ => rfl

/-- The host's sum over the first axis of a two-share table, from the zero word: the two cores' shares added onto zero. -/
theorem reduce_comb {n : Nat} (h' : (⟨3, ![2, 512, n]⟩ : Shape).ReducesTo [0] ⟨2, ![512, n]⟩)
    (h : (⟨3, ![2, 512, n]⟩ : Shape).Reduces [0] ⟨2, ![512, n]⟩) (hu : 0 < S_.numel)
    (O : (⟨3, ![2, 512, n]⟩ : Shape).Idx → EReal) :
    Host.reduceAdd (F := Ideal) (φ := .f32) O (constant (F := Ideal) S_ .f32 0x00000000#32) h' hu = Cert.Spec.comb O := by
  funext q
  unfold Host.reduceAdd Cert.Spec.comb
  rw [Ideal.hostReduceAdd_def, Ideal.hostReduceAdd_single h' h, constant_apply, Ideal.ofBits_zero_f32]
  exact congrArg _ (Finset.sum_congr rfl fun k _ => congrArg O (lift0 h q k))

/-- The first layer's per-graph sums as the host computes them: the summed features times the weights, plus the count's first
    lane times the bias. -/
def s1host (sx : S512x256.Idx → EReal) (ct : S512x128.Idx → EReal) (w : S256x512.Idx → EReal) (b : S512.Idx → EReal) :
    S512x512.Idx → EReal :=
  addf (F := Ideal) (φ := .f32)
    (Host.dotGeneral (F := Ideal) (φ₁ := .f32) (φ₂ := .f32) dot_S512x256_S256x512_S512x512_1_0_0_1_n_n none sx w)
    (mulf (F := Ideal) (φ := .f32)
      (broadcastInDim S512x512 ![0, 1] bcast_S512x1_S512x512_0_1
        (extractStridedSlice S512x1 ![0, 0] ct slices_S512x128_S512x1_0_0))
      (broadcastInDim S512x512 ![0, 1] bcast_S1x512_S512x512_0_1
        (broadcastInDim S1x512 ![1] bcast_S512_S1x512_1 b)))

theorem dot_plain : dot_S512x256_S256x512_S512x512_1_0_0_1_n_n = DotDims.plain 512 256 512 := rfl

theorem s1host_eq (sx : S512x256.Idx → EReal) (ct : S512x128.Idx → EReal) (w : S256x512.Idx → EReal) (b : S512.Idx → EReal) :
    s1host sx ct w b = Cert.Spec.s1tab sx ct w b := by
  funext q
  obtain ⟨i, j, rfl⟩ : ∃ (i : Fin 512) (j : Fin 512), q = ix2 i j := ⟨q 0, q 1, eq_ix2 q⟩
  unfold s1host Cert.Spec.s1tab
  rw [addf_apply, mulf_apply]
  have e1 : Host.dotGeneral (F := Ideal) (φ₁ := .f32) (φ₂ := .f32) dot_S512x256_S256x512_S512x512_1_0_0_1_n_n none sx w (ix2 i j)
      = ∑ k : Fin 256, sx (ix2 i k) * w (ix2 k j) := by
    rw [dot_plain]
    exact Idealize.ShloMosaic.PlainDot.dotGeneral_apply none .single sx w i j
  have e2 : broadcastInDim S512x512 ![0, 1] bcast_S512x1_S512x512_0_1
        (extractStridedSlice S512x1 ![0, 0] ct slices_S512x128_S512x1_0_0) (ix2 i j) = ct (ix2 i 0) := by
    rw [broadcastInDim_apply _ bcast_S512x1_S512x512_0_1 _ (ix2 i j) (ix2 i 0) (fun a => match a with
      | ⟨0, _⟩ => by show i.val = if (512 : Nat) = 1 then 0 else i.val; rw [if_neg (by decide)]
      | ⟨1, _⟩ => by show 0 = if (1 : Nat) = 1 then 0 else j.val; rw [if_pos rfl])]
    exact extractStridedSlice_apply _ ct slices_S512x128_S512x1_0_0 (ix2 i 0) (ix2 i 0) (fun a => match a with
      | ⟨0, _⟩ => by show i.val = 0 + i.val; omega
      | ⟨1, _⟩ => by show 0 = 0 + 0; rfl)
  have e3 : broadcastInDim S512x512 ![0, 1] bcast_S1x512_S512x512_0_1
        (broadcastInDim S1x512 ![1] bcast_S512_S1x512_1 b) (ix2 i j) = b (ix1 j) := by
    rw [broadcastInDim_apply _ bcast_S1x512_S512x512_0_1 _ (ix2 i j) (ix2 0 j) (fun a => match a with
      | ⟨0, _⟩ => by show 0 = if (1 : Nat) = 1 then 0 else i.val; rw [if_pos rfl]
      | ⟨1, _⟩ => by show j.val = if (512 : Nat) = 1 then 0 else j.val; rw [if_neg (by decide)])]
    exact broadcastInDim_apply _ bcast_S512_S1x512_1 b (ix2 0 j) (ix1 j) (fun a => match a with
      | ⟨0, _⟩ => by show j.val = if (512 : Nat) = 1 then 0 else j.val; rw [if_neg (by decide)])
  rw [e1, e2, e3]

/-! ### Buffers carried through the run unchanged -/

/-- An input array of the first call is after the call what it was before. -/
theorem W6_in (c : Dev nD) (w : Fin cfg0.W) (hin : (cfg0.win w).isOut = false) :
    W6 m ρ c (Proc.devRef .tc (Pipeline.arrRef spec0 w)) = V5 m ρ c (Pipeline.arrRef spec0 w) :=
  (W6_arr m ρ c w).trans ((dat0 (V5 m ρ) c).arrAt_in w hin cfg0.N)

/-- An input array of the second call is after the call what it was before. -/
theorem W8_in (c : Dev nD) (w : Fin cfg1.W) (hin : (cfg1.win w).isOut = false) :
    W8 m ρ c (Proc.devRef .tc (Pipeline.arrRef spec1 w)) = V7 m ρ c (Pipeline.arrRef spec1 w) :=
  (W8_arr m ρ c w).trans ((dat1 (V7 m ρ) c).arrAt_in w hin cfg1.N)

theorem V7_v8 (c : Dev nD) : V7 m ρ c main_v8 = V5 m ρ c main_v8 :=
  (StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_in m ρ c 0 rfl)
theorem V7_v10 (c : Dev nD) : V7 m ρ c main_v10 = V5 m ρ c main_v10 :=
  (StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_in m ρ c 1 rfl)
theorem V7_v13 (c : Dev nD) : V7 m ρ c main_v13 = V5 m ρ c main_v13 :=
  (StableHlo.after_of_forall_not_mem (b := Proc.devRef .tc main_v13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_in m ρ c 2 rfl)
theorem V7_v9 (c : Dev nD) : V7 m ρ c main_v9 = V5 m ρ c main_v9 :=
  (StableHlo.after_of_forall_not_mem (b := Proc.devRef .tc main_v9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_in m ρ c 3 rfl)
theorem V7_v11 (c : Dev nD) : V7 m ρ c main_v11 = V5 m ρ c main_v11 :=
  (StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_of_ne m ρ c main_v11 (by decide))
theorem V7_v14 (c : Dev nD) : V7 m ρ c main_v14 = V5 m ρ c main_v14 :=
  (StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_of_ne m ρ c main_v14 (by decide))
theorem V7_v12 (c : Dev nD) : V7 m ρ c main_v12 = V5 m ρ c main_v12 :=
  (StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_of_ne m ρ c main_v12 (by decide))
theorem V7_v15 (c : Dev nD) : V7 m ρ c main_v15 = V5 m ρ c main_v15 :=
  (StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W6_of_ne m ρ c main_v15 (by decide))

theorem V9_v9 (c : Dev nD) : V9 m ρ c main_v9 = V5 m ρ c main_v9 :=
  ((StableHlo.after_of_forall_not_mem (b := Proc.devRef .tc main_v9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W8_in m ρ c 5 rfl)).trans (V7_v9 m ρ c)
theorem V9_v19 (c : Dev nD) : V9 m ρ c main_v19 = V7 m ρ c main_v19 :=
  (StableHlo.after_of_forall_not_mem (b := Proc.devRef .tc main_v19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W8_in m ρ c 8 rfl)
theorem V9_v12 (c : Dev nD) : V9 m ρ c main_v12 = V5 m ρ c main_v12 :=
  ((StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W8_of_ne m ρ c main_v12 (by decide))).trans (V7_v12 m ρ c)
theorem V9_v15 (c : Dev nD) : V9 m ρ c main_v15 = V5 m ρ c main_v15 :=
  ((StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W8_of_ne m ρ c main_v15 (by decide))).trans (V7_v15 m ρ c)
theorem V9_v27_0 (c : Dev nD) : V9 m ρ c main_v27_0 = (dat1 (V7 m ρ) c).arrAt 9 cfg1.N :=
  (StableHlo.after_of_forall_not_mem (b := Proc.devRef .tc main_v27_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W8_arr m ρ c 9)

/-! ### The weights the host reads between the first two calls are the launch memory's -/

theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ### What the host writes between the calls -/

/-- The counts table the second call finds: the two cores' counts added. -/
theorem V7_v19 (c : Dev nD) : V7 m ρ c main_v19 = Cert.Spec.comb (Cert.Spec.r0_cnt (V5 m ρ c main_v9)) := by
  have e : V7 m ρ c main_v19 = Host.reduceAdd (F := Ideal) (φ := .f32) (W6 m ρ c (Proc.devRef .tc main_v16_2)) (constant (F := Ideal) S_ .f32 0x00000000#32)
      reducesTo_S2x512x128_S512x128_d0 h_S_ := by
    show StableHlo.after hostOps1 _ (Proc.devRef .tc main_v19) = _
    after_results_simp
  have e6 : W6 m ρ c (Proc.devRef .tc main_v16_2) = (dat0 (V5 m ρ) c).arrAt 6 cfg0.N := W6_arr m ρ c 6
  rw [e, e6, Reg0.out6]
  exact reduce_comb _ (by decide) h_S_ _

/-- The squares table the second call finds: the two cores' sums of squares added. -/
theorem V7_v18 (c : Dev nD) : V7 m ρ c main_v18
    = Cert.Spec.comb (Cert.Spec.r0_sq1 (V5 m ρ c main_v8) (V5 m ρ c main_v9) (V5 m ρ c main_v10) (V5 m ρ c main_v13)) := by
  have e : V7 m ρ c main_v18 = Host.reduceAdd (F := Ideal) (φ := .f32) (W6 m ρ c (Proc.devRef .tc main_v16_1)) (constant (F := Ideal) S_ .f32 0x00000000#32)
      reducesTo_S2x512x512_S512x512_d0 h_S_ := by
    show StableHlo.after hostOps1 _ (Proc.devRef .tc main_v18) = _
    after_results_simp
  have e5 : W6 m ρ c (Proc.devRef .tc main_v16_1) = (dat0 (V5 m ρ) c).arrAt 5 cfg0.N := W6_arr m ρ c 5
  rw [e, e5, Reg0.out5]
  exact reduce_comb _ (by decide) h_S_ _

/-- The sums table the second call finds: from the two cores' summed features and counts, through the first layer's weights. -/
theorem V7_v26 (c : Dev nD) : V7 m ρ c main_v26
    = Cert.Spec.s1tab (Cert.Spec.comb (Cert.Spec.r0_sumx (V5 m ρ c main_v8) (V5 m ρ c main_v9)))
        (Cert.Spec.comb (Cert.Spec.r0_cnt (V5 m ρ c main_v9)))
        (m ((c : Thread nD τ).loc main_arg3)) (m ((c : Thread nD τ).loc main_arg4)) := by
  have e : V7 m ρ c main_v26 = s1host
      (Host.reduceAdd (F := Ideal) (φ := .f32) (W6 m ρ c (Proc.devRef .tc main_v16_0)) (constant (F := Ideal) S_ .f32 0x00000000#32) reducesTo_S2x512x256_S512x256_d0 h_S_)
      (Host.reduceAdd (F := Ideal) (φ := .f32) (W6 m ρ c (Proc.devRef .tc main_v16_2)) (constant (F := Ideal) S_ .f32 0x00000000#32) reducesTo_S2x512x128_S512x128_d0 h_S_)
      (W6 m ρ c (Proc.devRef .tc main_arg3)) (W6 m ρ c (Proc.devRef .tc main_arg4)) := by
    show StableHlo.after hostOps1 _ (Proc.devRef .tc main_v26) = _
    unfold s1host
    after_results_simp
  have e4 : W6 m ρ c (Proc.devRef .tc main_v16_0) = (dat0 (V5 m ρ) c).arrAt 4 cfg0.N := W6_arr m ρ c 4
  have e6 : W6 m ρ c (Proc.devRef .tc main_v16_2) = (dat0 (V5 m ρ) c).arrAt 6 cfg0.N := W6_arr m ρ c 6
  rw [e, s1host_eq, W6_arg3, W6_arg4, e4, e6, Reg0.out4, Reg0.out6, reduce_comb _ (by decide) h_S_, reduce_comb _ (by decide) h_S_]

/-- The second layer's sums table the third call finds: the two cores' shares added. -/
theorem V9_v28 (c : Dev nD) : V9 m ρ c main_v28 = Cert.Spec.comb ((dat1 (V7 m ρ) c).arrAt 10 cfg1.N) := by
  have e : V9 m ρ c main_v28 = Host.reduceAdd (F := Ideal) (φ := .f32) (W8 m ρ c (Proc.devRef .tc main_v27_1)) (constant (F := Ideal) S_ .f32 0x00000000#32)
      reducesTo_S2x512x128_S512x128_d0 h_S_ := by
    show StableHlo.after hostOps2 _ (Proc.devRef .tc main_v28) = _
    after_results_simp
  have e10 : W8 m ρ c (Proc.devRef .tc main_v27_1) = (dat1 (V7 m ρ) c).arrAt 10 cfg1.N := W8_arr m ρ c 10
  rw [e, e10]
  exact reduce_comb _ (by decide) h_S_ _

/-- The second layer's squares table the third call finds: the two cores' shares added. -/
theorem V9_v29 (c : Dev nD) : V9 m ρ c main_v29 = Cert.Spec.comb ((dat1 (V7 m ρ) c).arrAt 11 cfg1.N) := by
  have e : V9 m ρ c main_v29 = Host.reduceAdd (F := Ideal) (φ := .f32) (W8 m ρ c (Proc.devRef .tc main_v27_2)) (constant (F := Ideal) S_ .f32 0x00000000#32)
      reducesTo_S2x512x128_S512x128_d0 h_S_ := by
    show StableHlo.after hostOps2 _ (Proc.devRef .tc main_v29) = _
    after_results_simp
  have e11 : W8 m ρ c (Proc.devRef .tc main_v27_2) = (dat1 (V7 m ρ) c).arrAt 11 cfg1.N := W8_arr m ρ c 11
  rw [e, e11]
  exact reduce_comb _ (by decide) h_S_ _

/-! ### The three calls composed -/

open Cert.Spec in
/-- The three calls' values composed, over plain variables: what the third call computes from what the second leaves, computed
    in turn from what the first leaves, is the kernel's result function. -/
theorem compose
    (x : SEx256.Idx → EReal) (seg : SEx1.Idx → BitVec 32)
    (w1 : S256x512.Idx → EReal) (b1 : S1x512.Idx → EReal) (w2 : S512x128.Idx → EReal) (b2 : S1x128.Idx → EReal)
    (w3 : S128x1.Idx → EReal) (b3 : S1x1.Idx → EReal)
    (w1f : S256x512.Idx → EReal) (b1f : (⟨1, ![512]⟩ : Shape).Idx → EReal)
    (x7 : SEx256.Idx → EReal) (seg7 : SEx1.Idx → BitVec 32)
    (w17 : S256x512.Idx → EReal) (b17 : S1x512.Idx → EReal) (w27 : S512x128.Idx → EReal) (b27 : S1x128.Idx → EReal)
    (s17 q17 : S512x512.Idx → EReal) (ct7 : S512x128.Idx → EReal)
    (seg9 : SEx1.Idx → BitVec 32) (w39 : S128x1.Idx → EReal) (b39 : S1x1.Idx → EReal)
    (hc9 : SEx128.Idx → EReal) (s29 q29 ct9 : S512x128.Idx → EReal)
    (hx7 : x7 = x) (hseg7 : seg7 = seg) (hw17 : w17 = w1) (hb17 : b17 = b1) (hw27 : w27 = w2) (hb27 : b27 = b2)
    (hs17 : s17 = s1tab (comb (r0_sumx x seg)) (comb (r0_cnt seg)) w1f b1f)
    (hq17 : q17 = comb (r0_sq1 x seg w1 b1))
    (hct7 : ct7 = comb (r0_cnt seg))
    (hseg9 : seg9 = seg) (hw39 : w39 = w3) (hb39 : b39 = b3)
    (hhc9 : hc9 = r1_h2 x7 seg7 w17 b17 w27 b27 s17 q17 ct7)
    (hs29 : s29 = comb (r1_sum2 x7 seg7 w17 b17 w27 b27 s17 q17 ct7))
    (hq29 : q29 = comb (r1_sq2 x7 seg7 w17 b17 w27 b27 s17 q17 ct7))
    (hct9 : ct9 = ct7) :
    r2_out seg9 w39 b39 hc9 s29 q29 ct9 = kernelOut x seg w1 b1 w2 b2 w3 b3 w1f b1f := by
  subst hct9 hq29 hs29 hhc9 hb39 hw39 hseg9 hct7 hq17 hs17 hb27 hw27 hb17 hw17 hseg7 hx7
  rfl

theorem value (c : Dev nD) :
    W10 m ρ c (Proc.devRef .tc main_v30)
      = Cert.Spec.kernelOut (V5 m ρ c main_v8) (V5 m ρ c main_v9) (V5 m ρ c main_v10) (V5 m ρ c main_v13)
          (V5 m ρ c main_v11) (V5 m ρ c main_v14) (V5 m ρ c main_v12) (V5 m ρ c main_v15)
          (m ((c : Thread nD τ).loc main_arg3)) (m ((c : Thread nD τ).loc main_arg4)) := by
  exact
  (W10_arr m ρ c 7).trans ((Reg2.out7 (V9 m ρ) c).trans
    (compose (V5 m ρ c main_v8) (V5 m ρ c main_v9) (V5 m ρ c main_v10) (V5 m ρ c main_v13)
      (V5 m ρ c main_v11) (V5 m ρ c main_v14) (V5 m ρ c main_v12) (V5 m ρ c main_v15)
      (m ((c : Thread nD τ).loc main_arg3)) (m ((c : Thread nD τ).loc main_arg4))
      (V7 m ρ c main_v8) (V7 m ρ c main_v9) (V7 m ρ c main_v10) (V7 m ρ c main_v13) (V7 m ρ c main_v11) (V7 m ρ c main_v14)
      (V7 m ρ c main_v26) (V7 m ρ c main_v18) (V7 m ρ c main_v19)
      (V9 m ρ c main_v9) (V9 m ρ c main_v12) (V9 m ρ c main_v15) (V9 m ρ c main_v27_0) (V9 m ρ c main_v28) (V9 m ρ c main_v29)
      (V9 m ρ c main_v19)
      (V7_v8 m ρ c) (V7_v9 m ρ c) (V7_v10 m ρ c) (V7_v13 m ρ c) (V7_v11 m ρ c) (V7_v14 m ρ c)
      (V7_v26 m ρ c) (V7_v18 m ρ c) (V7_v19 m ρ c)
      (V9_v9 m ρ c) (V9_v12 m ρ c) (V9_v15 m ρ c)
      ((V9_v27_0 m ρ c).trans (Reg1.out9 (V7 m ρ) c))
      ((V9_v28 m ρ c).trans (congrArg Cert.Spec.comb (Reg1.out10 (V7 m ρ) c)))
      ((V9_v29 m ρ c).trans (congrArg Cert.Spec.comb (Reg1.out11 (V7 m ρ) c)))
      (V9_v19 m ρ c)))

end Cert.KernelIdeal.Chain

end
-- ==== Proof.AlgNorm.lean ====
/-
  One normalisation, two ways, over real values.  For the edges of one graph, with n their number (at least 1, since the
  graph owns the edge we look at), S their sum and Q their sum of squares: the mean is μ = S / n, and the sum of squared
  deviations Σ (v − μ)² equals Q − n · μ², which is not negative; so cutting it at 0 changes nothing, the two arguments of
  the reciprocal square root agree as extended reals, and so do the two scaled deviations.
-/
import proofs.«408983_j37177236914744_3_alg».proof.Proof.Spec
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Group.Finset
import Mathlib.Analysis.SpecialFunctions.Sqrt
import Mathlib.Tactic.Ring
import Mathlib.Tactic.Linarith
import Mathlib.Tactic.Positivity
import Mathlib.Tactic.FieldSimp

noncomputable section

open scoped BigOperators

namespace Cert.AlgNorm

open Idealize.ShloMosaic Cert.Spec

/-- An extended real that is a real number. -/
def IsReal (a : EReal) : Prop := ∃ r : ℝ, a = (r : EReal)

/-! ### Real numbers inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, inside the extended reals. -/
theorem coe_max (a b : ℝ) : max (a : EReal) (b : EReal) = ((max a b : ℝ) : EReal) :=
  ((EReal.coe_strictMono.monotone).map_max).symm

/-- A real divided by a nonzero real, inside the extended reals. -/
theorem div_coe_coe (a b : ℝ) (hb : b ≠ 0) : Ideal.div (a : EReal) (b : EReal) = ((a / b : ℝ) : EReal) := by
  rw [Ideal.div_coe hb, ← EReal.coe_mul, mul_one_div]

/-- The reciprocal square root of a positive real is a real. -/
theorem rsqrt_coe_pos (x : ℝ) (hx : 0 < x) : Ideal.rsqrt (x : EReal) = (((Real.sqrt x)⁻¹ : ℝ) : EReal) := by
  rw [Ideal.rsqrt_coe, if_neg (not_lt.2 hx.le), if_neg hx.ne']

/-! ### Sums over one graph's edges, over the reals -/

section Real
variable {ι γ : Type*} [Fintype ι] [DecidableEq γ]

/-- A graph that owns an edge has at least one edge. -/
theorem one_le_count (sg : ι → γ) (e : ι) : (1 : ℝ) ≤ ∑ e', if sg e' = sg e then (1 : ℝ) else 0 := by
  have h := Finset.single_le_sum (f := fun e' => if sg e' = sg e then (1 : ℝ) else 0)
    (fun i _ => by split_ifs <;> norm_num) (Finset.mem_univ e)
  simpa using h

/-- The sum of squared deviations from μ, where the values' sum is n · μ over n edges: the squares' sum minus n · μ². -/
theorem dev_sq_sum (sg : ι → γ) (r : ι → ℝ) (g : γ) (n μ : ℝ)
    (hn : n = ∑ e, if sg e = g then (1 : ℝ) else 0) (hμ : (∑ e, if sg e = g then r e else 0) = n * μ) :
    (∑ e, if sg e = g then (r e - μ) * (r e - μ) else 0)
      = (∑ e, if sg e = g then r e * r e else 0) - n * μ * μ := by
  have h : ∀ e, (if sg e = g then (r e - μ) * (r e - μ) else 0)
      = (if sg e = g then r e * r e else 0) - 2 * μ * (if sg e = g then r e else 0)
        + μ * μ * (if sg e = g then (1 : ℝ) else 0) := by
    intro e; split_ifs <;> ring
  simp only [h, Finset.sum_add_distrib, Finset.sum_sub_distrib, ← Finset.mul_sum]
  rw [hμ, ← hn]; ring

/-- A sum of squared deviations is not negative. -/
theorem dev_sq_nonneg (sg : ι → γ) (r : ι → ℝ) (g : γ) (μ : ℝ) :
    0 ≤ ∑ e, if sg e = g then (r e - μ) * (r e - μ) else 0 :=
  Finset.sum_nonneg (fun e _ => by split_ifs <;> [exact mul_self_nonneg _; exact le_refl _])

end Real

/-! ### The reference's sums of real values are reals -/

/-- The sum of real values over a graph's edges, as a real sum. -/
theorem segSum_coe (sg : Fin 320000 → Fin 512) (r : Fin 320000 → ℝ) (g : Fin 512) :
    segSum sg (fun e => (r e : EReal)) g = ((∑ e, if sg e = g then r e else 0 : ℝ) : EReal) := by
  rw [segSum, zero_add, coe_sum]
  refine Finset.sum_congr rfl (fun e _ => ?_)
  split_ifs <;> simp

/-- A sum over a graph's edges only sees the values at that graph's edges. -/
theorem segSum_congr (sg : Fin 320000 → Fin 512) (f f' : Fin 320000 → EReal) (g : Fin 512)
    (h : ∀ e, sg e = g → f e = f' e) : segSum sg f g = segSum sg f' g := by
  have hfun : (fun e => if sg e = g then f e else 0) = (fun e => if sg e = g then f' e else 0) := by
    funext e
    split_ifs with hg
    · exact h e hg
    · rfl
  unfold segSum
  rw [hfun]

/-- The number of a graph's edges, as a real sum. -/
theorem rcnt_coe (sg : Fin 320000 → Fin 512) (g : Fin 512) :
    rcnt sg g = ((∑ e, if sg e = g then (1 : ℝ) else 0 : ℝ) : EReal) := by
  have h := segSum_coe sg (fun _ => (1 : ℝ)) g
  simp only [EReal.coe_one] at h
  exact h

/-! ### The two normalisations in real form -/

section Norm
variable (sg : Fin 320000 → Fin 512) (r : Fin 320000 → ℝ) (e : Fin 320000)

/-- The number of edges of the graph that owns edge `e`. -/
def cntR : ℝ := ∑ e', if sg e' = sg e then (1 : ℝ) else 0

/-- The mean of the values over that graph. -/
def meanR : ℝ := (∑ e', if sg e' = sg e then r e' else 0) / cntR sg e

/-- The unbiased count: one less than the number of edges, but at least 1. -/
def nuR : ℝ := max 1 (cntR sg e - 1)

/-- The sum of the squared deviations from the mean over that graph. -/
def devR : ℝ := ∑ e', if sg e' = sg e then (r e' - meanR sg r e) * (r e' - meanR sg r e) else 0

theorem one_le_cntR : 1 ≤ cntR sg e := one_le_count sg e

theorem cntR_ne : cntR sg e ≠ 0 := (lt_of_lt_of_le one_pos (one_le_cntR sg e)).ne'

theorem nuR_pos : 0 < nuR sg e := lt_of_lt_of_le one_pos (le_max_left _ _)

theorem devR_nonneg : 0 ≤ devR sg r e := dev_sq_nonneg sg r (sg e) (meanR sg r e)

/-- The squares' sum less n · mean² is the sum of squared deviations. -/
theorem sq_sub_eq_devR :
    (∑ e', if sg e' = sg e then r e' * r e' else 0) - cntR sg e * meanR sg r e * meanR sg r e = devR sg r e := by
  refine (dev_sq_sum sg r (sg e) (cntR sg e) (meanR sg r e) rfl ?_).symm
  rw [meanR, mul_div_cancel₀ _ (cntR_ne sg e)]

/-- The count cut below at 1 is the count. -/
theorem rn_coe : rn sg (sg e) = ((cntR sg e : ℝ) : EReal) := by
  rw [rn, rcnt_coe, ← EReal.coe_one, coe_max, max_eq_right (one_le_count sg e)]
  rfl

/-- The unbiased count, inside the extended reals. -/
theorem nu_coe : max (1 : EReal) (((cntR sg e : ℝ) : EReal) - 1) = ((nuR sg e : ℝ) : EReal) := by
  rw [← EReal.coe_one, ← EReal.coe_sub, coe_max]
  rfl

theorem rnu_coe : rnu sg (sg e) = ((nuR sg e : ℝ) : EReal) := by
  rw [rnu, rcnt_coe]
  exact nu_coe sg e

/-- The reference's mean over the graph of edge `e` is the real mean. -/
theorem mean_coe :
    Ideal.div (segSum sg (fun e => (r e : EReal)) (sg e)) (rn sg (sg e)) = ((meanR sg r e : ℝ) : EReal) := by
  rw [segSum_coe, rn_coe, div_coe_coe _ _ (cntR_ne sg e)]
  rfl

/-- The reference's normalised value, in real form. -/
theorem rnorm_coe :
    rnorm sg (fun e => (r e : EReal)) e
      = max (((r e - meanR sg r e : ℝ) : EReal) * Ideal.rsqrt (((devR sg r e / nuR sg e : ℝ) : EReal) + eps)) 0 := by
  simp only [rnorm]
  rw [mean_coe, segSum_congr sg _ (fun e' => (((r e' - meanR sg r e) * (r e' - meanR sg r e) : ℝ) : EReal)) (sg e) ?_,
    segSum_coe, rnu_coe, div_coe_coe _ _ (nuR_pos sg e).ne', ← EReal.coe_sub]
  · rfl
  · intro e' he'
    rw [he', mean_coe, ← EReal.coe_sub, ← EReal.coe_mul]

/-- The kernel's normalised value from the three tables, in real form. -/
theorem kernel_coe (S Q C : Fin 512 → EReal)
    (hS : S (sg e) = segSum sg (fun e => (r e : EReal)) (sg e))
    (hQ : Q (sg e) = segSum sg (fun e => (r e : EReal) * (r e : EReal)) (sg e))
    (hC : C (sg e) = rcnt sg (sg e)) :
    max (((r e : EReal) - Ideal.div (S (sg e)) (max 1 (C (sg e))))
          * Ideal.rsqrt (max (Ideal.div (Q (sg e) - max 1 (C (sg e)) * Ideal.div (S (sg e)) (max 1 (C (sg e))) * Ideal.div (S (sg e)) (max 1 (C (sg e))))
                                (max 1 (max 1 (C (sg e)) - 1))) 0 + eps)) 0
      = max (((r e - meanR sg r e : ℝ) : EReal) * Ideal.rsqrt (((devR sg r e / nuR sg e : ℝ) : EReal) + eps)) 0 := by
  have hn : max 1 (C (sg e)) = ((cntR sg e : ℝ) : EReal) := by
    rw [hC]; exact rn_coe sg e
  have hm : Ideal.div (S (sg e)) ((cntR sg e : ℝ) : EReal) = ((meanR sg r e : ℝ) : EReal) := by
    have h := mean_coe sg r e
    rw [rn_coe] at h
    rw [hS]; exact h
  have hQ' : Q (sg e) = ((∑ e', if sg e' = sg e then r e' * r e' else 0 : ℝ) : EReal) := by
    have h := segSum_coe sg (fun e => r e * r e) (sg e)
    simp only [EReal.coe_mul] at h
    rw [hQ]; exact h
  have h0 : (0 : EReal) ≤ ((devR sg r e / nuR sg e : ℝ) : EReal) :=
    EReal.coe_nonneg.2 (div_nonneg (devR_nonneg sg r e) (nuR_pos sg e).le)
  rw [hn, hm, hQ', nu_coe, ← EReal.coe_mul, ← EReal.coe_mul, ← EReal.coe_sub, ← EReal.coe_sub, sq_sub_eq_devR,
    div_coe_coe _ _ (nuR_pos sg e).ne', max_eq_left h0]

end Norm

/-! ### The statements -/

/-- The variance word is a positive real. -/
theorem eps_pos : ∃ r : ℝ, 0 < r ∧ Cert.Spec.eps = (r : EReal) := by
  have h : Cert.Spec.eps = ((10995116 / 2 ^ 40 : ℝ) : EReal) := by
    unfold Cert.Spec.eps
    simp [Ideal.ofBits, Ideal.ieee, -EReal.coe_mul]
    norm_num
  exact ⟨_, by norm_num, h⟩

/-- A sum over a graph's edges of reals is a real. -/
theorem segSum_real (sg : Fin 320000 → Fin 512) (v : Fin 320000 → EReal) (hv : ∀ e, IsReal (v e)) (g : Fin 512) :
    IsReal (Cert.Spec.segSum sg v g) := by
  choose r hr using hv
  obtain rfl : v = fun e => (r e : EReal) := funext hr
  exact ⟨_, segSum_coe sg r g⟩

/-- The reference's normalised value of a real input is a real. -/
theorem rnorm_real (sg : Fin 320000 → Fin 512) (v : Fin 320000 → EReal) (hv : ∀ e, IsReal (v e)) (e : Fin 320000) :
    IsReal (Cert.Spec.rnorm sg v e) := by
  choose r hr using hv
  obtain rfl : v = fun e => (r e : EReal) := funext hr
  obtain ⟨ε, hε, he⟩ := eps_pos
  have hpos : 0 < devR sg r e / nuR sg e + ε :=
    add_pos_of_nonneg_of_pos (div_nonneg (devR_nonneg sg r e) (nuR_pos sg e).le) hε
  rw [rnorm_coe, he, ← EReal.coe_add, rsqrt_coe_pos _ hpos, ← EReal.coe_mul, ← EReal.coe_zero, coe_max]
  exact ⟨_, rfl⟩

/-- THE NORMALISATION, the kernel's way from the three tables equals the reference's way: `S`, `Q`, `C` the per-graph sum,
    sum of squares and count of the real values `v`. -/
theorem norm_eq (sg : Fin 320000 → Fin 512) (v : Fin 320000 → EReal) (hv : ∀ e, IsReal (v e)) (S Q C : Fin 512 → EReal)
    (hS : ∀ g, S g = Cert.Spec.segSum sg v g) (hQ : ∀ g, Q g = Cert.Spec.segSum sg (fun e => v e * v e) g)
    (hC : ∀ g, C g = Cert.Spec.rcnt sg g) (e : Fin 320000) :
    max ((v e - Ideal.div (S (sg e)) (max 1 (C (sg e))))
          * Ideal.rsqrt (max (Ideal.div (Q (sg e) - max 1 (C (sg e)) * Ideal.div (S (sg e)) (max 1 (C (sg e))) * Ideal.div (S (sg e)) (max 1 (C (sg e))))
                                (max 1 (max 1 (C (sg e)) - 1))) 0 + Cert.Spec.eps)) 0
      = Cert.Spec.rnorm sg v e := by
  choose r hr using hv
  obtain rfl : v = fun e => (r e : EReal) := funext hr
  rw [rnorm_coe]
  exact kernel_coe sg r e S Q C (hS _) (hQ _) (hC _)

end Cert.AlgNorm

end
-- ==== Proof.Alg.lean ====
/-
  One normalisation, two ways.  Over the edges of one graph, with n the count (at least 1 where it matters), S the sum and
  Q the sum of squares of real values v: the mean is S / n, and the sum of squared deviations Σ (v − mean)² equals
  Q − n · mean², which is not negative; so cutting it at 0 changes nothing, and the two programs' scaled deviations agree.
  Also: reading a per-graph table through the 0/1 indicator is reading it at the edge's graph, and the per-core, per-tile
  shares of an indicator-weighted sum add up to the sum over the graph's edges.
-/
import proofs.«408983_j37177236914744_3_alg».proof.Proof.Spec
import proofs.«408983_j37177236914744_3_alg».proof.Proof.AlgNorm
import Mathlib.Data.EReal.Basic
import Mathlib.Data.EReal.Operations
import Mathlib.Data.EReal.Inv
import Mathlib.Algebra.BigOperators.Group.Finset.Basic
import Mathlib.Algebra.BigOperators.Ring.Finset
import Mathlib.Tactic.Ring
import Mathlib.Tactic.Linarith

noncomputable section

open scoped BigOperators

namespace Cert.Alg

open Idealize.ShloMosaic Idealize.ShloMosaic.ValueIdx Cert.Spec

/-- An extended real that is a real number. -/
def IsReal (a : EReal) : Prop := ∃ r : ℝ, a = (r : EReal)

/-- The segment words of edges whose graphs are `sg`. -/
def segOf (sg : Fin 320000 → Fin 512) : SEx1.Idx → BitVec 32 := fun q => BitVec.ofNat 32 (sg (q 0)).val

/-- The indicator at the word of graph `sg e` is 1 exactly at that graph. -/
theorem oh_segOf (sg : Fin 320000 → Fin 512) (e : Fin 320000) (g : Fin 512) :
    oh (segw (segOf sg) e) g = if sg e = g then 1 else 0 := by
  have h : (BitVec.ofNat 32 (sg e).val = BitVec.ofNat 32 g.val) ↔ sg e = g := by
    constructor
    · intro h
      have h0 := congrArg BitVec.toNat h
      rw [BitVec.toNat_ofNat, BitVec.toNat_ofNat] at h0
      have h1 := (sg e).isLt
      have h2 := g.isLt
      apply Fin.ext
      rw [Nat.mod_eq_of_lt (by omega), Nat.mod_eq_of_lt (by omega)] at h0
      exact h0
    · intro h; rw [h]
  show (if BitVec.ofNat 32 (sg e).val = BitVec.ofNat 32 g.val then (1 : EReal) else 0) = _
  simp only [h]

/-- A table read through the indicator is the table at the edge's graph. -/
theorem gat_segOf (sg : Fin 320000 → Fin 512) (T : Fin 512 → EReal) (e : Fin 320000) :
    gat (segOf sg) T e = T (sg e) := by
  unfold gat
  rw [Finset.sum_eq_single (sg e)]
  · rw [oh_segOf, if_pos rfl, one_mul]
  · intro g _ hne
    rw [oh_segOf, if_neg (Ne.symm hne), zero_mul]
  · intro h
    exact absurd (Finset.mem_univ _) h

/-- The two cores' shares, each over its tiles and rows, add up to the sum over the graph's edges. -/
theorem comb_coreSum (sg : Fin 320000 → Fin 512) (v : Fin 320000 → EReal) (g : Fin 512) :
    (0 : EReal) + ∑ c : Fin 2, coreSum (segOf sg) v c g = segSum sg v g := by
  have key : ∀ f : Fin 320000 → EReal,
      ∑ c : Fin 2, ∑ i : Fin 250, ∑ r : Fin 640, f (edge c i r) = ∑ e : Fin 320000, f e := by
    intro f
    have hp : ∑ c : Fin 2, ∑ i : Fin 250, ∑ r : Fin 640, f (edge c i r)
        = ∑ p : Fin 2 × Fin 250 × Fin 640, f (edge p.1 p.2.1 p.2.2) := by
      rw [Fintype.sum_prod_type]
      refine Finset.sum_congr rfl fun c _ => ?_
      rw [Fintype.sum_prod_type]
    rw [hp]
    refine Fintype.sum_equiv
      { toFun := fun p => edge p.1 p.2.1 p.2.2
        invFun := fun e =>
          (⟨e.val / 160000, by have := e.isLt; omega⟩,
           ⟨e.val / 640 % 250, Nat.mod_lt _ (by omega)⟩,
           ⟨e.val % 640, Nat.mod_lt _ (by omega)⟩)
        left_inv := ?_
        right_inv := ?_ } _ _ (fun _ => rfl)
    · rintro ⟨c, i, r⟩
      have hc := c.isLt
      have hi := i.isLt
      have hr := r.isLt
      refine Prod.ext (Fin.ext ?_) (Prod.ext (Fin.ext ?_) (Fin.ext ?_))
      · show ((c.val * 250 + i.val) * 640 + r.val) / 160000 = c.val
        omega
      · show ((c.val * 250 + i.val) * 640 + r.val) / 640 % 250 = i.val
        omega
      · show ((c.val * 250 + i.val) * 640 + r.val) % 640 = r.val
        omega
    · intro e
      have he := e.isLt
      apply Fin.ext
      show (e.val / 160000 * 250 + e.val / 640 % 250) * 640 + e.val % 640 = e.val
      omega
  unfold segSum coreSum
  rw [key (fun e => oh (segw (segOf sg) e) g * v e)]
  refine congrArg (fun t : EReal => (0 : EReal) + t) ?_
  refine Finset.sum_congr rfl fun e _ => ?_
  rw [oh_segOf]
  by_cases h : sg e = g
  · rw [if_pos h, if_pos h, one_mul]
  · rw [if_neg h, if_neg h, zero_mul]

/-- The variance word is a positive real. -/
theorem eps_pos : ∃ r : ℝ, 0 < r ∧ eps = (r : EReal) := Cert.AlgNorm.eps_pos

/-- A sum over a graph's edges of reals is a real. -/
theorem segSum_real (sg : Fin 320000 → Fin 512) (v : Fin 320000 → EReal) (hv : ∀ e, IsReal (v e)) (g : Fin 512) :
    IsReal (segSum sg v g) := Cert.AlgNorm.segSum_real sg v hv g

/-- The reference's normalised value of a real input is a real. -/
theorem rnorm_real (sg : Fin 320000 → Fin 512) (v : Fin 320000 → EReal) (hv : ∀ e, IsReal (v e)) (e : Fin 320000) :
    IsReal (rnorm sg v e) := Cert.AlgNorm.rnorm_real sg v hv e

/-- THE NORMALISATION, the kernel's way from the three tables equals the reference's way: `S`, `Q`, `C` the per-graph sum,
    sum of squares and count of the real values `v`. -/
theorem norm_eq (sg : Fin 320000 → Fin 512) (v : Fin 320000 → EReal) (hv : ∀ e, IsReal (v e)) (S Q C : Fin 512 → EReal)
    (hS : ∀ g, S g = segSum sg v g) (hQ : ∀ g, Q g = segSum sg (fun e => v e * v e) g) (hC : ∀ g, C g = rcnt sg g)
    (e : Fin 320000) :
    max ((v e - Ideal.div (S (sg e)) (max 1 (C (sg e))))
          * Ideal.rsqrt (max (Ideal.div (Q (sg e) - max 1 (C (sg e)) * Ideal.div (S (sg e)) (max 1 (C (sg e))) * Ideal.div (S (sg e)) (max 1 (C (sg e))))
                                (max 1 (max 1 (C (sg e)) - 1))) 0 + eps)) 0
      = rnorm sg v e := Cert.AlgNorm.norm_eq sg v hv S Q C hS hQ hC e

end Cert.Alg

end
-- ==== Proof.PreDecode.lean ====
/-
  What the precondition says of the launch memory: every float argument holds real numbers, every edge endpoint is a
  node number in [0, 10000), every node's graph number is in [0, 512) (as signed 32-bit words).
-/
import proofs.«408983_j37177236914744_3_alg».proof.Proof.Gen.KernelIdeal
import proofs.«408983_j37177236914744_3_alg».proof.Proof.Gen.Pre_finite_inputs
import proofs.«408983_j37177236914744_3_alg».proof.Defs
import proofs.«408983_j37177236914744_3_alg».proof.Proof.Alg
import Idealize.ShloMosaic.Lib.StableHlo.Predicate
import Idealize.ShloMosaic.Lib.ReduceAll
import Idealize.ShloMosaic.Lib.ValueIdx

set_option maxRecDepth 16384

noncomputable section

namespace Cert.PreDecode

open Idealize.ShloMosaic Idealize.ShloMosaic.TcCoe Idealize.SL.Sem Idealize.ShloMosaic.ValueIdx
open Cert.KernelIdeal

/-- The scalar shape has one index. -/
instance : Subsingleton Cert.Pre_finite_inputs.S_.Idx := ⟨fun a b => funext fun d => d.elim0⟩

/-- The f32 word 0x7F800000 is plus infinity. -/
theorem inf_eq : Ideal.ofBits .f32 0x7F800000#32 = (⊤ : EReal) := by
  simp [Ideal.ofBits, Ideal.ieee]

/-- An extended real whose absolute value is below plus infinity is a real number. -/
theorem real_of_lt (x : EReal) (h : Ideal.cmp .olt (max x (-x)) (Ideal.ofBits .f32 0x7F800000#32) = 1#1) :
    Cert.Alg.IsReal x := by
  rw [inf_eq] at h
  have h' : max x (-x) < ⊤ := by
    unfold Ideal.cmp at h
    exact of_decide_eq_true ((StableHlo.Predicate.ofBool_eq_one_iff _).1 h)
  induction x using EReal.rec with
  | bot => simp at h'
  | coe r => exact ⟨r, rfl⟩
  | top => simp at h'

/-- "All of |x| < +inf" over a float array: every entry is a real. -/
theorem float_all {s : Shape} {axes : List (Fin s.rank)} (x : FVec Ideal s .f32)
    (dims : Fin Cert.Pre_finite_inputs.S_.rank → Fin s.rank)
    (hb : Cert.Pre_finite_inputs.S_.BroadcastsInDim s dims) (hr : s.ReducesTo axes Cert.Pre_finite_inputs.S_)
    (h0 : 0 < Cert.Pre_finite_inputs.S_.numel)
    (e : Host.reduce IntOp.andi
          (cmpf .olt (Host.absf x) (broadcastInDim s dims hb (constant Cert.Pre_finite_inputs.S_ .f32 0x7F800000#32)))
          (constantI Cert.Pre_finite_inputs.S_ 1 1#1) hr h0 ix0 = 1#1) (i : s.Idx) : Cert.Alg.IsReal (x i) :=
  real_of_lt (x i) (Host.reduce_andi_all _ _ hr h0 ix0 e i)

/-- "All of lo ≤ x < hi" (signed) over a word array: every entry is in the range. -/
theorem int_all {s : Shape} {axes : List (Fin s.rank)} (x : IVec s 32) (lo hi : BitVec 32)
    (dims : Fin Cert.Pre_finite_inputs.S_.rank → Fin s.rank)
    (hb : Cert.Pre_finite_inputs.S_.BroadcastsInDim s dims) (hr : s.ReducesTo axes Cert.Pre_finite_inputs.S_)
    (h0 : 0 < Cert.Pre_finite_inputs.S_.numel)
    (e : Host.reduce IntOp.andi
          (andi (cmpi .sge x (broadcastInDim s dims hb (constantI Cert.Pre_finite_inputs.S_ 32 lo)))
                (cmpi .slt x (broadcastInDim s dims hb (constantI Cert.Pre_finite_inputs.S_ 32 hi))))
          (constantI Cert.Pre_finite_inputs.S_ 1 1#1) hr h0 ix0 = 1#1) (i : s.Idx) :
    lo.toInt ≤ (x i).toInt ∧ (x i).toInt < hi.toInt := by
  have hi' : IntOp.andi (IntOp.cmpi .sge (x i) lo) (IntOp.cmpi .slt (x i) hi) = 1#1 :=
    Host.reduce_andi_all _ _ hr h0 ix0 e i
  obtain ⟨ha, hb'⟩ := IntOp.andi_eq_one.1 hi'
  exact ⟨IntOp.cmpi_sge.1 ha, IntOp.cmpi_slt.1 hb'⟩

/-- A conjunction of two scalar bits is 1 exactly when both are. -/
theorem and_ix0 (a b : IVec Cert.Pre_finite_inputs.S_ 1) : andi a b ix0 = 1#1 ↔ a ix0 = 1#1 ∧ b ix0 = 1#1 :=
  IntOp.andi_eq_one

theorem decode [hPre : Cert.Pre_finite_inputs.Facts]
    (m : (ℓ : Loc nD τ sig) → Buf (Elt Ideal) ℓ)
    (hpre : Cert.Pre_KernelIdeal (hPre_finite_inputs := hPre) m) (c : Dev nD) :
    (∀ i, Cert.Alg.IsReal (m ((c.tc : Thread nD τ).loc main_arg0) i))
    ∧ (∀ i, Cert.Alg.IsReal (m ((c.tc : Thread nD τ).loc main_arg3) i))
    ∧ (∀ i, Cert.Alg.IsReal (m ((c.tc : Thread nD τ).loc main_arg4) i))
    ∧ (∀ i, Cert.Alg.IsReal (m ((c.tc : Thread nD τ).loc main_arg5) i))
    ∧ (∀ i, Cert.Alg.IsReal (m ((c.tc : Thread nD τ).loc main_arg6) i))
    ∧ (∀ i, Cert.Alg.IsReal (m ((c.tc : Thread nD τ).loc main_arg7) i))
    ∧ (∀ i, Cert.Alg.IsReal (m ((c.tc : Thread nD τ).loc main_arg8) i))
    ∧ (∀ i, 0 ≤ (m ((c.tc : Thread nD τ).loc main_arg1) i).toInt ∧ (m ((c.tc : Thread nD τ).loc main_arg1) i).toInt < 10000)
    ∧ (∀ i, 0 ≤ (m ((c.tc : Thread nD τ).loc main_arg2) i).toInt ∧ (m ((c.tc : Thread nD τ).loc main_arg2) i).toInt < 512) := by
  have h := hpre c
  have h0 := congrFun h ix0
  dsimp only [Cert.Pre_finite_inputs.fn, Cert.Pre_finite_inputs.fn_part1, Cert.Pre_finite_inputs.fn_part2] at h0
  obtain ⟨h40, h46⟩ := (and_ix0 _ _).1 h0
  obtain ⟨h33, h39⟩ := (and_ix0 _ _).1 h40
  obtain ⟨h28, h32⟩ := (and_ix0 _ _).1 h33
  obtain ⟨h23, h27⟩ := (and_ix0 _ _).1 h28
  obtain ⟨h18, h22⟩ := (and_ix0 _ _).1 h23
  obtain ⟨h13, h17⟩ := (and_ix0 _ _).1 h18
  obtain ⟨h8, h12⟩ := (and_ix0 _ _).1 h13
  obtain ⟨h3, h7⟩ := (and_ix0 _ _).1 h8
  have z0 : (0#32 : BitVec 32).toInt = 0 := by decide
  have z1 : (10000#32 : BitVec 32).toInt = 10000 := by decide
  have z2 : (512#32 : BitVec 32).toInt = 512 := by decide
  refine ⟨float_all _ _ _ _ _ h3, float_all _ _ _ _ _ h7, float_all _ _ _ _ _ h12, float_all _ _ _ _ _ h17,
    float_all _ _ _ _ _ h22, float_all _ _ _ _ _ h27, float_all _ _ _ _ _ h32, fun i => ?_, fun i => ?_⟩
  · have hh := int_all _ _ _ _ _ _ _ h39 i
    rw [z0, z1] at hh
    exact hh
  · have hh := int_all _ _ _ _ _ _ _ h46 i
    rw [z0, z2] at hh
    exact hh

end Cert.PreDecode

end
-- ==== Proof.Prelude_Stretch.lean ====
/-
  The host operations before the first call, stretch by stretch.  The kernel's program gathers node rows and graph
  numbers with a bounds test: the index column is the edge endpoints with negative words moved up by the table's
  height, the test is "index in [0, 9999]" per row, and a row failing it is filled (NaN, or the least integer).  Here:
  the index column and the test as functions of a row of endpoints; the test passes everywhere when every endpoint is
  in [0, 10000); and each stretch's result buffers as those functions of the contents the stretch starts from.
-/
import proofs.«408983_j37177236914744_3_alg».proof.Proof.Gen.KernelIdeal.Frame
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueIdx

set_option maxRecDepth 16384

noncomputable section

open scoped BigOperators

namespace Cert.Prelude

open Idealize.ShloMosaic Idealize.ShloMosaic.TcCoe Idealize.SL.Sem Idealize.ShloMosaic.ValueIdx
open Cert.KernelIdeal Cert.KernelIdeal.Gen

/-! ## A row gather's bounds test, abstractly -/

/-- A left fold by `and` over one-bit words that are all 1, started at 1, is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- A reduction by `and` of an array of ones, from one, is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- The index column a row gather reads: a negative word moved up by the table's height 10000, then laid as a column. -/
def wrapCol (w : IVec S320000 32) : IVec S320000x1 32 :=
  broadcastInDim S320000x1 ![0] bcast_S320000_S320000x1_0
    (select (cmpi .slt w (broadcastInDim S320000 ![] bcast_S_S320000 (constantI S_ 32 0#32)))
      (addi w (broadcastInDim S320000 ![] bcast_S_S320000 (constantI S_ 32 10000#32))) w)

/-- The bounds test of a row gather: per row, "the index is in [0, 9999]". -/
def inBounds (idx : IVec S320000x1 32) : IVec S320000 1 :=
  Host.reduce IntOp.andi
    (andi (cmpi .sge idx (broadcastInDim S320000x1 ![] bcast_S_S320000x1 (constantI S_ 32 0#32)))
      (cmpi .sle idx (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The column at row `e` is the wrapped word of that row. -/
theorem wrapCol_apply (w : IVec S320000 32) (e : Fin 320000) (k : Fin 1) :
    wrapCol w (ix2 e k) = Scalar.select (IntOp.cmpi .slt (w (ix1 e)) 0#32) (IntOp.addi (w (ix1 e)) 10000#32) (w (ix1 e)) := by
  unfold wrapCol
  refine (broadcastInDim_apply _ bcast_S320000_S320000x1_0 _ (ix2 e k) (ix1 e) (fun a => match a with
    | ⟨0, _⟩ => by show e.val = if (320000 : Nat) = 1 then 0 else e.val; rw [if_neg (by decide)])).trans ?_
  rfl

/-- A word that is not negative is not wrapped. -/
theorem wrapCol_of_nonneg (w : IVec S320000 32) (e : Fin 320000) (k : Fin 1) (h : 0 ≤ (w (ix1 e)).toInt) :
    wrapCol w (ix2 e k) = w (ix1 e) := by
  rw [wrapCol_apply]
  have hc : ¬ IntOp.cmpi .slt (w (ix1 e)) 0#32 = 1#1 := by
    rw [IntOp.cmpi_slt, show (0#32 : BitVec 32).toInt = 0 from by decide]
    omega
  exact if_neg hc

/-- The column of words in [0, 10000) is those words, so in [0, 9999]. -/
theorem wrapCol_range (w : IVec S320000 32) (h : ∀ i, 0 ≤ (w i).toInt ∧ (w i).toInt < 10000) (j : S320000x1.Idx) :
    0 ≤ (wrapCol w j).toInt ∧ (wrapCol w j).toInt ≤ 9999 := by
  obtain ⟨e, k, rfl⟩ : ∃ (e : Fin 320000) (k : Fin 1), j = ix2 e k := ⟨j 0, j 1, eq_ix2 j⟩
  rw [wrapCol_of_nonneg w e k (h _).1]
  have := h (ix1 e)
  omega

/-- Where every index is in [0, 9999] the bounds test passes in every row. -/
theorem inBounds_ones (idx : IVec S320000x1 32) (h : ∀ j, 0 ≤ (idx j).toInt ∧ (idx j).toInt ≤ 9999) :
    inBounds idx = fun _ => 1#1 := by
  funext r
  unfold inBounds
  refine reduce_andi_ones _ _ _ _ (fun j => ?_) (fun _ => rfl) r
  show IntOp.andi (IntOp.cmpi .sge (idx j) 0#32) (IntOp.cmpi .sle (idx j) 9999#32) = 1#1
  rw [IntOp.andi_eq_one, IntOp.cmpi_sge, IntOp.cmpi_sle, show (0#32 : BitVec 32).toInt = 0 from by decide,
    show (9999#32 : BitVec 32).toInt = 9999 from by decide]
  exact h j

/-- Under a mask of ones a select is its first operand. -/
theorem select_ones {α : Type} {s : Shape} (a b : s.Idx → α) : select (fun _ => 1#1) a b = a :=
  funext fun i => select_one (a i) (b i)

/-- Every entry of a concatenation is an entry of one of the pieces. -/
theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

/-! ## The five host stretches before the first call, each over the contents `V` it starts from -/

/-- A row of the edge array as a flat vector: the slice of one row, reshaped. -/
def row0 (x1 : IVec S2x320000 32) : IVec S320000 32 :=
  shapeCast S320000 (extractStridedSlice S1x320000 ![0, 0] x1 slices_S2x320000_S1x320000_0_0) shapeCasts_S1x320000_S320000
@[inherit_doc row0]
def row1 (x1 : IVec S2x320000 32) : IVec S320000 32 :=
  shapeCast S320000 (extractStridedSlice S1x320000 ![1, 0] x1 slices_S2x320000_S1x320000_1_0) shapeCasts_S1x320000_S320000

/-- The kernel's gather of feature rows: the rows at the wrapped indices where the bounds test passes, the fill elsewhere. -/
def takeRows (x0 : FVec Ideal S10000x128 .f32) (w : IVec S320000 32) : FVec Ideal S320000x128 .f32 :=
  select (broadcastInDim S320000x128 ![0] bcast_S320000_S320000x128_0 (inBounds (wrapCol w)))
    (Host.gather gather_S10000x128_S320000x1_S320000x128_1_0_n_n_0_1_1128 x0 (wrapCol w))
    (broadcastInDim S320000x128 ![] bcast_S_S320000x128 (constant (F := Ideal) S_ .f32 0x7FC00000#32))

/-- The kernel's gather of graph numbers: the entries at the wrapped indices where the bounds test passes, the fill elsewhere. -/
def takeSeg (x2 : IVec S10000 32) (w : IVec S320000 32) : IVec S320000 32 :=
  select (inBounds (wrapCol w))
    (Host.gather gather_S10000_S320000x1_S320000_n_0_n_n_0_1_1 x2 (wrapCol w))
    (broadcastInDim S320000 ![] bcast_S_S320000 (constantI S_ 32 2147483648#32))

section Stretches
variable (V : Valuation τ sig (Elt Ideal))

theorem h0_v1 : StableHlo.after hostOps0 V (Proc.devRef .tc main_v1) = row0 (V (Proc.devRef .tc main_arg1)) := by
  after_results
  rfl
theorem h0_v3 : StableHlo.after hostOps0 V (Proc.devRef .tc main_v3) = row1 (V (Proc.devRef .tc main_arg1)) := by
  after_results
  rfl
theorem h1_v4 : StableHlo.after hostOps0_1 V (Proc.devRef .tc main_v4)
    = takeSeg (V (Proc.devRef .tc main_arg2)) (V (Proc.devRef .tc main_v1)) := by
  after_results_simp
  simp only [StableHlo.TRef.ofBuf, StableHlo.TRef.toBuf, cast_cast, cast_eq]
  rfl
theorem h2_v5 : StableHlo.after hostOps0_2 V (Proc.devRef .tc main_v5)
    = takeRows (V (Proc.devRef .tc main_arg0)) (V (Proc.devRef .tc main_v1)) := by
  after_results_simp
  simp only [StableHlo.TRef.ofBuf, StableHlo.TRef.toBuf, cast_cast, cast_eq]
  rfl
theorem h3_v6 : StableHlo.after hostOps0_3 V (Proc.devRef .tc main_v6)
    = takeRows (V (Proc.devRef .tc main_arg0)) (V (Proc.devRef .tc main_v3)) := by
  after_results_simp
  simp only [StableHlo.TRef.ofBuf, StableHlo.TRef.toBuf, cast_cast, cast_eq]
  rfl
theorem h4_v8 : StableHlo.after hostOps0_4 V (Proc.devRef .tc main_v8)
    = concatenate S320000x256 1 [⟨S320000x128, (V (Proc.devRef .tc main_v5) : FVec Ideal S320000x128 .f32)⟩,
        ⟨S320000x128, (V (Proc.devRef .tc main_v6) : FVec Ideal S320000x128 .f32)⟩] concatenates_S320000x128_S320000x128_S320000x256_d1 := by
  after_results
  rfl
theorem h4_v9 : StableHlo.after hostOps0_4 V (Proc.devRef .tc main_v9)
    = shapeCast S320000x1 (V (Proc.devRef .tc main_v4) : IVec S320000 32) shapeCasts_S320000_S320000x1 := by
  after_results
  rfl

end Stretches

section Keeps
variable (V : Valuation τ sig (Elt Ideal))

theorem k1_v1 : StableHlo.after hostOps0_1 V (Proc.devRef .tc main_v1) = V (Proc.devRef .tc main_v1) := by
  after_results_simp
theorem k1_v3 : StableHlo.after hostOps0_1 V (Proc.devRef .tc main_v3) = V (Proc.devRef .tc main_v3) := by
  after_results_simp
theorem k2_v3 : StableHlo.after hostOps0_2 V (Proc.devRef .tc main_v3) = V (Proc.devRef .tc main_v3) := by
  after_results_simp
theorem k2_v4 : StableHlo.after hostOps0_2 V (Proc.devRef .tc main_v4) = V (Proc.devRef .tc main_v4) := by
  after_results_simp
theorem k3_v4 : StableHlo.after hostOps0_3 V (Proc.devRef .tc main_v4) = V (Proc.devRef .tc main_v4) := by
  after_results_simp
theorem k3_v5 : StableHlo.after hostOps0_3 V (Proc.devRef .tc main_v5) = V (Proc.devRef .tc main_v5) := by
  after_results_simp

end Keeps

section Last
variable (V : Valuation τ sig (Elt Ideal))

theorem h4_v13 : StableHlo.after hostOps0_4 V (Proc.devRef .tc main_v13)
    = (fun q : S1x512.Idx => (V (Proc.devRef .tc main_arg4) : S512.Idx → EReal) (ix1 (n := 512) (q 1))) := by
  after_results
  funext q
  show shapeCast S1x512 (V (Proc.devRef .tc main_arg4) : S512.Idx → EReal) shapeCasts_S512_S1x512 q = _
  refine shapeCast_apply (s := S512) (t := S1x512) _ _ q (ix1 (n := 512) (q 1)) ?_
  rewrite [Shape.rowMajor_val_two, Shape.rowMajor_val_one]
  have h0 : (q 0).val < 1 := (q 0).isLt
  show (q 1).val = (q 0).val * 512 + (q 1).val
  omega
theorem h4_v14 : StableHlo.after hostOps0_4 V (Proc.devRef .tc main_v14)
    = (fun q : S1x128.Idx => (V (Proc.devRef .tc main_arg6) : S128.Idx → EReal) (ix1 (n := 128) (q 1))) := by
  after_results
  funext q
  show shapeCast S1x128 (V (Proc.devRef .tc main_arg6) : S128.Idx → EReal) shapeCasts_S128_S1x128 q = _
  refine shapeCast_apply (s := S128) (t := S1x128) _ _ q (ix1 (n := 128) (q 1)) ?_
  rewrite [Shape.rowMajor_val_two, Shape.rowMajor_val_one]
  have h0 : (q 0).val < 1 := (q 0).isLt
  show (q 1).val = (q 0).val * 128 + (q 1).val
  omega
theorem h4_v15 : StableHlo.after hostOps0_4 V (Proc.devRef .tc main_v15)
    = (fun q : S1x1.Idx => (V (Proc.devRef .tc main_arg8) : S1.Idx → EReal) (ix1 (n := 1) (q 1))) := by
  after_results
  funext q
  show shapeCast S1x1 (V (Proc.devRef .tc main_arg8) : S1.Idx → EReal) shapeCasts_S1_S1x1 q = _
  refine shapeCast_apply (s := S1) (t := S1x1) _ _ q (ix1 (n := 1) (q 1)) ?_
  rewrite [Shape.rowMajor_val_two, Shape.rowMajor_val_one]
  have h0 : (q 0).val < 1 := (q 0).isLt
  show (q 1).val = (q 0).val * 1 + (q 1).val
  omega
theorem h4_v10 : StableHlo.after hostOps0_4 V (Proc.devRef .tc main_v10)
    = (V (Proc.devRef .tc main_arg3) : FVec Ideal S256x512 .f32) := by
  after_results
  rfl
theorem h4_v11 : StableHlo.after hostOps0_4 V (Proc.devRef .tc main_v11)
    = (V (Proc.devRef .tc main_arg5) : FVec Ideal S512x128 .f32) := by
  after_results
  rfl
theorem h4_v12 : StableHlo.after hostOps0_4 V (Proc.devRef .tc main_v12)
    = (V (Proc.devRef .tc main_arg7) : FVec Ideal S128x1 .f32) := by
  after_results
  rfl

end Last

/-! ## Under the range hypothesis the gathers are plain -/

/-- Every entry of a row of the edge array is an entry of the array. -/
theorem row0_forall (P : BitVec 32 → Prop) (x1 : IVec S2x320000 32) (h : ∀ k, P (x1 k)) (i : S320000.Idx) : P (row0 x1 i) := h _
@[inherit_doc row0_forall]
theorem row1_forall (P : BitVec 32 → Prop) (x1 : IVec S2x320000 32) (h : ∀ k, P (x1 k)) (i : S320000.Idx) : P (row1 x1 i) := h _

/-- With every index in [0, 10000) the feature gather is the plain gather at the index column. -/
theorem takeRows_eq (x0 : FVec Ideal S10000x128 .f32) (w : IVec S320000 32)
    (hw : ∀ i, 0 ≤ (w i).toInt ∧ (w i).toInt < 10000) :
    takeRows x0 w = Host.gather gather_S10000x128_S320000x1_S320000x128_1_0_n_n_0_1_1128 x0 (wrapCol w) := by
  unfold takeRows
  rw [inBounds_ones _ (wrapCol_range w hw)]
  exact select_ones _ _

/-- With every index in [0, 10000) the graph-number gather is the plain gather at the index column. -/
theorem takeSeg_eq (x2 : IVec S10000 32) (w : IVec S320000 32)
    (hw : ∀ i, 0 ≤ (w i).toInt ∧ (w i).toInt < 10000) :
    takeSeg x2 w = Host.gather gather_S10000_S320000x1_S320000_n_0_n_n_0_1_1 x2 (wrapCol w) := by
  unfold takeSeg
  rw [inBounds_ones _ (wrapCol_range w hw)]
  exact select_ones _ _

end Cert.Prelude

end
-- ==== Proof.Prelude.lean ====
/-
  Before the first call.  Under the precondition every edge endpoint is a node number and every node's graph number is
  below 512, so the bounds test of the kernel's row gathers passes everywhere and they return what the reference's
  gathers return: the two programs start from the same feature rows and the same segment numbers; the remaining host
  operations before the first call only change formats and shapes.  All the float data are real numbers.
-/
import proofs.«408983_j37177236914744_3_alg».proof.Proof.Gen.KernelIdeal.Frame
import proofs.«408983_j37177236914744_3_alg».proof.Proof.Gen.ReferenceIdeal.Read
import proofs.«408983_j37177236914744_3_alg».proof.Proof.Gen.Pre_finite_inputs
import proofs.«408983_j37177236914744_3_alg».proof.Defs
import proofs.«408983_j37177236914744_3_alg».proof.Proof.Alg
import proofs.«408983_j37177236914744_3_alg».proof.Proof.PreDecode
import proofs.«408983_j37177236914744_3_alg».proof.Proof.Prelude_Stretch
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueIdx

set_option maxRecDepth 16384

noncomputable section

open scoped BigOperators

namespace Cert.Prelude

open Idealize.ShloMosaic Idealize.ShloMosaic.TcCoe Idealize.SL.Sem Idealize.ShloMosaic.ValueIdx
open Cert.KernelIdeal Cert.KernelIdeal.Gen

/-! ## The contents at the stretches' boundaries -/

section Boundaries
variable (m : (ℓ : Loc nD τ sig) → Buf (Elt Ideal) ℓ) (ρ : Dev nD → PrngReg) (c : Dev nD)

theorem W1_arg2 : W1 m ρ c (Proc.devRef .tc main_arg2) = m ((c : Thread nD τ).loc main_arg2) := by
  show StableHlo.after hostOps0 _ _ = _
  after_results
theorem W2_arg0 : W2 m ρ c (Proc.devRef .tc main_arg0) = m ((c : Thread nD τ).loc main_arg0) := by
  show StableHlo.after hostOps0_1 _ _ = _
  after_results
theorem W3_arg0 : W3 m ρ c (Proc.devRef .tc main_arg0) = m ((c : Thread nD τ).loc main_arg0) := by
  show StableHlo.after hostOps0_2 _ _ = _
  after_results
theorem W4_arg3 : W4 m ρ c (Proc.devRef .tc main_arg3) = m ((c : Thread nD τ).loc main_arg3) := by
  show StableHlo.after hostOps0_3 _ _ = _
  after_results
theorem W4_arg4 : W4 m ρ c (Proc.devRef .tc main_arg4) = m ((c : Thread nD τ).loc main_arg4) := by
  show StableHlo.after hostOps0_3 _ _ = _
  after_results
theorem W4_arg5 : W4 m ρ c (Proc.devRef .tc main_arg5) = m ((c : Thread nD τ).loc main_arg5) := by
  show StableHlo.after hostOps0_3 _ _ = _
  after_results
theorem W4_arg6 : W4 m ρ c (Proc.devRef .tc main_arg6) = m ((c : Thread nD τ).loc main_arg6) := by
  show StableHlo.after hostOps0_3 _ _ = _
  after_results
theorem W4_arg7 : W4 m ρ c (Proc.devRef .tc main_arg7) = m ((c : Thread nD τ).loc main_arg7) := by
  show StableHlo.after hostOps0_3 _ _ = _
  after_results
theorem W4_arg8 : W4 m ρ c (Proc.devRef .tc main_arg8) = m ((c : Thread nD τ).loc main_arg8) := by
  show StableHlo.after hostOps0_3 _ _ = _
  after_results

theorem W1_v1 : W1 m ρ c (Proc.devRef .tc main_v1) = row0 (m ((c : Thread nD τ).loc main_arg1)) := h0_v1 (W0 m ρ c)
theorem W1_v3 : W1 m ρ c (Proc.devRef .tc main_v3) = row1 (m ((c : Thread nD τ).loc main_arg1)) := h0_v3 (W0 m ρ c)
theorem W2_v1 : W2 m ρ c (Proc.devRef .tc main_v1) = row0 (m ((c : Thread nD τ).loc main_arg1)) :=
  (k1_v1 (W1 m ρ c)).trans (W1_v1 m ρ c)
theorem W3_v3 : W3 m ρ c (Proc.devRef .tc main_v3) = row1 (m ((c : Thread nD τ).loc main_arg1)) :=
  (k2_v3 (W2 m ρ c)).trans ((k1_v3 (W1 m ρ c)).trans (W1_v3 m ρ c))
theorem W2_v4 : W2 m ρ c (Proc.devRef .tc main_v4)
    = takeSeg (m ((c : Thread nD τ).loc main_arg2)) (row0 (m ((c : Thread nD τ).loc main_arg1))) := by
  show StableHlo.after hostOps0_1 (W1 m ρ c) _ = _
  rw [h1_v4, W1_arg2, W1_v1]
theorem W4_v4 : W4 m ρ c (Proc.devRef .tc main_v4)
    = takeSeg (m ((c : Thread nD τ).loc main_arg2)) (row0 (m ((c : Thread nD τ).loc main_arg1))) :=
  (k3_v4 (W3 m ρ c)).trans ((k2_v4 (W2 m ρ c)).trans (W2_v4 m ρ c))
theorem W3_v5 : W3 m ρ c (Proc.devRef .tc main_v5)
    = takeRows (m ((c : Thread nD τ).loc main_arg0)) (row0 (m ((c : Thread nD τ).loc main_arg1))) := by
  show StableHlo.after hostOps0_2 (W2 m ρ c) _ = _
  rw [h2_v5, W2_arg0, W2_v1]
theorem W4_v5 : W4 m ρ c (Proc.devRef .tc main_v5)
    = takeRows (m ((c : Thread nD τ).loc main_arg0)) (row0 (m ((c : Thread nD τ).loc main_arg1))) :=
  (k3_v5 (W3 m ρ c)).trans (W3_v5 m ρ c)
theorem W4_v6 : W4 m ρ c (Proc.devRef .tc main_v6)
    = takeRows (m ((c : Thread nD τ).loc main_arg0)) (row1 (m ((c : Thread nD τ).loc main_arg1))) := by
  show StableHlo.after hostOps0_3 (W3 m ρ c) _ = _
  rw [h3_v6, W3_arg0, W3_v3]

/-- The feature rows the first call reads: the two gathers side by side. -/
theorem V5_v8 : V5 m ρ c main_v8
    = concatenate S320000x256 1
        [⟨S320000x128, takeRows (m ((c : Thread nD τ).loc main_arg0)) (row0 (m ((c : Thread nD τ).loc main_arg1)))⟩,
         ⟨S320000x128, takeRows (m ((c : Thread nD τ).loc main_arg0)) (row1 (m ((c : Thread nD τ).loc main_arg1)))⟩]
        concatenates_S320000x128_S320000x128_S320000x256_d1 := by
  show StableHlo.after hostOps0_4 (W4 m ρ c) _ = _
  rw [h4_v8, W4_v5, W4_v6]

/-- The segment column the first call reads: the gathered graph numbers as a column. -/
theorem V5_v9 : V5 m ρ c main_v9
    = shapeCast S320000x1 (takeSeg (m ((c : Thread nD τ).loc main_arg2)) (row0 (m ((c : Thread nD τ).loc main_arg1))))
        shapeCasts_S320000_S320000x1 := by
  show StableHlo.after hostOps0_4 (W4 m ρ c) _ = _
  rw [h4_v9, W4_v4]

theorem V5_v10 : V5 m ρ c main_v10 = m ((c : Thread nD τ).loc main_arg3) := by
  show StableHlo.after hostOps0_4 (W4 m ρ c) _ = _
  rw [h4_v10, W4_arg3]
theorem V5_v11 : V5 m ρ c main_v11 = m ((c : Thread nD τ).loc main_arg5) := by
  show StableHlo.after hostOps0_4 (W4 m ρ c) _ = _
  rw [h4_v11, W4_arg5]
theorem V5_v12 : V5 m ρ c main_v12 = m ((c : Thread nD τ).loc main_arg7) := by
  show StableHlo.after hostOps0_4 (W4 m ρ c) _ = _
  rw [h4_v12, W4_arg7]
theorem V5_v13 : V5 m ρ c main_v13 = (fun q => m ((c : Thread nD τ).loc main_arg4) (ix1 (q 1))) := by
  show StableHlo.after hostOps0_4 (W4 m ρ c) _ = _
  rw [h4_v13, W4_arg4]
  rfl
theorem V5_v14 : V5 m ρ c main_v14 = (fun q => m ((c : Thread nD τ).loc main_arg6) (ix1 (q 1))) := by
  show StableHlo.after hostOps0_4 (W4 m ρ c) _ = _
  rw [h4_v14, W4_arg6]
  rfl
theorem V5_v15 : V5 m ρ c main_v15 = (fun q => m ((c : Thread nD τ).loc main_arg8) (ix1 (q 1))) := by
  show StableHlo.after hostOps0_4 (W4 m ρ c) _ = _
  rw [h4_v15, W4_arg8]
  rfl

end Boundaries

/-- A 32-bit word whose signed value is in [0, 512) is the word of a number below 512. -/
theorem word_of_range (a : BitVec 32) (h0 : 0 ≤ a.toInt) (h1 : a.toInt < 512) : ∃ g : Fin 512, a = BitVec.ofNat 32 g.val := by
  have hlt := a.isLt
  have hc := BitVec.toInt_eq_toNat_cond a
  have hn : a.toNat < 512 := by
    by_cases h2 : 2 * a.toNat < 2 ^ 32
    · rw [if_pos h2] at hc; omega
    · rw [if_neg h2] at hc; omega
  refine ⟨⟨a.toNat, hn⟩, BitVec.eq_of_toNat_eq ?_⟩
  rw [BitVec.toNat_ofNat]
  exact (Nat.mod_eq_of_lt (by omega)).symm

/-- What the precondition gives, and how the first call's inputs relate to the reference's first values. -/
theorem kernel_side [hPre : Cert.Pre_finite_inputs.Facts]
    (m : (ℓ : Loc nD τ sig) → Buf (Elt Ideal) ℓ) (ρ : Dev nD → PrngReg)
    (hpre : Cert.Pre_KernelIdeal (hPre_finite_inputs := hPre) m) (c : Dev nD) :
    ∃ sg : Fin 320000 → Fin 512,
      V5 m ρ c main_v9 = Cert.Alg.segOf sg
      ∧ Cert.ReferenceIdeal.Read.val_main_v25 (F := Ideal) (m ((c : Thread nD τ).loc main_arg1)) (m ((c : Thread nD τ).loc main_arg2))
          = (fun q => BitVec.ofNat 32 (sg (q 0)).val)
      ∧ V5 m ρ c main_v8 = Cert.ReferenceIdeal.Read.val_main_v18 (F := Ideal) (m ((c : Thread nD τ).loc main_arg0)) (m ((c : Thread nD τ).loc main_arg1))
      ∧ (∀ i, Cert.Alg.IsReal (V5 m ρ c main_v8 i))
      ∧ V5 m ρ c main_v10 = m ((c : Thread nD τ).loc main_arg3)
      ∧ V5 m ρ c main_v13 = (fun q => m ((c : Thread nD τ).loc main_arg4) (ix1 (q 1)))
      ∧ V5 m ρ c main_v11 = m ((c : Thread nD τ).loc main_arg5)
      ∧ V5 m ρ c main_v14 = (fun q => m ((c : Thread nD τ).loc main_arg6) (ix1 (q 1)))
      ∧ V5 m ρ c main_v12 = m ((c : Thread nD τ).loc main_arg7)
      ∧ V5 m ρ c main_v15 = (fun q => m ((c : Thread nD τ).loc main_arg8) (ix1 (q 1)))
      ∧ (∀ i, Cert.Alg.IsReal (m ((c : Thread nD τ).loc main_arg3) i))
      ∧ (∀ i, Cert.Alg.IsReal (m ((c : Thread nD τ).loc main_arg4) i))
      ∧ (∀ i, Cert.Alg.IsReal (m ((c : Thread nD τ).loc main_arg5) i))
      ∧ (∀ i, Cert.Alg.IsReal (m ((c : Thread nD τ).loc main_arg6) i))
      ∧ (∀ i, Cert.Alg.IsReal (m ((c : Thread nD τ).loc main_arg7) i))
      ∧ (∀ i, Cert.Alg.IsReal (m ((c : Thread nD τ).loc main_arg8) i)) := by
  obtain ⟨h0, h3, h4, h5, h6, h7, h8, hr1, hr2⟩ := Cert.PreDecode.decode m hpre c
  -- the two rows of endpoints are node numbers
  have hw0 := row0_forall (fun a => 0 ≤ a.toInt ∧ a.toInt < 10000) _ hr1
  have hw1 := row1_forall (fun a => 0 ≤ a.toInt ∧ a.toInt < 10000) _ hr1
  -- so the kernel's feature rows are the reference's
  have e8 : V5 m ρ c main_v8 = Cert.ReferenceIdeal.Read.val_main_v18 (F := Ideal)
      (m ((c : Thread nD τ).loc main_arg0)) (m ((c : Thread nD τ).loc main_arg1)) := by
    rw [V5_v8, takeRows_eq _ _ hw0, takeRows_eq _ _ hw1]
    rfl
  -- and the kernel's segment column is the reference's graph numbers, edge by edge
  have e9 : ∀ (e : Fin 320000) (k : Fin 1), V5 m ρ c main_v9 (ix2 e k)
      = Cert.ReferenceIdeal.Read.val_main_v25 (F := Ideal)
          (m ((c : Thread nD τ).loc main_arg1)) (m ((c : Thread nD τ).loc main_arg2)) (ix1 e) := by
    intro e k
    rw [V5_v9, takeSeg_eq _ _ hw0]
    refine (shapeCast_apply (s := S320000) (t := S320000x1) _ _ (ix2 e k) (ix1 e) ?_).trans rfl
    rewrite [Shape.rowMajor_val_two, Shape.rowMajor_val_one]
    have hk : k.val < 1 := k.isLt
    show e.val = e.val * 1 + k.val
    omega
  -- every gathered graph number is below 512
  have hseg : ∀ i, ∃ g : Fin 512, Cert.ReferenceIdeal.Read.val_main_v25 (F := Ideal)
      (m ((c : Thread nD τ).loc main_arg1)) (m ((c : Thread nD τ).loc main_arg2)) i = BitVec.ofNat 32 g.val :=
    fun i => word_of_range _ (hr2 _).1 (hr2 _).2
  choose sg' hsg' using hseg
  refine ⟨fun e => sg' (ix1 e), ?_, ?_, e8, ?_, V5_v10 m ρ c, V5_v13 m ρ c, V5_v11 m ρ c, V5_v14 m ρ c, V5_v12 m ρ c,
    V5_v15 m ρ c, h3, h4, h5, h6, h7, h8⟩
  · funext q
    obtain ⟨e, k, rfl⟩ : ∃ (e : Fin 320000) (k : Fin 1), q = ix2 e k := ⟨q 0, q 1, eq_ix2 q⟩
    rw [e9 e k, hsg' (ix1 e)]
    rfl
  · funext q
    obtain ⟨e, rfl⟩ : ∃ e : Fin 320000, q = ix1 e := ⟨q 0, eq_ix1 q⟩
    exact hsg' (ix1 e)
  · intro i
    rw [e8]
    unfold Cert.ReferenceIdeal.Read.val_main_v18
    refine concatenate_forall Cert.Alg.IsReal _ _ _ _ (fun p hp j => ?_) i
    simp only [List.mem_cons, List.not_mem_nil, or_false] at hp
    rcases hp with rfl | rfl
    · exact h0 _
    · exact h0 _

end Cert.Prelude

end
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.LibRowGather.lean ====
/-
  A gather of whole rows out of a table, one start index per result row, read at an index.

  The table has N rows; a row is either a vector of C entries or an A x B block. The start indices are an M x 1 array of
  words. Result row q is the table row named by word (q, 0), read as a signed integer and clamped into [0, N - 1]: a
  negative word names row 0, a word of N or more names row N - 1. Inside the row nothing moves: entry j of result row q
  is entry j of that table row, and entry (a, b) of result block q is entry (a, b) of that table block.

  Why. The operand index of a gather is, on each table axis, the clamped start plus a batching coordinate plus an offset
  coordinate. There is no batching axis, so the middle term is 0 on every axis. The row axis is the one axis in the
  start index map, so its start is the word clamped to N - 1 (the slice is one row tall), and it is collapsed, so it
  has no offset coordinate. Every other axis is outside the start index map, so its start is 0, and it is an offset
  axis, so its offset coordinate is the result's coordinate on the matching axis.

  Each of the two dimension records below is fixed by its sizes together with a proof of the gather's conditions on them;
  a record written with literal sizes and the same seven fields is an instance of one of them.
-/
import Idealize.ShloMosaic.Lib.ValueIdx
import proofs.«408983_j37177236914744_3_alg».proof.Proof.LibRows

noncomputable section

namespace Cert.LibRowGather

open Idealize.ShloMosaic Idealize.ShloMosaic.ValueIdx

/-- A gather of M rows of C columns out of a table of N rows, one start index per result row. -/
abbrev rowsGather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

section Rows2

variable {N C M w : Nat} (wf : GatherDims.WF ⟨2, ![N, C]⟩ ⟨2, ![M, 1]⟩ ⟨2, ![M, C]⟩ [1] [0] [] [0] [] 1 ![1, C])
  (idx : IVec ⟨2, ![M, 1]⟩ w) (q : Fin M) (j : Fin C)

/-- Result entry (q, j) reads the one component of its start index at (q, 0). -/
private theorem rows2_siIdx :
    (rowsGather2 N C M wf).siIdx (ix2 q j) ⟨List.idxOf (0 : Fin 2) (rowsGather2 N C M wf).startIndexMap,
      List.idxOf_lt_length_iff.2 (List.mem_singleton.mpr rfl)⟩ = ix2 q 0 := by
  funext b
  refine Fin.ext ?_
  match b with
  | ⟨0, _⟩ => rfl
  | ⟨1, _⟩ => rfl

/-- On the row axis the slice starts at word (q, 0), read signed and clamped to the last row. -/
private theorem rows2_start0 :
    (rowsGather2 N C M wf).start (ix2 q j) idx 0 = min (idx (ix2 q 0)).toInt.toNat (N - 1) := by
  unfold GatherDims.start
  rw [dif_pos (show (0 : Fin 2) ∈ (rowsGather2 N C M wf).startIndexMap from List.mem_singleton.mpr rfl),
    rows2_siIdx wf q j]
  rfl

/-- The column axis is outside the start index map: its slice starts at 0. -/
private theorem rows2_start1 : (rowsGather2 N C M wf).start (ix2 q j) idx 1 = 0 := by
  unfold GatherDims.start
  rw [dif_neg (show (1 : Fin 2) ∉ ([0] : List (Fin 2)) by decide)]

/-- The row axis is collapsed: it has no offset coordinate. -/
private theorem rows2_off0 : (rowsGather2 N C M wf).offCoord (ix2 q j) 0 = 0 :=
  GatherDims.offCoord_eq_zero _ _ _ (fun h => ((GatherDims.mem_sKept _ _).mp h).1 (List.mem_singleton.mpr rfl))

/-- The column axis is the one offset axis: its offset coordinate is the result's column. -/
private theorem rows2_off1 : (rowsGather2 N C M wf).offCoord (ix2 q j) 1 = j.val := by
  unfold GatherDims.offCoord
  rw [dif_pos ((GatherDims.mem_sKept _ _).mpr ⟨(show (1 : Fin 2) ∉ ([0] : List (Fin 2)) by decide), List.not_mem_nil⟩)]
  rfl

end Rows2

/-- THE ROW GATHER READ AT (q, j): column j of the table row that word (q, 0) names. -/
theorem gather_rows2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (q : Fin M) (j : Fin C) :
    Host.gather (rowsGather2 N C M wf) x idx (ix2 q j) = x (ix2 (Cert.LibRows.rowClamp N hN (idx (ix2 q 0))) j) := by
  unfold Host.gather
  congr 1
  funext e
  refine Fin.ext ?_
  match e with
  | ⟨0, _⟩ =>
    show (rowsGather2 N C M wf).start (ix2 q j) idx 0 + (rowsGather2 N C M wf).batchCoord (ix2 q j) 0
      + (rowsGather2 N C M wf).offCoord (ix2 q j) 0 = min (idx (ix2 q 0)).toInt.toNat (N - 1)
    rw [rows2_start0 wf idx q j, GatherDims.batchCoord_eq_zero _ _ _ List.not_mem_nil, rows2_off0 wf q j]
    simp only [Nat.add_zero]
  | ⟨1, _⟩ =>
    show (rowsGather2 N C M wf).start (ix2 q j) idx 1 + (rowsGather2 N C M wf).batchCoord (ix2 q j) 1
      + (rowsGather2 N C M wf).offCoord (ix2 q j) 1 = j.val
    rw [rows2_start1 wf idx q j, GatherDims.batchCoord_eq_zero _ _ _ List.not_mem_nil, rows2_off1 wf q j]
    simp only [Nat.add_zero, Nat.zero_add]

/-- A gather of M blocks of A x B entries out of a table of N blocks, one start index per result block. -/
abbrev rowsGather2of3 (N A B M : Nat)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

section Rows3

variable {N A B M w : Nat}
  (wf : GatherDims.WF ⟨3, ![N, A, B]⟩ ⟨2, ![M, 1]⟩ ⟨3, ![M, A, B]⟩ [1, 2] [0] [] [0] [] 1 ![1, A, B])
  (idx : IVec ⟨2, ![M, 1]⟩ w) (q : Fin M) (a : Fin A) (b : Fin B)

/-- Result entry (q, a, b) reads the one component of its start index at (q, 0). -/
private theorem rows3_siIdx :
    (rowsGather2of3 N A B M wf).siIdx (ix3 q a b) ⟨List.idxOf (0 : Fin 3) (rowsGather2of3 N A B M wf).startIndexMap,
      List.idxOf_lt_length_iff.2 (List.mem_singleton.mpr rfl)⟩ = ix2 q 0 := by
  funext c
  refine Fin.ext ?_
  match c with
  | ⟨0, _⟩ => rfl
  | ⟨1, _⟩ => rfl

/-- On the block axis the slice starts at word (q, 0), read signed and clamped to the last block. -/
private theorem rows3_start0 :
    (rowsGather2of3 N A B M wf).start (ix3 q a b) idx 0 = min (idx (ix2 q 0)).toInt.toNat (N - 1) := by
  unfold GatherDims.start
  rw [dif_pos (show (0 : Fin 3) ∈ (rowsGather2of3 N A B M wf).startIndexMap from List.mem_singleton.mpr rfl),
    rows3_siIdx wf q a b]
  rfl

/-- The two axes inside a block are outside the start index map: their slices start at 0. -/
private theorem rows3_start1 : (rowsGather2of3 N A B M wf).start (ix3 q a b) idx 1 = 0 := by
  unfold GatherDims.start
  rw [dif_neg (show (1 : Fin 3) ∉ ([0] : List (Fin 3)) by decide)]

private theorem rows3_start2 : (rowsGather2of3 N A B M wf).start (ix3 q a b) idx 2 = 0 := by
  unfold GatherDims.start
  rw [dif_neg (show (2 : Fin 3) ∉ ([0] : List (Fin 3)) by decide)]

/-- The block axis is collapsed: it has no offset coordinate. -/
private theorem rows3_off0 : (rowsGather2of3 N A B M wf).offCoord (ix3 q a b) 0 = 0 :=
  GatherDims.offCoord_eq_zero _ _ _ (fun h => ((GatherDims.mem_sKept _ _).mp h).1 (List.mem_singleton.mpr rfl))

/-- The first axis inside a block is the first offset axis: its offset coordinate is the result's a. -/
private theorem rows3_off1 : (rowsGather2of3 N A B M wf).offCoord (ix3 q a b) 1 = a.val := by
  unfold GatherDims.offCoord
  rw [dif_pos ((GatherDims.mem_sKept _ _).mpr ⟨(show (1 : Fin 3) ∉ ([0] : List (Fin 3)) by decide), List.not_mem_nil⟩)]
  rfl

/-- The second axis inside a block is the second offset axis: its offset coordinate is the result's b. -/
private theorem rows3_off2 : (rowsGather2of3 N A B M wf).offCoord (ix3 q a b) 2 = b.val := by
  unfold GatherDims.offCoord
  rw [dif_pos ((GatherDims.mem_sKept _ _).mpr ⟨(show (2 : Fin 3) ∉ ([0] : List (Fin 3)) by decide), List.not_mem_nil⟩)]
  rfl

end Rows3

/-- THE BLOCK GATHER READ AT (q, a, b): entry (a, b) of the table block that word (q, 0) names. -/
theorem gather_rows2of3_apply {α : Type} {N A B M w : Nat} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ w) (q : Fin M) (a : Fin A) (b : Fin B) :
    Host.gather (rowsGather2of3 N A B M wf) x idx (ix3 q a b)
      = x (ix3 (Cert.LibRows.rowClamp N hN (idx (ix2 q 0))) a b) := by
  unfold Host.gather
  congr 1
  funext e
  refine Fin.ext ?_
  match e with
  | ⟨0, _⟩ =>
    show (rowsGather2of3 N A B M wf).start (ix3 q a b) idx 0 + (rowsGather2of3 N A B M wf).batchCoord (ix3 q a b) 0
      + (rowsGather2of3 N A B M wf).offCoord (ix3 q a b) 0 = min (idx (ix2 q 0)).toInt.toNat (N - 1)
    rw [rows3_start0 wf idx q a b, GatherDims.batchCoord_eq_zero _ _ _ List.not_mem_nil, rows3_off0 wf q a b]
    simp only [Nat.add_zero]
  | ⟨1, _⟩ =>
    show (rowsGather2of3 N A B M wf).start (ix3 q a b) idx 1 + (rowsGather2of3 N A B M wf).batchCoord (ix3 q a b) 1
      + (rowsGather2of3 N A B M wf).offCoord (ix3 q a b) 1 = a.val
    rw [rows3_start1 wf idx q a b, GatherDims.batchCoord_eq_zero _ _ _ List.not_mem_nil, rows3_off1 wf q a b]
    simp only [Nat.add_zero, Nat.zero_add]
  | ⟨2, _⟩ =>
    show (rowsGather2of3 N A B M wf).start (ix3 q a b) idx 2 + (rowsGather2of3 N A B M wf).batchCoord (ix3 q a b) 2
      + (rowsGather2of3 N A B M wf).offCoord (ix3 q a b) 2 = b.val
    rw [rows3_start2 wf idx q a b, GatherDims.batchCoord_eq_zero _ _ _ List.not_mem_nil, rows3_off2 wf q a b]
    simp only [Nat.add_zero, Nat.zero_add]

end Cert.LibRowGather

end
-- ==== Proof.RefL1.lean ====
/-
  The reference's first layer, read one operation at a time: with the segment numbers `sg` in range, the second linear
  layer's input is the normalised, cut first layer, and its output at edge e, column d is the reference's formula.
-/
import proofs.«408983_j37177236914744_3_alg».proof.Proof.Gen.ReferenceIdeal.Read
import proofs.«408983_j37177236914744_3_alg».proof.Proof.Spec
import proofs.«408983_j37177236914744_3_alg».proof.Proof.LibRows
import proofs.«408983_j37177236914744_3_alg».proof.Proof.LibRowGather
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

open scoped BigOperators

namespace Cert.RefL1

open Idealize.ShloMosaic Idealize.ShloMosaic.ValueIdx
open Cert.ReferenceIdeal Cert.ReferenceIdeal.Read

/-! ### Words and indices -/

/-- Two rank-2 indices with the same coordinates are equal. -/
theorem idx2_eq {n0 n1 : Nat} (i j : (⟨2, ![n0, n1]⟩ : Shape).Idx) (h0 : (i 0).val = (j 0).val)
    (h1 : (i 1).val = (j 1).val) : i = j := by
  funext a
  match a with
  | ⟨0, _⟩ => exact Fin.ext h0
  | ⟨1, _⟩ => exact Fin.ext h1

/-- Two rank-1 indices with the same coordinate are equal. -/
theorem idx1_eq {n0 : Nat} (i j : (⟨1, ![n0]⟩ : Shape).Idx) (h0 : (i 0).val = (j 0).val) : i = j := by
  funext a
  match a with
  | ⟨0, _⟩ => exact Fin.ext h0

/-- The word of a graph number, read signed, is the number. -/
theorem toInt_seg (s : Fin 512) : (BitVec.ofNat 32 s.val).toInt = (s.val : Int) :=
  StableHlo.Predicate.toInt_ofNat_small s.val (lt_trans s.isLt (by decide))

/-- The word of graph `s` names row `g` of a 512-row table exactly when `s = g`. -/
theorem rowHit_iff (s g : Fin 512) : Cert.LibRows.RowHit 512 (BitVec.ofNat 32 s.val) g ↔ s = g := by
  have hs := s.isLt
  unfold Cert.LibRows.RowHit
  rw [toInt_seg]
  constructor
  · rintro ⟨_, _, h⟩
    exact Fin.ext (by omega)
  · rintro rfl
    exact ⟨by omega, by omega, by omega⟩

/-- The word of graph `s`, clamped into a 512-row table, is row `s`. -/
theorem rowClamp_seg (hN : 0 < 512) (s : Fin 512) : Cert.LibRows.rowClamp 512 hN (BitVec.ofNat 32 s.val) = s := by
  have hs := s.isLt
  unfold Cert.LibRows.rowClamp
  apply Fin.ext
  show min (BitVec.ofNat 32 s.val).toInt.toNat (512 - 1) = s.val
  rw [toInt_seg]
  omega

/-- "Add 512 if negative" leaves the word of a graph number alone. -/
theorem wrap_seg (s : Fin 512) (a : BitVec 32) :
    Scalar.select (IntOp.cmpi .slt (BitVec.ofNat 32 s.val) 0#32) a (BitVec.ofNat 32 s.val) = BitVec.ofNat 32 s.val := by
  have hne : ¬ IntOp.cmpi .slt (BitVec.ofNat 32 s.val) 0#32 = 1#1 := by
    rw [IntOp.cmpi_slt, toInt_seg, show (0#32 : BitVec 32).toInt = 0 from by decide]
    omega
  rw [eq_zero_of_ne_one hne, select_zero]

/-- The f32 word 0x3F800000 is one. -/
theorem one_f32 : Ideal.ofBits .f32 0x3F800000#32 = 1 := by
  simp [Ideal.ofBits, Ideal.ieee, -EReal.coe_mul]; norm_num

/-! ### A scatter-add of rows into a zero table, by the graphs' words, is the segment sum -/

theorem scat_seg {C : Nat} (wf : ScatterDims.WF ⟨2, ![512, C]⟩ ⟨2, ![320000, 1]⟩ ⟨2, ![320000, C]⟩ [1] [0] [0] 1)
    (z : FVec Ideal ⟨2, ![512, C]⟩ .f32) (hz : ∀ i, z i = 0)
    (idx : IVec ⟨2, ![320000, 1]⟩ 32) (sg : Fin 320000 → Fin 512)
    (hidx : ∀ e : Fin 320000, idx (ix2 e 0) = BitVec.ofNat 32 (sg e).val)
    (upd : FVec Ideal ⟨2, ![320000, C]⟩ .f32) (g : Fin 512) (j : Fin C)
    (v : Fin 320000 → EReal) (hv : ∀ e : Fin 320000, upd (ix2 e j) = v e) :
    Host.scatterAdd (F := Ideal) (Cert.LibRows.rowsScatter 512 320000 C wf) z idx upd (ix2 g j)
      = Cert.Spec.segSum sg v g := by
  rw [Cert.LibRows.scatterAdd_rows_apply, hz, Finset.sum_filter]
  unfold Cert.Spec.segSum
  refine congrArg (fun t : EReal => (0 : EReal) + t) ?_
  refine Finset.sum_congr rfl fun e _ => ?_
  rw [hidx e, hv e]
  by_cases h : sg e = g
  · rw [if_pos ((rowHit_iff (sg e) g).2 h), if_pos h]
  · rw [if_neg (fun hh => h ((rowHit_iff (sg e) g).1 hh)), if_neg h]

section
variable (x0 : (⟨S10000x128, .f32⟩ : BufTy).Contents (Elt Ideal)) (x1 : (⟨S2x320000, .i32⟩ : BufTy).Contents (Elt Ideal))
    (x2 : (⟨S10000, .i32⟩ : BufTy).Contents (Elt Ideal)) (x3 : (⟨S256x512, .f32⟩ : BufTy).Contents (Elt Ideal))
    (x4 : (⟨S512, .f32⟩ : BufTy).Contents (Elt Ideal)) (x5 : (⟨S512x128, .f32⟩ : BufTy).Contents (Elt Ideal))
    (x6 : (⟨S128, .f32⟩ : BufTy).Contents (Elt Ideal)) (sg : Fin 320000 → Fin 512)

/-! ### The first linear layer -/

theorem v29_eq (e : Fin 320000) (k : Fin 512) :
    val_main_v29 (F := Ideal) x0 x1 x3 x4 (ix2 e k) = Cert.Spec.rh1 (val_main_v18 (F := Ideal) x0 x1) x3 x4 e k := by
  rw [val_main_v29_apply, val_main_v26_apply, val_main_v28_apply, val_main_v27_apply]
  have hl : ∀ j : Fin 256, lidx_main_v26 (ix2 e k) j = ix2 e j := fun j => idx2_eq _ _ rfl rfl
  have hr : ∀ j : Fin 256, ridx_main_v26 (ix2 e k) j = ix2 j k := fun j => idx2_eq _ _ rfl rfl
  have hb : idx_main_v27 (idx_main_v28 (ix2 e k)) = ix1 k := idx1_eq _ _ rfl
  simp only [hl, hr, hb]
  rfl

/-! ### The segment words, as the three scatters and the two gathers read them -/

theorem v32_seg (hseg : val_main_v25 (F := Ideal) x1 x2 = (fun q => BitVec.ofNat 32 (sg (q 0)).val)) (e : Fin 320000) :
    val_main_v32 (F := Ideal) x1 x2 (ix2 e 0) = BitVec.ofNat 32 (sg e).val := by
  have h := val_main_v32_apply (F := Ideal) x1 x2 (ix2 e 0)
  rw [hseg] at h
  exact h

theorem v36_seg (hseg : val_main_v25 (F := Ideal) x1 x2 = (fun q => BitVec.ofNat 32 (sg (q 0)).val)) (e : Fin 320000) :
    val_main_v36 (F := Ideal) x1 x2 (ix2 e 0) = BitVec.ofNat 32 (sg e).val := by
  have h := val_main_v36_apply (F := Ideal) x1 x2 (ix2 e 0)
  rw [hseg] at h
  exact h

theorem v53_seg (hseg : val_main_v25 (F := Ideal) x1 x2 = (fun q => BitVec.ofNat 32 (sg (q 0)).val)) (e : Fin 320000) :
    val_main_v53 (F := Ideal) x1 x2 (ix2 e 0) = BitVec.ofNat 32 (sg e).val := by
  have h := val_main_v53_apply (F := Ideal) x1 x2 (ix2 e 0)
  rw [hseg] at h
  exact h

theorem v45_seg (hseg : val_main_v25 (F := Ideal) x1 x2 = (fun q => BitVec.ofNat 32 (sg (q 0)).val)) (e : Fin 320000) :
    val_main_v45 (F := Ideal) x1 x2 (ix2 e 0) = BitVec.ofNat 32 (sg e).val := by
  have h := val_main_v45_apply (F := Ideal) x1 x2 (ix2 e 0)
  rw [val_main_v44_apply, val_main_v41_apply, val_main_v43_apply, hseg] at h
  exact h.trans (wrap_seg (sg e) _)

theorem v65_seg (hseg : val_main_v25 (F := Ideal) x1 x2 = (fun q => BitVec.ofNat 32 (sg (q 0)).val)) (e : Fin 320000) :
    val_main_v65 (F := Ideal) x1 x2 (ix2 e 0) = BitVec.ofNat 32 (sg e).val := by
  have h := val_main_v65_apply (F := Ideal) x1 x2 (ix2 e 0)
  rw [val_main_v64_apply, val_main_v61_apply, val_main_v63_apply, hseg] at h
  exact h.trans (wrap_seg (sg e) _)

/-! ### The counts and their two clips -/

theorem v33_eq (hseg : val_main_v25 (F := Ideal) x1 x2 = (fun q => BitVec.ofNat 32 (sg (q 0)).val)) (g : Fin 512) :
    val_main_v33 (F := Ideal) x1 x2 (ix2 g 0) = Cert.Spec.rcnt sg g := by
  have hz : ∀ i, val_main_v31 (F := Ideal) i = 0 := fun i => by
    rw [val_main_v31_apply, val_main_cst_5_apply]; exact Ideal.ofBits_zero_f32
  have h1 : ∀ e : Fin 320000, val_main_v30 (F := Ideal) (ix2 e 0) = 1 := fun e => by
    rw [val_main_v30_apply, val_main_cst_apply]; exact one_f32
  unfold val_main_v33 Cert.Spec.rcnt
  exact scat_seg scatter_S512x1_S320000x1_S320000x1_1_0_0_1.wf (val_main_v31 (F := Ideal)) hz
    (val_main_v32 (F := Ideal) x1 x2) sg (v32_seg x1 x2 sg hseg) (val_main_v30 (F := Ideal)) g 0 (fun _ => 1) h1

theorem v34_eq (hseg : val_main_v25 (F := Ideal) x1 x2 = (fun q => BitVec.ofNat 32 (sg (q 0)).val)) (g : Fin 512) :
    val_main_v34 (F := Ideal) x1 x2 (ix2 g 0) = Cert.Spec.rn sg g := by
  have h1 : val_main_call0_v1 (F := Ideal) (ix2 g 0) = 1 := by
    rw [val_main_call0_v1_apply, val_main_call0_v0_apply, val_main_cst_6_apply]; exact one_f32
  rw [val_main_v34_apply, h1, v33_eq x1 x2 sg hseg g]
  rfl

theorem v50_eq (hseg : val_main_v25 (F := Ideal) x1 x2 = (fun q => BitVec.ofNat 32 (sg (q 0)).val)) (g : Fin 512) :
    val_main_v50 (F := Ideal) x1 x2 (ix2 g 0) = Cert.Spec.rnu sg g := by
  have h1 : val_main_call1_v1 (F := Ideal) (ix2 g 0) = 1 := by
    rw [val_main_call1_v1_apply, val_main_call1_v0_apply, val_main_cst_11_apply]; exact one_f32
  have h2 : val_main_v48 (F := Ideal) (ix2 g 0) = 1 := by
    rw [val_main_v48_apply, val_main_cst_10_apply]; exact one_f32
  rw [val_main_v50_apply, h1, val_main_v49_apply, h2, v33_eq x1 x2 sg hseg g]
  rfl

end

/-! ### The deviation from the graph's mean, and one column of the first layer -/

/-- The deviation of `v` from its graph's mean: the reference's `xc`. -/
def xc (sg : Fin 320000 → Fin 512) (v : Fin 320000 → EReal) (e : Fin 320000) : EReal :=
  v e - Ideal.div (Cert.Spec.segSum sg v (sg e)) (Cert.Spec.rn sg (sg e))

section
variable (x0 : (⟨S10000x128, .f32⟩ : BufTy).Contents (Elt Ideal)) (x1 : (⟨S2x320000, .i32⟩ : BufTy).Contents (Elt Ideal))
    (x2 : (⟨S10000, .i32⟩ : BufTy).Contents (Elt Ideal)) (x3 : (⟨S256x512, .f32⟩ : BufTy).Contents (Elt Ideal))
    (x4 : (⟨S512, .f32⟩ : BufTy).Contents (Elt Ideal)) (x5 : (⟨S512x128, .f32⟩ : BufTy).Contents (Elt Ideal))
    (x6 : (⟨S128, .f32⟩ : BufTy).Contents (Elt Ideal)) (sg : Fin 320000 → Fin 512)

/-- Column `k` of the first layer, over the edges. -/
def col1 (k : Fin 512) : Fin 320000 → EReal :=
  fun e => Cert.Spec.rh1 (val_main_v18 (F := Ideal) x0 x1) x3 x4 e k

theorem v29_col (e : Fin 320000) (k : Fin 512) :
    val_main_v29 (F := Ideal) x0 x1 x3 x4 (ix2 e k) = col1 x0 x1 x3 x4 k e := v29_eq x0 x1 x3 x4 e k

/-- The per-graph sums of the first layer. -/
theorem v37_eq (hseg : val_main_v25 (F := Ideal) x1 x2 = (fun q => BitVec.ofNat 32 (sg (q 0)).val)) (g k : Fin 512) :
    val_main_v37 (F := Ideal) x0 x1 x2 x3 x4 (ix2 g k) = Cert.Spec.segSum sg (col1 x0 x1 x3 x4 k) g := by
  have hz : ∀ i, val_main_v35 (F := Ideal) i = 0 := fun i => by
    rw [val_main_v35_apply, val_main_cst_7_apply]; exact Ideal.ofBits_zero_f32
  unfold val_main_v37
  exact scat_seg scatter_S512x512_S320000x1_S320000x512_1_0_0_1.wf (val_main_v35 (F := Ideal)) hz
    (val_main_v36 (F := Ideal) x1 x2) sg (v36_seg x1 x2 sg hseg) (val_main_v29 (F := Ideal) x0 x1 x3 x4) g k
    (col1 x0 x1 x3 x4 k) (fun e => v29_col x0 x1 x3 x4 e k)

/-- The per-graph means. -/
theorem v39_eq (hseg : val_main_v25 (F := Ideal) x1 x2 = (fun q => BitVec.ofNat 32 (sg (q 0)).val)) (g k : Fin 512) :
    val_main_v39 (F := Ideal) x0 x1 x2 x3 x4 (ix2 g k)
      = Ideal.div (Cert.Spec.segSum sg (col1 x0 x1 x3 x4 k) g) (Cert.Spec.rn sg g) := by
  have hi : idx_main_v38 (ix2 g k) = ix2 g 0 := idx2_eq _ _ rfl rfl
  rw [val_main_v39_apply, v37_eq x0 x1 x2 x3 x4 sg hseg g k, val_main_v38_apply, hi, v34_eq x1 x2 sg hseg g]
  rfl

/-- The means gathered back to the edges. -/
theorem v46_eq (hseg : val_main_v25 (F := Ideal) x1 x2 = (fun q => BitVec.ofNat 32 (sg (q 0)).val)) (e : Fin 320000) (k : Fin 512) :
    val_main_v46 (F := Ideal) x0 x1 x2 x3 x4 (ix2 e k) = val_main_v39 (F := Ideal) x0 x1 x2 x3 x4 (ix2 (sg e) k) := by
  have h := Cert.LibRowGather.gather_rows2_apply (N := 512) (C := 512) (M := 320000) (by decide)
    gather_S512x512_S320000x1_S320000x512_1_0_n_n_0_1_1512.wf (val_main_v39 (F := Ideal) x0 x1 x2 x3 x4)
    (val_main_v45 (F := Ideal) x1 x2) e k
  rw [v45_seg x1 x2 sg hseg e, rowClamp_seg] at h
  unfold val_main_v46
  exact h

/-- The deviations. -/
theorem v47_eq (hseg : val_main_v25 (F := Ideal) x1 x2 = (fun q => BitVec.ofNat 32 (sg (q 0)).val)) (e : Fin 320000) (k : Fin 512) :
    val_main_v47 (F := Ideal) x0 x1 x2 x3 x4 (ix2 e k) = xc sg (col1 x0 x1 x3 x4 k) e := by
  rw [val_main_v47_apply, v29_col, v46_eq x0 x1 x2 x3 x4 sg hseg e k, v39_eq x0 x1 x2 x3 x4 sg hseg (sg e) k]
  rfl

/-- The per-graph sums of the squared deviations. -/
theorem v54_eq (hseg : val_main_v25 (F := Ideal) x1 x2 = (fun q => BitVec.ofNat 32 (sg (q 0)).val)) (g k : Fin 512) :
    val_main_v54 (F := Ideal) x0 x1 x2 x3 x4 (ix2 g k)
      = Cert.Spec.segSum sg (fun e => xc sg (col1 x0 x1 x3 x4 k) e * xc sg (col1 x0 x1 x3 x4 k) e) g := by
  have hz : ∀ i, val_main_v52 (F := Ideal) i = 0 := fun i => by
    rw [val_main_v52_apply, val_main_cst_12_apply]; exact Ideal.ofBits_zero_f32
  have hv : ∀ e : Fin 320000, val_main_v51 (F := Ideal) x0 x1 x2 x3 x4 (ix2 e k)
      = xc sg (col1 x0 x1 x3 x4 k) e * xc sg (col1 x0 x1 x3 x4 k) e := fun e => by
    rw [val_main_v51_apply, v47_eq x0 x1 x2 x3 x4 sg hseg e k]
    rfl
  unfold val_main_v54
  exact scat_seg scatter_S512x512_S320000x1_S320000x512_1_0_0_1.wf (val_main_v52 (F := Ideal)) hz
    (val_main_v53 (F := Ideal) x1 x2) sg (v53_seg x1 x2 sg hseg) (val_main_v51 (F := Ideal) x0 x1 x2 x3 x4) g k _ hv

/-- The per-graph scale: one over the root of the variance plus the small constant. -/
theorem v59_eq (hseg : val_main_v25 (F := Ideal) x1 x2 = (fun q => BitVec.ofNat 32 (sg (q 0)).val)) (g k : Fin 512) :
    val_main_v59 (F := Ideal) x0 x1 x2 x3 x4 (ix2 g k)
      = Ideal.rsqrt (Ideal.div (Cert.Spec.segSum sg (fun e => xc sg (col1 x0 x1 x3 x4 k) e * xc sg (col1 x0 x1 x3 x4 k) e) g)
          (Cert.Spec.rnu sg g) + Cert.Spec.eps) := by
  have hi : idx_main_v55 (ix2 g k) = ix2 g 0 := idx2_eq _ _ rfl rfl
  rw [val_main_v59_apply, val_main_v58_apply, val_main_v56_apply, v54_eq x0 x1 x2 x3 x4 sg hseg g k, val_main_v55_apply, hi,
    v50_eq x1 x2 sg hseg g, val_main_v57_apply, val_main_cst_13_apply]
  simp only [Ideal.hostUnary_rsqrt_def, Ideal.addf_def, Ideal.hostDivf_def, Ideal.ofBits_def, Cert.Spec.eps]

/-- The scales gathered back to the edges. -/
theorem v66_eq (hseg : val_main_v25 (F := Ideal) x1 x2 = (fun q => BitVec.ofNat 32 (sg (q 0)).val)) (e : Fin 320000) (k : Fin 512) :
    val_main_v66 (F := Ideal) x0 x1 x2 x3 x4 (ix2 e k) = val_main_v59 (F := Ideal) x0 x1 x2 x3 x4 (ix2 (sg e) k) := by
  have h := Cert.LibRowGather.gather_rows2_apply (N := 512) (C := 512) (M := 320000) (by decide)
    gather_S512x512_S320000x1_S320000x512_1_0_n_n_0_1_1512.wf (val_main_v59 (F := Ideal) x0 x1 x2 x3 x4)
    (val_main_v65 (F := Ideal) x1 x2) e k
  rw [v65_seg x1 x2 sg hseg e, rowClamp_seg] at h
  unfold val_main_v66
  exact h

/-- The normalised, cut first layer is the reference's. -/
theorem v68_eq (hseg : val_main_v25 (F := Ideal) x1 x2 = (fun q => BitVec.ofNat 32 (sg (q 0)).val)) (e : Fin 320000) (k : Fin 512) :
    val_main_v68 (F := Ideal) x0 x1 x2 x3 x4 (ix2 e k) = Cert.Spec.ry1 (val_main_v18 (F := Ideal) x0 x1) sg x3 x4 e k := by
  have hz : val_main_call2_v0 (F := Ideal) (ix2 e k) = 0 := by
    rw [val_main_call2_v0_apply, val_main_call2_cst_apply]; exact Ideal.ofBits_zero_f32
  rw [val_main_v68_apply, val_main_v67_apply, v47_eq x0 x1 x2 x3 x4 sg hseg e k, v66_eq x0 x1 x2 x3 x4 sg hseg e k,
    v59_eq x0 x1 x2 x3 x4 sg hseg (sg e) k, hz]
  rfl

end

/-- The second linear layer's output is `Spec.rh2` of the feature rows, the segment numbers and the weights. -/
theorem h2_value (x0 : (⟨S10000x128, .f32⟩ : BufTy).Contents (Elt Ideal)) (x1 : (⟨S2x320000, .i32⟩ : BufTy).Contents (Elt Ideal))
    (x2 : (⟨S10000, .i32⟩ : BufTy).Contents (Elt Ideal)) (x3 : (⟨S256x512, .f32⟩ : BufTy).Contents (Elt Ideal))
    (x4 : (⟨S512, .f32⟩ : BufTy).Contents (Elt Ideal)) (x5 : (⟨S512x128, .f32⟩ : BufTy).Contents (Elt Ideal))
    (x6 : (⟨S128, .f32⟩ : BufTy).Contents (Elt Ideal)) (sg : Fin 320000 → Fin 512)
    (hseg : val_main_v25 (F := Ideal) x1 x2 = (fun q => BitVec.ofNat 32 (sg (q 0)).val))
    (e : Fin 320000) (d : Fin 128) :
    val_main_v72 (F := Ideal) x0 x1 x2 x3 x4 x5 x6 (ix2 e d)
      = Cert.Spec.rh2 (val_main_v18 (F := Ideal) x0 x1) sg x3 x4 x5 x6 e d := by
  have hl : ∀ k : Fin 512, lidx_main_v69 (ix2 e d) k = ix2 e k := fun k => idx2_eq _ _ rfl rfl
  have hr : ∀ k : Fin 512, ridx_main_v69 (ix2 e d) k = ix2 k d := fun k => idx2_eq _ _ rfl rfl
  have hb : idx_main_v70 (idx_main_v71 (ix2 e d)) = ix1 d := idx1_eq _ _ rfl
  rw [val_main_v72_apply, val_main_v69_apply, val_main_v71_apply, val_main_v70_apply]
  simp only [hl, hr, hb, v68_eq x0 x1 x2 x3 x4 sg hseg]
  rfl

/-- The per-graph counts' clip from below, as the reference computes it twice: `max 1 (count)`. -/
theorem n_value (x1 : (⟨S2x320000, .i32⟩ : BufTy).Contents (Elt Ideal)) (x2 : (⟨S10000, .i32⟩ : BufTy).Contents (Elt Ideal))
    (sg : Fin 320000 → Fin 512)
    (hseg : val_main_v25 (F := Ideal) x1 x2 = (fun q => BitVec.ofNat 32 (sg (q 0)).val)) (g : Fin 512) :
    val_main_v34 (F := Ideal) x1 x2 (ix2 g 0) = Cert.Spec.rn sg g
    ∧ val_main_v50 (F := Ideal) x1 x2 (ix2 g 0) = Cert.Spec.rnu sg g := by
  exact ⟨v34_eq x1 x2 sg hseg g, v50_eq x1 x2 sg hseg g⟩

end Cert.RefL1

end
-- ==== Proof.Ref.lean ====
/-
  The reference's result, read one operation at a time: with the segment numbers `sg` in range, every gather by segment
  reads the table's row `sg e`, every scatter-add into a zero table is the sum over the edges of each graph, and the
  result is the reference's formula of the feature rows, the segment numbers and the weights.
-/
import proofs.«408983_j37177236914744_3_alg».proof.Proof.Gen.ReferenceIdeal.Read
import proofs.«408983_j37177236914744_3_alg».proof.Proof.Spec
import proofs.«408983_j37177236914744_3_alg».proof.Proof.LibRows
import proofs.«408983_j37177236914744_3_alg».proof.Proof.LibRowGather
import proofs.«408983_j37177236914744_3_alg».proof.Proof.LibFinite
import proofs.«408983_j37177236914744_3_alg».proof.Proof.RefL1
import Idealize.ShloMosaic.Lib.Pipeline.Value
import Idealize.ShloMosaic.Lib.ValueIdx
import Idealize.ShloMosaic.Lib.DynamicIndex
import Idealize.ShloMosaic.PureOps.Ideal.Laws

set_option maxRecDepth 16384

noncomputable section

open scoped BigOperators

namespace Cert.Ref

open Idealize.ShloMosaic Idealize.ShloMosaic.ValueIdx
open Cert.ReferenceIdeal Cert.ReferenceIdeal.Read

/-! ### Segment words: a graph number below 512 as a 32-bit word -/

/-- The word of a graph number, read signed, is the number. -/
theorem toInt_word (g : Fin 512) : (BitVec.ofNat 32 g.val).toInt = (g.val : Int) :=
  toInt_ofNat_of_lt (by have := g.isLt; omega)

/-- The word of graph `g` names table row `c` exactly when `g = c`. -/
theorem rowHit_word (g c : Fin 512) : Cert.LibRows.RowHit 512 (BitVec.ofNat 32 g.val) c ↔ g = c := by
  unfold Cert.LibRows.RowHit
  rw [toInt_word]
  constructor
  · rintro ⟨_, _, h⟩
    exact Fin.ext (by omega)
  · rintro rfl
    have := g.isLt
    exact ⟨by omega, by omega, by omega⟩

/-- The word of graph `g`, clamped into a table of 512 rows, is `g`. -/
theorem rowClamp_word (g : Fin 512) : Cert.LibRows.rowClamp 512 (by decide) (BitVec.ofNat 32 g.val) = g := by
  refine Fin.ext ?_
  show min (BitVec.ofNat 32 g.val).toInt.toNat (512 - 1) = g.val
  rw [toInt_word]
  have := g.isLt
  omega

/-- "If negative add 512" leaves the word of a graph number as it is. -/
theorem wrap_word (g : Fin 512) (a : BitVec 32) :
    Scalar.select (IntOp.cmpi .slt (BitVec.ofNat 32 g.val) 0#32) a (BitVec.ofNat 32 g.val) = BitVec.ofNat 32 g.val := by
  have hlt : (BitVec.ofNat 32 g.val).slt 0#32 = false := by
    simp only [BitVec.slt, BitVec.toInt_zero, decide_eq_false_iff_not, Int.not_lt]
    rw [toInt_word]
    omega
  show (if BitVec.ofBool ((BitVec.ofNat 32 g.val).slt 0#32) = 1 then _ else _) = _
  rw [hlt]
  rfl

/-! ### A scatter-add of rows into a zero table, and a gather of rows, by segment words -/

/-- Rows added into a zero table at their graphs' rows: entry (g, k) is the sum of column k over the edges of graph g. -/
theorem scatter_seg {C : Nat} (wf : ScatterDims.WF ⟨2, ![512, C]⟩ ⟨2, ![320000, 1]⟩ ⟨2, ![320000, C]⟩ [1] [0] [0] 1)
    (z : FVec Ideal ⟨2, ![512, C]⟩ .f32) (idx : IVec ⟨2, ![320000, 1]⟩ 32) (upd : FVec Ideal ⟨2, ![320000, C]⟩ .f32)
    (sg : Fin 320000 → Fin 512) (hz : ∀ i, z i = (0 : EReal)) (hidx : ∀ e, idx (ix2 e 0) = BitVec.ofNat 32 (sg e).val)
    (g : Fin 512) (k : Fin C) :
    Host.scatterAdd (F := Ideal) (Cert.LibRows.rowsScatter 512 320000 C wf) z idx upd (ix2 g k)
      = Cert.Spec.segSum sg (fun e => upd (ix2 e k)) g := by
  have hfun : (fun e : Fin 320000 => if Cert.LibRows.RowHit 512 (idx (ix2 e 0)) g then upd (ix2 e k) else (0 : EReal))
      = (fun e => if sg e = g then upd (ix2 e k) else 0) := by
    funext e
    rw [hidx e]
    exact if_congr (rowHit_word (sg e) g) rfl rfl
  rewrite [Cert.LibRows.scatterAdd_rows_apply, hz, Finset.sum_filter, hfun]
  rfl

/-- A gather of rows by segment words: row e of the result is the table's row `sg e`. -/
theorem gather_seg {C : Nat}
    (wf : GatherDims.WF ⟨2, ![512, C]⟩ ⟨2, ![320000, 1]⟩ ⟨2, ![320000, C]⟩ [1] [0] [] [0] [] 1 ![1, C])
    (T : (⟨2, ![512, C]⟩ : Shape).Idx → EReal) (idx : IVec ⟨2, ![320000, 1]⟩ 32) (sg : Fin 320000 → Fin 512)
    (hidx : ∀ e, idx (ix2 e 0) = BitVec.ofNat 32 (sg e).val) (e : Fin 320000) (k : Fin C) :
    Host.gather (Cert.LibRowGather.rowsGather2 512 C 320000 wf) T idx (ix2 e k) = T (ix2 (sg e) k) := by
  rw [Cert.LibRowGather.gather_rows2_apply (by decide), hidx e, rowClamp_word]

/-! ### The normalisation's pieces for one column of values -/

/-- The mean of `v` over graph `g`. -/
def meanS (sg : Fin 320000 → Fin 512) (v : Fin 320000 → EReal) (g : Fin 512) : EReal :=
  Ideal.div (Cert.Spec.segSum sg v g) (Cert.Spec.rn sg g)

/-- The deviation of `v e` from the mean over the graph of `e`. -/
def xcS (sg : Fin 320000 → Fin 512) (v : Fin 320000 → EReal) (e : Fin 320000) : EReal :=
  v e - meanS sg v (sg e)

/-- The squared deviations' sum over graph `g`, over the unbiased count. -/
def varS (sg : Fin 320000 → Fin 512) (v : Fin 320000 → EReal) (g : Fin 512) : EReal :=
  Ideal.div (Cert.Spec.segSum sg (fun e' => xcS sg v e' * xcS sg v e') g) (Cert.Spec.rnu sg g)

/-- The reference's normalised value from its pieces. -/
theorem rnorm_eq (sg : Fin 320000 → Fin 512) (v : Fin 320000 → EReal) (e : Fin 320000) :
    Cert.Spec.rnorm sg v e = max (xcS sg v e * Ideal.rsqrt (varS sg v (sg e) + Cert.Spec.eps)) 0 := rfl

section Stages

variable (x0 : (⟨S10000x128, .f32⟩ : BufTy).Contents (Elt Ideal)) (x1 : (⟨S2x320000, .i32⟩ : BufTy).Contents (Elt Ideal))
  (x2 : (⟨S10000, .i32⟩ : BufTy).Contents (Elt Ideal)) (x3 : (⟨S256x512, .f32⟩ : BufTy).Contents (Elt Ideal))
  (x4 : (⟨S512, .f32⟩ : BufTy).Contents (Elt Ideal)) (x5 : (⟨S512x128, .f32⟩ : BufTy).Contents (Elt Ideal))
  (x6 : (⟨S128, .f32⟩ : BufTy).Contents (Elt Ideal)) (x7 : (⟨S128x1, .f32⟩ : BufTy).Contents (Elt Ideal))
  (x8 : (⟨S1, .f32⟩ : BufTy).Contents (Elt Ideal)) (sg : Fin 320000 → Fin 512)

/-! ### The second layer's constants: the zero tables, the ones, the variance word -/

theorem v74_zero (i : S512x1.Idx) : val_main_v74 (F := Ideal) i = (0 : EReal) := by
  rw [val_main_v74_apply, val_main_cst_17_apply]; exact Ideal.ofBits_zero_f32

theorem v78_zero (i : S512x128.Idx) : val_main_v78 (F := Ideal) i = (0 : EReal) := by
  rw [val_main_v78_apply, val_main_cst_19_apply]; exact Ideal.ofBits_zero_f32

theorem v95_zero (i : S512x128.Idx) : val_main_v95 (F := Ideal) i = (0 : EReal) := by
  rw [val_main_v95_apply, val_main_cst_24_apply]; exact Ideal.ofBits_zero_f32

theorem v73_one (i : S320000x1.Idx) : val_main_v73 (F := Ideal) i = (1 : EReal) := by
  rw [val_main_v73_apply, val_main_cst_16_apply]; exact Cert.Lib.ofBits_one_f32

theorem call3_one (i : S512x1.Idx) : val_main_call3_v1 (F := Ideal) i = (1 : EReal) := by
  rw [val_main_call3_v1_apply, val_main_call3_v0_apply, val_main_cst_18_apply]; exact Cert.Lib.ofBits_one_f32

theorem v91_one (i : S512x1.Idx) : val_main_v91 (F := Ideal) i = (1 : EReal) := by
  rw [val_main_v91_apply, val_main_cst_22_apply]; exact Cert.Lib.ofBits_one_f32

theorem call4_one (i : S512x1.Idx) : val_main_call4_v1 (F := Ideal) i = (1 : EReal) := by
  rw [val_main_call4_v1_apply, val_main_call4_v0_apply, val_main_cst_23_apply]; exact Cert.Lib.ofBits_one_f32

theorem v100_eps (i : S512x128.Idx) : val_main_v100 (F := Ideal) i = Cert.Spec.eps := by
  rw [val_main_v100_apply, val_main_cst_25_apply]; rfl

theorem call5_zero (i : S320000x128.Idx) : val_main_call5_v0 (F := Ideal) i = (0 : EReal) := by
  rw [val_main_call5_v0_apply, val_main_call5_cst_apply]; exact Ideal.ofBits_zero_f32

section Seg
variable (hseg : val_main_v25 (F := Ideal) x1 x2 = (fun q => BitVec.ofNat 32 (sg (q 0)).val))
include hseg

/-! ### The segment words as index arrays -/

theorem idx_v75 (e : Fin 320000) : val_main_v75 (F := Ideal) x1 x2 (ix2 e 0) = BitVec.ofNat 32 (sg e).val := by
  rw [val_main_v75_apply, hseg]; rfl

theorem idx_v79 (e : Fin 320000) : val_main_v79 (F := Ideal) x1 x2 (ix2 e 0) = BitVec.ofNat 32 (sg e).val := by
  rw [val_main_v79_apply, hseg]; rfl

theorem idx_v96 (e : Fin 320000) : val_main_v96 (F := Ideal) x1 x2 (ix2 e 0) = BitVec.ofNat 32 (sg e).val := by
  rw [val_main_v96_apply, hseg]; rfl

theorem idx_v88 (e : Fin 320000) : val_main_v88 (F := Ideal) x1 x2 (ix2 e 0) = BitVec.ofNat 32 (sg e).val := by
  rw [val_main_v88_apply, val_main_v87_apply, val_main_v84_apply, val_main_v83_apply, val_main_c_20_apply, hseg]
  exact wrap_word (sg e) _

theorem idx_v108 (e : Fin 320000) : val_main_v108 (F := Ideal) x1 x2 (ix2 e 0) = BitVec.ofNat 32 (sg e).val := by
  rw [val_main_v108_apply, val_main_v107_apply, val_main_v104_apply, val_main_v103_apply, val_main_c_26_apply, hseg]
  exact wrap_word (sg e) _

/-! ### The counts, cut below at 1, and the unbiased counts -/

theorem v76_eq (g : Fin 512) : val_main_v76 (F := Ideal) x1 x2 (ix2 g 0) = Cert.Spec.rcnt sg g := by
  have h := scatter_seg scatter_S512x1_S320000x1_S320000x1_1_0_0_1.wf (val_main_v74 (F := Ideal))
    (val_main_v75 (F := Ideal) x1 x2) (val_main_v73 (F := Ideal)) sg v74_zero (idx_v75 x1 x2 sg hseg) g 0
  have hone : (fun e : Fin 320000 => val_main_v73 (F := Ideal) (ix2 e 0)) = fun _ => (1 : EReal) :=
    funext (fun e => v73_one _)
  rw [hone] at h
  exact h

theorem v77_eq (g : Fin 512) : val_main_v77 (F := Ideal) x1 x2 (ix2 g 0) = Cert.Spec.rn sg g := by
  rw [val_main_v77_apply, call3_one, v76_eq x1 x2 sg hseg]
  rfl

theorem v93_eq (g : Fin 512) : val_main_v93 (F := Ideal) x1 x2 (ix2 g 0) = Cert.Spec.rnu sg g := by
  rw [val_main_v93_apply, call4_one, val_main_v92_apply, v76_eq x1 x2 sg hseg, v91_one]
  rfl

theorem v81_eq (g : Fin 512) (d : Fin 128) : val_main_v81 (F := Ideal) x1 x2 (ix2 g d) = Cert.Spec.rn sg g := by
  have hi : idx_main_v81 (ix2 g d) = ix2 g 0 := by
    funext a; match a with | ⟨0, _⟩ => rfl | ⟨1, _⟩ => rfl
  rw [val_main_v81_apply, hi, v77_eq x1 x2 sg hseg]

theorem v98_eq (g : Fin 512) (d : Fin 128) : val_main_v98 (F := Ideal) x1 x2 (ix2 g d) = Cert.Spec.rnu sg g := by
  have hi : idx_main_v98 (ix2 g d) = ix2 g 0 := by
    funext a; match a with | ⟨0, _⟩ => rfl | ⟨1, _⟩ => rfl
  rw [val_main_v98_apply, hi, v93_eq x1 x2 sg hseg]

/-! ### The second normalisation, given the second linear layer's values `R` -/

section Layer
variable (R : Fin 320000 → Fin 128 → EReal)
  (hH2 : ∀ e d, val_main_v72 (F := Ideal) x0 x1 x2 x3 x4 x5 x6 (ix2 e d) = R e d)
include hH2

theorem v80_eq (g : Fin 512) (d : Fin 128) :
    val_main_v80 (F := Ideal) x0 x1 x2 x3 x4 x5 x6 (ix2 g d) = Cert.Spec.segSum sg (fun e => R e d) g := by
  have h := scatter_seg scatter_S512x128_S320000x1_S320000x128_1_0_0_1.wf (val_main_v78 (F := Ideal))
    (val_main_v79 (F := Ideal) x1 x2) (val_main_v72 (F := Ideal) x0 x1 x2 x3 x4 x5 x6) sg v78_zero
    (idx_v79 x1 x2 sg hseg) g d
  have hcol : (fun e : Fin 320000 => val_main_v72 (F := Ideal) x0 x1 x2 x3 x4 x5 x6 (ix2 e d)) = fun e => R e d :=
    funext (fun e => hH2 e d)
  rw [hcol] at h
  exact h

theorem v82_eq (g : Fin 512) (d : Fin 128) :
    val_main_v82 (F := Ideal) x0 x1 x2 x3 x4 x5 x6 (ix2 g d) = meanS sg (fun e => R e d) g := by
  rw [val_main_v82_apply, v80_eq x0 x1 x2 x3 x4 x5 x6 sg hseg R hH2, v81_eq x1 x2 sg hseg]
  rfl

theorem v89_eq (e : Fin 320000) (d : Fin 128) :
    val_main_v89 (F := Ideal) x0 x1 x2 x3 x4 x5 x6 (ix2 e d) = meanS sg (fun e => R e d) (sg e) := by
  have h := gather_seg gather_S512x128_S320000x1_S320000x128_1_0_n_n_0_1_1128.wf
    (val_main_v82 (F := Ideal) x0 x1 x2 x3 x4 x5 x6) (val_main_v88 (F := Ideal) x1 x2) sg (idx_v88 x1 x2 sg hseg) e d
  rw [v82_eq x0 x1 x2 x3 x4 x5 x6 sg hseg R hH2] at h
  exact h

theorem v90_eq (e : Fin 320000) (d : Fin 128) :
    val_main_v90 (F := Ideal) x0 x1 x2 x3 x4 x5 x6 (ix2 e d) = xcS sg (fun e => R e d) e := by
  rw [val_main_v90_apply, hH2, v89_eq x0 x1 x2 x3 x4 x5 x6 sg hseg R hH2]
  rfl

theorem v97_eq (g : Fin 512) (d : Fin 128) :
    val_main_v97 (F := Ideal) x0 x1 x2 x3 x4 x5 x6 (ix2 g d)
      = Cert.Spec.segSum sg (fun e => xcS sg (fun e => R e d) e * xcS sg (fun e => R e d) e) g := by
  have h := scatter_seg scatter_S512x128_S320000x1_S320000x128_1_0_0_1.wf (val_main_v95 (F := Ideal))
    (val_main_v96 (F := Ideal) x1 x2) (val_main_v94 (F := Ideal) x0 x1 x2 x3 x4 x5 x6) sg v95_zero
    (idx_v96 x1 x2 sg hseg) g d
  have hcol : (fun e : Fin 320000 => val_main_v94 (F := Ideal) x0 x1 x2 x3 x4 x5 x6 (ix2 e d))
      = fun e => xcS sg (fun e => R e d) e * xcS sg (fun e => R e d) e := by
    funext e
    rw [val_main_v94_apply, v90_eq x0 x1 x2 x3 x4 x5 x6 sg hseg R hH2]
    rfl
  rw [hcol] at h
  exact h

theorem v102_eq (g : Fin 512) (d : Fin 128) :
    val_main_v102 (F := Ideal) x0 x1 x2 x3 x4 x5 x6 (ix2 g d)
      = Ideal.rsqrt (varS sg (fun e => R e d) g + Cert.Spec.eps) := by
  rw [val_main_v102_apply, val_main_v101_apply, val_main_v99_apply, v97_eq x0 x1 x2 x3 x4 x5 x6 sg hseg R hH2,
    v98_eq x1 x2 sg hseg, v100_eps, Ideal.hostUnary_rsqrt_def, Ideal.addf_def, Ideal.hostDivf_def, varS]

theorem v109_eq (e : Fin 320000) (d : Fin 128) :
    val_main_v109 (F := Ideal) x0 x1 x2 x3 x4 x5 x6 (ix2 e d)
      = Ideal.rsqrt (varS sg (fun e => R e d) (sg e) + Cert.Spec.eps) := by
  have h := gather_seg gather_S512x128_S320000x1_S320000x128_1_0_n_n_0_1_1128.wf
    (val_main_v102 (F := Ideal) x0 x1 x2 x3 x4 x5 x6) (val_main_v108 (F := Ideal) x1 x2) sg (idx_v108 x1 x2 sg hseg) e d
  rw [v102_eq x0 x1 x2 x3 x4 x5 x6 sg hseg R hH2] at h
  exact h

theorem v111_eq (e : Fin 320000) (d : Fin 128) :
    val_main_v111 (F := Ideal) x0 x1 x2 x3 x4 x5 x6 (ix2 e d) = Cert.Spec.rnorm sg (fun e => R e d) e := by
  rw [val_main_v111_apply, val_main_v110_apply, v90_eq x0 x1 x2 x3 x4 x5 x6 sg hseg R hH2,
    v109_eq x0 x1 x2 x3 x4 x5 x6 sg hseg R hH2, call5_zero, rnorm_eq]
  rfl

/-- The result at edge `e`: the last linear layer of the normalised second layer. -/
theorem v115_eq (e : Fin 320000) :
    val_main_v115 (F := Ideal) x0 x1 x2 x3 x4 x5 x6 x7 x8 (ix2 e 0)
      = (∑ d : Fin 128, Cert.Spec.rnorm sg (fun e' => R e' d) e * x7 (ix2 d 0)) + x8 (ix1 0) := by
  have hl : ∀ d : Fin 128, lidx_main_v112 (ix2 e 0) d = ix2 e d := fun d => by
    funext a; match a with | ⟨0, _⟩ => rfl | ⟨1, _⟩ => rfl
  have hr : ∀ d : Fin 128, ridx_main_v112 (ix2 e 0) d = ix2 d 0 := fun d => by
    funext a; match a with | ⟨0, _⟩ => rfl | ⟨1, _⟩ => rfl
  have hb : idx_main_v113 (idx_main_v114 (ix2 e 0)) = ix1 0 := by
    funext a; match a with | ⟨0, _⟩ => rfl
  rw [val_main_v115_apply, val_main_v112_apply, val_main_v114_apply, val_main_v113_apply, hb]
  simp only [hl, hr, v111_eq x0 x1 x2 x3 x4 x5 x6 sg hseg R hH2]
  rfl

end Layer

end Seg

end Stages

theorem value (x0 : (⟨S10000x128, .f32⟩ : BufTy).Contents (Elt Ideal)) (x1 : (⟨S2x320000, .i32⟩ : BufTy).Contents (Elt Ideal))
    (x2 : (⟨S10000, .i32⟩ : BufTy).Contents (Elt Ideal)) (x3 : (⟨S256x512, .f32⟩ : BufTy).Contents (Elt Ideal))
    (x4 : (⟨S512, .f32⟩ : BufTy).Contents (Elt Ideal)) (x5 : (⟨S512x128, .f32⟩ : BufTy).Contents (Elt Ideal))
    (x6 : (⟨S128, .f32⟩ : BufTy).Contents (Elt Ideal)) (x7 : (⟨S128x1, .f32⟩ : BufTy).Contents (Elt Ideal))
    (x8 : (⟨S1, .f32⟩ : BufTy).Contents (Elt Ideal)) (sg : Fin 320000 → Fin 512)
    (hseg : val_main_v25 (F := Ideal) x1 x2 = (fun q => BitVec.ofNat 32 (sg (q 0)).val)) :
    val_main_v115 (F := Ideal) x0 x1 x2 x3 x4 x5 x6 x7 x8
      = Cert.Spec.refOut (val_main_v18 (F := Ideal) x0 x1) sg x3 x4 x5 x6 x7 x8 := by
  funext q
  obtain ⟨e, rfl⟩ : ∃ e : Fin 320000, q = ix2 e 0 := ⟨q 0, by
    funext a
    match a with
    | ⟨0, _⟩ => rfl
    | ⟨1, _⟩ => exact Fin.ext (by have h1 : (q 1).val < 1 := (q 1).isLt; show (q 1).val = 0; omega)⟩
  exact v115_eq x0 x1 x2 x3 x4 x5 x6 x7 x8 sg hseg
    (fun e d => Cert.Spec.rh2 (val_main_v18 (F := Ideal) x0 x1) sg x3 x4 x5 x6 e d)
    (Cert.RefL1.h2_value x0 x1 x2 x3 x4 x5 x6 sg hseg) e

end Cert.Ref

end
-- ==== Proof.AlgTop.lean ====
/-
  The kernel's three calls and the reference compute the same numbers.

  Through the 0/1 indicator a per-graph table is read at the edge's graph, and the two cores' shares of an
  indicator-weighted sum add up to the sum over the graph's edges; so the kernel's count, sum-of-squares and (second layer)
  sum tables are the reference's segment sums.  The first layer's sum table is built from the summed features instead:
  over the reals Σ_{e∈g} (Σ_j x_ej w_jk + b_k) = Σ_j (Σ_{e∈g} x_ej) w_jk + n_g b_k.  With the tables identified, each
  normalisation is the reference's (sum of squares minus n·mean² against the summed squared deviations), layer by layer.
-/
import proofs.«408983_j37177236914744_3_alg».proof.Proof.Alg

noncomputable section

open scoped BigOperators

namespace Cert.AlgTop

open Idealize.ShloMosaic Idealize.ShloMosaic.ValueIdx Cert.Spec Cert.Alg

/-! ### The reals among the extended reals: closed under sums and products, and the inclusion commutes with finite sums -/

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_mul {a b : EReal} (ha : IsReal a) (hb : IsReal b) : IsReal (a * b) := by
  obtain ⟨r, rfl⟩ := ha
  obtain ⟨s, rfl⟩ := hb
  exact ⟨r * s, (EReal.coe_mul r s).symm⟩

theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem coe_ite (c : Prop) [Decidable c] (a b : ℝ) :
    ((if c then a else b : ℝ) : EReal) = if c then (a : EReal) else (b : EReal) := by
  split_ifs <;> rfl

theorem isReal_sum {ι : Type} (s : Finset ι) (f : ι → EReal) (h : ∀ i, IsReal (f i)) : IsReal (∑ i ∈ s, f i) := by
  have h' : ∀ i, ∃ r : ℝ, f i = (r : EReal) := h
  choose r hr using h'
  refine ⟨∑ i ∈ s, r i, ?_⟩
  rw [coe_sum]
  exact Finset.sum_congr rfl fun i _ => hr i

/-- A bias vector as the kernel holds it, one row of lanes. -/
abbrev row {n : Nat} (b : (⟨1, ![n]⟩ : Shape).Idx → EReal) : (⟨2, ![1, n]⟩ : Shape).Idx → EReal := fun q => b (ix1 (q 1))

section
variable (x : SEx256.Idx → EReal) (sg : Fin 320000 → Fin 512)
  (w1 : S256x512.Idx → EReal) (b1 : (⟨1, ![512]⟩ : Shape).Idx → EReal)
  (w2 : S512x128.Idx → EReal) (b2 : (⟨1, ![128]⟩ : Shape).Idx → EReal)
  (w3 : S128x1.Idx → EReal) (b3 : (⟨1, ![1]⟩ : Shape).Idx → EReal)

/-- The kernel's first layer with the bias read from its row is the reference's first layer. -/
theorem h1_row (e : Fin 320000) (k : Fin 512) : h1 x w1 (row b1) e k = rh1 x w1 b1 e k := rfl

/-- The first layer of real inputs is real. -/
theorem rh1_real (hx : ∀ i, IsReal (x i)) (hw1 : ∀ i, IsReal (w1 i)) (hb1 : ∀ i, IsReal (b1 i))
    (e : Fin 320000) (k : Fin 512) : IsReal (rh1 x w1 b1 e k) :=
  isReal_add (isReal_sum _ _ fun j => isReal_mul (hx _) (hw1 _)) (hb1 _)

/-! ### The first layer's sums from the summed features: linearity over the reals -/

theorem seg_lin (hx : ∀ i, IsReal (x i)) (hw1 : ∀ i, IsReal (w1 i)) (hb1 : ∀ i, IsReal (b1 i)) (g k : Fin 512) :
    (∑ j : Fin 256, segSum sg (fun e => x (ix2 e j)) g * w1 (ix2 j k)) + rcnt sg g * b1 (ix1 k)
      = segSum sg (fun e => rh1 x w1 b1 e k) g := by
  have hx' : ∀ i, ∃ r : ℝ, x i = (r : EReal) := hx
  have hw1' : ∀ i, ∃ r : ℝ, w1 i = (r : EReal) := hw1
  have hb1' : ∀ i, ∃ r : ℝ, b1 i = (r : EReal) := hb1
  choose xr hxr using hx'
  choose wr hwr using hw1'
  choose br hbr using hb1'
  have hreal : (∑ j : Fin 256, (∑ e : Fin 320000, if sg e = g then xr (ix2 e j) else 0) * wr (ix2 j k))
      + (∑ e : Fin 320000, if sg e = g then (1 : ℝ) else 0) * br (ix1 k)
      = ∑ e : Fin 320000, if sg e = g then (∑ j : Fin 256, xr (ix2 e j) * wr (ix2 j k)) + br (ix1 k) else 0 := by
    simp only [Finset.sum_mul]
    rw [Finset.sum_comm, ← Finset.sum_add_distrib]
    refine Finset.sum_congr rfl fun e _ => ?_
    by_cases h : sg e = g
    · simp only [if_pos h, one_mul]
    · simp only [if_neg h, zero_mul, Finset.sum_const_zero, add_zero]
  have hE := congrArg (fun r : ℝ => (r : EReal)) hreal
  simp only [coe_sum, EReal.coe_add, EReal.coe_mul, coe_ite, EReal.coe_zero, EReal.coe_one] at hE
  unfold rcnt segSum rh1
  simp only [hxr, hwr, hbr, zero_add]
  exact hE

/-! ### The first normalisation, for any tables that hold the segment sums -/

theorem y1_eq (hx : ∀ i, IsReal (x i)) (hw1 : ∀ i, IsReal (w1 i)) (hb1 : ∀ i, IsReal (b1 i))
    (s1 q1 : S512x512.Idx → EReal) (ct : S512x128.Idx → EReal)
    (hS : ∀ g k, s1 (ix2 g k) = segSum sg (fun e => rh1 x w1 b1 e k) g)
    (hQ : ∀ g k, q1 (ix2 g k) = segSum sg (fun e => rh1 x w1 b1 e k * rh1 x w1 b1 e k) g)
    (hC : ∀ g (l : Fin 128), ct (ix2 g l) = rcnt sg g) (e : Fin 320000) (k : Fin 512) :
    y1 x (segOf sg) w1 (row b1) s1 q1 ct e k = ry1 x sg w1 b1 e k := by
  have hn := norm_eq sg (fun e' => rh1 x w1 b1 e' k) (fun e' => rh1_real x w1 b1 hx hw1 hb1 e' k)
    (fun g => s1 (ix2 g k)) (fun g => q1 (ix2 g k)) (fun g => ct (ix2 g (lane k)))
    (fun g => hS g k) (fun g => hQ g k) (fun g => hC g (lane k)) e
  beta_reduce at hn
  unfold y1 var1 mean1 nu1 n1 ry1
  simp only [gat_segOf, h1_row]
  exact hn

/-- The second layer, the kernel's from its tables and the reference's. -/
theorem h2_eq (hx : ∀ i, IsReal (x i)) (hw1 : ∀ i, IsReal (w1 i)) (hb1 : ∀ i, IsReal (b1 i))
    (s1 q1 : S512x512.Idx → EReal) (ct : S512x128.Idx → EReal)
    (hS : ∀ g k, s1 (ix2 g k) = segSum sg (fun e => rh1 x w1 b1 e k) g)
    (hQ : ∀ g k, q1 (ix2 g k) = segSum sg (fun e => rh1 x w1 b1 e k * rh1 x w1 b1 e k) g)
    (hC : ∀ g (l : Fin 128), ct (ix2 g l) = rcnt sg g) (e : Fin 320000) (d : Fin 128) :
    h2 x (segOf sg) w1 (row b1) w2 (row b2) s1 q1 ct e d = rh2 x sg w1 b1 w2 b2 e d := by
  have hy : ∀ k, y1 x (segOf sg) w1 (row b1) s1 q1 ct e k = ry1 x sg w1 b1 e k :=
    fun k => y1_eq x sg w1 b1 hx hw1 hb1 s1 q1 ct hS hQ hC e k
  show (∑ k : Fin 512, y1 x (segOf sg) w1 (row b1) s1 q1 ct e k * w2 (ix2 k d)) + b2 (ix1 d)
      = (∑ k : Fin 512, ry1 x sg w1 b1 e k * w2 (ix2 k d)) + b2 (ix1 d)
  simp only [hy]

/-- The second layer of real inputs is real. -/
theorem rh2_real (hx : ∀ i, IsReal (x i)) (hw1 : ∀ i, IsReal (w1 i)) (hb1 : ∀ i, IsReal (b1 i))
    (hw2 : ∀ i, IsReal (w2 i)) (hb2 : ∀ i, IsReal (b2 i)) (e : Fin 320000) (d : Fin 128) :
    IsReal (rh2 x sg w1 b1 w2 b2 e d) :=
  isReal_add (isReal_sum _ _ fun k =>
    isReal_mul (rnorm_real sg (fun e' => rh1 x w1 b1 e' k) (fun e' => rh1_real x w1 b1 hx hw1 hb1 e' k) e) (hw2 _)) (hb2 _)

/-! ### The second normalisation, for any cache and tables that hold the second layer and its segment sums -/

theorem y2_eq (hx : ∀ i, IsReal (x i)) (hw1 : ∀ i, IsReal (w1 i)) (hb1 : ∀ i, IsReal (b1 i))
    (hw2 : ∀ i, IsReal (w2 i)) (hb2 : ∀ i, IsReal (b2 i))
    (hc : SEx128.Idx → EReal) (s2 q2 ct : S512x128.Idx → EReal)
    (hH : ∀ e d, hc (ix2 e d) = rh2 x sg w1 b1 w2 b2 e d)
    (hS : ∀ g d, s2 (ix2 g d) = segSum sg (fun e => rh2 x sg w1 b1 w2 b2 e d) g)
    (hQ : ∀ g d, q2 (ix2 g d) = segSum sg (fun e => rh2 x sg w1 b1 w2 b2 e d * rh2 x sg w1 b1 w2 b2 e d) g)
    (hC : ∀ g (l : Fin 128), ct (ix2 g l) = rcnt sg g) (e : Fin 320000) (d : Fin 128) :
    y2 (segOf sg) hc s2 q2 ct e d = ry2 x sg w1 b1 w2 b2 e d := by
  have hn := norm_eq sg (fun e' => rh2 x sg w1 b1 w2 b2 e' d) (fun e' => rh2_real x sg w1 b1 w2 b2 hx hw1 hb1 hw2 hb2 e' d)
    (fun g => s2 (ix2 g d)) (fun g => q2 (ix2 g d)) (fun g => ct (ix2 g d))
    (fun g => hS g d) (fun g => hQ g d) (fun g => hC g d) e
  beta_reduce at hn
  unfold y2 var2 mean2 nuh nh ry2
  simp only [gat_segOf, hH]
  exact hn

/-! ### The kernel's own tables -/

/-- The counts: the two cores' shares of the indicator's sum. -/
def ctK : S512x128.Idx → EReal := comb (r0_cnt (segOf sg))
/-- The first layer's sums, from the summed features and the counts. -/
def s1K : S512x512.Idx → EReal := s1tab (comb (r0_sumx x (segOf sg))) (ctK sg) w1 b1
/-- The first layer's sums of squares. -/
def q1K : S512x512.Idx → EReal := comb (r0_sq1 x (segOf sg) w1 (row b1))
/-- The cached second layer. -/
def hcK : SEx128.Idx → EReal := r1_h2 x (segOf sg) w1 (row b1) w2 (row b2) (s1K x sg w1 b1) (q1K x sg w1 b1) (ctK sg)
/-- The second layer's sums. -/
def s2K : S512x128.Idx → EReal := comb (r1_sum2 x (segOf sg) w1 (row b1) w2 (row b2) (s1K x sg w1 b1) (q1K x sg w1 b1) (ctK sg))
/-- The second layer's sums of squares. -/
def q2K : S512x128.Idx → EReal := comb (r1_sq2 x (segOf sg) w1 (row b1) w2 (row b2) (s1K x sg w1 b1) (q1K x sg w1 b1) (ctK sg))

theorem kernelOut_tables :
    kernelOut x (segOf sg) w1 (row b1) w2 (row b2) w3 (row b3) w1 b1
      = r2_out (segOf sg) w3 (row b3) (hcK x sg w1 b1 w2 b2) (s2K x sg w1 b1 w2 b2) (q2K x sg w1 b1 w2 b2) (ctK sg) := rfl

/-- The count table holds the graph's edge count in every lane. -/
theorem ctK_eq (g : Fin 512) (l : Fin 128) : ctK sg (ix2 g l) = rcnt sg g :=
  comb_coreSum sg (fun _ => 1) g

/-- The sums-of-squares table holds the segment sums of the squared first layer. -/
theorem q1K_eq (g k : Fin 512) :
    q1K x sg w1 b1 (ix2 g k) = segSum sg (fun e => rh1 x w1 b1 e k * rh1 x w1 b1 e k) g :=
  comb_coreSum sg (fun e => rh1 x w1 b1 e k * rh1 x w1 b1 e k) g

/-- The sums table holds the segment sums of the first layer. -/
theorem s1K_eq (hx : ∀ i, IsReal (x i)) (hw1 : ∀ i, IsReal (w1 i)) (hb1 : ∀ i, IsReal (b1 i)) (g k : Fin 512) :
    s1K x sg w1 b1 (ix2 g k) = segSum sg (fun e => rh1 x w1 b1 e k) g := by
  have hX : ∀ j : Fin 256, comb (r0_sumx x (segOf sg)) (ix2 g j) = segSum sg (fun e => x (ix2 e j)) g :=
    fun j => comb_coreSum sg (fun e => x (ix2 e j)) g
  show (∑ j : Fin 256, comb (r0_sumx x (segOf sg)) (ix2 g j) * w1 (ix2 j k)) + ctK sg (ix2 g 0) * b1 (ix1 k) = _
  rw [ctK_eq sg g 0]
  simp only [hX]
  exact seg_lin x sg w1 b1 hx hw1 hb1 g k

/-- The cache holds the reference's second layer. -/
theorem hcK_eq (hx : ∀ i, IsReal (x i)) (hw1 : ∀ i, IsReal (w1 i)) (hb1 : ∀ i, IsReal (b1 i))
    (e : Fin 320000) (d : Fin 128) : hcK x sg w1 b1 w2 b2 (ix2 e d) = rh2 x sg w1 b1 w2 b2 e d := by
  have h := h2_eq x sg w1 b1 w2 b2 hx hw1 hb1 (s1K x sg w1 b1) (q1K x sg w1 b1) (ctK sg)
    (s1K_eq x sg w1 b1 hx hw1 hb1) (q1K_eq x sg w1 b1) (ctK_eq sg) e d
  unfold hcK r1_h2
  exact h

/-- The kernel's second layer as a function of the edge is the reference's. -/
theorem h2K_fun (hx : ∀ i, IsReal (x i)) (hw1 : ∀ i, IsReal (w1 i)) (hb1 : ∀ i, IsReal (b1 i)) (d : Fin 128) :
    (fun e => h2 x (segOf sg) w1 (row b1) w2 (row b2) (s1K x sg w1 b1) (q1K x sg w1 b1) (ctK sg) e d)
      = fun e => rh2 x sg w1 b1 w2 b2 e d :=
  funext fun e => h2_eq x sg w1 b1 w2 b2 hx hw1 hb1 (s1K x sg w1 b1) (q1K x sg w1 b1) (ctK sg)
    (s1K_eq x sg w1 b1 hx hw1 hb1) (q1K_eq x sg w1 b1) (ctK_eq sg) e d

/-- The second sums table holds the segment sums of the second layer. -/
theorem s2K_eq (hx : ∀ i, IsReal (x i)) (hw1 : ∀ i, IsReal (w1 i)) (hb1 : ∀ i, IsReal (b1 i)) (g : Fin 512) (d : Fin 128) :
    s2K x sg w1 b1 w2 b2 (ix2 g d) = segSum sg (fun e => rh2 x sg w1 b1 w2 b2 e d) g := by
  rw [← h2K_fun x sg w1 b1 w2 b2 hx hw1 hb1 d]
  exact comb_coreSum sg
    (fun e => h2 x (segOf sg) w1 (row b1) w2 (row b2) (s1K x sg w1 b1) (q1K x sg w1 b1) (ctK sg) e d) g

/-- The second sums-of-squares table holds the segment sums of the squared second layer. -/
theorem q2K_eq (hx : ∀ i, IsReal (x i)) (hw1 : ∀ i, IsReal (w1 i)) (hb1 : ∀ i, IsReal (b1 i)) (g : Fin 512) (d : Fin 128) :
    q2K x sg w1 b1 w2 b2 (ix2 g d)
      = segSum sg (fun e => rh2 x sg w1 b1 w2 b2 e d * rh2 x sg w1 b1 w2 b2 e d) g := by
  have hf : (fun e => h2 x (segOf sg) w1 (row b1) w2 (row b2) (s1K x sg w1 b1) (q1K x sg w1 b1) (ctK sg) e d
        * h2 x (segOf sg) w1 (row b1) w2 (row b2) (s1K x sg w1 b1) (q1K x sg w1 b1) (ctK sg) e d)
      = fun e => rh2 x sg w1 b1 w2 b2 e d * rh2 x sg w1 b1 w2 b2 e d :=
    funext fun e => by
      rw [h2_eq x sg w1 b1 w2 b2 hx hw1 hb1 (s1K x sg w1 b1) (q1K x sg w1 b1) (ctK sg)
        (s1K_eq x sg w1 b1 hx hw1 hb1) (q1K_eq x sg w1 b1) (ctK_eq sg) e d]
  rw [← hf]
  exact comb_coreSum sg
    (fun e => h2 x (segOf sg) w1 (row b1) w2 (row b2) (s1K x sg w1 b1) (q1K x sg w1 b1) (ctK sg) e d
      * h2 x (segOf sg) w1 (row b1) w2 (row b2) (s1K x sg w1 b1) (q1K x sg w1 b1) (ctK sg) e d) g

/-- The whole kernel against the whole reference, the biases read from their rows. -/
theorem main (hx : ∀ i, IsReal (x i)) (hw1 : ∀ i, IsReal (w1 i)) (hb1 : ∀ i, IsReal (b1 i))
    (hw2 : ∀ i, IsReal (w2 i)) (hb2 : ∀ i, IsReal (b2 i)) :
    kernelOut x (segOf sg) w1 (row b1) w2 (row b2) w3 (row b3) w1 b1 = refOut x sg w1 b1 w2 b2 w3 b3 := by
  funext q
  rw [kernelOut_tables]
  have hy : ∀ d, y2 (segOf sg) (hcK x sg w1 b1 w2 b2) (s2K x sg w1 b1 w2 b2) (q2K x sg w1 b1 w2 b2) (ctK sg) (q 0) d
      = ry2 x sg w1 b1 w2 b2 (q 0) d :=
    fun d => y2_eq x sg w1 b1 w2 b2 hx hw1 hb1 hw2 hb2 _ _ _ _
      (hcK_eq x sg w1 b1 w2 b2 hx hw1 hb1) (s2K_eq x sg w1 b1 w2 b2 hx hw1 hb1) (q2K_eq x sg w1 b1 w2 b2 hx hw1 hb1)
      (ctK_eq sg) (q 0) d
  show (∑ d : Fin 128, y2 (segOf sg) (hcK x sg w1 b1 w2 b2) (s2K x sg w1 b1 w2 b2) (q2K x sg w1 b1 w2 b2) (ctK sg) (q 0) d
        * w3 (ix2 d 0)) + b3 (ix1 0)
      = (∑ d : Fin 128, ry2 x sg w1 b1 w2 b2 (q 0) d * w3 (ix2 d 0)) + b3 (ix1 0)
  simp only [hy]

end

/-- THE KERNEL'S RESULT IS THE REFERENCE'S, for real inputs and segment words that are the graphs' numbers. -/
theorem kernelOut_eq_refOut (x : Cert.Spec.SEx256.Idx → EReal) (sg : Fin 320000 → Fin 512)
    (w1 : Cert.Spec.S256x512.Idx → EReal) (b1 : (⟨1, ![512]⟩ : Shape).Idx → EReal) (w2 : Cert.Spec.S512x128.Idx → EReal) (b2 : (⟨1, ![128]⟩ : Shape).Idx → EReal)
    (w3 : Cert.Spec.S128x1.Idx → EReal) (b3 : (⟨1, ![1]⟩ : Shape).Idx → EReal)
    (hx : ∀ i, Cert.Alg.IsReal (x i)) (hw1 : ∀ i, Cert.Alg.IsReal (w1 i)) (hb1 : ∀ i, Cert.Alg.IsReal (b1 i)) (hw2 : ∀ i, Cert.Alg.IsReal (w2 i)) (hb2 : ∀ i, Cert.Alg.IsReal (b2 i)) (hw3 : ∀ i, Cert.Alg.IsReal (w3 i)) (hb3 : ∀ i, Cert.Alg.IsReal (b3 i)) :
    Cert.Spec.kernelOut x (Cert.Alg.segOf sg) w1 (fun q => b1 (ix1 (q 1))) w2 (fun q => b2 (ix1 (q 1))) w3 (fun q => b3 (ix1 (q 1))) w1 b1
      = Cert.Spec.refOut x sg w1 b1 w2 b2 w3 b3 :=
  main x sg w1 b1 w2 b2 w3 b3 hx hw1 hb1 hw2 hb2

end Cert.AlgTop

end
-- ==== Proof.lean ====
/-
  The certificate's five claims.  The three programs run: the two kernels by their generated launch proofs, the
  reference by its generated run.  The one format round trip the idealization removed is the rule's own statement.
  The values: the idealized kernel ends with its result buffer at the composed function of the feature rows and
  segment numbers its first call finds (three calls, the two cores' shares added between them); the reference ends at its
  own formula of the same rows and numbers; under the precondition — real data, endpoints that are node numbers,
  graph numbers below 512 — the two start from the same rows and numbers, and the kernel's sums-of-squares variance
  is the reference's summed squared deviations, so the results are equal entry by entry.
-/
import proofs.«408983_j37177236914744_3_alg».proof.Defs
import proofs.«408983_j37177236914744_3_alg».proof.Proof.Gen.Kernel
import proofs.«408983_j37177236914744_3_alg».proof.Proof.Gen.Kernel.Skeleton
import proofs.«408983_j37177236914744_3_alg».proof.Proof.Gen.Kernel.Launch
import proofs.«408983_j37177236914744_3_alg».proof.Proof.Gen.Kernel.Points
import proofs.«408983_j37177236914744_3_alg».proof.Proof.Gen.Kernel.Frame
import proofs.«408983_j37177236914744_3_alg».proof.Proof.Gen.KernelIdeal
import proofs.«408983_j37177236914744_3_alg».proof.Proof.Gen.KernelIdeal.Skeleton
import proofs.«408983_j37177236914744_3_alg».proof.Proof.Gen.KernelIdeal.Launch
import proofs.«408983_j37177236914744_3_alg».proof.Proof.Gen.KernelIdeal.Points
import proofs.«408983_j37177236914744_3_alg».proof.Proof.Gen.KernelIdeal.Frame
import proofs.«408983_j37177236914744_3_alg».proof.Proof.Gen.ReferenceIdeal
import proofs.«408983_j37177236914744_3_alg».proof.Proof.Gen.ReferenceIdeal.Run
import proofs.«408983_j37177236914744_3_alg».proof.Proof.Gen.ReferenceIdeal.Read
import proofs.«408983_j37177236914744_3_alg».proof.Proof.Gen.Pre_finite_inputs
import proofs.«408983_j37177236914744_3_alg».proof.Proof.KRun
import proofs.«408983_j37177236914744_3_alg».proof.Proof.Chain
import proofs.«408983_j37177236914744_3_alg».proof.Proof.Prelude
import proofs.«408983_j37177236914744_3_alg».proof.Proof.Ref
import proofs.«408983_j37177236914744_3_alg».proof.Proof.AlgTop
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The removed widening of a narrowed value is the identity on the extended reals. -/
theorem preserves : Cert.preserves_Kernel_KernelIdeal :=
  IdealRules.truncf_extf.statement _ .f32 .bf16

/-- Both idealized programs end with the same result. -/
theorem algebraic : Cert.algebraic_KernelIdeal_ReferenceIdeal := by
  intro m ρ m' ρ' hpre hagree
  refine ⟨fun c => Cert.KernelIdeal.Gen.W10 m ρ c (Proc.devRef .tc Cert.KernelIdeal.main_v30), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  obtain ⟨sg, hseg, hseg', hx, hxr, hw1, hb1, hw2, hb2, hw3, hb3, r3, r4, r5, r6, r7, r8⟩ :=
    Cert.Prelude.kernel_side m ρ hpre c
  rw [Cert.ReferenceIdeal.Read.val_main_v115_eq, h0, h1, h2, h3, h4, h5, h6, h7, h8]
  show _ = Cert.KernelIdeal.Gen.W10 m ρ c (Proc.devRef .tc Cert.KernelIdeal.main_v30)
  rw [Cert.KernelIdeal.Chain.value m ρ c, hseg, hw1, hb1, hw2, hb2, hw3, hb3, hx,
    Cert.Ref.value _ _ _ _ _ _ _ _ _ sg hseg']
  exact (Cert.AlgTop.kernelOut_eq_refOut _ sg _ _ _ _ _ _ (hx ▸ hxr) r3 r4 r5 r6 r7 r8).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
